-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3 : Shape := ⟨1, ![3]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3 : S_.BroadcastsInDim S3 (![] : Fin 0 → Fin S3.rank)
  reducesTo_S3_S_d0 : S3.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x800000 32) (main_arg13 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 4294917296#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg1
  let main_v64 : IVec S800000 32 := shapeCast S800000 main_v63 shapeCasts_S1x800000_S800000
  let main_c_23 : IVec S_ 32 := constantI S_ 32 50000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_v58 main_v68

def fn_part2 {F : FTy → Type} [FloatOps F] (main_arg1 : IVec S2x800000 32) (main_arg9 : FVec F S3x64 .f32) (main_arg10 : FVec F S3x64 .f32) (main_arg11 : FVec F S3x64 .f32) (main_arg12 : FVec F S64x10 .f32) (main_arg13 : FVec F S10 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S64x10 .f32 := Host.absf main_arg12
  let main_cst_18 : FVec F S_ .f32 := constant S_ .f32 0x7F800000#32
  let main_v50 : FVec F S64x10 .f32 := broadcastInDim S64x10 ![] bcast_S_S64x10 main_cst_18
  fn_part3 (F := F) main_arg1 main_arg13 main_v48 main_v49 main_v50

def fn_part1 {F : FTy → Type} [FloatOps F] (main_arg1 : IVec S2x800000 32) (main_arg6 : FVec F S3x64x64 .f32) (main_arg7 : FVec F S3x64 .f32) (main_arg8 : FVec F S3x64x64 .f32) (main_arg9 : FVec F S3x64 .f32) (main_arg10 : FVec F S3x64 .f32) (main_arg11 : FVec F S3x64 .f32) (main_arg12 : FVec F S64x10 .f32) (main_arg13 : FVec F S10 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S3 .f32) (main_arg6 : FVec F S3x64x64 .f32) (main_arg7 : FVec F S3x64 .f32) (main_arg8 : FVec F S3x64x64 .f32) (main_arg9 : FVec F S3x64 .f32) (main_arg10 : FVec F S3x64 .f32) (main_arg11 : FVec F S3x64 .f32) (main_arg12 : FVec F S64x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3 .f32 := Host.absf main_arg5
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg1 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3 : Shape := ⟨1, ![3]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S50000x64 : Shape := ⟨2, ![50000, 64]⟩
abbrev S10000x128 : Shape := ⟨2, ![10000, 128]⟩
abbrev S10000x64 : Shape := ⟨2, ![10000, 64]⟩
abbrev S1x64 : Shape := ⟨2, ![1, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64x64 : Shape := ⟨3, ![1, 64, 64]⟩
abbrev S64x64 : Shape := ⟨2, ![64, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 228
  | .vmem => 64
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S3, .f32⟩
  | 6 => ⟨S3x64x64, .f32⟩
  | 7 => ⟨S3x64, .f32⟩
  | 8 => ⟨S3x64x64, .f32⟩
  | 9 => ⟨S3x64, .f32⟩
  | 10 => ⟨S3x64, .f32⟩
  | 11 => ⟨S3x64, .f32⟩
  | 12 => ⟨S64x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S50000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x64, .f32⟩
  | 38 => ⟨S800000x64, .i1⟩
  | 39 => ⟨S_, .f32⟩
  | 40 => ⟨S800000x64, .f32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S1, .f32⟩
  | 47 => ⟨S_, .f32⟩
  | 48 => ⟨S_, .f32⟩
  | 49 => ⟨S_, .f32⟩
  | 50 => ⟨S50000x64, .f32⟩
  | 51 => ⟨S50000x64, .f32⟩
  | 52 => ⟨S50000x64, .f32⟩
  | 53 => ⟨S1x64x64, .f32⟩
  | 54 => ⟨S64x64, .f32⟩
  | 55 => ⟨S1x64, .f32⟩
  | 56 => ⟨S64, .f32⟩
  | 57 => ⟨S1x64x64, .f32⟩
  | 58 => ⟨S64x64, .f32⟩
  | 59 => ⟨S1x64, .f32⟩
  | 60 => ⟨S64, .f32⟩
  | 61 => ⟨S50000x64, .f32⟩
  | 62 => ⟨S1x64, .f32⟩
  | 63 => ⟨S1x64, .f32⟩
  | 64 => ⟨S64, .f32⟩
  | 65 => ⟨S_, .f32⟩
  | 66 => ⟨S64, .f32⟩
  | 67 => ⟨S64, .f32⟩
  | 68 => ⟨S64, .f32⟩
  | 69 => ⟨S_, .f32⟩
  | 70 => ⟨S64, .f32⟩
  | 71 => ⟨S64, .f32⟩
  | 72 => ⟨S64, .f32⟩
  | 73 => ⟨S64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S1x64, .f32⟩
  | 80 => ⟨S1x64, .f32⟩
  | 81 => ⟨S1x64, .f32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S1, .i32⟩
  | 92 => ⟨S_, .i32⟩
  | 93 => ⟨S800000x1, .i32⟩
  | 94 => ⟨S800000x1, .i1⟩
  | 95 => ⟨S1x1, .i32⟩
  | 96 => ⟨S800000x1, .i32⟩
  | 97 => ⟨S800000x1, .i1⟩
  | 98 => ⟨S800000x1, .i1⟩
  | 99 => ⟨S_, .i1⟩
  | 100 => ⟨S800000, .i1⟩
  | 101 => ⟨S800000x64, .f32⟩
  | 102 => ⟨S800000x64, .i1⟩
  | 103 => ⟨S_, .f32⟩
  | 104 => ⟨S800000x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S1, .f32⟩
  | 111 => ⟨S_, .f32⟩
  | 112 => ⟨S_, .f32⟩
  | 113 => ⟨S_, .f32⟩
  | 114 => ⟨S50000x64, .f32⟩
  | 115 => ⟨S50000x64, .f32⟩
  | 116 => ⟨S50000x64, .f32⟩
  | 117 => ⟨S1x64x64, .f32⟩
  | 118 => ⟨S64x64, .f32⟩
  | 119 => ⟨S1x64, .f32⟩
  | 120 => ⟨S64, .f32⟩
  | 121 => ⟨S1x64x64, .f32⟩
  | 122 => ⟨S64x64, .f32⟩
  | 123 => ⟨S1x64, .f32⟩
  | 124 => ⟨S64, .f32⟩
  | 125 => ⟨S50000x64, .f32⟩
  | 126 => ⟨S1x64, .f32⟩
  | 127 => ⟨S1x64, .f32⟩
  | _ => ⟨S50000x128, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S_, .f32⟩
  | 6 => ⟨S64, .f32⟩
  | 7 => ⟨S64, .f32⟩
  | 8 => ⟨S64, .f32⟩
  | 9 => ⟨S64, .f32⟩
  | 10 => ⟨S1x64, .f32⟩
  | 11 => ⟨S64, .f32⟩
  | 12 => ⟨S1x64, .f32⟩
  | 13 => ⟨S64, .f32⟩
  | 14 => ⟨S1x64, .f32⟩
  | 15 => ⟨S1x64, .f32⟩
  | 16 => ⟨S1x64, .f32⟩
  | 17 => ⟨S1x64, .f32⟩
  | 18 => ⟨S50000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x64, .f32⟩
  | 38 => ⟨S800000x64, .i1⟩
  | 39 => ⟨S_, .f32⟩
  | 40 => ⟨S800000x64, .f32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S1, .f32⟩
  | 47 => ⟨S_, .f32⟩
  | 48 => ⟨S_, .f32⟩
  | 49 => ⟨S_, .f32⟩
  | 50 => ⟨S50000x64, .f32⟩
  | 51 => ⟨S50000x64, .f32⟩
  | 52 => ⟨S50000x64, .f32⟩
  | 53 => ⟨S1x64x64, .f32⟩
  | 54 => ⟨S64x64, .f32⟩
  | 55 => ⟨S1x64, .f32⟩
  | 56 => ⟨S64, .f32⟩
  | 57 => ⟨S1x64x64, .f32⟩
  | 58 => ⟨S64x64, .f32⟩
  | 59 => ⟨S1x64, .f32⟩
  | 60 => ⟨S64, .f32⟩
  | 61 => ⟨S50000x64, .f32⟩
  | 62 => ⟨S1x64, .f32⟩
  | 63 => ⟨S1x64, .f32⟩
  | 64 => ⟨S64, .f32⟩
  | 65 => ⟨S_, .f32⟩
  | 66 => ⟨S64, .f32⟩
  | 67 => ⟨S64, .f32⟩
  | 68 => ⟨S64, .f32⟩
  | 69 => ⟨S_, .f32⟩
  | 70 => ⟨S64, .f32⟩
  | 71 => ⟨S64, .f32⟩
  | 72 => ⟨S64, .f32⟩
  | 73 => ⟨S64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S1x64, .f32⟩
  | 80 => ⟨S1x64, .f32⟩
  | 81 => ⟨S1x64, .f32⟩
  | 82 => ⟨S50000x64, .f32⟩
  | 83 => ⟨S_, .f32⟩
  | 84 => ⟨S512x64, .f32⟩
  | 85 => ⟨S50000x1, .i32⟩
  | 86 => ⟨S512x64, .f32⟩
  | 87 => ⟨S_, .f32⟩
  | 88 => ⟨S50000, .f32⟩
  | 89 => ⟨S_, .f32⟩
  | 90 => ⟨S512, .f32⟩
  | 91 => ⟨S50000x1, .i32⟩
  | 92 => ⟨S512, .f32⟩
  | 93 => ⟨S_, .f32⟩
  | 94 => ⟨S512, .f32⟩
  | 95 => ⟨S512, .f32⟩
  | 96 => ⟨S512x1, .f32⟩
  | 97 => ⟨S512x64, .f32⟩
  | 98 => ⟨S512x64, .f32⟩
  | 99 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S64, .f32⟩
  | .local _ .vmem, ⟨46, _⟩ => ⟨S64x64, .f32⟩
  | .local _ .vmem, ⟨47, _⟩ => ⟨S64, .f32⟩
  | .local _ .vmem, ⟨48, _⟩ => ⟨S10000x64, .f32⟩
  | .local _ .vmem, ⟨49, _⟩ => ⟨S10000x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S512x64, .f32⟩
  | .local _ .vmem, ⟨61, _⟩ => ⟨S64x10, .f32⟩
  | .local _ .vmem, ⟨62, _⟩ => ⟨S10, .f32⟩
  | .local _ .vmem, ⟨63, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v5 : Ref sig .tc := ⟨.hbm, 41, rfl⟩
abbrev main_cst : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_0 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23_0 : Ref sig .tc := ⟨.hbm, 61, rfl⟩
abbrev main_v23_1 : Ref sig .tc := ⟨.hbm, 62, rfl⟩
abbrev main_v23_2 : Ref sig .tc := ⟨.hbm, 63, rfl⟩
abbrev main_v24 : Ref sig .tc := ⟨.hbm, 64, rfl⟩
abbrev main_cst_1 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_c_1 : Ref sig .tc := ⟨.hbm, 91, rfl⟩
abbrev main_call1_c_2 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_3 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_call1_cst : Ref sig .tc := ⟨.hbm, 103, rfl⟩
abbrev main_call1_v15 : Ref sig .tc := ⟨.hbm, 104, rfl⟩
abbrev main_v41 : Ref sig .tc := ⟨.hbm, 105, rfl⟩
abbrev main_cst_3 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_4 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59_0 : Ref sig .tc := ⟨.hbm, 125, rfl⟩
abbrev main_v59_1 : Ref sig .tc := ⟨.hbm, 126, rfl⟩
abbrev main_v59_2 : Ref sig .tc := ⟨.hbm, 127, rfl⟩
abbrev main_v60 : Ref sig .tc := ⟨.hbm, 128, rfl⟩
abbrev main_cst_5 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_cst_6 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_call2_c : Ref sig .tc := ⟨.hbm, 147, rfl⟩
abbrev main_call2_v0 : Ref sig .tc := ⟨.hbm, 148, rfl⟩
abbrev main_call2_v1 : Ref sig .tc := ⟨.hbm, 149, rfl⟩
abbrev main_call2_c_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_c_1 : Ref sig .tc := ⟨.hbm, 155, rfl⟩
abbrev main_call2_c_2 : Ref sig .tc := ⟨.hbm, 156, rfl⟩
abbrev main_call2_v6 : Ref sig .tc := ⟨.hbm, 157, rfl⟩
abbrev main_call2_v7 : Ref sig .tc := ⟨.hbm, 158, rfl⟩
abbrev main_call2_v8 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_c_3 : Ref sig .tc := ⟨.hbm, 163, rfl⟩
abbrev main_call2_v12 : Ref sig .tc := ⟨.hbm, 164, rfl⟩
abbrev main_call2_v13 : Ref sig .tc := ⟨.hbm, 165, rfl⟩
abbrev main_call2_v14 : Ref sig .tc := ⟨.hbm, 166, rfl⟩
abbrev main_call2_cst : Ref sig .tc := ⟨.hbm, 167, rfl⟩
abbrev main_call2_v15 : Ref sig .tc := ⟨.hbm, 168, rfl⟩
abbrev main_v77 : Ref sig .tc := ⟨.hbm, 169, rfl⟩
abbrev main_cst_7 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_cst_8 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95_0 : Ref sig .tc := ⟨.hbm, 189, rfl⟩
abbrev main_v95_1 : Ref sig .tc := ⟨.hbm, 190, rfl⟩
abbrev main_v95_2 : Ref sig .tc := ⟨.hbm, 191, rfl⟩
abbrev main_v96 : Ref sig .tc := ⟨.hbm, 192, rfl⟩
abbrev main_cst_9 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_cst_10 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_cst_11 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_cst_12 : Ref sig .tc := ⟨.hbm, 215, rfl⟩
abbrev main_v116 : Ref sig .tc := ⟨.hbm, 216, rfl⟩
abbrev main_cst_13 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_cst_14 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg7_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg7_0 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem7_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem7_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem7_0 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem1_0 : DmaSem sig := 61
abbrev cc7_sem2_0 : DmaSem sig := 62
abbrev cc7_sem3_0 : DmaSem sig := 63

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  slices_S3_S1_0 : S3.Slices ![0] S1
  shapeCasts_S1_S_ : S1.ShapeCasts S_
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  shapeCasts_S1x64_S1x64 : S1x64.ShapeCasts S1x64
  reduces_S10000x64_S64 : S10000x64.Reduces [0] S64
  bcast_S_S64 : S_.BroadcastsInDim S64 (![] : Fin 0 → Fin S64.rank)
  slices_S3_S1_1 : S3.Slices ![1] S1
  slices_S3x64x64_S1x64x64_1_0_0 : S3x64x64.Slices ![1, 0, 0] S1x64x64
  slices_S3x64_S1x64_1_0 : S3x64.Slices ![1, 0] S1x64
  slices_S3_S1_2 : S3.Slices ![2] S1
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S50000x64.size a
  hwx4_5 : ∀ i : grid4.Coords, EltTy.bits .f32 = 32 ∨ (Rect.block (s := S50000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S50000x64.size a
  hwx5_5 : ∀ i : grid5.Coords, EltTy.bits .f32 = 32 ∨ (Rect.block (s := S50000x64) S10000x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S50000x64.size a
  hwx6_5 : ∀ i : grid6.Coords, EltTy.bits .f32 = 32 ∨ (Rect.block (s := S50000x64) S10000x64.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x64.size a ≤ S512x64.size a
  hwx7_0 : ∀ i : grid7.Coords, EltTy.bits .f32 = 32 ∨ (Rect.block (s := S512x64) S512x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x10.size a ≤ S64x10.size a
  hwx7_1 : ∀ i : grid7.Coords, EltTy.bits .f32 = 32 ∨ (Rect.block (s := S64x10) S64x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S10.size a ≤ S10.size a
  hwx7_2 : ∀ i : grid7.Coords, EltTy.bits .f32 = 32 ∨ (Rect.block (s := S10) S10.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x10.size a ≤ S512x10.size a
  hwx7_3 : ∀ i : grid7.Coords, EltTy.bits .f32 = 32 ∨ (Rect.block (s := S512x10) S512x10.size (cc7_transform_3 i) (hinb7_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S10000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S1x64.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23_2) S1x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v23_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59_0) S10000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v59_1) S1x64.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59_2) S1x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v59_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v86) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v95_0) S10000x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v95_1) S1x64.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v95_2) S1x64.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v95_0) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v110) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v124) S512x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg13) S10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v125) S512x10.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3 : Shape := ⟨1, ![3]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S1 : Shape := ⟨1, ![1]⟩
abbrev S1x64x64 : Shape := ⟨3, ![1, 64, 64]⟩
abbrev S64x64 : Shape := ⟨2, ![64, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S3, .f32⟩
  | 6 => ⟨S3x64x64, .f32⟩
  | 7 => ⟨S3x64, .f32⟩
  | 8 => ⟨S3x64x64, .f32⟩
  | 9 => ⟨S3x64, .f32⟩
  | 10 => ⟨S3x64, .f32⟩
  | 11 => ⟨S3x64, .f32⟩
  | 12 => ⟨S64x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S50000x64, .f32⟩
  | 19 => ⟨S1x64, .f32⟩
  | 20 => ⟨S50000x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S1, .f32⟩
  | 36 => ⟨S_, .f32⟩
  | 37 => ⟨S_, .f32⟩
  | 38 => ⟨S_, .f32⟩
  | 39 => ⟨S50000x64, .f32⟩
  | 40 => ⟨S50000x64, .f32⟩
  | 41 => ⟨S50000x64, .f32⟩
  | 42 => ⟨S1x64x64, .f32⟩
  | 43 => ⟨S64x64, .f32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S1x64x64, .f32⟩
  | 54 => ⟨S64x64, .f32⟩
  | 55 => ⟨S50000x64, .f32⟩
  | 56 => ⟨S1x64, .f32⟩
  | 57 => ⟨S64, .f32⟩
  | 58 => ⟨S1x64, .f32⟩
  | 59 => ⟨S50000x64, .f32⟩
  | 60 => ⟨S50000x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S50000x64, .f32⟩
  | 68 => ⟨S50000x64, .f32⟩
  | 69 => ⟨S50000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S_, .f32⟩
  | 79 => ⟨S64, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S1x64, .f32⟩
  | 86 => ⟨S64, .f32⟩
  | 87 => ⟨S1x64, .f32⟩
  | 88 => ⟨S50000x64, .f32⟩
  | 89 => ⟨S50000x64, .f32⟩
  | 90 => ⟨S1x64, .f32⟩
  | 91 => ⟨S64, .f32⟩
  | 92 => ⟨S1x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S1, .f32⟩
  | 112 => ⟨S_, .f32⟩
  | 113 => ⟨S_, .f32⟩
  | 114 => ⟨S_, .f32⟩
  | 115 => ⟨S50000x64, .f32⟩
  | 116 => ⟨S50000x64, .f32⟩
  | 117 => ⟨S50000x64, .f32⟩
  | 118 => ⟨S1x64x64, .f32⟩
  | 119 => ⟨S64x64, .f32⟩
  | 120 => ⟨S50000x64, .f32⟩
  | 121 => ⟨S1x64, .f32⟩
  | 122 => ⟨S64, .f32⟩
  | 123 => ⟨S1x64, .f32⟩
  | 124 => ⟨S50000x64, .f32⟩
  | 125 => ⟨S50000x64, .f32⟩
  | 126 => ⟨S_, .f32⟩
  | 127 => ⟨S50000x64, .f32⟩
  | _ => ⟨S50000x128, .f32⟩

abbrev hbmTy0_1 (i : Nat) : BufTy := match i % 128 with
  | 0 => ⟨S50000x64, .f32⟩
  | 1 => ⟨S1x64x64, .f32⟩
  | 2 => ⟨S64x64, .f32⟩
  | 3 => ⟨S50000x64, .f32⟩
  | 4 => ⟨S1x64, .f32⟩
  | 5 => ⟨S64, .f32⟩
  | 6 => ⟨S1x64, .f32⟩
  | 7 => ⟨S50000x64, .f32⟩
  | 8 => ⟨S50000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S50000x64, .f32⟩
  | 16 => ⟨S50000x64, .f32⟩
  | 17 => ⟨S50000x64, .f32⟩
  | 18 => ⟨S_, .f32⟩
  | 19 => ⟨S64, .f32⟩
  | 20 => ⟨S_, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S_, .f32⟩
  | 27 => ⟨S64, .f32⟩
  | 28 => ⟨S64, .f32⟩
  | 29 => ⟨S64, .f32⟩
  | 30 => ⟨S1x64, .f32⟩
  | 31 => ⟨S50000x64, .f32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S50000x64, .f32⟩
  | 38 => ⟨S1x64, .f32⟩
  | 39 => ⟨S64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S1, .f32⟩
  | 60 => ⟨S_, .f32⟩
  | 61 => ⟨S_, .f32⟩
  | 62 => ⟨S_, .f32⟩
  | 63 => ⟨S50000x64, .f32⟩
  | 64 => ⟨S50000x64, .f32⟩
  | 65 => ⟨S50000x64, .f32⟩
  | 66 => ⟨S1x64x64, .f32⟩
  | 67 => ⟨S64x64, .f32⟩
  | 68 => ⟨S50000x64, .f32⟩
  | 69 => ⟨S1x64, .f32⟩
  | 70 => ⟨S64, .f32⟩
  | 71 => ⟨S1x64, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S1x64x64, .f32⟩
  | 78 => ⟨S64x64, .f32⟩
  | 79 => ⟨S50000x64, .f32⟩
  | 80 => ⟨S1x64, .f32⟩
  | 81 => ⟨S64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S_, .f32⟩
  | 88 => ⟨S64, .f32⟩
  | 89 => ⟨S64, .f32⟩
  | 90 => ⟨S1x64, .f32⟩
  | 91 => ⟨S50000x64, .f32⟩
  | 92 => ⟨S50000x64, .f32⟩
  | 93 => ⟨S50000x64, .f32⟩
  | 94 => ⟨S_, .f32⟩
  | 95 => ⟨S64, .f32⟩
  | 96 => ⟨S_, .f32⟩
  | 97 => ⟨S64, .f32⟩
  | 98 => ⟨S64, .f32⟩
  | 99 => ⟨S1x64, .f32⟩
  | 100 => ⟨S50000x64, .f32⟩
  | 101 => ⟨S50000x64, .f32⟩
  | 102 => ⟨S_, .f32⟩
  | 103 => ⟨S64, .f32⟩
  | 104 => ⟨S64, .f32⟩
  | 105 => ⟨S64, .f32⟩
  | 106 => ⟨S1x64, .f32⟩
  | 107 => ⟨S50000x64, .f32⟩
  | 108 => ⟨S50000x64, .f32⟩
  | 109 => ⟨S1x64, .f32⟩
  | 110 => ⟨S64, .f32⟩
  | 111 => ⟨S1x64, .f32⟩
  | 112 => ⟨S50000x64, .f32⟩
  | 113 => ⟨S50000x64, .f32⟩
  | 114 => ⟨S1x64, .f32⟩
  | 115 => ⟨S64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S512x64, .f32⟩
  | 124 => ⟨S50000x1, .i32⟩
  | 125 => ⟨S512x64, .f32⟩
  | 126 => ⟨S_, .f32⟩
  | 127 => ⟨S50000, .f32⟩
  | _ => ⟨S50000x128, .f32⟩

abbrev hbmTy0_2 (i : Nat) : BufTy := match i % 128 with
  | 0 => ⟨S_, .f32⟩
  | 1 => ⟨S512, .f32⟩
  | 2 => ⟨S50000x1, .i32⟩
  | 3 => ⟨S512, .f32⟩
  | 4 => ⟨S_, .f32⟩
  | 5 => ⟨S512, .f32⟩
  | 6 => ⟨S512, .f32⟩
  | 7 => ⟨S512x1, .f32⟩
  | 8 => ⟨S512x64, .f32⟩
  | 9 => ⟨S512x64, .f32⟩
  | 10 => ⟨S512x10, .f32⟩
  | 11 => ⟨S1x10, .f32⟩
  | 12 => ⟨S512x10, .f32⟩
  | 13 => ⟨S512x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_8 : Ref sig .tc := ⟨.hbm, 95, rfl⟩
abbrev main_v71 : Ref sig .tc := ⟨.hbm, 96, rfl⟩
abbrev main_v72 : Ref sig .tc := ⟨.hbm, 97, rfl⟩
abbrev main_c_9 : Ref sig .tc := ⟨.hbm, 98, rfl⟩
abbrev main_v73 : Ref sig .tc := ⟨.hbm, 99, rfl⟩
abbrev main_v74 : Ref sig .tc := ⟨.hbm, 100, rfl⟩
abbrev main_c_10 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_13 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_16 : Ref sig .tc := ⟨.hbm, 146, rfl⟩
abbrev main_v114 : Ref sig .tc := ⟨.hbm, 147, rfl⟩
abbrev main_cst_17 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_18 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_19 : Ref sig .tc := ⟨.hbm, 171, rfl⟩
abbrev main_v136 : Ref sig .tc := ⟨.hbm, 172, rfl⟩
abbrev main_v137 : Ref sig .tc := ⟨.hbm, 173, rfl⟩
abbrev main_c_20 : Ref sig .tc := ⟨.hbm, 174, rfl⟩
abbrev main_v138 : Ref sig .tc := ⟨.hbm, 175, rfl⟩
abbrev main_v139 : Ref sig .tc := ⟨.hbm, 176, rfl⟩
abbrev main_c_21 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_22 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_23 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_24 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_25 : Ref sig .tc := ⟨.hbm, 213, rfl⟩
abbrev main_v172 : Ref sig .tc := ⟨.hbm, 214, rfl⟩
abbrev main_cst_26 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_27 : Ref sig .tc := ⟨.hbm, 222, rfl⟩
abbrev main_v179 : Ref sig .tc := ⟨.hbm, 223, rfl⟩
abbrev main_cst_28 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_29 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_cst_30 : Ref sig .tc := ⟨.hbm, 247, rfl⟩
abbrev main_v201 : Ref sig .tc := ⟨.hbm, 248, rfl⟩
abbrev main_v202 : Ref sig .tc := ⟨.hbm, 249, rfl⟩
abbrev main_cst_31 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_32 : Ref sig .tc := ⟨.hbm, 254, rfl⟩
abbrev main_v206 : Ref sig .tc := ⟨.hbm, 255, rfl⟩
abbrev main_cst_33 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_cst_34 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3_S1_0 : S3.Slices ![0] S1
  shapeCasts_S1_S_ : S1.ShapeCasts S_
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  slices_S3_S1_1 : S3.Slices ![1] S1
  slices_S3x64x64_S1x64x64_1_0_0 : S3x64x64.Slices ![1, 0, 0] S1x64x64
  slices_S3x64_S1x64_1_0 : S3x64.Slices ![1, 0] S1x64
  slices_S3_S1_2 : S3.Slices ![2] S1
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x10_S512x10_1_0_0_1_n_n_wf : DotDims.WF S512x64 S64x10 S512x10 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.Keep.lean ====
/- Which buffers pass unchanged through which segments of the idealized kernel's run: a host stretch leaves alone
   every buffer none of its operations writes, a kernel region every buffer that is not one of its output arrays;
   chained, each argument array still holds at a later boundary what the launch memory held, and an array computed
   at one boundary still holds it at the later boundaries where it is read again. -/
import proofs.«427472_j26645977105018_1_alg».proof.Proof.Gen.KernelIdeal.Frame
import Idealize.ShloMosaic.PureOps.Ideal

set_option maxRecDepth 16384

noncomputable section

namespace Cert.KernelIdeal.Keep

open Idealize.ShloMosaic Idealize.ShloMosaic.TcCoe Idealize.SL.Sem Cert.KernelIdeal Cert.KernelIdeal.Gen

/-- A buffer that no operation of the named host stretch writes holds after it what it held before. -/
macro "keep_host " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

theorem step1_main_arg0 (c : Dev nD) : W1 m ρ c (Proc.devRef .tc main_arg0) = W0 m ρ c (Proc.devRef .tc main_arg0) :=
  by keep_host hostOps0
theorem at1_main_arg0 (c : Dev nD) : W1 m ρ c (Proc.devRef .tc main_arg0) = W0 m ρ c (Proc.devRef .tc main_arg0) :=
  (step1_main_arg0 m ρ c)

theorem step1_main_arg3 (c : Dev nD) : W1 m ρ c (Proc.devRef .tc main_arg3) = W0 m ρ c (Proc.devRef .tc main_arg3) :=
  by keep_host hostOps0
theorem at1_main_arg3 (c : Dev nD) : W1 m ρ c (Proc.devRef .tc main_arg3) = W0 m ρ c (Proc.devRef .tc main_arg3) :=
  (step1_main_arg3 m ρ c)

theorem step1_main_arg4 (c : Dev nD) : W1 m ρ c (Proc.devRef .tc main_arg4) = W0 m ρ c (Proc.devRef .tc main_arg4) :=
  by keep_host hostOps0
theorem at1_main_arg4 (c : Dev nD) : W1 m ρ c (Proc.devRef .tc main_arg4) = W0 m ρ c (Proc.devRef .tc main_arg4) :=
  (step1_main_arg4 m ρ c)

theorem step1_main_arg5 (c : Dev nD) : W1 m ρ c (Proc.devRef .tc main_arg5) = W0 m ρ c (Proc.devRef .tc main_arg5) :=
  by keep_host hostOps0
theorem step2_main_arg5 (c : Dev nD) : W2 m ρ c (Proc.devRef .tc main_arg5) = W1 m ρ c (Proc.devRef .tc main_arg5) :=
  W2_of_ne m ρ c main_arg5 (by decide)
theorem step3_main_arg5 (c : Dev nD) : W3 m ρ c (Proc.devRef .tc main_arg5) = W2 m ρ c (Proc.devRef .tc main_arg5) :=
  by keep_host hostOps1
theorem step4_main_arg5 (c : Dev nD) : W4 m ρ c (Proc.devRef .tc main_arg5) = W3 m ρ c (Proc.devRef .tc main_arg5) :=
  by keep_host hostOps1_1
theorem step5_main_arg5 (c : Dev nD) : W5 m ρ c (Proc.devRef .tc main_arg5) = W4 m ρ c (Proc.devRef .tc main_arg5) :=
  W5_of_ne m ρ c main_arg5 (by decide)
theorem step6_main_arg5 (c : Dev nD) : W6 m ρ c (Proc.devRef .tc main_arg5) = W5 m ρ c (Proc.devRef .tc main_arg5) :=
  by keep_host hostOps2
theorem step7_main_arg5 (c : Dev nD) : W7 m ρ c (Proc.devRef .tc main_arg5) = W6 m ρ c (Proc.devRef .tc main_arg5) :=
  W7_of_ne m ρ c main_arg5 (by decide)
theorem step8_main_arg5 (c : Dev nD) : W8 m ρ c (Proc.devRef .tc main_arg5) = W7 m ρ c (Proc.devRef .tc main_arg5) :=
  by keep_host hostOps3
theorem step9_main_arg5 (c : Dev nD) : W9 m ρ c (Proc.devRef .tc main_arg5) = W8 m ρ c (Proc.devRef .tc main_arg5) :=
  by keep_host hostOps3_1
theorem step10_main_arg5 (c : Dev nD) : W10 m ρ c (Proc.devRef .tc main_arg5) = W9 m ρ c (Proc.devRef .tc main_arg5) :=
  W10_of_ne m ρ c main_arg5 (by decide)
theorem step11_main_arg5 (c : Dev nD) : W11 m ρ c (Proc.devRef .tc main_arg5) = W10 m ρ c (Proc.devRef .tc main_arg5) :=
  by keep_host hostOps4
theorem step12_main_arg5 (c : Dev nD) : W12 m ρ c (Proc.devRef .tc main_arg5) = W11 m ρ c (Proc.devRef .tc main_arg5) :=
  W12_of_ne m ρ c main_arg5 (by decide)
theorem step13_main_arg5 (c : Dev nD) : W13 m ρ c (Proc.devRef .tc main_arg5) = W12 m ρ c (Proc.devRef .tc main_arg5) :=
  by keep_host hostOps5
theorem at1_main_arg5 (c : Dev nD) : W1 m ρ c (Proc.devRef .tc main_arg5) = W0 m ρ c (Proc.devRef .tc main_arg5) :=
  (step1_main_arg5 m ρ c)
theorem at2_main_arg5 (c : Dev nD) : W2 m ρ c (Proc.devRef .tc main_arg5) = W0 m ρ c (Proc.devRef .tc main_arg5) :=
  (step2_main_arg5 m ρ c).trans (at1_main_arg5 m ρ c)
theorem at3_main_arg5 (c : Dev nD) : W3 m ρ c (Proc.devRef .tc main_arg5) = W0 m ρ c (Proc.devRef .tc main_arg5) :=
  (step3_main_arg5 m ρ c).trans (at2_main_arg5 m ρ c)
theorem at4_main_arg5 (c : Dev nD) : W4 m ρ c (Proc.devRef .tc main_arg5) = W0 m ρ c (Proc.devRef .tc main_arg5) :=
  (step4_main_arg5 m ρ c).trans (at3_main_arg5 m ρ c)
theorem at5_main_arg5 (c : Dev nD) : W5 m ρ c (Proc.devRef .tc main_arg5) = W0 m ρ c (Proc.devRef .tc main_arg5) :=
  (step5_main_arg5 m ρ c).trans (at4_main_arg5 m ρ c)
theorem at6_main_arg5 (c : Dev nD) : W6 m ρ c (Proc.devRef .tc main_arg5) = W0 m ρ c (Proc.devRef .tc main_arg5) :=
  (step6_main_arg5 m ρ c).trans (at5_main_arg5 m ρ c)
theorem at7_main_arg5 (c : Dev nD) : W7 m ρ c (Proc.devRef .tc main_arg5) = W0 m ρ c (Proc.devRef .tc main_arg5) :=
  (step7_main_arg5 m ρ c).trans (at6_main_arg5 m ρ c)
theorem at8_main_arg5 (c : Dev nD) : W8 m ρ c (Proc.devRef .tc main_arg5) = W0 m ρ c (Proc.devRef .tc main_arg5) :=
  (step8_main_arg5 m ρ c).trans (at7_main_arg5 m ρ c)
theorem at9_main_arg5 (c : Dev nD) : W9 m ρ c (Proc.devRef .tc main_arg5) = W0 m ρ c (Proc.devRef .tc main_arg5) :=
  (step9_main_arg5 m ρ c).trans (at8_main_arg5 m ρ c)
theorem at10_main_arg5 (c : Dev nD) : W10 m ρ c (Proc.devRef .tc main_arg5) = W0 m ρ c (Proc.devRef .tc main_arg5) :=
  (step10_main_arg5 m ρ c).trans (at9_main_arg5 m ρ c)
theorem at11_main_arg5 (c : Dev nD) : W11 m ρ c (Proc.devRef .tc main_arg5) = W0 m ρ c (Proc.devRef .tc main_arg5) :=
  (step11_main_arg5 m ρ c).trans (at10_main_arg5 m ρ c)
theorem at12_main_arg5 (c : Dev nD) : W12 m ρ c (Proc.devRef .tc main_arg5) = W0 m ρ c (Proc.devRef .tc main_arg5) :=
  (step12_main_arg5 m ρ c).trans (at11_main_arg5 m ρ c)
theorem at13_main_arg5 (c : Dev nD) : W13 m ρ c (Proc.devRef .tc main_arg5) = W0 m ρ c (Proc.devRef .tc main_arg5) :=
  (step13_main_arg5 m ρ c).trans (at12_main_arg5 m ρ c)

theorem step1_main_arg6 (c : Dev nD) : W1 m ρ c (Proc.devRef .tc main_arg6) = W0 m ρ c (Proc.devRef .tc main_arg6) :=
  by keep_host hostOps0
theorem step2_main_arg6 (c : Dev nD) : W2 m ρ c (Proc.devRef .tc main_arg6) = W1 m ρ c (Proc.devRef .tc main_arg6) :=
  W2_of_ne m ρ c main_arg6 (by decide)
theorem step3_main_arg6 (c : Dev nD) : W3 m ρ c (Proc.devRef .tc main_arg6) = W2 m ρ c (Proc.devRef .tc main_arg6) :=
  by keep_host hostOps1
theorem step4_main_arg6 (c : Dev nD) : W4 m ρ c (Proc.devRef .tc main_arg6) = W3 m ρ c (Proc.devRef .tc main_arg6) :=
  by keep_host hostOps1_1
theorem step5_main_arg6 (c : Dev nD) : W5 m ρ c (Proc.devRef .tc main_arg6) = W4 m ρ c (Proc.devRef .tc main_arg6) :=
  W5_of_ne m ρ c main_arg6 (by decide)
theorem step6_main_arg6 (c : Dev nD) : W6 m ρ c (Proc.devRef .tc main_arg6) = W5 m ρ c (Proc.devRef .tc main_arg6) :=
  by keep_host hostOps2
theorem step7_main_arg6 (c : Dev nD) : W7 m ρ c (Proc.devRef .tc main_arg6) = W6 m ρ c (Proc.devRef .tc main_arg6) :=
  W7_of_ne m ρ c main_arg6 (by decide)
theorem step8_main_arg6 (c : Dev nD) : W8 m ρ c (Proc.devRef .tc main_arg6) = W7 m ρ c (Proc.devRef .tc main_arg6) :=
  by keep_host hostOps3
theorem step9_main_arg6 (c : Dev nD) : W9 m ρ c (Proc.devRef .tc main_arg6) = W8 m ρ c (Proc.devRef .tc main_arg6) :=
  by keep_host hostOps3_1
theorem step10_main_arg6 (c : Dev nD) : W10 m ρ c (Proc.devRef .tc main_arg6) = W9 m ρ c (Proc.devRef .tc main_arg6) :=
  W10_of_ne m ρ c main_arg6 (by decide)
theorem step11_main_arg6 (c : Dev nD) : W11 m ρ c (Proc.devRef .tc main_arg6) = W10 m ρ c (Proc.devRef .tc main_arg6) :=
  by keep_host hostOps4
theorem step12_main_arg6 (c : Dev nD) : W12 m ρ c (Proc.devRef .tc main_arg6) = W11 m ρ c (Proc.devRef .tc main_arg6) :=
  W12_of_ne m ρ c main_arg6 (by decide)
theorem step13_main_arg6 (c : Dev nD) : W13 m ρ c (Proc.devRef .tc main_arg6) = W12 m ρ c (Proc.devRef .tc main_arg6) :=
  by keep_host hostOps5
theorem at1_main_arg6 (c : Dev nD) : W1 m ρ c (Proc.devRef .tc main_arg6) = W0 m ρ c (Proc.devRef .tc main_arg6) :=
  (step1_main_arg6 m ρ c)
theorem at2_main_arg6 (c : Dev nD) : W2 m ρ c (Proc.devRef .tc main_arg6) = W0 m ρ c (Proc.devRef .tc main_arg6) :=
  (step2_main_arg6 m ρ c).trans (at1_main_arg6 m ρ c)
theorem at3_main_arg6 (c : Dev nD) : W3 m ρ c (Proc.devRef .tc main_arg6) = W0 m ρ c (Proc.devRef .tc main_arg6) :=
  (step3_main_arg6 m ρ c).trans (at2_main_arg6 m ρ c)
theorem at4_main_arg6 (c : Dev nD) : W4 m ρ c (Proc.devRef .tc main_arg6) = W0 m ρ c (Proc.devRef .tc main_arg6) :=
  (step4_main_arg6 m ρ c).trans (at3_main_arg6 m ρ c)
theorem at5_main_arg6 (c : Dev nD) : W5 m ρ c (Proc.devRef .tc main_arg6) = W0 m ρ c (Proc.devRef .tc main_arg6) :=
  (step5_main_arg6 m ρ c).trans (at4_main_arg6 m ρ c)
theorem at6_main_arg6 (c : Dev nD) : W6 m ρ c (Proc.devRef .tc main_arg6) = W0 m ρ c (Proc.devRef .tc main_arg6) :=
  (step6_main_arg6 m ρ c).trans (at5_main_arg6 m ρ c)
theorem at7_main_arg6 (c : Dev nD) : W7 m ρ c (Proc.devRef .tc main_arg6) = W0 m ρ c (Proc.devRef .tc main_arg6) :=
  (step7_main_arg6 m ρ c).trans (at6_main_arg6 m ρ c)
theorem at8_main_arg6 (c : Dev nD) : W8 m ρ c (Proc.devRef .tc main_arg6) = W0 m ρ c (Proc.devRef .tc main_arg6) :=
  (step8_main_arg6 m ρ c).trans (at7_main_arg6 m ρ c)
theorem at9_main_arg6 (c : Dev nD) : W9 m ρ c (Proc.devRef .tc main_arg6) = W0 m ρ c (Proc.devRef .tc main_arg6) :=
  (step9_main_arg6 m ρ c).trans (at8_main_arg6 m ρ c)
theorem at10_main_arg6 (c : Dev nD) : W10 m ρ c (Proc.devRef .tc main_arg6) = W0 m ρ c (Proc.devRef .tc main_arg6) :=
  (step10_main_arg6 m ρ c).trans (at9_main_arg6 m ρ c)
theorem at11_main_arg6 (c : Dev nD) : W11 m ρ c (Proc.devRef .tc main_arg6) = W0 m ρ c (Proc.devRef .tc main_arg6) :=
  (step11_main_arg6 m ρ c).trans (at10_main_arg6 m ρ c)
theorem at12_main_arg6 (c : Dev nD) : W12 m ρ c (Proc.devRef .tc main_arg6) = W0 m ρ c (Proc.devRef .tc main_arg6) :=
  (step12_main_arg6 m ρ c).trans (at11_main_arg6 m ρ c)
theorem at13_main_arg6 (c : Dev nD) : W13 m ρ c (Proc.devRef .tc main_arg6) = W0 m ρ c (Proc.devRef .tc main_arg6) :=
  (step13_main_arg6 m ρ c).trans (at12_main_arg6 m ρ c)

theorem step1_main_arg7 (c : Dev nD) : W1 m ρ c (Proc.devRef .tc main_arg7) = W0 m ρ c (Proc.devRef .tc main_arg7) :=
  by keep_host hostOps0
theorem step2_main_arg7 (c : Dev nD) : W2 m ρ c (Proc.devRef .tc main_arg7) = W1 m ρ c (Proc.devRef .tc main_arg7) :=
  W2_of_ne m ρ c main_arg7 (by decide)
theorem step3_main_arg7 (c : Dev nD) : W3 m ρ c (Proc.devRef .tc main_arg7) = W2 m ρ c (Proc.devRef .tc main_arg7) :=
  by keep_host hostOps1
theorem step4_main_arg7 (c : Dev nD) : W4 m ρ c (Proc.devRef .tc main_arg7) = W3 m ρ c (Proc.devRef .tc main_arg7) :=
  by keep_host hostOps1_1
theorem step5_main_arg7 (c : Dev nD) : W5 m ρ c (Proc.devRef .tc main_arg7) = W4 m ρ c (Proc.devRef .tc main_arg7) :=
  W5_of_ne m ρ c main_arg7 (by decide)
theorem step6_main_arg7 (c : Dev nD) : W6 m ρ c (Proc.devRef .tc main_arg7) = W5 m ρ c (Proc.devRef .tc main_arg7) :=
  by keep_host hostOps2
theorem step7_main_arg7 (c : Dev nD) : W7 m ρ c (Proc.devRef .tc main_arg7) = W6 m ρ c (Proc.devRef .tc main_arg7) :=
  W7_of_ne m ρ c main_arg7 (by decide)
theorem step8_main_arg7 (c : Dev nD) : W8 m ρ c (Proc.devRef .tc main_arg7) = W7 m ρ c (Proc.devRef .tc main_arg7) :=
  by keep_host hostOps3
theorem step9_main_arg7 (c : Dev nD) : W9 m ρ c (Proc.devRef .tc main_arg7) = W8 m ρ c (Proc.devRef .tc main_arg7) :=
  by keep_host hostOps3_1
theorem step10_main_arg7 (c : Dev nD) : W10 m ρ c (Proc.devRef .tc main_arg7) = W9 m ρ c (Proc.devRef .tc main_arg7) :=
  W10_of_ne m ρ c main_arg7 (by decide)
theorem step11_main_arg7 (c : Dev nD) : W11 m ρ c (Proc.devRef .tc main_arg7) = W10 m ρ c (Proc.devRef .tc main_arg7) :=
  by keep_host hostOps4
theorem step12_main_arg7 (c : Dev nD) : W12 m ρ c (Proc.devRef .tc main_arg7) = W11 m ρ c (Proc.devRef .tc main_arg7) :=
  W12_of_ne m ρ c main_arg7 (by decide)
theorem step13_main_arg7 (c : Dev nD) : W13 m ρ c (Proc.devRef .tc main_arg7) = W12 m ρ c (Proc.devRef .tc main_arg7) :=
  by keep_host hostOps5
theorem at1_main_arg7 (c : Dev nD) : W1 m ρ c (Proc.devRef .tc main_arg7) = W0 m ρ c (Proc.devRef .tc main_arg7) :=
  (step1_main_arg7 m ρ c)
theorem at2_main_arg7 (c : Dev nD) : W2 m ρ c (Proc.devRef .tc main_arg7) = W0 m ρ c (Proc.devRef .tc main_arg7) :=
  (step2_main_arg7 m ρ c).trans (at1_main_arg7 m ρ c)
theorem at3_main_arg7 (c : Dev nD) : W3 m ρ c (Proc.devRef .tc main_arg7) = W0 m ρ c (Proc.devRef .tc main_arg7) :=
  (step3_main_arg7 m ρ c).trans (at2_main_arg7 m ρ c)
theorem at4_main_arg7 (c : Dev nD) : W4 m ρ c (Proc.devRef .tc main_arg7) = W0 m ρ c (Proc.devRef .tc main_arg7) :=
  (step4_main_arg7 m ρ c).trans (at3_main_arg7 m ρ c)
theorem at5_main_arg7 (c : Dev nD) : W5 m ρ c (Proc.devRef .tc main_arg7) = W0 m ρ c (Proc.devRef .tc main_arg7) :=
  (step5_main_arg7 m ρ c).trans (at4_main_arg7 m ρ c)
theorem at6_main_arg7 (c : Dev nD) : W6 m ρ c (Proc.devRef .tc main_arg7) = W0 m ρ c (Proc.devRef .tc main_arg7) :=
  (step6_main_arg7 m ρ c).trans (at5_main_arg7 m ρ c)
theorem at7_main_arg7 (c : Dev nD) : W7 m ρ c (Proc.devRef .tc main_arg7) = W0 m ρ c (Proc.devRef .tc main_arg7) :=
  (step7_main_arg7 m ρ c).trans (at6_main_arg7 m ρ c)
theorem at8_main_arg7 (c : Dev nD) : W8 m ρ c (Proc.devRef .tc main_arg7) = W0 m ρ c (Proc.devRef .tc main_arg7) :=
  (step8_main_arg7 m ρ c).trans (at7_main_arg7 m ρ c)
theorem at9_main_arg7 (c : Dev nD) : W9 m ρ c (Proc.devRef .tc main_arg7) = W0 m ρ c (Proc.devRef .tc main_arg7) :=
  (step9_main_arg7 m ρ c).trans (at8_main_arg7 m ρ c)
theorem at10_main_arg7 (c : Dev nD) : W10 m ρ c (Proc.devRef .tc main_arg7) = W0 m ρ c (Proc.devRef .tc main_arg7) :=
  (step10_main_arg7 m ρ c).trans (at9_main_arg7 m ρ c)
theorem at11_main_arg7 (c : Dev nD) : W11 m ρ c (Proc.devRef .tc main_arg7) = W0 m ρ c (Proc.devRef .tc main_arg7) :=
  (step11_main_arg7 m ρ c).trans (at10_main_arg7 m ρ c)
theorem at12_main_arg7 (c : Dev nD) : W12 m ρ c (Proc.devRef .tc main_arg7) = W0 m ρ c (Proc.devRef .tc main_arg7) :=
  (step12_main_arg7 m ρ c).trans (at11_main_arg7 m ρ c)
theorem at13_main_arg7 (c : Dev nD) : W13 m ρ c (Proc.devRef .tc main_arg7) = W0 m ρ c (Proc.devRef .tc main_arg7) :=
  (step13_main_arg7 m ρ c).trans (at12_main_arg7 m ρ c)

theorem step1_main_arg8 (c : Dev nD) : W1 m ρ c (Proc.devRef .tc main_arg8) = W0 m ρ c (Proc.devRef .tc main_arg8) :=
  by keep_host hostOps0
theorem step2_main_arg8 (c : Dev nD) : W2 m ρ c (Proc.devRef .tc main_arg8) = W1 m ρ c (Proc.devRef .tc main_arg8) :=
  W2_of_ne m ρ c main_arg8 (by decide)
theorem step3_main_arg8 (c : Dev nD) : W3 m ρ c (Proc.devRef .tc main_arg8) = W2 m ρ c (Proc.devRef .tc main_arg8) :=
  by keep_host hostOps1
theorem step4_main_arg8 (c : Dev nD) : W4 m ρ c (Proc.devRef .tc main_arg8) = W3 m ρ c (Proc.devRef .tc main_arg8) :=
  by keep_host hostOps1_1
theorem step5_main_arg8 (c : Dev nD) : W5 m ρ c (Proc.devRef .tc main_arg8) = W4 m ρ c (Proc.devRef .tc main_arg8) :=
  W5_of_ne m ρ c main_arg8 (by decide)
theorem step6_main_arg8 (c : Dev nD) : W6 m ρ c (Proc.devRef .tc main_arg8) = W5 m ρ c (Proc.devRef .tc main_arg8) :=
  by keep_host hostOps2
theorem step7_main_arg8 (c : Dev nD) : W7 m ρ c (Proc.devRef .tc main_arg8) = W6 m ρ c (Proc.devRef .tc main_arg8) :=
  W7_of_ne m ρ c main_arg8 (by decide)
theorem step8_main_arg8 (c : Dev nD) : W8 m ρ c (Proc.devRef .tc main_arg8) = W7 m ρ c (Proc.devRef .tc main_arg8) :=
  by keep_host hostOps3
theorem step9_main_arg8 (c : Dev nD) : W9 m ρ c (Proc.devRef .tc main_arg8) = W8 m ρ c (Proc.devRef .tc main_arg8) :=
  by keep_host hostOps3_1
theorem step10_main_arg8 (c : Dev nD) : W10 m ρ c (Proc.devRef .tc main_arg8) = W9 m ρ c (Proc.devRef .tc main_arg8) :=
  W10_of_ne m ρ c main_arg8 (by decide)
theorem step11_main_arg8 (c : Dev nD) : W11 m ρ c (Proc.devRef .tc main_arg8) = W10 m ρ c (Proc.devRef .tc main_arg8) :=
  by keep_host hostOps4
theorem step12_main_arg8 (c : Dev nD) : W12 m ρ c (Proc.devRef .tc main_arg8) = W11 m ρ c (Proc.devRef .tc main_arg8) :=
  W12_of_ne m ρ c main_arg8 (by decide)
theorem step13_main_arg8 (c : Dev nD) : W13 m ρ c (Proc.devRef .tc main_arg8) = W12 m ρ c (Proc.devRef .tc main_arg8) :=
  by keep_host hostOps5
theorem at1_main_arg8 (c : Dev nD) : W1 m ρ c (Proc.devRef .tc main_arg8) = W0 m ρ c (Proc.devRef .tc main_arg8) :=
  (step1_main_arg8 m ρ c)
theorem at2_main_arg8 (c : Dev nD) : W2 m ρ c (Proc.devRef .tc main_arg8) = W0 m ρ c (Proc.devRef .tc main_arg8) :=
  (step2_main_arg8 m ρ c).trans (at1_main_arg8 m ρ c)
theorem at3_main_arg8 (c : Dev nD) : W3 m ρ c (Proc.devRef .tc main_arg8) = W0 m ρ c (Proc.devRef .tc main_arg8) :=
  (step3_main_arg8 m ρ c).trans (at2_main_arg8 m ρ c)
theorem at4_main_arg8 (c : Dev nD) : W4 m ρ c (Proc.devRef .tc main_arg8) = W0 m ρ c (Proc.devRef .tc main_arg8) :=
  (step4_main_arg8 m ρ c).trans (at3_main_arg8 m ρ c)
theorem at5_main_arg8 (c : Dev nD) : W5 m ρ c (Proc.devRef .tc main_arg8) = W0 m ρ c (Proc.devRef .tc main_arg8) :=
  (step5_main_arg8 m ρ c).trans (at4_main_arg8 m ρ c)
theorem at6_main_arg8 (c : Dev nD) : W6 m ρ c (Proc.devRef .tc main_arg8) = W0 m ρ c (Proc.devRef .tc main_arg8) :=
  (step6_main_arg8 m ρ c).trans (at5_main_arg8 m ρ c)
theorem at7_main_arg8 (c : Dev nD) : W7 m ρ c (Proc.devRef .tc main_arg8) = W0 m ρ c (Proc.devRef .tc main_arg8) :=
  (step7_main_arg8 m ρ c).trans (at6_main_arg8 m ρ c)
theorem at8_main_arg8 (c : Dev nD) : W8 m ρ c (Proc.devRef .tc main_arg8) = W0 m ρ c (Proc.devRef .tc main_arg8) :=
  (step8_main_arg8 m ρ c).trans (at7_main_arg8 m ρ c)
theorem at9_main_arg8 (c : Dev nD) : W9 m ρ c (Proc.devRef .tc main_arg8) = W0 m ρ c (Proc.devRef .tc main_arg8) :=
  (step9_main_arg8 m ρ c).trans (at8_main_arg8 m ρ c)
theorem at10_main_arg8 (c : Dev nD) : W10 m ρ c (Proc.devRef .tc main_arg8) = W0 m ρ c (Proc.devRef .tc main_arg8) :=
  (step10_main_arg8 m ρ c).trans (at9_main_arg8 m ρ c)
theorem at11_main_arg8 (c : Dev nD) : W11 m ρ c (Proc.devRef .tc main_arg8) = W0 m ρ c (Proc.devRef .tc main_arg8) :=
  (step11_main_arg8 m ρ c).trans (at10_main_arg8 m ρ c)
theorem at12_main_arg8 (c : Dev nD) : W12 m ρ c (Proc.devRef .tc main_arg8) = W0 m ρ c (Proc.devRef .tc main_arg8) :=
  (step12_main_arg8 m ρ c).trans (at11_main_arg8 m ρ c)
theorem at13_main_arg8 (c : Dev nD) : W13 m ρ c (Proc.devRef .tc main_arg8) = W0 m ρ c (Proc.devRef .tc main_arg8) :=
  (step13_main_arg8 m ρ c).trans (at12_main_arg8 m ρ c)

theorem step1_main_arg9 (c : Dev nD) : W1 m ρ c (Proc.devRef .tc main_arg9) = W0 m ρ c (Proc.devRef .tc main_arg9) :=
  by keep_host hostOps0
theorem step2_main_arg9 (c : Dev nD) : W2 m ρ c (Proc.devRef .tc main_arg9) = W1 m ρ c (Proc.devRef .tc main_arg9) :=
  W2_of_ne m ρ c main_arg9 (by decide)
theorem step3_main_arg9 (c : Dev nD) : W3 m ρ c (Proc.devRef .tc main_arg9) = W2 m ρ c (Proc.devRef .tc main_arg9) :=
  by keep_host hostOps1
theorem step4_main_arg9 (c : Dev nD) : W4 m ρ c (Proc.devRef .tc main_arg9) = W3 m ρ c (Proc.devRef .tc main_arg9) :=
  by keep_host hostOps1_1
theorem step5_main_arg9 (c : Dev nD) : W5 m ρ c (Proc.devRef .tc main_arg9) = W4 m ρ c (Proc.devRef .tc main_arg9) :=
  W5_of_ne m ρ c main_arg9 (by decide)
theorem step6_main_arg9 (c : Dev nD) : W6 m ρ c (Proc.devRef .tc main_arg9) = W5 m ρ c (Proc.devRef .tc main_arg9) :=
  by keep_host hostOps2
theorem step7_main_arg9 (c : Dev nD) : W7 m ρ c (Proc.devRef .tc main_arg9) = W6 m ρ c (Proc.devRef .tc main_arg9) :=
  W7_of_ne m ρ c main_arg9 (by decide)
theorem step8_main_arg9 (c : Dev nD) : W8 m ρ c (Proc.devRef .tc main_arg9) = W7 m ρ c (Proc.devRef .tc main_arg9) :=
  by keep_host hostOps3
theorem step9_main_arg9 (c : Dev nD) : W9 m ρ c (Proc.devRef .tc main_arg9) = W8 m ρ c (Proc.devRef .tc main_arg9) :=
  by keep_host hostOps3_1
theorem step10_main_arg9 (c : Dev nD) : W10 m ρ c (Proc.devRef .tc main_arg9) = W9 m ρ c (Proc.devRef .tc main_arg9) :=
  W10_of_ne m ρ c main_arg9 (by decide)
theorem step11_main_arg9 (c : Dev nD) : W11 m ρ c (Proc.devRef .tc main_arg9) = W10 m ρ c (Proc.devRef .tc main_arg9) :=
  by keep_host hostOps4
theorem step12_main_arg9 (c : Dev nD) : W12 m ρ c (Proc.devRef .tc main_arg9) = W11 m ρ c (Proc.devRef .tc main_arg9) :=
  W12_of_ne m ρ c main_arg9 (by decide)
theorem step13_main_arg9 (c : Dev nD) : W13 m ρ c (Proc.devRef .tc main_arg9) = W12 m ρ c (Proc.devRef .tc main_arg9) :=
  by keep_host hostOps5
theorem at1_main_arg9 (c : Dev nD) : W1 m ρ c (Proc.devRef .tc main_arg9) = W0 m ρ c (Proc.devRef .tc main_arg9) :=
  (step1_main_arg9 m ρ c)
theorem at2_main_arg9 (c : Dev nD) : W2 m ρ c (Proc.devRef .tc main_arg9) = W0 m ρ c (Proc.devRef .tc main_arg9) :=
  (step2_main_arg9 m ρ c).trans (at1_main_arg9 m ρ c)
theorem at3_main_arg9 (c : Dev nD) : W3 m ρ c (Proc.devRef .tc main_arg9) = W0 m ρ c (Proc.devRef .tc main_arg9) :=
  (step3_main_arg9 m ρ c).trans (at2_main_arg9 m ρ c)
theorem at4_main_arg9 (c : Dev nD) : W4 m ρ c (Proc.devRef .tc main_arg9) = W0 m ρ c (Proc.devRef .tc main_arg9) :=
  (step4_main_arg9 m ρ c).trans (at3_main_arg9 m ρ c)
theorem at5_main_arg9 (c : Dev nD) : W5 m ρ c (Proc.devRef .tc main_arg9) = W0 m ρ c (Proc.devRef .tc main_arg9) :=
  (step5_main_arg9 m ρ c).trans (at4_main_arg9 m ρ c)
theorem at6_main_arg9 (c : Dev nD) : W6 m ρ c (Proc.devRef .tc main_arg9) = W0 m ρ c (Proc.devRef .tc main_arg9) :=
  (step6_main_arg9 m ρ c).trans (at5_main_arg9 m ρ c)
theorem at7_main_arg9 (c : Dev nD) : W7 m ρ c (Proc.devRef .tc main_arg9) = W0 m ρ c (Proc.devRef .tc main_arg9) :=
  (step7_main_arg9 m ρ c).trans (at6_main_arg9 m ρ c)
theorem at8_main_arg9 (c : Dev nD) : W8 m ρ c (Proc.devRef .tc main_arg9) = W0 m ρ c (Proc.devRef .tc main_arg9) :=
  (step8_main_arg9 m ρ c).trans (at7_main_arg9 m ρ c)
theorem at9_main_arg9 (c : Dev nD) : W9 m ρ c (Proc.devRef .tc main_arg9) = W0 m ρ c (Proc.devRef .tc main_arg9) :=
  (step9_main_arg9 m ρ c).trans (at8_main_arg9 m ρ c)
theorem at10_main_arg9 (c : Dev nD) : W10 m ρ c (Proc.devRef .tc main_arg9) = W0 m ρ c (Proc.devRef .tc main_arg9) :=
  (step10_main_arg9 m ρ c).trans (at9_main_arg9 m ρ c)
theorem at11_main_arg9 (c : Dev nD) : W11 m ρ c (Proc.devRef .tc main_arg9) = W0 m ρ c (Proc.devRef .tc main_arg9) :=
  (step11_main_arg9 m ρ c).trans (at10_main_arg9 m ρ c)
theorem at12_main_arg9 (c : Dev nD) : W12 m ρ c (Proc.devRef .tc main_arg9) = W0 m ρ c (Proc.devRef .tc main_arg9) :=
  (step12_main_arg9 m ρ c).trans (at11_main_arg9 m ρ c)
theorem at13_main_arg9 (c : Dev nD) : W13 m ρ c (Proc.devRef .tc main_arg9) = W0 m ρ c (Proc.devRef .tc main_arg9) :=
  (step13_main_arg9 m ρ c).trans (at12_main_arg9 m ρ c)

theorem step1_main_arg10 (c : Dev nD) : W1 m ρ c (Proc.devRef .tc main_arg10) = W0 m ρ c (Proc.devRef .tc main_arg10) :=
  by keep_host hostOps0
theorem step2_main_arg10 (c : Dev nD) : W2 m ρ c (Proc.devRef .tc main_arg10) = W1 m ρ c (Proc.devRef .tc main_arg10) :=
  W2_of_ne m ρ c main_arg10 (by decide)
theorem step3_main_arg10 (c : Dev nD) : W3 m ρ c (Proc.devRef .tc main_arg10) = W2 m ρ c (Proc.devRef .tc main_arg10) :=
  by keep_host hostOps1
theorem step4_main_arg10 (c : Dev nD) : W4 m ρ c (Proc.devRef .tc main_arg10) = W3 m ρ c (Proc.devRef .tc main_arg10) :=
  by keep_host hostOps1_1
theorem step5_main_arg10 (c : Dev nD) : W5 m ρ c (Proc.devRef .tc main_arg10) = W4 m ρ c (Proc.devRef .tc main_arg10) :=
  W5_of_ne m ρ c main_arg10 (by decide)
theorem step6_main_arg10 (c : Dev nD) : W6 m ρ c (Proc.devRef .tc main_arg10) = W5 m ρ c (Proc.devRef .tc main_arg10) :=
  by keep_host hostOps2
theorem step7_main_arg10 (c : Dev nD) : W7 m ρ c (Proc.devRef .tc main_arg10) = W6 m ρ c (Proc.devRef .tc main_arg10) :=
  W7_of_ne m ρ c main_arg10 (by decide)
theorem step8_main_arg10 (c : Dev nD) : W8 m ρ c (Proc.devRef .tc main_arg10) = W7 m ρ c (Proc.devRef .tc main_arg10) :=
  by keep_host hostOps3
theorem step9_main_arg10 (c : Dev nD) : W9 m ρ c (Proc.devRef .tc main_arg10) = W8 m ρ c (Proc.devRef .tc main_arg10) :=
  by keep_host hostOps3_1
theorem step10_main_arg10 (c : Dev nD) : W10 m ρ c (Proc.devRef .tc main_arg10) = W9 m ρ c (Proc.devRef .tc main_arg10) :=
  W10_of_ne m ρ c main_arg10 (by decide)
theorem step11_main_arg10 (c : Dev nD) : W11 m ρ c (Proc.devRef .tc main_arg10) = W10 m ρ c (Proc.devRef .tc main_arg10) :=
  by keep_host hostOps4
theorem step12_main_arg10 (c : Dev nD) : W12 m ρ c (Proc.devRef .tc main_arg10) = W11 m ρ c (Proc.devRef .tc main_arg10) :=
  W12_of_ne m ρ c main_arg10 (by decide)
theorem step13_main_arg10 (c : Dev nD) : W13 m ρ c (Proc.devRef .tc main_arg10) = W12 m ρ c (Proc.devRef .tc main_arg10) :=
  by keep_host hostOps5
theorem step14_main_arg10 (c : Dev nD) : W14 m ρ c (Proc.devRef .tc main_arg10) = W13 m ρ c (Proc.devRef .tc main_arg10) :=
  by keep_host hostOps5_1
theorem step15_main_arg10 (c : Dev nD) : W15 m ρ c (Proc.devRef .tc main_arg10) = W14 m ρ c (Proc.devRef .tc main_arg10) :=
  W15_of_ne m ρ c main_arg10 (by decide)
theorem at1_main_arg10 (c : Dev nD) : W1 m ρ c (Proc.devRef .tc main_arg10) = W0 m ρ c (Proc.devRef .tc main_arg10) :=
  (step1_main_arg10 m ρ c)
theorem at2_main_arg10 (c : Dev nD) : W2 m ρ c (Proc.devRef .tc main_arg10) = W0 m ρ c (Proc.devRef .tc main_arg10) :=
  (step2_main_arg10 m ρ c).trans (at1_main_arg10 m ρ c)
theorem at3_main_arg10 (c : Dev nD) : W3 m ρ c (Proc.devRef .tc main_arg10) = W0 m ρ c (Proc.devRef .tc main_arg10) :=
  (step3_main_arg10 m ρ c).trans (at2_main_arg10 m ρ c)
theorem at4_main_arg10 (c : Dev nD) : W4 m ρ c (Proc.devRef .tc main_arg10) = W0 m ρ c (Proc.devRef .tc main_arg10) :=
  (step4_main_arg10 m ρ c).trans (at3_main_arg10 m ρ c)
theorem at5_main_arg10 (c : Dev nD) : W5 m ρ c (Proc.devRef .tc main_arg10) = W0 m ρ c (Proc.devRef .tc main_arg10) :=
  (step5_main_arg10 m ρ c).trans (at4_main_arg10 m ρ c)
theorem at6_main_arg10 (c : Dev nD) : W6 m ρ c (Proc.devRef .tc main_arg10) = W0 m ρ c (Proc.devRef .tc main_arg10) :=
  (step6_main_arg10 m ρ c).trans (at5_main_arg10 m ρ c)
theorem at7_main_arg10 (c : Dev nD) : W7 m ρ c (Proc.devRef .tc main_arg10) = W0 m ρ c (Proc.devRef .tc main_arg10) :=
  (step7_main_arg10 m ρ c).trans (at6_main_arg10 m ρ c)
theorem at8_main_arg10 (c : Dev nD) : W8 m ρ c (Proc.devRef .tc main_arg10) = W0 m ρ c (Proc.devRef .tc main_arg10) :=
  (step8_main_arg10 m ρ c).trans (at7_main_arg10 m ρ c)
theorem at9_main_arg10 (c : Dev nD) : W9 m ρ c (Proc.devRef .tc main_arg10) = W0 m ρ c (Proc.devRef .tc main_arg10) :=
  (step9_main_arg10 m ρ c).trans (at8_main_arg10 m ρ c)
theorem at10_main_arg10 (c : Dev nD) : W10 m ρ c (Proc.devRef .tc main_arg10) = W0 m ρ c (Proc.devRef .tc main_arg10) :=
  (step10_main_arg10 m ρ c).trans (at9_main_arg10 m ρ c)
theorem at11_main_arg10 (c : Dev nD) : W11 m ρ c (Proc.devRef .tc main_arg10) = W0 m ρ c (Proc.devRef .tc main_arg10) :=
  (step11_main_arg10 m ρ c).trans (at10_main_arg10 m ρ c)
theorem at12_main_arg10 (c : Dev nD) : W12 m ρ c (Proc.devRef .tc main_arg10) = W0 m ρ c (Proc.devRef .tc main_arg10) :=
  (step12_main_arg10 m ρ c).trans (at11_main_arg10 m ρ c)
theorem at13_main_arg10 (c : Dev nD) : W13 m ρ c (Proc.devRef .tc main_arg10) = W0 m ρ c (Proc.devRef .tc main_arg10) :=
  (step13_main_arg10 m ρ c).trans (at12_main_arg10 m ρ c)
theorem at14_main_arg10 (c : Dev nD) : W14 m ρ c (Proc.devRef .tc main_arg10) = W0 m ρ c (Proc.devRef .tc main_arg10) :=
  (step14_main_arg10 m ρ c).trans (at13_main_arg10 m ρ c)
theorem at15_main_arg10 (c : Dev nD) : W15 m ρ c (Proc.devRef .tc main_arg10) = W0 m ρ c (Proc.devRef .tc main_arg10) :=
  (step15_main_arg10 m ρ c).trans (at14_main_arg10 m ρ c)

theorem step1_main_arg11 (c : Dev nD) : W1 m ρ c (Proc.devRef .tc main_arg11) = W0 m ρ c (Proc.devRef .tc main_arg11) :=
  by keep_host hostOps0
theorem step2_main_arg11 (c : Dev nD) : W2 m ρ c (Proc.devRef .tc main_arg11) = W1 m ρ c (Proc.devRef .tc main_arg11) :=
  W2_of_ne m ρ c main_arg11 (by decide)
theorem step3_main_arg11 (c : Dev nD) : W3 m ρ c (Proc.devRef .tc main_arg11) = W2 m ρ c (Proc.devRef .tc main_arg11) :=
  by keep_host hostOps1
theorem step4_main_arg11 (c : Dev nD) : W4 m ρ c (Proc.devRef .tc main_arg11) = W3 m ρ c (Proc.devRef .tc main_arg11) :=
  by keep_host hostOps1_1
theorem step5_main_arg11 (c : Dev nD) : W5 m ρ c (Proc.devRef .tc main_arg11) = W4 m ρ c (Proc.devRef .tc main_arg11) :=
  W5_of_ne m ρ c main_arg11 (by decide)
theorem step6_main_arg11 (c : Dev nD) : W6 m ρ c (Proc.devRef .tc main_arg11) = W5 m ρ c (Proc.devRef .tc main_arg11) :=
  by keep_host hostOps2
theorem step7_main_arg11 (c : Dev nD) : W7 m ρ c (Proc.devRef .tc main_arg11) = W6 m ρ c (Proc.devRef .tc main_arg11) :=
  W7_of_ne m ρ c main_arg11 (by decide)
theorem step8_main_arg11 (c : Dev nD) : W8 m ρ c (Proc.devRef .tc main_arg11) = W7 m ρ c (Proc.devRef .tc main_arg11) :=
  by keep_host hostOps3
theorem step9_main_arg11 (c : Dev nD) : W9 m ρ c (Proc.devRef .tc main_arg11) = W8 m ρ c (Proc.devRef .tc main_arg11) :=
  by keep_host hostOps3_1
theorem step10_main_arg11 (c : Dev nD) : W10 m ρ c (Proc.devRef .tc main_arg11) = W9 m ρ c (Proc.devRef .tc main_arg11) :=
  W10_of_ne m ρ c main_arg11 (by decide)
theorem step11_main_arg11 (c : Dev nD) : W11 m ρ c (Proc.devRef .tc main_arg11) = W10 m ρ c (Proc.devRef .tc main_arg11) :=
  by keep_host hostOps4
theorem step12_main_arg11 (c : Dev nD) : W12 m ρ c (Proc.devRef .tc main_arg11) = W11 m ρ c (Proc.devRef .tc main_arg11) :=
  W12_of_ne m ρ c main_arg11 (by decide)
theorem step13_main_arg11 (c : Dev nD) : W13 m ρ c (Proc.devRef .tc main_arg11) = W12 m ρ c (Proc.devRef .tc main_arg11) :=
  by keep_host hostOps5
theorem step14_main_arg11 (c : Dev nD) : W14 m ρ c (Proc.devRef .tc main_arg11) = W13 m ρ c (Proc.devRef .tc main_arg11) :=
  by keep_host hostOps5_1
theorem step15_main_arg11 (c : Dev nD) : W15 m ρ c (Proc.devRef .tc main_arg11) = W14 m ρ c (Proc.devRef .tc main_arg11) :=
  W15_of_ne m ρ c main_arg11 (by decide)
theorem at1_main_arg11 (c : Dev nD) : W1 m ρ c (Proc.devRef .tc main_arg11) = W0 m ρ c (Proc.devRef .tc main_arg11) :=
  (step1_main_arg11 m ρ c)
theorem at2_main_arg11 (c : Dev nD) : W2 m ρ c (Proc.devRef .tc main_arg11) = W0 m ρ c (Proc.devRef .tc main_arg11) :=
  (step2_main_arg11 m ρ c).trans (at1_main_arg11 m ρ c)
theorem at3_main_arg11 (c : Dev nD) : W3 m ρ c (Proc.devRef .tc main_arg11) = W0 m ρ c (Proc.devRef .tc main_arg11) :=
  (step3_main_arg11 m ρ c).trans (at2_main_arg11 m ρ c)
theorem at4_main_arg11 (c : Dev nD) : W4 m ρ c (Proc.devRef .tc main_arg11) = W0 m ρ c (Proc.devRef .tc main_arg11) :=
  (step4_main_arg11 m ρ c).trans (at3_main_arg11 m ρ c)
theorem at5_main_arg11 (c : Dev nD) : W5 m ρ c (Proc.devRef .tc main_arg11) = W0 m ρ c (Proc.devRef .tc main_arg11) :=
  (step5_main_arg11 m ρ c).trans (at4_main_arg11 m ρ c)
theorem at6_main_arg11 (c : Dev nD) : W6 m ρ c (Proc.devRef .tc main_arg11) = W0 m ρ c (Proc.devRef .tc main_arg11) :=
  (step6_main_arg11 m ρ c).trans (at5_main_arg11 m ρ c)
theorem at7_main_arg11 (c : Dev nD) : W7 m ρ c (Proc.devRef .tc main_arg11) = W0 m ρ c (Proc.devRef .tc main_arg11) :=
  (step7_main_arg11 m ρ c).trans (at6_main_arg11 m ρ c)
theorem at8_main_arg11 (c : Dev nD) : W8 m ρ c (Proc.devRef .tc main_arg11) = W0 m ρ c (Proc.devRef .tc main_arg11) :=
  (step8_main_arg11 m ρ c).trans (at7_main_arg11 m ρ c)
theorem at9_main_arg11 (c : Dev nD) : W9 m ρ c (Proc.devRef .tc main_arg11) = W0 m ρ c (Proc.devRef .tc main_arg11) :=
  (step9_main_arg11 m ρ c).trans (at8_main_arg11 m ρ c)
theorem at10_main_arg11 (c : Dev nD) : W10 m ρ c (Proc.devRef .tc main_arg11) = W0 m ρ c (Proc.devRef .tc main_arg11) :=
  (step10_main_arg11 m ρ c).trans (at9_main_arg11 m ρ c)
theorem at11_main_arg11 (c : Dev nD) : W11 m ρ c (Proc.devRef .tc main_arg11) = W0 m ρ c (Proc.devRef .tc main_arg11) :=
  (step11_main_arg11 m ρ c).trans (at10_main_arg11 m ρ c)
theorem at12_main_arg11 (c : Dev nD) : W12 m ρ c (Proc.devRef .tc main_arg11) = W0 m ρ c (Proc.devRef .tc main_arg11) :=
  (step12_main_arg11 m ρ c).trans (at11_main_arg11 m ρ c)
theorem at13_main_arg11 (c : Dev nD) : W13 m ρ c (Proc.devRef .tc main_arg11) = W0 m ρ c (Proc.devRef .tc main_arg11) :=
  (step13_main_arg11 m ρ c).trans (at12_main_arg11 m ρ c)
theorem at14_main_arg11 (c : Dev nD) : W14 m ρ c (Proc.devRef .tc main_arg11) = W0 m ρ c (Proc.devRef .tc main_arg11) :=
  (step14_main_arg11 m ρ c).trans (at13_main_arg11 m ρ c)
theorem at15_main_arg11 (c : Dev nD) : W15 m ρ c (Proc.devRef .tc main_arg11) = W0 m ρ c (Proc.devRef .tc main_arg11) :=
  (step15_main_arg11 m ρ c).trans (at14_main_arg11 m ρ c)

theorem step1_main_arg2 (c : Dev nD) : W1 m ρ c (Proc.devRef .tc main_arg2) = W0 m ρ c (Proc.devRef .tc main_arg2) :=
  by keep_host hostOps0
theorem step2_main_arg2 (c : Dev nD) : W2 m ρ c (Proc.devRef .tc main_arg2) = W1 m ρ c (Proc.devRef .tc main_arg2) :=
  W2_of_ne m ρ c main_arg2 (by decide)
theorem step3_main_arg2 (c : Dev nD) : W3 m ρ c (Proc.devRef .tc main_arg2) = W2 m ρ c (Proc.devRef .tc main_arg2) :=
  by keep_host hostOps1
theorem step4_main_arg2 (c : Dev nD) : W4 m ρ c (Proc.devRef .tc main_arg2) = W3 m ρ c (Proc.devRef .tc main_arg2) :=
  by keep_host hostOps1_1
theorem step5_main_arg2 (c : Dev nD) : W5 m ρ c (Proc.devRef .tc main_arg2) = W4 m ρ c (Proc.devRef .tc main_arg2) :=
  W5_of_ne m ρ c main_arg2 (by decide)
theorem step6_main_arg2 (c : Dev nD) : W6 m ρ c (Proc.devRef .tc main_arg2) = W5 m ρ c (Proc.devRef .tc main_arg2) :=
  by keep_host hostOps2
theorem step7_main_arg2 (c : Dev nD) : W7 m ρ c (Proc.devRef .tc main_arg2) = W6 m ρ c (Proc.devRef .tc main_arg2) :=
  W7_of_ne m ρ c main_arg2 (by decide)
theorem step8_main_arg2 (c : Dev nD) : W8 m ρ c (Proc.devRef .tc main_arg2) = W7 m ρ c (Proc.devRef .tc main_arg2) :=
  by keep_host hostOps3
theorem step9_main_arg2 (c : Dev nD) : W9 m ρ c (Proc.devRef .tc main_arg2) = W8 m ρ c (Proc.devRef .tc main_arg2) :=
  by keep_host hostOps3_1
theorem step10_main_arg2 (c : Dev nD) : W10 m ρ c (Proc.devRef .tc main_arg2) = W9 m ρ c (Proc.devRef .tc main_arg2) :=
  W10_of_ne m ρ c main_arg2 (by decide)
theorem step11_main_arg2 (c : Dev nD) : W11 m ρ c (Proc.devRef .tc main_arg2) = W10 m ρ c (Proc.devRef .tc main_arg2) :=
  by keep_host hostOps4
theorem step12_main_arg2 (c : Dev nD) : W12 m ρ c (Proc.devRef .tc main_arg2) = W11 m ρ c (Proc.devRef .tc main_arg2) :=
  W12_of_ne m ρ c main_arg2 (by decide)
theorem step13_main_arg2 (c : Dev nD) : W13 m ρ c (Proc.devRef .tc main_arg2) = W12 m ρ c (Proc.devRef .tc main_arg2) :=
  by keep_host hostOps5
theorem step14_main_arg2 (c : Dev nD) : W14 m ρ c (Proc.devRef .tc main_arg2) = W13 m ρ c (Proc.devRef .tc main_arg2) :=
  by keep_host hostOps5_1
theorem step15_main_arg2 (c : Dev nD) : W15 m ρ c (Proc.devRef .tc main_arg2) = W14 m ρ c (Proc.devRef .tc main_arg2) :=
  W15_of_ne m ρ c main_arg2 (by decide)
theorem step16_main_arg2 (c : Dev nD) : W16 m ρ c (Proc.devRef .tc main_arg2) = W15 m ρ c (Proc.devRef .tc main_arg2) :=
  by keep_host hostOps6
theorem step17_main_arg2 (c : Dev nD) : W17 m ρ c (Proc.devRef .tc main_arg2) = W16 m ρ c (Proc.devRef .tc main_arg2) :=
  W17_of_ne m ρ c main_arg2 (by decide)
theorem at1_main_arg2 (c : Dev nD) : W1 m ρ c (Proc.devRef .tc main_arg2) = W0 m ρ c (Proc.devRef .tc main_arg2) :=
  (step1_main_arg2 m ρ c)
theorem at2_main_arg2 (c : Dev nD) : W2 m ρ c (Proc.devRef .tc main_arg2) = W0 m ρ c (Proc.devRef .tc main_arg2) :=
  (step2_main_arg2 m ρ c).trans (at1_main_arg2 m ρ c)
theorem at3_main_arg2 (c : Dev nD) : W3 m ρ c (Proc.devRef .tc main_arg2) = W0 m ρ c (Proc.devRef .tc main_arg2) :=
  (step3_main_arg2 m ρ c).trans (at2_main_arg2 m ρ c)
theorem at4_main_arg2 (c : Dev nD) : W4 m ρ c (Proc.devRef .tc main_arg2) = W0 m ρ c (Proc.devRef .tc main_arg2) :=
  (step4_main_arg2 m ρ c).trans (at3_main_arg2 m ρ c)
theorem at5_main_arg2 (c : Dev nD) : W5 m ρ c (Proc.devRef .tc main_arg2) = W0 m ρ c (Proc.devRef .tc main_arg2) :=
  (step5_main_arg2 m ρ c).trans (at4_main_arg2 m ρ c)
theorem at6_main_arg2 (c : Dev nD) : W6 m ρ c (Proc.devRef .tc main_arg2) = W0 m ρ c (Proc.devRef .tc main_arg2) :=
  (step6_main_arg2 m ρ c).trans (at5_main_arg2 m ρ c)
theorem at7_main_arg2 (c : Dev nD) : W7 m ρ c (Proc.devRef .tc main_arg2) = W0 m ρ c (Proc.devRef .tc main_arg2) :=
  (step7_main_arg2 m ρ c).trans (at6_main_arg2 m ρ c)
theorem at8_main_arg2 (c : Dev nD) : W8 m ρ c (Proc.devRef .tc main_arg2) = W0 m ρ c (Proc.devRef .tc main_arg2) :=
  (step8_main_arg2 m ρ c).trans (at7_main_arg2 m ρ c)
theorem at9_main_arg2 (c : Dev nD) : W9 m ρ c (Proc.devRef .tc main_arg2) = W0 m ρ c (Proc.devRef .tc main_arg2) :=
  (step9_main_arg2 m ρ c).trans (at8_main_arg2 m ρ c)
theorem at10_main_arg2 (c : Dev nD) : W10 m ρ c (Proc.devRef .tc main_arg2) = W0 m ρ c (Proc.devRef .tc main_arg2) :=
  (step10_main_arg2 m ρ c).trans (at9_main_arg2 m ρ c)
theorem at11_main_arg2 (c : Dev nD) : W11 m ρ c (Proc.devRef .tc main_arg2) = W0 m ρ c (Proc.devRef .tc main_arg2) :=
  (step11_main_arg2 m ρ c).trans (at10_main_arg2 m ρ c)
theorem at12_main_arg2 (c : Dev nD) : W12 m ρ c (Proc.devRef .tc main_arg2) = W0 m ρ c (Proc.devRef .tc main_arg2) :=
  (step12_main_arg2 m ρ c).trans (at11_main_arg2 m ρ c)
theorem at13_main_arg2 (c : Dev nD) : W13 m ρ c (Proc.devRef .tc main_arg2) = W0 m ρ c (Proc.devRef .tc main_arg2) :=
  (step13_main_arg2 m ρ c).trans (at12_main_arg2 m ρ c)
theorem at14_main_arg2 (c : Dev nD) : W14 m ρ c (Proc.devRef .tc main_arg2) = W0 m ρ c (Proc.devRef .tc main_arg2) :=
  (step14_main_arg2 m ρ c).trans (at13_main_arg2 m ρ c)
theorem at15_main_arg2 (c : Dev nD) : W15 m ρ c (Proc.devRef .tc main_arg2) = W0 m ρ c (Proc.devRef .tc main_arg2) :=
  (step15_main_arg2 m ρ c).trans (at14_main_arg2 m ρ c)
theorem at16_main_arg2 (c : Dev nD) : W16 m ρ c (Proc.devRef .tc main_arg2) = W0 m ρ c (Proc.devRef .tc main_arg2) :=
  (step16_main_arg2 m ρ c).trans (at15_main_arg2 m ρ c)
theorem at17_main_arg2 (c : Dev nD) : W17 m ρ c (Proc.devRef .tc main_arg2) = W0 m ρ c (Proc.devRef .tc main_arg2) :=
  (step17_main_arg2 m ρ c).trans (at16_main_arg2 m ρ c)

theorem step1_main_arg12 (c : Dev nD) : W1 m ρ c (Proc.devRef .tc main_arg12) = W0 m ρ c (Proc.devRef .tc main_arg12) :=
  by keep_host hostOps0
theorem step2_main_arg12 (c : Dev nD) : W2 m ρ c (Proc.devRef .tc main_arg12) = W1 m ρ c (Proc.devRef .tc main_arg12) :=
  W2_of_ne m ρ c main_arg12 (by decide)
theorem step3_main_arg12 (c : Dev nD) : W3 m ρ c (Proc.devRef .tc main_arg12) = W2 m ρ c (Proc.devRef .tc main_arg12) :=
  by keep_host hostOps1
theorem step4_main_arg12 (c : Dev nD) : W4 m ρ c (Proc.devRef .tc main_arg12) = W3 m ρ c (Proc.devRef .tc main_arg12) :=
  by keep_host hostOps1_1
theorem step5_main_arg12 (c : Dev nD) : W5 m ρ c (Proc.devRef .tc main_arg12) = W4 m ρ c (Proc.devRef .tc main_arg12) :=
  W5_of_ne m ρ c main_arg12 (by decide)
theorem step6_main_arg12 (c : Dev nD) : W6 m ρ c (Proc.devRef .tc main_arg12) = W5 m ρ c (Proc.devRef .tc main_arg12) :=
  by keep_host hostOps2
theorem step7_main_arg12 (c : Dev nD) : W7 m ρ c (Proc.devRef .tc main_arg12) = W6 m ρ c (Proc.devRef .tc main_arg12) :=
  W7_of_ne m ρ c main_arg12 (by decide)
theorem step8_main_arg12 (c : Dev nD) : W8 m ρ c (Proc.devRef .tc main_arg12) = W7 m ρ c (Proc.devRef .tc main_arg12) :=
  by keep_host hostOps3
theorem step9_main_arg12 (c : Dev nD) : W9 m ρ c (Proc.devRef .tc main_arg12) = W8 m ρ c (Proc.devRef .tc main_arg12) :=
  by keep_host hostOps3_1
theorem step10_main_arg12 (c : Dev nD) : W10 m ρ c (Proc.devRef .tc main_arg12) = W9 m ρ c (Proc.devRef .tc main_arg12) :=
  W10_of_ne m ρ c main_arg12 (by decide)
theorem step11_main_arg12 (c : Dev nD) : W11 m ρ c (Proc.devRef .tc main_arg12) = W10 m ρ c (Proc.devRef .tc main_arg12) :=
  by keep_host hostOps4
theorem step12_main_arg12 (c : Dev nD) : W12 m ρ c (Proc.devRef .tc main_arg12) = W11 m ρ c (Proc.devRef .tc main_arg12) :=
  W12_of_ne m ρ c main_arg12 (by decide)
theorem step13_main_arg12 (c : Dev nD) : W13 m ρ c (Proc.devRef .tc main_arg12) = W12 m ρ c (Proc.devRef .tc main_arg12) :=
  by keep_host hostOps5
theorem step14_main_arg12 (c : Dev nD) : W14 m ρ c (Proc.devRef .tc main_arg12) = W13 m ρ c (Proc.devRef .tc main_arg12) :=
  by keep_host hostOps5_1
theorem step15_main_arg12 (c : Dev nD) : W15 m ρ c (Proc.devRef .tc main_arg12) = W14 m ρ c (Proc.devRef .tc main_arg12) :=
  W15_of_ne m ρ c main_arg12 (by decide)
theorem step16_main_arg12 (c : Dev nD) : W16 m ρ c (Proc.devRef .tc main_arg12) = W15 m ρ c (Proc.devRef .tc main_arg12) :=
  by keep_host hostOps6
theorem step17_main_arg12 (c : Dev nD) : W17 m ρ c (Proc.devRef .tc main_arg12) = W16 m ρ c (Proc.devRef .tc main_arg12) :=
  W17_of_ne m ρ c main_arg12 (by decide)
theorem step18_main_arg12 (c : Dev nD) : W18 m ρ c (Proc.devRef .tc main_arg12) = W17 m ρ c (Proc.devRef .tc main_arg12) :=
  by keep_host hostOps7
theorem at1_main_arg12 (c : Dev nD) : W1 m ρ c (Proc.devRef .tc main_arg12) = W0 m ρ c (Proc.devRef .tc main_arg12) :=
  (step1_main_arg12 m ρ c)
theorem at2_main_arg12 (c : Dev nD) : W2 m ρ c (Proc.devRef .tc main_arg12) = W0 m ρ c (Proc.devRef .tc main_arg12) :=
  (step2_main_arg12 m ρ c).trans (at1_main_arg12 m ρ c)
theorem at3_main_arg12 (c : Dev nD) : W3 m ρ c (Proc.devRef .tc main_arg12) = W0 m ρ c (Proc.devRef .tc main_arg12) :=
  (step3_main_arg12 m ρ c).trans (at2_main_arg12 m ρ c)
theorem at4_main_arg12 (c : Dev nD) : W4 m ρ c (Proc.devRef .tc main_arg12) = W0 m ρ c (Proc.devRef .tc main_arg12) :=
  (step4_main_arg12 m ρ c).trans (at3_main_arg12 m ρ c)
theorem at5_main_arg12 (c : Dev nD) : W5 m ρ c (Proc.devRef .tc main_arg12) = W0 m ρ c (Proc.devRef .tc main_arg12) :=
  (step5_main_arg12 m ρ c).trans (at4_main_arg12 m ρ c)
theorem at6_main_arg12 (c : Dev nD) : W6 m ρ c (Proc.devRef .tc main_arg12) = W0 m ρ c (Proc.devRef .tc main_arg12) :=
  (step6_main_arg12 m ρ c).trans (at5_main_arg12 m ρ c)
theorem at7_main_arg12 (c : Dev nD) : W7 m ρ c (Proc.devRef .tc main_arg12) = W0 m ρ c (Proc.devRef .tc main_arg12) :=
  (step7_main_arg12 m ρ c).trans (at6_main_arg12 m ρ c)
theorem at8_main_arg12 (c : Dev nD) : W8 m ρ c (Proc.devRef .tc main_arg12) = W0 m ρ c (Proc.devRef .tc main_arg12) :=
  (step8_main_arg12 m ρ c).trans (at7_main_arg12 m ρ c)
theorem at9_main_arg12 (c : Dev nD) : W9 m ρ c (Proc.devRef .tc main_arg12) = W0 m ρ c (Proc.devRef .tc main_arg12) :=
  (step9_main_arg12 m ρ c).trans (at8_main_arg12 m ρ c)
theorem at10_main_arg12 (c : Dev nD) : W10 m ρ c (Proc.devRef .tc main_arg12) = W0 m ρ c (Proc.devRef .tc main_arg12) :=
  (step10_main_arg12 m ρ c).trans (at9_main_arg12 m ρ c)
theorem at11_main_arg12 (c : Dev nD) : W11 m ρ c (Proc.devRef .tc main_arg12) = W0 m ρ c (Proc.devRef .tc main_arg12) :=
  (step11_main_arg12 m ρ c).trans (at10_main_arg12 m ρ c)
theorem at12_main_arg12 (c : Dev nD) : W12 m ρ c (Proc.devRef .tc main_arg12) = W0 m ρ c (Proc.devRef .tc main_arg12) :=
  (step12_main_arg12 m ρ c).trans (at11_main_arg12 m ρ c)
theorem at13_main_arg12 (c : Dev nD) : W13 m ρ c (Proc.devRef .tc main_arg12) = W0 m ρ c (Proc.devRef .tc main_arg12) :=
  (step13_main_arg12 m ρ c).trans (at12_main_arg12 m ρ c)
theorem at14_main_arg12 (c : Dev nD) : W14 m ρ c (Proc.devRef .tc main_arg12) = W0 m ρ c (Proc.devRef .tc main_arg12) :=
  (step14_main_arg12 m ρ c).trans (at13_main_arg12 m ρ c)
theorem at15_main_arg12 (c : Dev nD) : W15 m ρ c (Proc.devRef .tc main_arg12) = W0 m ρ c (Proc.devRef .tc main_arg12) :=
  (step15_main_arg12 m ρ c).trans (at14_main_arg12 m ρ c)
theorem at16_main_arg12 (c : Dev nD) : W16 m ρ c (Proc.devRef .tc main_arg12) = W0 m ρ c (Proc.devRef .tc main_arg12) :=
  (step16_main_arg12 m ρ c).trans (at15_main_arg12 m ρ c)
theorem at17_main_arg12 (c : Dev nD) : W17 m ρ c (Proc.devRef .tc main_arg12) = W0 m ρ c (Proc.devRef .tc main_arg12) :=
  (step17_main_arg12 m ρ c).trans (at16_main_arg12 m ρ c)
theorem at18_main_arg12 (c : Dev nD) : W18 m ρ c (Proc.devRef .tc main_arg12) = W0 m ρ c (Proc.devRef .tc main_arg12) :=
  (step18_main_arg12 m ρ c).trans (at17_main_arg12 m ρ c)

theorem step1_main_arg13 (c : Dev nD) : W1 m ρ c (Proc.devRef .tc main_arg13) = W0 m ρ c (Proc.devRef .tc main_arg13) :=
  by keep_host hostOps0
theorem step2_main_arg13 (c : Dev nD) : W2 m ρ c (Proc.devRef .tc main_arg13) = W1 m ρ c (Proc.devRef .tc main_arg13) :=
  W2_of_ne m ρ c main_arg13 (by decide)
theorem step3_main_arg13 (c : Dev nD) : W3 m ρ c (Proc.devRef .tc main_arg13) = W2 m ρ c (Proc.devRef .tc main_arg13) :=
  by keep_host hostOps1
theorem step4_main_arg13 (c : Dev nD) : W4 m ρ c (Proc.devRef .tc main_arg13) = W3 m ρ c (Proc.devRef .tc main_arg13) :=
  by keep_host hostOps1_1
theorem step5_main_arg13 (c : Dev nD) : W5 m ρ c (Proc.devRef .tc main_arg13) = W4 m ρ c (Proc.devRef .tc main_arg13) :=
  W5_of_ne m ρ c main_arg13 (by decide)
theorem step6_main_arg13 (c : Dev nD) : W6 m ρ c (Proc.devRef .tc main_arg13) = W5 m ρ c (Proc.devRef .tc main_arg13) :=
  by keep_host hostOps2
theorem step7_main_arg13 (c : Dev nD) : W7 m ρ c (Proc.devRef .tc main_arg13) = W6 m ρ c (Proc.devRef .tc main_arg13) :=
  W7_of_ne m ρ c main_arg13 (by decide)
theorem step8_main_arg13 (c : Dev nD) : W8 m ρ c (Proc.devRef .tc main_arg13) = W7 m ρ c (Proc.devRef .tc main_arg13) :=
  by keep_host hostOps3
theorem step9_main_arg13 (c : Dev nD) : W9 m ρ c (Proc.devRef .tc main_arg13) = W8 m ρ c (Proc.devRef .tc main_arg13) :=
  by keep_host hostOps3_1
theorem step10_main_arg13 (c : Dev nD) : W10 m ρ c (Proc.devRef .tc main_arg13) = W9 m ρ c (Proc.devRef .tc main_arg13) :=
  W10_of_ne m ρ c main_arg13 (by decide)
theorem step11_main_arg13 (c : Dev nD) : W11 m ρ c (Proc.devRef .tc main_arg13) = W10 m ρ c (Proc.devRef .tc main_arg13) :=
  by keep_host hostOps4
theorem step12_main_arg13 (c : Dev nD) : W12 m ρ c (Proc.devRef .tc main_arg13) = W11 m ρ c (Proc.devRef .tc main_arg13) :=
  W12_of_ne m ρ c main_arg13 (by decide)
theorem step13_main_arg13 (c : Dev nD) : W13 m ρ c (Proc.devRef .tc main_arg13) = W12 m ρ c (Proc.devRef .tc main_arg13) :=
  by keep_host hostOps5
theorem step14_main_arg13 (c : Dev nD) : W14 m ρ c (Proc.devRef .tc main_arg13) = W13 m ρ c (Proc.devRef .tc main_arg13) :=
  by keep_host hostOps5_1
theorem step15_main_arg13 (c : Dev nD) : W15 m ρ c (Proc.devRef .tc main_arg13) = W14 m ρ c (Proc.devRef .tc main_arg13) :=
  W15_of_ne m ρ c main_arg13 (by decide)
theorem step16_main_arg13 (c : Dev nD) : W16 m ρ c (Proc.devRef .tc main_arg13) = W15 m ρ c (Proc.devRef .tc main_arg13) :=
  by keep_host hostOps6
theorem step17_main_arg13 (c : Dev nD) : W17 m ρ c (Proc.devRef .tc main_arg13) = W16 m ρ c (Proc.devRef .tc main_arg13) :=
  W17_of_ne m ρ c main_arg13 (by decide)
theorem step18_main_arg13 (c : Dev nD) : W18 m ρ c (Proc.devRef .tc main_arg13) = W17 m ρ c (Proc.devRef .tc main_arg13) :=
  by keep_host hostOps7
theorem at1_main_arg13 (c : Dev nD) : W1 m ρ c (Proc.devRef .tc main_arg13) = W0 m ρ c (Proc.devRef .tc main_arg13) :=
  (step1_main_arg13 m ρ c)
theorem at2_main_arg13 (c : Dev nD) : W2 m ρ c (Proc.devRef .tc main_arg13) = W0 m ρ c (Proc.devRef .tc main_arg13) :=
  (step2_main_arg13 m ρ c).trans (at1_main_arg13 m ρ c)
theorem at3_main_arg13 (c : Dev nD) : W3 m ρ c (Proc.devRef .tc main_arg13) = W0 m ρ c (Proc.devRef .tc main_arg13) :=
  (step3_main_arg13 m ρ c).trans (at2_main_arg13 m ρ c)
theorem at4_main_arg13 (c : Dev nD) : W4 m ρ c (Proc.devRef .tc main_arg13) = W0 m ρ c (Proc.devRef .tc main_arg13) :=
  (step4_main_arg13 m ρ c).trans (at3_main_arg13 m ρ c)
theorem at5_main_arg13 (c : Dev nD) : W5 m ρ c (Proc.devRef .tc main_arg13) = W0 m ρ c (Proc.devRef .tc main_arg13) :=
  (step5_main_arg13 m ρ c).trans (at4_main_arg13 m ρ c)
theorem at6_main_arg13 (c : Dev nD) : W6 m ρ c (Proc.devRef .tc main_arg13) = W0 m ρ c (Proc.devRef .tc main_arg13) :=
  (step6_main_arg13 m ρ c).trans (at5_main_arg13 m ρ c)
theorem at7_main_arg13 (c : Dev nD) : W7 m ρ c (Proc.devRef .tc main_arg13) = W0 m ρ c (Proc.devRef .tc main_arg13) :=
  (step7_main_arg13 m ρ c).trans (at6_main_arg13 m ρ c)
theorem at8_main_arg13 (c : Dev nD) : W8 m ρ c (Proc.devRef .tc main_arg13) = W0 m ρ c (Proc.devRef .tc main_arg13) :=
  (step8_main_arg13 m ρ c).trans (at7_main_arg13 m ρ c)
theorem at9_main_arg13 (c : Dev nD) : W9 m ρ c (Proc.devRef .tc main_arg13) = W0 m ρ c (Proc.devRef .tc main_arg13) :=
  (step9_main_arg13 m ρ c).trans (at8_main_arg13 m ρ c)
theorem at10_main_arg13 (c : Dev nD) : W10 m ρ c (Proc.devRef .tc main_arg13) = W0 m ρ c (Proc.devRef .tc main_arg13) :=
  (step10_main_arg13 m ρ c).trans (at9_main_arg13 m ρ c)
theorem at11_main_arg13 (c : Dev nD) : W11 m ρ c (Proc.devRef .tc main_arg13) = W0 m ρ c (Proc.devRef .tc main_arg13) :=
  (step11_main_arg13 m ρ c).trans (at10_main_arg13 m ρ c)
theorem at12_main_arg13 (c : Dev nD) : W12 m ρ c (Proc.devRef .tc main_arg13) = W0 m ρ c (Proc.devRef .tc main_arg13) :=
  (step12_main_arg13 m ρ c).trans (at11_main_arg13 m ρ c)
theorem at13_main_arg13 (c : Dev nD) : W13 m ρ c (Proc.devRef .tc main_arg13) = W0 m ρ c (Proc.devRef .tc main_arg13) :=
  (step13_main_arg13 m ρ c).trans (at12_main_arg13 m ρ c)
theorem at14_main_arg13 (c : Dev nD) : W14 m ρ c (Proc.devRef .tc main_arg13) = W0 m ρ c (Proc.devRef .tc main_arg13) :=
  (step14_main_arg13 m ρ c).trans (at13_main_arg13 m ρ c)
theorem at15_main_arg13 (c : Dev nD) : W15 m ρ c (Proc.devRef .tc main_arg13) = W0 m ρ c (Proc.devRef .tc main_arg13) :=
  (step15_main_arg13 m ρ c).trans (at14_main_arg13 m ρ c)
theorem at16_main_arg13 (c : Dev nD) : W16 m ρ c (Proc.devRef .tc main_arg13) = W0 m ρ c (Proc.devRef .tc main_arg13) :=
  (step16_main_arg13 m ρ c).trans (at15_main_arg13 m ρ c)
theorem at17_main_arg13 (c : Dev nD) : W17 m ρ c (Proc.devRef .tc main_arg13) = W0 m ρ c (Proc.devRef .tc main_arg13) :=
  (step17_main_arg13 m ρ c).trans (at16_main_arg13 m ρ c)
theorem at18_main_arg13 (c : Dev nD) : W18 m ρ c (Proc.devRef .tc main_arg13) = W0 m ρ c (Proc.devRef .tc main_arg13) :=
  (step18_main_arg13 m ρ c).trans (at17_main_arg13 m ρ c)

theorem step2_main_v1 (c : Dev nD) : W2 m ρ c (Proc.devRef .tc main_v1) = W1 m ρ c (Proc.devRef .tc main_v1) :=
  W2_of_ne m ρ c main_v1 (by decide)
theorem step3_main_v1 (c : Dev nD) : W3 m ρ c (Proc.devRef .tc main_v1) = W2 m ρ c (Proc.devRef .tc main_v1) :=
  by keep_host hostOps1
theorem step4_main_v1 (c : Dev nD) : W4 m ρ c (Proc.devRef .tc main_v1) = W3 m ρ c (Proc.devRef .tc main_v1) :=
  by keep_host hostOps1_1
theorem step5_main_v1 (c : Dev nD) : W5 m ρ c (Proc.devRef .tc main_v1) = W4 m ρ c (Proc.devRef .tc main_v1) :=
  W5_of_ne m ρ c main_v1 (by decide)
theorem step6_main_v1 (c : Dev nD) : W6 m ρ c (Proc.devRef .tc main_v1) = W5 m ρ c (Proc.devRef .tc main_v1) :=
  by keep_host hostOps2
theorem step7_main_v1 (c : Dev nD) : W7 m ρ c (Proc.devRef .tc main_v1) = W6 m ρ c (Proc.devRef .tc main_v1) :=
  W7_of_ne m ρ c main_v1 (by decide)
theorem step8_main_v1 (c : Dev nD) : W8 m ρ c (Proc.devRef .tc main_v1) = W7 m ρ c (Proc.devRef .tc main_v1) :=
  by keep_host hostOps3
theorem step9_main_v1 (c : Dev nD) : W9 m ρ c (Proc.devRef .tc main_v1) = W8 m ρ c (Proc.devRef .tc main_v1) :=
  by keep_host hostOps3_1
theorem step10_main_v1 (c : Dev nD) : W10 m ρ c (Proc.devRef .tc main_v1) = W9 m ρ c (Proc.devRef .tc main_v1) :=
  W10_of_ne m ρ c main_v1 (by decide)
theorem step11_main_v1 (c : Dev nD) : W11 m ρ c (Proc.devRef .tc main_v1) = W10 m ρ c (Proc.devRef .tc main_v1) :=
  by keep_host hostOps4
theorem step12_main_v1 (c : Dev nD) : W12 m ρ c (Proc.devRef .tc main_v1) = W11 m ρ c (Proc.devRef .tc main_v1) :=
  W12_of_ne m ρ c main_v1 (by decide)
theorem at2_main_v1 (c : Dev nD) : W2 m ρ c (Proc.devRef .tc main_v1) = W1 m ρ c (Proc.devRef .tc main_v1) :=
  (step2_main_v1 m ρ c)
theorem at3_main_v1 (c : Dev nD) : W3 m ρ c (Proc.devRef .tc main_v1) = W1 m ρ c (Proc.devRef .tc main_v1) :=
  (step3_main_v1 m ρ c).trans (at2_main_v1 m ρ c)
theorem at4_main_v1 (c : Dev nD) : W4 m ρ c (Proc.devRef .tc main_v1) = W1 m ρ c (Proc.devRef .tc main_v1) :=
  (step4_main_v1 m ρ c).trans (at3_main_v1 m ρ c)
theorem at5_main_v1 (c : Dev nD) : W5 m ρ c (Proc.devRef .tc main_v1) = W1 m ρ c (Proc.devRef .tc main_v1) :=
  (step5_main_v1 m ρ c).trans (at4_main_v1 m ρ c)
theorem at6_main_v1 (c : Dev nD) : W6 m ρ c (Proc.devRef .tc main_v1) = W1 m ρ c (Proc.devRef .tc main_v1) :=
  (step6_main_v1 m ρ c).trans (at5_main_v1 m ρ c)
theorem at7_main_v1 (c : Dev nD) : W7 m ρ c (Proc.devRef .tc main_v1) = W1 m ρ c (Proc.devRef .tc main_v1) :=
  (step7_main_v1 m ρ c).trans (at6_main_v1 m ρ c)
theorem at8_main_v1 (c : Dev nD) : W8 m ρ c (Proc.devRef .tc main_v1) = W1 m ρ c (Proc.devRef .tc main_v1) :=
  (step8_main_v1 m ρ c).trans (at7_main_v1 m ρ c)
theorem at9_main_v1 (c : Dev nD) : W9 m ρ c (Proc.devRef .tc main_v1) = W1 m ρ c (Proc.devRef .tc main_v1) :=
  (step9_main_v1 m ρ c).trans (at8_main_v1 m ρ c)
theorem at10_main_v1 (c : Dev nD) : W10 m ρ c (Proc.devRef .tc main_v1) = W1 m ρ c (Proc.devRef .tc main_v1) :=
  (step10_main_v1 m ρ c).trans (at9_main_v1 m ρ c)
theorem at11_main_v1 (c : Dev nD) : W11 m ρ c (Proc.devRef .tc main_v1) = W1 m ρ c (Proc.devRef .tc main_v1) :=
  (step11_main_v1 m ρ c).trans (at10_main_v1 m ρ c)
theorem at12_main_v1 (c : Dev nD) : W12 m ρ c (Proc.devRef .tc main_v1) = W1 m ρ c (Proc.devRef .tc main_v1) :=
  (step12_main_v1 m ρ c).trans (at11_main_v1 m ρ c)

theorem step2_main_v3 (c : Dev nD) : W2 m ρ c (Proc.devRef .tc main_v3) = W1 m ρ c (Proc.devRef .tc main_v3) :=
  W2_of_ne m ρ c main_v3 (by decide)
theorem step3_main_v3 (c : Dev nD) : W3 m ρ c (Proc.devRef .tc main_v3) = W2 m ρ c (Proc.devRef .tc main_v3) :=
  by keep_host hostOps1
theorem step4_main_v3 (c : Dev nD) : W4 m ρ c (Proc.devRef .tc main_v3) = W3 m ρ c (Proc.devRef .tc main_v3) :=
  by keep_host hostOps1_1
theorem step5_main_v3 (c : Dev nD) : W5 m ρ c (Proc.devRef .tc main_v3) = W4 m ρ c (Proc.devRef .tc main_v3) :=
  W5_of_ne m ρ c main_v3 (by decide)
theorem step6_main_v3 (c : Dev nD) : W6 m ρ c (Proc.devRef .tc main_v3) = W5 m ρ c (Proc.devRef .tc main_v3) :=
  by keep_host hostOps2
theorem step7_main_v3 (c : Dev nD) : W7 m ρ c (Proc.devRef .tc main_v3) = W6 m ρ c (Proc.devRef .tc main_v3) :=
  W7_of_ne m ρ c main_v3 (by decide)
theorem step8_main_v3 (c : Dev nD) : W8 m ρ c (Proc.devRef .tc main_v3) = W7 m ρ c (Proc.devRef .tc main_v3) :=
  by keep_host hostOps3
theorem step9_main_v3 (c : Dev nD) : W9 m ρ c (Proc.devRef .tc main_v3) = W8 m ρ c (Proc.devRef .tc main_v3) :=
  by keep_host hostOps3_1
theorem step10_main_v3 (c : Dev nD) : W10 m ρ c (Proc.devRef .tc main_v3) = W9 m ρ c (Proc.devRef .tc main_v3) :=
  W10_of_ne m ρ c main_v3 (by decide)
theorem step11_main_v3 (c : Dev nD) : W11 m ρ c (Proc.devRef .tc main_v3) = W10 m ρ c (Proc.devRef .tc main_v3) :=
  by keep_host hostOps4
theorem step12_main_v3 (c : Dev nD) : W12 m ρ c (Proc.devRef .tc main_v3) = W11 m ρ c (Proc.devRef .tc main_v3) :=
  W12_of_ne m ρ c main_v3 (by decide)
theorem step13_main_v3 (c : Dev nD) : W13 m ρ c (Proc.devRef .tc main_v3) = W12 m ρ c (Proc.devRef .tc main_v3) :=
  by keep_host hostOps5
theorem at2_main_v3 (c : Dev nD) : W2 m ρ c (Proc.devRef .tc main_v3) = W1 m ρ c (Proc.devRef .tc main_v3) :=
  (step2_main_v3 m ρ c)
theorem at3_main_v3 (c : Dev nD) : W3 m ρ c (Proc.devRef .tc main_v3) = W1 m ρ c (Proc.devRef .tc main_v3) :=
  (step3_main_v3 m ρ c).trans (at2_main_v3 m ρ c)
theorem at4_main_v3 (c : Dev nD) : W4 m ρ c (Proc.devRef .tc main_v3) = W1 m ρ c (Proc.devRef .tc main_v3) :=
  (step4_main_v3 m ρ c).trans (at3_main_v3 m ρ c)
theorem at5_main_v3 (c : Dev nD) : W5 m ρ c (Proc.devRef .tc main_v3) = W1 m ρ c (Proc.devRef .tc main_v3) :=
  (step5_main_v3 m ρ c).trans (at4_main_v3 m ρ c)
theorem at6_main_v3 (c : Dev nD) : W6 m ρ c (Proc.devRef .tc main_v3) = W1 m ρ c (Proc.devRef .tc main_v3) :=
  (step6_main_v3 m ρ c).trans (at5_main_v3 m ρ c)
theorem at7_main_v3 (c : Dev nD) : W7 m ρ c (Proc.devRef .tc main_v3) = W1 m ρ c (Proc.devRef .tc main_v3) :=
  (step7_main_v3 m ρ c).trans (at6_main_v3 m ρ c)
theorem at8_main_v3 (c : Dev nD) : W8 m ρ c (Proc.devRef .tc main_v3) = W1 m ρ c (Proc.devRef .tc main_v3) :=
  (step8_main_v3 m ρ c).trans (at7_main_v3 m ρ c)
theorem at9_main_v3 (c : Dev nD) : W9 m ρ c (Proc.devRef .tc main_v3) = W1 m ρ c (Proc.devRef .tc main_v3) :=
  (step9_main_v3 m ρ c).trans (at8_main_v3 m ρ c)
theorem at10_main_v3 (c : Dev nD) : W10 m ρ c (Proc.devRef .tc main_v3) = W1 m ρ c (Proc.devRef .tc main_v3) :=
  (step10_main_v3 m ρ c).trans (at9_main_v3 m ρ c)
theorem at11_main_v3 (c : Dev nD) : W11 m ρ c (Proc.devRef .tc main_v3) = W1 m ρ c (Proc.devRef .tc main_v3) :=
  (step11_main_v3 m ρ c).trans (at10_main_v3 m ρ c)
theorem at12_main_v3 (c : Dev nD) : W12 m ρ c (Proc.devRef .tc main_v3) = W1 m ρ c (Proc.devRef .tc main_v3) :=
  (step12_main_v3 m ρ c).trans (at11_main_v3 m ρ c)
theorem at13_main_v3 (c : Dev nD) : W13 m ρ c (Proc.devRef .tc main_v3) = W1 m ρ c (Proc.devRef .tc main_v3) :=
  (step13_main_v3 m ρ c).trans (at12_main_v3 m ρ c)

theorem step3_main_v4 (c : Dev nD) : W3 m ρ c (Proc.devRef .tc main_v4) = W2 m ρ c (Proc.devRef .tc main_v4) :=
  by keep_host hostOps1
theorem at3_main_v4 (c : Dev nD) : W3 m ρ c (Proc.devRef .tc main_v4) = W2 m ρ c (Proc.devRef .tc main_v4) :=
  (step3_main_v4 m ρ c)

theorem step6_main_v23_0 (c : Dev nD) : W6 m ρ c (Proc.devRef .tc main_v23_0) = W5 m ρ c (Proc.devRef .tc main_v23_0) :=
  by keep_host hostOps2
theorem at6_main_v23_0 (c : Dev nD) : W6 m ρ c (Proc.devRef .tc main_v23_0) = W5 m ρ c (Proc.devRef .tc main_v23_0) :=
  (step6_main_v23_0 m ρ c)

theorem step8_main_v40 (c : Dev nD) : W8 m ρ c (Proc.devRef .tc main_v40) = W7 m ρ c (Proc.devRef .tc main_v40) :=
  by keep_host hostOps3
theorem at8_main_v40 (c : Dev nD) : W8 m ρ c (Proc.devRef .tc main_v40) = W7 m ρ c (Proc.devRef .tc main_v40) :=
  (step8_main_v40 m ρ c)

theorem step11_main_v59_0 (c : Dev nD) : W11 m ρ c (Proc.devRef .tc main_v59_0) = W10 m ρ c (Proc.devRef .tc main_v59_0) :=
  by keep_host hostOps4
theorem at11_main_v59_0 (c : Dev nD) : W11 m ρ c (Proc.devRef .tc main_v59_0) = W10 m ρ c (Proc.devRef .tc main_v59_0) :=
  (step11_main_v59_0 m ρ c)

theorem step13_main_v76 (c : Dev nD) : W13 m ρ c (Proc.devRef .tc main_v76) = W12 m ρ c (Proc.devRef .tc main_v76) :=
  by keep_host hostOps5
theorem at13_main_v76 (c : Dev nD) : W13 m ρ c (Proc.devRef .tc main_v76) = W12 m ρ c (Proc.devRef .tc main_v76) :=
  (step13_main_v76 m ρ c)

theorem step16_main_v95_0 (c : Dev nD) : W16 m ρ c (Proc.devRef .tc main_v95_0) = W15 m ρ c (Proc.devRef .tc main_v95_0) :=
  by keep_host hostOps6
theorem at16_main_v95_0 (c : Dev nD) : W16 m ρ c (Proc.devRef .tc main_v95_0) = W15 m ρ c (Proc.devRef .tc main_v95_0) :=
  (step16_main_v95_0 m ρ c)

end Cert.KernelIdeal.Keep

end
-- ==== Proof.Spec.lean ====
/-
  The mathematics of the network, stated once over plain index types, so that the kernel's blocks, the
  reference's host operations and the algebra joining them all speak of the same functions.

  A matrix is a function of a two-coordinate index, a row vector a function of a one-coordinate index, with
  values in the extended reals.
    * `affine x w b`      : entry (p, q) is  (sum over k of x (p, k) * w (k, q)) + b q   -- a dense layer
    * `relu`              : entrywise maximum with zero
    * `mlp`               : affine, relu, affine                                         -- the two-layer perceptron
    * `colSum z`          : entry q is the sum over all rows p of z (p, q)
    * `colSumSq z`        : entry q is the sum over all rows p of z (p, q) * z (p, q)
    * `normRelu`          : entry (p, q) is max (((z (p,q) - mu q) * rsqrt (v q + e)) * g q + s q) 0
  Every one of them is computed row by row: row p of the result reads only row p of the first argument
  (`colSum` excepted, which adds the rows up), which is what lets a result be assembled from row blocks.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An `a` by `b` table of extended reals. -/
abbrev Mat (a b : Nat) : Type := (⟨2, ![a, b]⟩ : Shape).Idx → EReal
/-- A vector of `n` extended reals. -/
abbrev Row (n : Nat) : Type := (⟨1, ![n]⟩ : Shape).Idx → EReal

variable {M K N : Nat}

/-- Entry (p, q) of the dense layer `x · w + b`. -/
def affineAt (x : Mat M K) (w : Mat K N) (b : Row N) (p : Fin M) (q : Fin N) : EReal :=
  (∑ k : Fin K, x (ix2 p k) * w (ix2 k q)) + b (ix1 q)

/-- The dense layer `x · w + b`. -/
def affine (x : Mat M K) (w : Mat K N) (b : Row N) : Mat M N :=
  fun i => affineAt x w b (i 0) (i 1)

theorem affine_ix2 (x : Mat M K) (w : Mat K N) (b : Row N) (p : Fin M) (q : Fin N) :
    affine x w b (ix2 p q) = affineAt x w b p q := rfl

/-- Entrywise maximum with zero. -/
def relu (x : Mat M N) : Mat M N := fun i => max (x i) 0

/-- Dense layer, maximum with zero, dense layer. -/
def mlp {A B C : Nat} (z : Mat M A) (w1 : Mat A B) (b1 : Row B) (w2 : Mat B C) (b2 : Row C) : Mat M C :=
  affine (relu (affine z w1 b1)) w2 b2

/-- Entry q: the sum of column q over all the rows. -/
def colSum (z : Mat M N) : Row N := fun j => ∑ p : Fin M, z (ix2 p (j 0))

/-- Entry q: the sum of the squares of column q over all the rows. -/
def colSumSq (z : Mat M N) : Row N := fun j => ∑ p : Fin M, z (ix2 p (j 0)) * z (ix2 p (j 0))

/-- Centre by `mu`, scale by the reciprocal square root of `v + e`, then by `g`, shift by `s`, maximum with zero,
    column by column. -/
def normReluAt (z : Mat M N) (mu v g s : Row N) (e : EReal) (p : Fin M) (q : Fin N) : EReal :=
  max ((((z (ix2 p q) - mu (ix1 q)) * Ideal.rsqrt (v (ix1 q) + e)) * g (ix1 q)) + s (ix1 q)) 0

def normRelu (z : Mat M N) (mu v g s : Row N) (e : EReal) : Mat M N :=
  fun i => normReluAt z mu v g s e (i 0) (i 1)

theorem normRelu_ix2 (z : Mat M N) (mu v g s : Row N) (e : EReal) (p : Fin M) (q : Fin N) :
    normRelu z mu v g s e (ix2 p q) = normReluAt z mu v g s e p q := rfl

/-- A one-row table read as a vector. -/
def rowOf (x : Mat 1 N) : Row N := fun j => x (ix2 (0 : Fin 1) (j 0))

/-- A vector laid out as a one-row table. -/
def asRow (x : Row N) : Mat 1 N := fun i => x (ix1 (i 1))

theorem rowOf_asRow (x : Row N) : rowOf (asRow x) = x := by
  funext j
  exact congrArg x (eq_ix1 j).symm

end Cert.Spec

end
-- ==== Proof.Arith.lean ====
/-
  Real numbers inside the extended reals, and the one algebraic law of this network that needs them.

  An extended real is FINITE when it is the image of a real number. Sums, differences, products, maxima with
  zero and finite sums of finite values are finite, a finite value divided by a nonzero real constant is finite,
  and the reciprocal square root of a positive real is finite; hence each function of the specification sends
  finite tables to finite tables.

  The law: for finite z_1 .. z_n with mean mu = (sum z_p) / n,
      (sum (z_p - mu)^2) / n  =  (sum z_p^2) / n  -  mu^2,
  both being the variance; and it is not negative. It fails at infinities (there a difference of infinities is a
  convention), which is why finiteness is carried.
-/
import proofs.«427472_j26645977105018_1_alg».proof.Proof.Spec
import Mathlib.Data.EReal.Operations
import Mathlib.Analysis.SpecialFunctions.Pow.Real

noncomputable section

namespace Cert.Arith

open Idealize.ShloMosaic Idealize.ShloMosaic.ValueIdx Cert.Spec

/-- The image of a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩
theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_sub {x y : EReal} (hx : IsReal x) (hy : IsReal y) : IsReal (x - y) := by
  obtain ⟨a, rfl⟩ := hx
  obtain ⟨b, rfl⟩ := hy
  exact ⟨a - b, (EReal.coe_sub a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_max_zero {x : EReal} (hx : IsReal x) : IsReal (max x 0) := by
  obtain ⟨a, rfl⟩ := hx
  exact ⟨max a 0, by rw [EReal.coe_strictMono.monotone.map_max, EReal.coe_zero]⟩
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- A finite sum of images of reals is the image of the real sum. -/
theorem coe_sum {ι : Type} (s : Finset ι) (f : ι → ℝ) : (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem div_coe_coe (a : ℝ) {n : ℝ} (hn : n ≠ 0) : Ideal.div (a : EReal) (n : EReal) = ((a / n : ℝ) : EReal) := by
  rw [Ideal.div_coe hn, ← EReal.coe_mul, mul_one_div]
/-- Division of the ideal instance by a nonzero real constant. -/
theorem isReal_div_coe {x : EReal} (hx : IsReal x) {n : ℝ} (hn : n ≠ 0) : IsReal (Ideal.div x (n : EReal)) := by
  obtain ⟨a, rfl⟩ := hx
  exact ⟨a / n, div_coe_coe a hn⟩

/-- The reciprocal square root of a positive real is a (positive) real. -/
theorem isReal_rsqrt_of_pos {x : ℝ} (hx : 0 < x) : IsReal (Ideal.rsqrt (x : EReal)) := by
  rw [Ideal.rsqrt_coe, if_neg (not_lt.mpr hx.le), if_neg hx.ne']
  exact ⟨_, rfl⟩

/-! ## The two float constants the programs share -/

/-- The word of the count of rows. -/
theorem ofBits_50000 : Ideal.ofBits .f32 0x47435000#32 = ((50000 : ℝ) : EReal) := by
  simp [Ideal.ofBits, Ideal.ieee, -EReal.coe_mul]; norm_num
/-- The word of the small positive constant under the square root. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The specification's functions keep tables finite -/

variable {M K N : Nat}

theorem affine_isReal (x : Mat M K) (w : Mat K N) (b : Row N) (hx : ∀ i, IsReal (x i)) (hw : ∀ i, IsReal (w i))
    (hb : ∀ i, IsReal (b i)) : ∀ i, IsReal (affine x w b i) := by
  intro i
  show IsReal (affineAt x w b (i 0) (i 1))
  unfold affineAt
  exact isReal_add (isReal_sum _ _ fun k _ => isReal_mul (hx _) (hw _)) (hb _)
theorem relu_isReal (x : Mat M N) (hx : ∀ i, IsReal (x i)) : ∀ i, IsReal (relu x i) := by
  intro i
  exact isReal_max_zero (hx i)
theorem mlp_isReal {A B C : Nat} (z : Mat M A) (w1 : Mat A B) (b1 : Row B) (w2 : Mat B C) (b2 : Row C)
    (hz : ∀ i, IsReal (z i)) (hw1 : ∀ i, IsReal (w1 i)) (hb1 : ∀ i, IsReal (b1 i)) (hw2 : ∀ i, IsReal (w2 i))
    (hb2 : ∀ i, IsReal (b2 i)) : ∀ i, IsReal (mlp z w1 b1 w2 b2 i) :=
  affine_isReal _ _ _ (relu_isReal _ (affine_isReal _ _ _ hz hw1 hb1)) hw2 hb2
theorem colSum_isReal (z : Mat M N) (hz : ∀ i, IsReal (z i)) : ∀ j, IsReal (colSum z j) := by
  intro j
  exact isReal_sum _ _ fun p _ => hz _
theorem colSumSq_isReal (z : Mat M N) (hz : ∀ i, IsReal (z i)) : ∀ j, IsReal (colSumSq z j) := by
  intro j
  exact isReal_sum _ _ fun p _ => isReal_mul (hz _) (hz _)
/-- When the variances `v` are real and not negative and `e` is a positive real, centring and scaling keeps a table finite. -/
theorem normRelu_isReal (z : Mat M N) (mu v g s : Row N) (e : ℝ) (he : 0 < e) (hz : ∀ i, IsReal (z i))
    (hmu : ∀ j, IsReal (mu j)) (hv : ∀ j, ∃ r : ℝ, 0 ≤ r ∧ v j = (r : EReal)) (hg : ∀ j, IsReal (g j))
    (hs : ∀ j, IsReal (s j)) : ∀ i, IsReal (normRelu z mu v g s (e : EReal) i) := by
  intro i
  show IsReal (normReluAt z mu v g s (e : EReal) (i 0) (i 1))
  unfold normReluAt
  obtain ⟨r, hr, hvr⟩ := hv (ix1 (i 1))
  have hrs : IsReal (Ideal.rsqrt (v (ix1 (i 1)) + (e : EReal))) := by
    rw [hvr, ← EReal.coe_add]
    exact isReal_rsqrt_of_pos (by linarith)
  exact isReal_max_zero (isReal_add (isReal_mul (isReal_mul (isReal_sub (hz _) (hmu _)) hrs) (hg _)) (hs _))

/-! ## The variance, two ways -/

/-- The identity over the reals: with `m` the mean, the mean of the squared deviations is the mean of the
    squares minus the squared mean. -/
private theorem real_meanSqDev (f : Fin M → ℝ) (hM : 0 < M) :
    (∑ p, (f p - (∑ p', f p') / (M : ℝ)) * (f p - (∑ p', f p') / (M : ℝ))) / (M : ℝ)
      = (∑ p, f p * f p) / (M : ℝ) - (∑ p', f p') / (M : ℝ) * ((∑ p', f p') / (M : ℝ)) := by
  have hM0 : (M : ℝ) ≠ 0 := by exact_mod_cast hM.ne'
  set S : ℝ := ∑ p', f p' with hS
  have expand : ∀ p, (f p - S / (M : ℝ)) * (f p - S / (M : ℝ))
      = f p * f p - 2 * (S / (M : ℝ)) * f p + S / (M : ℝ) * (S / (M : ℝ)) := fun p => by ring
  have key : (∑ p, (f p - S / (M : ℝ)) * (f p - S / (M : ℝ)))
      = (∑ p, f p * f p) - 2 * (S / (M : ℝ)) * S + (M : ℝ) * (S / (M : ℝ) * (S / (M : ℝ))) := by
    simp only [expand, Finset.sum_add_distrib, Finset.sum_sub_distrib, ← Finset.mul_sum, Finset.sum_const,
      Finset.card_univ, Fintype.card_fin, nsmul_eq_mul, ← hS]
    ring
  rw [key]
  field_simp
  ring

/-- Column `q` of a finite table is the image of a column of reals. -/
private theorem lift_col (z : Mat M N) (hz : ∀ i, IsReal (z i)) (q : Fin N) :
    ∃ f : Fin M → ℝ, ∀ p, z (ix2 p q) = (f p : EReal) :=
  ⟨fun p => (hz (ix2 p q)).choose, fun p => (hz (ix2 p q)).choose_spec⟩

/-- Over images of reals, the mean of the squared deviations is the image of the same expression over the reals. -/
private theorem meanSqDev_coe (f : Fin M → ℝ) {n : ℝ} (hn0 : n ≠ 0) :
    Ideal.div (∑ p : Fin M, ((f p : EReal) - Ideal.div (∑ p' : Fin M, (f p' : EReal)) (n : EReal))
        * ((f p : EReal) - Ideal.div (∑ p' : Fin M, (f p' : EReal)) (n : EReal))) (n : EReal)
      = (((∑ p, (f p - (∑ p', f p') / n) * (f p - (∑ p', f p') / n)) / n : ℝ) : EReal) := by
  simp only [coe_sum, div_coe_coe _ hn0, ← EReal.coe_sub, ← EReal.coe_mul]

/-- Mean of the squared deviations = mean of the squares minus the squared mean, over finite entries;
    `n` is the number of rows as a real. -/
theorem meanSqDev_eq (z : Mat M N) (hz : ∀ i, IsReal (z i)) (n : ℝ) (hn : n = (M : ℝ)) (hM : 0 < M) (q : Fin N) :
    Ideal.div (∑ p : Fin M, (z (ix2 p q) - Ideal.div (∑ p' : Fin M, z (ix2 p' q)) (n : EReal))
        * (z (ix2 p q) - Ideal.div (∑ p' : Fin M, z (ix2 p' q)) (n : EReal))) (n : EReal)
      = Ideal.div (∑ p : Fin M, z (ix2 p q) * z (ix2 p q)) (n : EReal)
        - Ideal.div (∑ p' : Fin M, z (ix2 p' q)) (n : EReal) * Ideal.div (∑ p' : Fin M, z (ix2 p' q)) (n : EReal) := by
  have hn0 : n ≠ 0 := by rw [hn]; exact_mod_cast hM.ne'
  obtain ⟨f, hf⟩ := lift_col z hz q
  simp only [hf]
  rw [meanSqDev_coe f hn0]
  simp only [coe_sum, div_coe_coe _ hn0, ← EReal.coe_sub, ← EReal.coe_mul]
  subst hn
  exact congrArg _ (real_meanSqDev f hM)

/-- The mean of the squared deviations is a real number that is not negative. -/
theorem meanSqDev_nonneg (z : Mat M N) (hz : ∀ i, IsReal (z i)) (n : ℝ) (hn : n = (M : ℝ)) (hM : 0 < M) (q : Fin N) :
    ∃ r : ℝ, 0 ≤ r ∧ Ideal.div (∑ p : Fin M, (z (ix2 p q) - Ideal.div (∑ p' : Fin M, z (ix2 p' q)) (n : EReal))
        * (z (ix2 p q) - Ideal.div (∑ p' : Fin M, z (ix2 p' q)) (n : EReal))) (n : EReal) = (r : EReal) := by
  have hn0 : n ≠ 0 := by rw [hn]; exact_mod_cast hM.ne'
  obtain ⟨f, hf⟩ := lift_col z hz q
  simp only [hf]
  refine ⟨_, ?_, meanSqDev_coe f hn0⟩
  exact div_nonneg (Finset.sum_nonneg fun p _ => mul_self_nonneg _) (by rw [hn]; exact Nat.cast_nonneg M)

/-- The mean of a finite column is finite. -/
theorem mean_isReal (z : Mat M N) (hz : ∀ i, IsReal (z i)) (n : ℝ) (hn : n ≠ 0) (q : Fin N) :
    IsReal (Ideal.div (∑ p : Fin M, z (ix2 p q)) (n : EReal)) :=
  isReal_div_coe (isReal_sum _ _ fun p _ => hz _) hn

end Cert.Arith

end
-- ==== Proof.Layer.lean ====
/-
  One layer's normalisation, with the variance computed two ways.

  Given the table z of a layer (rows = nodes, columns = features) and the number of rows n as a float constant:
    * the column means          mu q = (sum over rows of z (p, q)) / n
    * the kernel's variance     (sum of z (p, q)^2) / n - mu q * mu q
    * the reference's variance  (sum of (z (p, q) - mu q)^2) / n
  and the layer's output  max (((z - mu) * rsqrt (var + e)) * g + s) 0.  Over finite entries the two variances are
  one number (Arith.meanSqDev_eq), so the two outputs are one table; the output is again finite, because the
  variance is a real that is not negative and e is positive.
-/
import proofs.«427472_j26645977105018_1_alg».proof.Proof.Spec
import proofs.«427472_j26645977105018_1_alg».proof.Proof.Arith

noncomputable section

namespace Cert.Layer

open Idealize.ShloMosaic Idealize.ShloMosaic.ValueIdx Cert.Spec Cert.Arith

variable {M N : Nat}

/-- The column means. -/
def meanOf (z : Mat M N) (n : EReal) : Row N := fun j => Ideal.div (colSum z j) n

/-- The variance as the mean of the squares less the squared mean. -/
def varBySquares (z : Mat M N) (n : EReal) : Row N :=
  fun j => Ideal.div (colSumSq z j) n - meanOf z n j * meanOf z n j

/-- The variance as the mean of the squared deviations from the mean. -/
def varByDeviation (z : Mat M N) (n : EReal) : Row N :=
  fun j => Ideal.div (∑ p : Fin M, (z (ix2 p (j 0)) - meanOf z n j) * (z (ix2 p (j 0)) - meanOf z n j)) n

/-- Over finite entries the two variances agree. -/
theorem var_two_ways (z : Mat M N) (hz : ∀ i, IsReal (z i)) (n : ℝ) (hn : n = (M : ℝ)) (hM : 0 < M) :
    varBySquares z (n : EReal) = varByDeviation z (n : EReal) :=
  funext fun j => (meanSqDev_eq z hz n hn hM (j 0)).symm

/-- The layer's output for a given way of computing the variance. -/
def outWith (var : Mat M N → EReal → Row N) (z : Mat M N) (g s : Row N) (e n : EReal) : Mat M N :=
  normRelu z (meanOf z n) (var z n) g s e

/-- The two programs' outputs of a layer are one table. -/
theorem out_two_ways (z : Mat M N) (hz : ∀ i, IsReal (z i)) (g s : Row N) (e : EReal) (n : ℝ) (hn : n = (M : ℝ))
    (hM : 0 < M) : outWith varBySquares z g s e (n : EReal) = outWith varByDeviation z g s e (n : EReal) := by
  unfold outWith
  rw [var_two_ways z hz n hn hM]

/-- A layer's output is finite when its table, scale and shift are. -/
theorem out_isReal (z : Mat M N) (hz : ∀ i, IsReal (z i)) (g s : Row N) (hg : ∀ j, IsReal (g j)) (hs : ∀ j, IsReal (s j))
    (e : ℝ) (he : 0 < e) (n : ℝ) (hn : n = (M : ℝ)) (hM : 0 < M) :
    ∀ i, IsReal (outWith varByDeviation z g s (e : EReal) (n : EReal) i) := by
  have hn0 : n ≠ 0 := by
    rw [hn]; exact Nat.cast_ne_zero.mpr (Nat.pos_iff_ne_zero.mp hM)
  exact normRelu_isReal z _ _ g s e he hz (fun j => mean_isReal z hz n hn0 (j 0))
    (fun j => meanSqDev_nonneg z hz n hn hM (j 0)) hg hs

end Cert.Layer

end
-- ==== Proof.Stages.lean ====
/-
  The network's stages as functions of arrays, written once in the spelling both printed programs use.

  Host-side stages (they are the same operations in the kernel's program and in the reference):
    * `srcOf`, `dstOf`   : the two rows of the edge list, as vectors of node ids
    * `wrapped s`         : a negative id counts from the end: s + 50000 where s < 0, else s; laid out as one column
    * `takeR h s`         : row e is row (wrapped s) e of the table h                     (the reference's neighbour rows)
    * `takeK h s`         : the same, but a row whose wrapped id lies outside [0, 49999] is replaced by a fill word
                              (the kernel's neighbour rows)
    * `combine e h t d`   : (1 + e) * h + (the rows t added up into the rows their ids d name)
    * `pool h b`          : the rows of h added up by group id b, each group's sum divided by max (its size, 1)
    * `scalarAt l`, `matAt l`, `vecAt l` : layer l's entry / matrix / vector of a stacked parameter
  and a whole layer, with the neighbour rows and the variance taken either program's way:
    * `layerWith take var h s d e w1 b1 w2 b2 g b`
        = the normalisation (Layer.outWith var) of the perceptron (Spec.mlp) of  combine e h (take h s) d .
-/
import proofs.«427472_j26645977105018_1_alg».proof.KernelIdeal
import proofs.«427472_j26645977105018_1_alg».proof.Proof.Spec
import proofs.«427472_j26645977105018_1_alg».proof.Proof.Layer
import Idealize.ShloMosaic.PureOps.Ideal

noncomputable section

namespace Cert.Stages

open Idealize.ShloMosaic Idealize.ShloMosaic.ValueIdx Cert.KernelIdeal Cert.Spec Cert.Layer

variable [Cert.KernelIdeal.Facts]
open Cert.KernelIdeal.Facts₀ Cert.KernelIdeal.Facts

/-- Row 0 of the edge list: the source node of every edge. -/
def srcOf (e : IVec S2x800000 32) : IVec S800000 32 :=
  shapeCast S800000 (extractStridedSlice S1x800000 ![0, 0] e slices_S2x800000_S1x800000_0_0) shapeCasts_S1x800000_S800000

/-- Row 1 of the edge list: the target node of every edge. -/
def dstOf (e : IVec S2x800000 32) : IVec S800000 32 :=
  shapeCast S800000 (extractStridedSlice S1x800000 ![1, 0] e slices_S2x800000_S1x800000_1_0) shapeCasts_S1x800000_S800000

/-- A negative id counts from the end of the 50000 rows; the ids as one column. -/
def wrapped (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of `h` the ids name (an id outside the table reads the nearest row). -/
def takeR (h : FVec Ideal S50000x64 .f32) (s : IVec S800000 32) : FVec Ideal S800000x64 .f32 :=
  Host.gather gather_S50000x64_S800000x1_S800000x64_1_0_n_n_0_1_164 h (wrapped s)

/-- The same rows, a row whose id lies outside the table replaced by the fill word. -/
def takeK (h : FVec Ideal S50000x64 .f32) (s : IVec S800000 32) : FVec Ideal S800000x64 .f32 :=
  select (broadcastInDim S800000x64 ![0] bcast_S800000_S800000x64_0
      (Host.reduce IntOp.andi
        (andi (cmpi .sge (wrapped s) (broadcastInDim S800000x1 ![] bcast_S_S800000x1 (constantI S_ 32 0#32)))
          (cmpi .sle (wrapped s) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (takeR h s) (broadcastInDim S800000x64 ![] bcast_S_S800000x64 (constant S_ .f32 0x7FC00000#32))

/-- (1 + e) * h plus the neighbour rows `t` added up into the rows their target ids `d` name. -/
def combine (e : FVec Ideal S_ .f32) (h : FVec Ideal S50000x64 .f32) (t : FVec Ideal S800000x64 .f32) (d : IVec S800000 32) :
    FVec Ideal S50000x64 .f32 :=
  addf (mulf (broadcastInDim S50000x64 ![] bcast_S_S50000x64 (addf (constant S_ .f32 0x3F800000#32) e)) h)
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d) t)

/-- Group sums of the rows of `h` by group id `b`, each divided by the larger of the group's size and one. -/
def pool (h : FVec Ideal S50000x64 .f32) (b : IVec S50000 32) : FVec Ideal S512x64 .f32 :=
  Host.divf
    (Host.scatterAdd scatter_S512x64_S50000x1_S50000x64_1_0_0_1
      (broadcastInDim S512x64 ![] bcast_S_S512x64 (constant S_ .f32 0x00000000#32))
      (broadcastInDim S50000x1 ![0] bcast_S50000_S50000x1_0 b) h)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 b)
            (broadcastInDim S50000 ![] bcast_S_S50000 (constant S_ .f32 0x3F800000#32)))
          (broadcastInDim S512 ![] bcast_S_S512 (constant S_ .f32 0x3F800000#32)))))

/-- Layer 0's entry of the stacked scalars. -/
def scalarAt0 (a : FVec Ideal S3 .f32) : FVec Ideal S_ .f32 :=
  shapeCast S_ (extractStridedSlice S1 ![0] a slices_S3_S1_0) shapeCasts_S1_S_
/-- Layer 0's matrix of the stacked matrices. -/
def matAt0 (a : FVec Ideal S3x64x64 .f32) : FVec Ideal S64x64 .f32 :=
  shapeCast S64x64 (extractStridedSlice S1x64x64 ![0, 0, 0] a slices_S3x64x64_S1x64x64_0_0_0) shapeCasts_S1x64x64_S64x64
/-- Layer 0's vector of the stacked vectors. -/
def vecAt0 (a : FVec Ideal S3x64 .f32) : FVec Ideal S64 .f32 :=
  shapeCast S64 (extractStridedSlice S1x64 ![0, 0] a slices_S3x64_S1x64_0_0) shapeCasts_S1x64_S64

/-- Layer 1's entry of the stacked scalars. -/
def scalarAt1 (a : FVec Ideal S3 .f32) : FVec Ideal S_ .f32 :=
  shapeCast S_ (extractStridedSlice S1 ![1] a slices_S3_S1_1) shapeCasts_S1_S_
/-- Layer 1's matrix of the stacked matrices. -/
def matAt1 (a : FVec Ideal S3x64x64 .f32) : FVec Ideal S64x64 .f32 :=
  shapeCast S64x64 (extractStridedSlice S1x64x64 ![1, 0, 0] a slices_S3x64x64_S1x64x64_1_0_0) shapeCasts_S1x64x64_S64x64
/-- Layer 1's vector of the stacked vectors. -/
def vecAt1 (a : FVec Ideal S3x64 .f32) : FVec Ideal S64 .f32 :=
  shapeCast S64 (extractStridedSlice S1x64 ![1, 0] a slices_S3x64_S1x64_1_0) shapeCasts_S1x64_S64

/-- Layer 2's entry of the stacked scalars. -/
def scalarAt2 (a : FVec Ideal S3 .f32) : FVec Ideal S_ .f32 :=
  shapeCast S_ (extractStridedSlice S1 ![2] a slices_S3_S1_2) shapeCasts_S1_S_
/-- Layer 2's matrix of the stacked matrices. -/
def matAt2 (a : FVec Ideal S3x64x64 .f32) : FVec Ideal S64x64 .f32 :=
  shapeCast S64x64 (extractStridedSlice S1x64x64 ![2, 0, 0] a slices_S3x64x64_S1x64x64_2_0_0) shapeCasts_S1x64x64_S64x64
/-- Layer 2's vector of the stacked vectors. -/
def vecAt2 (a : FVec Ideal S3x64 .f32) : FVec Ideal S64 .f32 :=
  shapeCast S64 (extractStridedSlice S1x64 ![2, 0] a slices_S3x64_S1x64_2_0) shapeCasts_S1x64_S64

/-- The word of the small constant under the square root, and the word of the number of rows, as extended reals. -/
abbrev epsC : EReal := Ideal.ofBits .f32 0x3727C5AC#32
abbrev rowsC : EReal := Ideal.ofBits .f32 0x47435000#32

/-- The perceptron's table of a layer, for a given way of taking the neighbour rows. -/
def zWith (take : FVec Ideal S50000x64 .f32 → IVec S800000 32 → FVec Ideal S800000x64 .f32)
    (h : FVec Ideal S50000x64 .f32) (s d : IVec S800000 32) (e : FVec Ideal S_ .f32)
    (w1 : FVec Ideal S64x64 .f32) (b1 : FVec Ideal S64 .f32) (w2 : FVec Ideal S64x64 .f32) (b2 : FVec Ideal S64 .f32) : Mat 50000 64 :=
  mlp (combine e h (take h s) d : Mat 50000 64) (w1 : Mat 64 64) (b1 : Row 64) (w2 : Mat 64 64) (b2 : Row 64)

/-- A whole layer, for a given way of taking the neighbour rows and of computing the variance. -/
def layerWith (take : FVec Ideal S50000x64 .f32 → IVec S800000 32 → FVec Ideal S800000x64 .f32)
    (var : Mat 50000 64 → EReal → Row 64)
    (h : FVec Ideal S50000x64 .f32) (s d : IVec S800000 32) (e : FVec Ideal S_ .f32)
    (w1 : FVec Ideal S64x64 .f32) (b1 : FVec Ideal S64 .f32) (w2 : FVec Ideal S64x64 .f32) (b2 : FVec Ideal S64 .f32)
    (g b : FVec Ideal S64 .f32) : Mat 50000 64 :=
  outWith var (zWith take h s d e w1 b1 w2 b2) (g : Row 64) (b : Row 64) epsC rowsC

/-- The kernel's layer and the reference's layer. -/
abbrev layerK := layerWith takeK varBySquares
abbrev layerR := layerWith takeR varByDeviation

/-- The node features after the encoder. -/
def feat0 (a0 : FVec Ideal S50000x128 .f32) (a3 : FVec Ideal S128x64 .f32) (a4 : FVec Ideal S64 .f32) : Mat 50000 64 :=
  affine (a0 : Mat 50000 128) (a3 : Mat 128 64) (a4 : Row 64)

/-- The node features after layer 0, 1, 2, each from the features before it and the layer's parameters. -/
def feat1 (take : FVec Ideal S50000x64 .f32 → IVec S800000 32 → FVec Ideal S800000x64 .f32) (var : Mat 50000 64 → EReal → Row 64)
    (a0 : FVec Ideal S50000x128 .f32) (a1 : IVec S2x800000 32) (a2 : IVec S50000 32) (a3 : FVec Ideal S128x64 .f32)
    (a4 : FVec Ideal S64 .f32) (a5 : FVec Ideal S3 .f32) (a6 : FVec Ideal S3x64x64 .f32) (a7 : FVec Ideal S3x64 .f32)
    (a8 : FVec Ideal S3x64x64 .f32) (a9 : FVec Ideal S3x64 .f32) (a10 : FVec Ideal S3x64 .f32) (a11 : FVec Ideal S3x64 .f32)
    (a12 : FVec Ideal S64x10 .f32) (a13 : FVec Ideal S10 .f32) : Mat 50000 64 :=
  layerWith take var (feat0 a0 a3 a4) (srcOf a1) (dstOf a1) (scalarAt0 a5) (matAt0 a6) (vecAt0 a7) (matAt0 a8) (vecAt0 a9) (vecAt0 a10) (vecAt0 a11)
def feat2 (take : FVec Ideal S50000x64 .f32 → IVec S800000 32 → FVec Ideal S800000x64 .f32) (var : Mat 50000 64 → EReal → Row 64)
    (a0 : FVec Ideal S50000x128 .f32) (a1 : IVec S2x800000 32) (a2 : IVec S50000 32) (a3 : FVec Ideal S128x64 .f32)
    (a4 : FVec Ideal S64 .f32) (a5 : FVec Ideal S3 .f32) (a6 : FVec Ideal S3x64x64 .f32) (a7 : FVec Ideal S3x64 .f32)
    (a8 : FVec Ideal S3x64x64 .f32) (a9 : FVec Ideal S3x64 .f32) (a10 : FVec Ideal S3x64 .f32) (a11 : FVec Ideal S3x64 .f32)
    (a12 : FVec Ideal S64x10 .f32) (a13 : FVec Ideal S10 .f32) : Mat 50000 64 :=
  layerWith take var (feat1 take var a0 a1 a2 a3 a4 a5 a6 a7 a8 a9 a10 a11 a12 a13) (srcOf a1) (dstOf a1) (scalarAt1 a5) (matAt1 a6) (vecAt1 a7) (matAt1 a8) (vecAt1 a9) (vecAt1 a10) (vecAt1 a11)
def feat3 (take : FVec Ideal S50000x64 .f32 → IVec S800000 32 → FVec Ideal S800000x64 .f32) (var : Mat 50000 64 → EReal → Row 64)
    (a0 : FVec Ideal S50000x128 .f32) (a1 : IVec S2x800000 32) (a2 : IVec S50000 32) (a3 : FVec Ideal S128x64 .f32)
    (a4 : FVec Ideal S64 .f32) (a5 : FVec Ideal S3 .f32) (a6 : FVec Ideal S3x64x64 .f32) (a7 : FVec Ideal S3x64 .f32)
    (a8 : FVec Ideal S3x64x64 .f32) (a9 : FVec Ideal S3x64 .f32) (a10 : FVec Ideal S3x64 .f32) (a11 : FVec Ideal S3x64 .f32)
    (a12 : FVec Ideal S64x10 .f32) (a13 : FVec Ideal S10 .f32) : Mat 50000 64 :=
  layerWith take var (feat2 take var a0 a1 a2 a3 a4 a5 a6 a7 a8 a9 a10 a11 a12 a13) (srcOf a1) (dstOf a1) (scalarAt2 a5) (matAt2 a6) (vecAt2 a7) (matAt2 a8) (vecAt2 a9) (vecAt2 a10) (vecAt2 a11)

/-- The whole network: encoder, three layers, pooling by graph, linear head. -/
def netWith (take : FVec Ideal S50000x64 .f32 → IVec S800000 32 → FVec Ideal S800000x64 .f32) (var : Mat 50000 64 → EReal → Row 64)
    (a0 : FVec Ideal S50000x128 .f32) (a1 : IVec S2x800000 32) (a2 : IVec S50000 32) (a3 : FVec Ideal S128x64 .f32)
    (a4 : FVec Ideal S64 .f32) (a5 : FVec Ideal S3 .f32) (a6 : FVec Ideal S3x64x64 .f32) (a7 : FVec Ideal S3x64 .f32)
    (a8 : FVec Ideal S3x64x64 .f32) (a9 : FVec Ideal S3x64 .f32) (a10 : FVec Ideal S3x64 .f32) (a11 : FVec Ideal S3x64 .f32)
    (a12 : FVec Ideal S64x10 .f32) (a13 : FVec Ideal S10 .f32) : Mat 512 10 :=
  affine (pool (feat3 take var a0 a1 a2 a3 a4 a5 a6 a7 a8 a9 a10 a11 a12 a13) a2 : Mat 512 64) (a12 : Mat 64 10) (a13 : Row 10)

/-- The kernel's network and the reference's network. -/
abbrev netK := netWith takeK varBySquares
abbrev netR := netWith takeR varByDeviation

end Cert.Stages

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Region0Value.lean ====
/-
  The encoder's region: the node-feature array after it.

  The region runs over five points; point t holds rows 10000 t … 10000 t + 9999 of the 50000 × 128 feature array,
  the whole 128 × 64 weight array and the whole bias vector of length 64, and writes back rows
  10000 t … 10000 t + 9999 of the 50000 × 64 result. Entry (p, q) of the block it stores is the sum over k of
  x (p, k) · w (k, q), plus b q: the format changes on the way are the identity on extended reals, the product into
  the zero accumulator is the plain matrix product, and the bias is laid out as one row and repeated down the rows.
  So each point writes back its block of ONE function of the three argument arrays, the dense layer x · w + b, and
  since row r of the result lies in the block of point r / 10000, the five blocks tile the array: after the region
  it holds that function.
-/
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen Cert.Spec

variable (V : (c : Dev nD) → (b : Ref sig .tc) → Buf (Elt Ideal) ((c : Thread nD τ).loc b))

/-- The zero offsets of a rank-2 access, as a constant function. -/
theorem hz2 : (![0, 0] : Fin 2 → Nat) = fun _ => 0 := funext fun a => by fin_cases a <;> rfl
/-- The zero offset of a rank-1 access, as a constant function. -/
theorem hz1 : (![0] : Fin 1 → Nat) = fun _ => 0 := funext fun a => by fin_cases a; rfl

/-- Entry (p, q) of the block the body stores: row p of the feature block against column q of the weights,
    plus entry q of the bias. -/
theorem pay_apply (x : Vec Ideal S10000x128 .f32) (w : Vec Ideal S128x64 .f32) (b : Vec Ideal S64 .f32)
    (p : Fin 10000) (q : Fin 64) :
    (k0_pay1 (F := Ideal) x w b) (ix2 p q) = (∑ k : Fin 128, x (ix2 p k) * w (ix2 k q)) + b (ix1 q) := by
  unfold k0_pay1
  refine congrArg₂ (· + ·) ?_ ?_
  · exact Cert.LibPlainDot.matmul_zero_apply dot_S10000x128_S128x64_S10000x64_1_0_0_1_n_n rfl rfl rfl rfl rfl rfl none _ _ p q
  · refine (broadcastTo_1b_ab_apply _ _ p q).trans ?_
    refine (shapeCast_addUnit_apply ![64] b _ (ix2 (0 : Fin 1) q)).trans (congrArg b ?_)
    funext a; match a with | ⟨0, _⟩ => rfl

/-- The printed index maps over the five points: the row-blocked windows sit at block row t, the whole
    windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The region has five points. -/
theorem N5 : cfg0.N = 5 := N_0

/-- Row p of the feature block at point t is row 10000 t + p of the feature array. -/
theorem xblk_apply (c : Dev nD) (t : Fin cfg0.N) (p : Fin 10000) (k : Fin 128) (h : t.val * 10000 + p.val < 50000) :
    (iblk0 V c 0 t : Vec Ideal S10000x128 .f32) (ix2 p k)
      = (V c main_arg0 : Mat 50000 128) (ix2 (⟨t.val * 10000 + p.val, h⟩ : Fin 50000) k) := by
  obtain ⟨e0, e1, -⟩ := idx_facts t
  show V c main_arg0 (((cfg0.win 0).blk t).view.emb (ix2 p k)) = V c main_arg0 _
  refine congrArg (V c main_arg0) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The weight block at every point is the weight array. -/
theorem wblk_apply (c : Dev nD) (t : Fin cfg0.N) (k : Fin 128) (q : Fin 64) :
    (iblk0 V c 1 t : Vec Ideal S128x64 .f32) (ix2 k q) = (V c main_arg3 : Mat 128 64) (ix2 k q) := by
  obtain ⟨-, -, e0, e1, -⟩ := idx_facts t
  show V c main_arg3 (((cfg0.win 1).blk t).view.emb (ix2 k q)) = V c main_arg3 _
  refine congrArg (V c main_arg3) (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The bias block at every point is the bias array. -/
theorem bblk_apply (c : Dev nD) (t : Fin cfg0.N) (q : Fin 64) :
    (iblk0 V c 2 t : Vec Ideal S64 .f32) (ix1 q) = (V c main_arg4 : Row 64) (ix1 q) := by
  obtain ⟨-, -, -, -, e0, -⟩ := idx_facts t
  show V c main_arg4 (((cfg0.win 2).blk t).view.emb (ix1 q)) = V c main_arg4 _
  refine congrArg (V c main_arg4) (funext fun a => Fin.ext ?_)
  match a with
  | ⟨0, _⟩ => show win0_2.index t (0 : Fin 1) * 64 + 1 * q.val = q.val; rw [e0]; omega

/-- Entry (p, q) of the output block at point t sits at row 10000 t + p, column q of the output array. -/
theorem oblk_emb (t : Fin cfg0.N) (p : Fin 10000) (q : Fin 64) (h : t.val * 10000 + p.val < 50000) :
    (((cfg0.win 3).blk t).view.emb (ix2 p q) : S50000x64.Idx) = ix2 (⟨t.val * 10000 + p.val, h⟩ : Fin 50000) q := by
  obtain ⟨-, -, -, -, -, e0, e1⟩ := idx_facts t
  refine funext fun a => Fin.ext ?_
  match a with
  | ⟨0, _⟩ => show win0_3.index t (0 : Fin 2) * 10000 + 1 * p.val = t.val * 10000 + p.val; rw [e0]; omega
  | ⟨1, _⟩ => show win0_3.index t (1 : Fin 2) * 64 + 1 * q.val = q.val; rw [e1]; omega

/-- What point t writes back is block t of the dense layer of the three argument arrays. -/
theorem flushed_eq (c : Dev nD) (t : Fin cfg0.N) :
    (dat0 (F := Ideal) V c).flushed 3 t = ((cfg0.win 3).blk t).view.read (Elt Ideal)
      (affine (V c main_arg0 : Mat 50000 128) (V c main_arg3 : Mat 128 64) (V c main_arg4 : Row 64)) := by
  show (cfg0.win 3).cut (grid0.coords t) ((dat0 (F := Ideal) V c).after 3 t) = _
  rw [after0_3]
  unfold out0_3
  rw [View.canon_unit_zero hz2]
  simp only [View.ld_unit_zero (S := S10000x128) hz2, View.ld_unit_zero (S := S128x64) hz2, View.ld_unit_zero (S := S64) hz1]
  funext j
  obtain ⟨p, q, rfl⟩ : ∃ (p : Fin 10000) (q : Fin 64), j = ix2 p q := ⟨j 0, j 1, eq_ix2 j⟩
  have ht : t.val < 5 := N5 ▸ t.isLt
  have h : t.val * 10000 + p.val < 50000 := by have := p.isLt; omega
  refine (pay_apply (iblk0 V c 0 t) (iblk0 V c 1 t) (iblk0 V c 2 t) p q).trans ?_
  show _ = affine (V c main_arg0 : Mat 50000 128) (V c main_arg3 : Mat 128 64) (V c main_arg4 : Row 64) (((cfg0.win 3).blk t).view.emb (ix2 p q))
  rw [oblk_emb t p q h, affine_ix2]
  unfold affineAt
  rw [bblk_apply V c t q]
  refine congrArg (· + _) (Finset.sum_congr rfl fun k _ => ?_)
  rw [xblk_apply V c t p k h, wblk_apply V c t k q]

/-- An index of the output array lies in point t's block iff each coordinate is in the block's range on its axis. -/
theorem mem_blk (t : Fin cfg0.N) (i : S50000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v4).slice (win0_3.rect t)).set ↔ _
  rw [View.set_slice_whole, Rect.mem_set_unit]
  exact Iff.rfl

/-- Every row r of the output array is written back by the point r / 10000: the five row blocks tile the array. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 10000 := ⟨⟨(i 0).val / 10000, by rw [N5]; omega⟩, rfl⟩
  obtain ⟨-, -, -, -, -, e0, e1⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 64 ≤ (i 1).val ∧ (i 1).val < win0_3.index t (1 : Fin 2) * 64 + 64
    rw [e1]; omega

/-- After the encoder's region the node-feature array holds the dense layer of the three argument arrays. -/
theorem encoded (c : Dev nD) :
    (dat0 (F := Ideal) V c).arrAt 3 cfg0.N
      = affine (V c main_arg0 : Mat 50000 128) (V c main_arg3 : Mat 128 64) (V c main_arg4 : Row 64) :=
  (dat0 (F := Ideal) V c).arrAt_eq_of_cover 3 _ (fun t _ => flushed_eq V c t) cover

end Cert.KernelIdeal.Region0

end
-- ==== Proof.Region7Value.lean ====
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The final linear head, read as a value

The last region multiplies the 512 × 64 table of pooled features by the 64 × 10 weight table and adds the bias
row to every row of the product. Its grid has one point and each of its four windows is its whole array, so the
one block written back is the whole result.

* `stored_apply`, `stored_eq`: what the body stores is the dense layer of what it loaded, entry by entry.
* `block0`, `block1`, `block2`: each input block is its whole array, every block index being zero.
* `flushed_eq`, `covered`, `headed`: the block written back is the dense layer of the arrays the region finds,
  it covers every index, and so the result array ends holding that dense layer.
-/

set_option maxRecDepth 16384

noncomputable section

namespace Cert.KernelIdeal.Region7

open Idealize.ShloMosaic Idealize.ShloMosaic.TcCoe Idealize.ShloMosaic.ValueIdx Idealize.SL.Sem
open Cert.KernelIdeal Cert.KernelIdeal.Gen Cert.Spec

/-- The two zero offsets of a whole rank-two access are the constant zero function. -/
theorem zero_offsets_two : (![0, 0] : Fin 2 → Nat) = fun _ => 0 := funext fun a => by fin_cases a <;> rfl

/-- The zero offset of a whole rank-one access is the constant zero function. -/
theorem zero_offsets_one : (![0] : Fin 1 → Nat) = fun _ => 0 := funext fun a => by fin_cases a <;> rfl

/-! ## What the body stores -/

/-- Entry (p, q) of what the body stores: row p of the features against column q of the weights, summed over the
    64 features, plus entry q of the bias. The two narrowings of the operands are the identity on extended reals,
    the product starts from the zero table, and the bias row is repeated down the 512 rows. -/
theorem stored_apply (x : Vec Ideal S512x64 .f32) (w : Vec Ideal S64x10 .f32) (b : Vec Ideal S10 .f32)
    (p : Fin 512) (q : Fin 10) :
    k7_pay1 (F := Ideal) x w b (ix2 p q) = affineAt (x : Mat 512 64) (w : Mat 64 10) (b : Row 10) p q := by
  unfold k7_pay1 affineAt
  refine (addf_apply _ _ _).trans ?_
  congr 1
  · refine (Cert.LibPlainDot.matmul_zero_apply dot_S512x64_S64x10_S512x10_1_0_0_1_n_n
      rfl rfl rfl rfl rfl rfl none _ _ p q).trans ?_
    refine Finset.sum_congr rfl fun k _ => ?_
    rw [truncf_apply, truncf_apply, shapeCast_self]
  · refine (broadcastTo_1b_ab_apply _ _ p q).trans ?_
    exact shapeCast_a_1a_apply b _ 0 q

/-- What the body stores is the dense layer of what it loaded. -/
theorem stored_eq (x : Vec Ideal S512x64 .f32) (w : Vec Ideal S64x10 .f32) (b : Vec Ideal S10 .f32) :
    k7_pay1 (F := Ideal) x w b = affine (x : Mat 512 64) (w : Mat 64 10) (b : Row 10) := by
  funext j
  obtain ⟨p, q, rfl⟩ : ∃ (p : Fin 512) (q : Fin 10), j = ix2 p q := ⟨j 0, j 1, eq_ix2 j⟩
  exact stored_apply x w b p q

variable (V : (c : Dev nD) → (b : Ref sig .tc) → Buf (Elt Ideal) ((c : Thread nD τ).loc b))

/-! ## The blocks of the one-point grid -/

/-- At every point of the grid each window's block index is zero on every axis. -/
theorem index_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0 :=
  (by decide +kernel : ∀ t : Fin grid7.N, _)

/-- The block of the features is the whole features table: entry j of the block sits at 0 · 512 + j, 0 · 64 + j. -/
theorem block0 (c : Dev nD) (t : Fin cfg7.N) :
    (iblk7 (F := Ideal) V c 0 t : Vec Ideal S512x64 .f32) = (V c main_v124 : Mat 512 64) := by
  obtain ⟨e0, e1, -⟩ := index_facts t
  unfold iblk7
  funext j
  rw [View.read_apply]
  show (V c main_v124 : Mat 512 64) (((cfg7.win 0).blk t).view.emb j) = V c main_v124 j
  refine congrArg (V c main_v124 : Mat 512 64) ?_
  funext a; apply Fin.ext
  match a with
  | ⟨0, _⟩ => show win7_0.index t (0 : Fin 2) * 512 + 1 * (j 0).val = (j 0).val; rw [e0]; omega
  | ⟨1, _⟩ => show win7_0.index t (1 : Fin 2) * 64 + 1 * (j 1).val = (j 1).val; rw [e1]; omega

/-- The block of the weights is the whole weight table. -/
theorem block1 (c : Dev nD) (t : Fin cfg7.N) :
    (iblk7 (F := Ideal) V c 1 t : Vec Ideal S64x10 .f32) = (V c main_arg12 : Mat 64 10) := by
  obtain ⟨-, -, e0, e1, -⟩ := index_facts t
  unfold iblk7
  funext j
  rw [View.read_apply]
  show (V c main_arg12 : Mat 64 10) (((cfg7.win 1).blk t).view.emb j) = V c main_arg12 j
  refine congrArg (V c main_arg12 : Mat 64 10) ?_
  funext a; apply Fin.ext
  match a with
  | ⟨0, _⟩ => show win7_1.index t (0 : Fin 2) * 64 + 1 * (j 0).val = (j 0).val; rw [e0]; omega
  | ⟨1, _⟩ => show win7_1.index t (1 : Fin 2) * 10 + 1 * (j 1).val = (j 1).val; rw [e1]; omega

/-- The block of the bias is the whole bias row. -/
theorem block2 (c : Dev nD) (t : Fin cfg7.N) :
    (iblk7 (F := Ideal) V c 2 t : Vec Ideal S10 .f32) = (V c main_arg13 : Row 10) := by
  obtain ⟨-, -, -, -, e0, -⟩ := index_facts t
  unfold iblk7
  funext j
  rw [View.read_apply]
  show (V c main_arg13 : Row 10) (((cfg7.win 2).blk t).view.emb j) = V c main_arg13 j
  refine congrArg (V c main_arg13 : Row 10) ?_
  funext a; apply Fin.ext
  match a with
  | ⟨0, _⟩ => show win7_2.index t (0 : Fin 1) * 10 + 1 * (j 0).val = (j 0).val; rw [e0]; omega

/-! ## From the block written back to the array -/

/-- What a point writes back is its block of the dense layer of the arrays the region finds: the body's one store
    fills the whole staging buffer with the dense layer of the three input blocks, each of which is its whole array,
    and the block of the result sits at offset zero on both axes. -/
theorem flushed_eq (c : Dev nD) (t : Fin cfg7.N) :
    (dat7 (F := Ideal) V c).flushed 3 t = ((cfg7.win 3).blk t).view.read (Elt Ideal)
      (affine (V c main_v124 : Mat 512 64) (V c main_arg12 : Mat 64 10) (V c main_arg13 : Row 10)) := by
  show (cfg7.win 3).cut (grid7.coords t) ((dat7 V c).after 3 t) = _
  rw [after7_3]
  unfold out7_3
  rw [View.canon_unit_zero zero_offsets_two]
  simp only [View.ld_unit_zero (S := S512x64) zero_offsets_two, View.ld_unit_zero (S := S64x10) zero_offsets_two,
    View.ld_unit_zero (S := S10) zero_offsets_one]
  rw [block0, block1, block2, stored_eq]
  obtain ⟨-, -, -, -, -, e0, e1⟩ := index_facts t
  generalize affine (V c main_v124 : Mat 512 64) (V c main_arg12 : Mat 64 10) (V c main_arg13 : Row 10) = G
  funext j
  rw [View.read_apply]
  show G ((cfg7.win 3).xinj (grid7.coords t) j) = G (((cfg7.win 3).blk t).view.emb j)
  refine congrArg G ?_
  funext a; apply Fin.ext
  match a with
  | ⟨0, _⟩ => show (j 0).val = win7_3.index t (0 : Fin 2) * 512 + 1 * (j 0).val; rw [e0]; omega
  | ⟨1, _⟩ => show (j 1).val = win7_3.index t (1 : Fin 2) * 10 + 1 * (j 1).val; rw [e1]; omega

/-- Every index of the result array lies in the block of the grid's one point: that block starts at zero on both
    axes and has the array's own extents, 512 and 10. -/
theorem covered (i : S512x10.Idx) :
    ∃ t : Fin cfg7.N, (cfg7.win 3).flush t = true ∧ i ∈ ((cfg7.win 3).blk t).view.set := by
  have hN : 0 < cfg7.N := by decide
  refine ⟨⟨0, hN⟩, flush7_3 _, ?_⟩
  obtain ⟨-, -, -, -, -, e0, e1⟩ := index_facts ⟨0, hN⟩
  show i ∈ ((View.whole main_v125).slice (win7_3.rect ⟨0, hN⟩)).set
  rw [View.set_slice_whole, Rect.mem_set_unit]
  intro a
  have h0 : (i 0).val < 512 := (i 0).isLt
  have h1 : (i 1).val < 10 := (i 1).isLt
  match a with
  | ⟨0, _⟩ =>
    show win7_3.index ⟨0, hN⟩ (0 : Fin 2) * 512 ≤ (i 0).val
      ∧ (i 0).val < win7_3.index ⟨0, hN⟩ (0 : Fin 2) * 512 + 512
    rw [e0]; omega
  | ⟨1, _⟩ =>
    show win7_3.index ⟨0, hN⟩ (1 : Fin 2) * 10 ≤ (i 1).val
      ∧ (i 1).val < win7_3.index ⟨0, hN⟩ (1 : Fin 2) * 10 + 10
    rw [e1]; omega

/-- After the head's region the result array holds the dense layer of the pooled features. -/
theorem headed (c : Dev nD) :
    (dat7 (F := Ideal) V c).arrAt 3 cfg7.N
      = affine (V c main_v124 : Mat 512 64) (V c main_arg12 : Mat 64 10) (V c main_arg13 : Row 10) :=
  (dat7 (F := Ideal) V c).arrAt_eq_of_cover 3
    (affine (V c main_v124 : Mat 512 64) (V c main_arg12 : Mat 64 10) (V c main_arg13 : Row 10))
    (fun t _ => flushed_eq V c t) covered

end Cert.KernelIdeal.Region7

end
-- ==== Proof.KerHost.lean ====
/-
  The host operations between a perceptron region and the normalisation region that follows it, read as functions.

  The perceptron region leaves two tables of one row: the column sums of its output table and the column sums of the
  squares. The host reads each as a vector, divides it entry by entry by the row count (one number repeated along the
  vector), forms mean-of-squares less squared mean, and lays the mean and the variance out as one-row tables again for
  the next region. A table of one row and the vector of its entries hold the same numbers at the same row-major
  positions, so reading a one-row table as a vector, or a vector as a one-row table, moves no entry: entry (0, q) and
  entry q correspond. Hence the row of means is, entry by entry, column sum over count, and the row of variances is
  column sum of squares over count less the squared mean; at the sums of a table z these are z's column means and its
  variance as the mean of the squares less the squared mean.
-/
import proofs.«427472_j26645977105018_1_alg».proof.KernelIdeal
import proofs.«427472_j26645977105018_1_alg».proof.Proof.Spec
import proofs.«427472_j26645977105018_1_alg».proof.Proof.Arith
import proofs.«427472_j26645977105018_1_alg».proof.Proof.Layer
import Idealize.ShloMosaic.Lib.IdealHost
import Idealize.ShloMosaic.Lib.Pipeline.Value
import Idealize.ShloMosaic.Lib.ValueIdx
import Idealize.ShloMosaic.Lib.ValueLayout

noncomputable section

namespace Cert.KerHost

open Idealize.ShloMosaic Idealize.ShloMosaic.ValueIdx Cert.KernelIdeal Cert.KernelIdeal.Facts₀ Cert.Spec

variable [Cert.KernelIdeal.Facts]

/-- Entry (0, q) of a vector laid out as a one-row table is entry q of the vector. -/
theorem row_read (v : FVec Ideal S64 .f32) (q : Fin 64) :
    shapeCast S1x64 v shapeCasts_S64_S1x64 (ix2 (0 : Fin 1) q) = v (ix1 q) := by
  refine (shapeCast_addUnit_apply ![64] v shapeCasts_S64_S1x64 (ix2 (0 : Fin 1) q)).trans (congrArg v ?_)
  funext a; match a with | ⟨0, _⟩ => rfl

/-- Entry q of a one-row table read as a vector is entry (0, q) of the table. -/
theorem vec_read (r : FVec Ideal S1x64 .f32) (q : Fin 64) :
    shapeCast S64 r shapeCasts_S1x64_S64 (ix1 q) = r (ix2 (0 : Fin 1) q) := by
  refine (shapeCast_dropUnit_apply ![64] r shapeCasts_S1x64_S64 (ix1 q)).trans (congrArg r ?_)
  funext a; match a with | ⟨0, _⟩ => rfl | ⟨1, _⟩ => rfl

/-- Every entry of the row count repeated along the vector is the number its word encodes. -/
theorem count_read (w : BitVec 32) (q : Fin 64) :
    broadcastInDim S64 ![] bcast_S_S64 (constant (F := Ideal) S_ .f32 w) (ix1 q) = Ideal.ofBits .f32 w :=
  broadcastInDim_scalar_apply bcast_S_S64 (constant (F := Ideal) S_ .f32 w) (ix1 q)

/-- A vector laid out as a one-row table and read back is the vector. -/
theorem row_of_vec (g : FVec Ideal S64 .f32) : rowOf (shapeCast S1x64 g shapeCasts_S64_S1x64) = g := by
  funext j
  obtain ⟨q, rfl⟩ : ∃ q : Fin 64, j = ix1 q := ⟨j 0, eq_ix1 j⟩
  exact row_read g q

/-- The row of means: each column sum divided by the row count. -/
theorem mean_row (r : FVec Ideal S1x64 .f32) (w : BitVec 32) :
    rowOf (shapeCast S1x64 (Host.divf (shapeCast S64 r shapeCasts_S1x64_S64) (broadcastInDim S64 ![] bcast_S_S64 (constant (F := Ideal) S_ .f32 w))) shapeCasts_S64_S1x64)
      = fun j => Ideal.div (rowOf r j) (Ideal.ofBits .f32 w) := by
  refine (row_of_vec _).trans (funext fun j => ?_)
  obtain ⟨q, rfl⟩ : ∃ q : Fin 64, j = ix1 q := ⟨j 0, eq_ix1 j⟩
  refine (hostDivf_apply _ _ (ix1 q)).trans ?_
  rw [vec_read r q, count_read w q]
  rfl

/-- The row of variances: each column sum of squares divided by the row count, less the squared mean. -/
theorem var_row (r q : FVec Ideal S1x64 .f32) (w : BitVec 32) :
    rowOf (shapeCast S1x64 (subf (Host.divf (shapeCast S64 q shapeCasts_S1x64_S64) (broadcastInDim S64 ![] bcast_S_S64 (constant (F := Ideal) S_ .f32 w)))
        (mulf (Host.divf (shapeCast S64 r shapeCasts_S1x64_S64) (broadcastInDim S64 ![] bcast_S_S64 (constant (F := Ideal) S_ .f32 w)))
          (Host.divf (shapeCast S64 r shapeCasts_S1x64_S64) (broadcastInDim S64 ![] bcast_S_S64 (constant (F := Ideal) S_ .f32 w))))) shapeCasts_S64_S1x64)
      = fun j => Ideal.div (rowOf q j) (Ideal.ofBits .f32 w)
          - Ideal.div (rowOf r j) (Ideal.ofBits .f32 w) * Ideal.div (rowOf r j) (Ideal.ofBits .f32 w) := by
  refine (row_of_vec _).trans (funext fun j => ?_)
  obtain ⟨k, rfl⟩ : ∃ k : Fin 64, j = ix1 k := ⟨j 0, eq_ix1 j⟩
  refine (subf_apply _ _ (ix1 k)).trans ?_
  rw [mulf_apply, hostDivf_apply, hostDivf_apply, vec_read q k, vec_read r k, count_read w k]
  rfl

/-- At the column sums of a table, the row of means is the table's column means. -/
theorem mean_of_sums (z : Mat 50000 64) (w : BitVec 32) :
    rowOf (shapeCast S1x64 (Host.divf (shapeCast S64 (asRow (colSum z)) shapeCasts_S1x64_S64) (broadcastInDim S64 ![] bcast_S_S64 (constant (F := Ideal) S_ .f32 w))) shapeCasts_S64_S1x64)
      = Cert.Layer.meanOf z (Ideal.ofBits .f32 w) := by
  rw [mean_row, rowOf_asRow]
  rfl

/-- At the column sums and column sums of squares of a table, the row of variances is the mean of the squares
    less the squared mean. -/
theorem var_of_sums (z : Mat 50000 64) (w : BitVec 32) :
    rowOf (shapeCast S1x64 (subf (Host.divf (shapeCast S64 (asRow (colSumSq z)) shapeCasts_S1x64_S64) (broadcastInDim S64 ![] bcast_S_S64 (constant (F := Ideal) S_ .f32 w)))
        (mulf (Host.divf (shapeCast S64 (asRow (colSum z)) shapeCasts_S1x64_S64) (broadcastInDim S64 ![] bcast_S_S64 (constant (F := Ideal) S_ .f32 w)))
          (Host.divf (shapeCast S64 (asRow (colSum z)) shapeCasts_S1x64_S64) (broadcastInDim S64 ![] bcast_S_S64 (constant (F := Ideal) S_ .f32 w))))) shapeCasts_S64_S1x64)
      = Cert.Layer.varBySquares z (Ideal.ofBits .f32 w) := by
  rw [var_row, rowOf_asRow, rowOf_asRow]
  rfl

end Cert.KerHost

end
-- ==== Proof.TakeStretch0.lean ====
/- Layer 0's host stretch that takes every edge's source row of the node features: its printed operations, cut in
   three. The first eight make the column of wrapped ids (a negative id counts from the end), the next ten the
   bit per edge that says whether the wrapped id lies in [0, 49999], the last five gather the rows and replace the
   rows whose bit is clear by the fill word. Read one after the other they are the stage function takeK. -/
import proofs.«427472_j26645977105018_1_alg».proof.Proof.Gen.KernelIdeal.Frame
import proofs.«427472_j26645977105018_1_alg».proof.Proof.Stages
import Idealize.ShloMosaic.Lib.StableHlo.Run

set_option maxRecDepth 65536

noncomputable section

namespace Cert.KernelIdeal.Take0

open Idealize.ShloMosaic Idealize.ShloMosaic.TcCoe Idealize.SL.Sem Idealize.ShloMosaic.StableHlo
open Cert.KernelIdeal Cert.KernelIdeal.Gen Cert.Stages Idealize.ShloMosaic.Tactic

/-- The operations that make the column of wrapped ids. -/
abbrev idxOps : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- The operations that make the in-range bit of every edge. -/
abbrev maskOps : List (HloOp τ sig (Elt Ideal)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- The gather and the fill. -/
abbrev fillOps : List (HloOp τ sig (Elt Ideal)) :=
  [ StableHlo.TRef.binary (.of main_v4 : StableHlo.TRef sig ⟨S50000x64, .f32⟩) (.of main_call0_v5 : StableHlo.TRef sig ⟨S800000x1, .i32⟩) (.of main_call0_v13 : StableHlo.TRef sig ⟨S800000x64, .f32⟩) (fun x i => Host.gather gather_S50000x64_S800000x1_S800000x64_1_0_n_n_0_1_164 x i),
    StableHlo.TRef.unary (.of main_call0_v12 : StableHlo.TRef sig ⟨S800000, .i1⟩) (.of main_call0_v14 : StableHlo.TRef sig ⟨S800000x64, .i1⟩) (broadcastInDim S800000x64 ![0] bcast_S800000_S800000x64_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x64, .f32⟩) (broadcastInDim S800000x64 ![] bcast_S_S800000x64),
    StableHlo.TRef.ternary (.of main_call0_v14 : StableHlo.TRef sig ⟨S800000x64, .i1⟩) (.of main_call0_v13 : StableHlo.TRef sig ⟨S800000x64, .f32⟩) (.of main_call0_v15 : StableHlo.TRef sig ⟨S800000x64, .f32⟩) (.of main_v5 : StableHlo.TRef sig ⟨S800000x64, .f32⟩) select ]

theorem split : (hostOps1 (F := Ideal)) = idxOps ++ (maskOps ++ fillOps) := by sl_kernel_rfl

macro "keep_piece " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes,
    StableHlo.reshape_writes, Finset.mem_singleton]
  repeat' apply And.intro
  all_goals exact StableHlo.devRef_ne_of_ne (by decide))))

set_option maxHeartbeats 1000000 in
/-- The column of wrapped ids, from the vector of source ids. -/
theorem idx_of (X : Valuation τ sig (Elt Ideal)) :
    StableHlo.after idxOps X (Proc.devRef .tc main_call0_v5) = wrapped (X (Proc.devRef .tc main_v1)) := by
  simp only [idxOps]
  after_results_simp
  sl_kernel_rfl

set_option maxHeartbeats 1000000 in
/-- The in-range bit of every edge, from the column of wrapped ids. -/
theorem mask_of (Y : Valuation τ sig (Elt Ideal)) :
    StableHlo.after maskOps Y (Proc.devRef .tc main_call0_v12)
      = Host.reduce IntOp.andi
          (andi (cmpi .sge (Y (Proc.devRef .tc main_call0_v5)) (broadcastInDim S800000x1 ![] bcast_S_S800000x1 (constantI S_ 32 0#32)))
            (cmpi .sle (Y (Proc.devRef .tc main_call0_v5)) (broadcastInDim S800000x1 ![0, 1] bcast_S1x1_S800000x1_0_1
              (broadcastInDim S1x1 ![1] bcast_S1_S1x1_1 (constantI S1 32 49999#32)))))
          (constantI S_ 1 1#1) reducesTo_S800000x1_S800000_d1 h_S_ := by
  simp only [maskOps]
  after_results_simp
  sl_kernel_rfl

set_option maxHeartbeats 1000000 in
/-- The gathered rows, a row whose bit is clear replaced by the fill word. -/
theorem fill_of (Z : Valuation τ sig (Elt Ideal)) :
    StableHlo.after fillOps Z (Proc.devRef .tc main_v5)
      = select (broadcastInDim S800000x64 ![0] bcast_S800000_S800000x64_0 (Z (Proc.devRef .tc main_call0_v12)))
          (Host.gather gather_S50000x64_S800000x1_S800000x64_1_0_n_n_0_1_164 (Z (Proc.devRef .tc main_v4)) (Z (Proc.devRef .tc main_call0_v5)))
          (broadcastInDim S800000x64 ![] bcast_S_S800000x64 (constant (F := Ideal) S_ .f32 0x7FC00000#32)) := by
  simp only [fillOps]
  after_results_simp
  sl_kernel_rfl

theorem mask_keeps_idx (Y : Valuation τ sig (Elt Ideal)) :
    StableHlo.after maskOps Y (Proc.devRef .tc main_call0_v5) = Y (Proc.devRef .tc main_call0_v5) := by keep_piece maskOps
theorem mask_keeps_feat (Y : Valuation τ sig (Elt Ideal)) :
    StableHlo.after maskOps Y (Proc.devRef .tc main_v4) = Y (Proc.devRef .tc main_v4) := by keep_piece maskOps
theorem idx_keeps_feat (X : Valuation τ sig (Elt Ideal)) :
    StableHlo.after idxOps X (Proc.devRef .tc main_v4) = X (Proc.devRef .tc main_v4) := by keep_piece idxOps

/-- The whole stretch: the neighbour rows of the features it finds, by the source ids it finds. -/
theorem take_of (X : Valuation τ sig (Elt Ideal)) :
    StableHlo.after (hostOps1 (F := Ideal)) X (Proc.devRef .tc main_v5)
      = takeK (X (Proc.devRef .tc main_v4)) (X (Proc.devRef .tc main_v1)) := by
  rw [split, StableHlo.after_append, StableHlo.after_append, fill_of, mask_of, mask_keeps_idx, mask_keeps_feat, idx_of, idx_keeps_feat]
  rfl

end Cert.KernelIdeal.Take0

end
-- ==== Proof.Region1Value.lean ====
/-
  Region 1: the two-layer perceptron of a table of 50000 rows, computed in five blocks of 10000 rows, with the running
  column sums and column sums of squares of the result.

  Each block of the first output is the perceptron of the same rows of the input (a row of the result reads only that
  row of the input), so the five blocks written back tile the table with the perceptron of the whole input. The two
  one-row outputs start at zero at the first block and receive each block's column sums; after the fifth block they
  hold the sums over all 50000 rows, since a sum over the rows is the sum over the blocks of the sums over each block's rows.
-/
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen Cert.Spec

theorem hzMat : (![0, 0] : Fin 2 → Nat) = fun _ => 0 := funext fun a => by fin_cases a <;> rfl

/-- A bias row laid along every row of the block: entry (p, q) is entry q of the row. -/
theorem bias_apply (b : Vec Ideal S64 .f32) (p : Fin 10000) (q : Fin 64) :
    broadcastTo S10000x64 (shapeCast S1x64 (shapeCast S64 b Facts₀.shapeCasts_S64_S64) Facts₀.shapeCasts_S64_S1x64) Facts₀.broadcasts_S1x64_S10000x64 (ix2 p q)
      = b (ix1 q) := by
  refine (broadcastTo_1b_ab_apply _ _ p q).trans ?_
  refine (shapeCast_a_1a_apply _ _ (0 : Fin 1) q).trans ?_
  exact congrFun (shapeCast_self b _) (ix1 q)

/-- One dense layer of the block: the product into the zero accumulator plus the bias row, at entry (p, q). -/
theorem layer_apply {φ₁ φ₂ : FTy} (l : FVec Ideal S10000x64 φ₁) (r : FVec Ideal S64x64 φ₂) (b : Vec Ideal S64 .f32)
    (p : Fin 10000) (q : Fin 64) :
    addf (matmul dot_S10000x64_S64x64_S10000x64_1_0_0_1_n_n none l r (constant (F := Ideal) S10000x64 .f32 0x00000000#32))
        (broadcastTo S10000x64 (shapeCast S1x64 (shapeCast S64 b Facts₀.shapeCasts_S64_S64) Facts₀.shapeCasts_S64_S1x64) Facts₀.broadcasts_S1x64_S10000x64) (ix2 p q)
      = (∑ k : Fin 64, l (ix2 p k) * r (ix2 k q)) + b (ix1 q) := by
  show FloatOps.matmul dot_S10000x64_S64x64_S10000x64_1_0_0_1_n_n none l r (constant (F := Ideal) S10000x64 .f32 0x00000000#32) (ix2 p q) + _ = _
  rw [bias_apply b p q]
  exact congrArg (· + b (ix1 q))
    (Cert.LibPlainDot.matmul_zero_apply dot_S10000x64_S64x64_S10000x64_1_0_0_1_n_n rfl rfl rfl rfl rfl rfl none l r p q)

/-- The block's payload at entry (p, q): the two-layer perceptron of the block's rows. -/
theorem pay4_apply (x : Vec Ideal S10000x64 .f32) (w1 w2 : Vec Ideal S64x64 .f32) (b1 b2 : Vec Ideal S64 .f32)
    (p : Fin 10000) (q : Fin 64) :
    k1_pay4 (F := Ideal) x w1 w2 b1 b2 (ix2 p q)
      = mlp (x : Mat 10000 64) (w1 : Mat 64 64) (b1 : Row 64) (w2 : Mat 64 64) (b2 : Row 64) (ix2 p q) := by
  unfold k1_pay4
  refine (layer_apply _ _ b2 p q).trans ?_
  show _ = affineAt _ _ _ p q
  unfold affineAt
  refine congrArg (· + b2 (ix1 q)) (Finset.sum_congr rfl fun k _ => ?_)
  refine congrArg₂ (· * ·) ?_ (congrFun (shapeCast_self w2 _) (ix2 k q))
  show max (addf _ _ (ix2 p k)) (Ideal.ofBits .f32 0x00000000#32) = max (affineAt _ _ _ p k) 0
  rw [Ideal.ofBits_zero_f32]
  refine congrArg (max · 0) ?_
  refine (layer_apply _ _ b1 p k).trans ?_
  unfold affineAt
  refine congrArg (· + b1 (ix1 k)) (Finset.sum_congr rfl fun k' _ => ?_)
  exact congrArg₂ (· * ·) (congrFun (shapeCast_self x _) (ix2 p k')) (congrFun (shapeCast_self w1 _) (ix2 k' k))

section Pieces
variable {F : FTy → Type} [FloatOps F]

theorem hzRow : (![0] : Fin 1 → Nat) = fun _ => 0 := funext fun a => by fin_cases a; rfl

/-- At the first point the body leaves, in the block of the first output, the payload of the five input blocks. -/
theorem piece_A_5 (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond1_0 i) (x0 : Vec F S10000x64 .f32) (x1 : Vec F S64x64 .f32) (x2 : Vec F S64 .f32) (x3 : Vec F S64x64 .f32) (x4 : Vec F S64 .f32) :
    out1_A_5 c i arg1 harg1 arg2 harg2 arg3 harg3 arg4 harg4 arg5 harg5 arg6 harg6 arg7 harg7 arg8 harg8 hc0 x0 x1 x2 x3 x4 = k1_pay4 x0 x1 x3 x2 x4 := by
  unfold out1_A_5
  rw [View.read_writes_eq_canon _ _ _ (cover1_A_5 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At the first point the sum row is set to zero and then the block's column sums are added to it. -/
theorem piece_A_6 (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond1_0 i) (x0 : Vec F S10000x64 .f32) (x1 : Vec F S64x64 .f32) (x2 : Vec F S64 .f32) (x3 : Vec F S64x64 .f32) (x4 : Vec F S64 .f32) :
    out1_A_6 c i arg1 harg1 arg2 harg2 arg3 harg3 arg4 harg4 arg5 harg5 arg6 harg6 arg7 harg7 arg8 harg8 hc0 x0 x1 x2 x3 x4 = k1_pay5 x0 x1 x3 x2 x4 (k1_pay2 (F := F)) := by
  unfold out1_A_6
  rw [View.read_writes_eq_canon _ _ _ (cover1_A_6 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x64) hzMat, View.readCov_unit_zero (S := S1x64) _ hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At the first point the row of sums of squares is set to zero and then the block's are added to it. -/
theorem piece_A_7 (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond1_0 i) (x0 : Vec F S10000x64 .f32) (x1 : Vec F S64x64 .f32) (x2 : Vec F S64 .f32) (x3 : Vec F S64x64 .f32) (x4 : Vec F S64 .f32) :
    out1_A_7 c i arg1 harg1 arg2 harg2 arg3 harg3 arg4 harg4 arg5 harg5 arg6 harg6 arg7 harg7 arg8 harg8 hc0 x0 x1 x2 x3 x4 = k1_pay1 (k1_pay4 x0 x1 x3 x2 x4) (k1_pay3 (F := F)) := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x64) hzMat, View.readCov_unit_zero (S := S1x64) _ hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At a later point the first output's block is again the payload of the five input blocks. -/
theorem piece_B_5 (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond1_0 i) (x0 : Vec F S10000x64 .f32) (x1 : Vec F S64x64 .f32) (x2 : Vec F S64 .f32) (x3 : Vec F S64x64 .f32) (x4 : Vec F S64 .f32) (xo6 xo7 : Vec F S1x64 .f32) :
    out1_B_5 c i arg1 harg1 arg2 harg2 arg3 harg3 arg4 harg4 arg5 harg5 arg6 harg6 arg7 harg7 arg8 harg8 hc0 x0 x1 x2 x3 x4 xo6 xo7 = k1_pay4 x0 x1 x3 x2 x4 := by
  unfold out1_B_5
  rw [View.read_writes_eq_canon _ _ _ (cover1_B_5 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At a later point the block's column sums are added to the sum row the point before left. -/
theorem piece_B_6 (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond1_0 i) (x0 : Vec F S10000x64 .f32) (x1 : Vec F S64x64 .f32) (x2 : Vec F S64 .f32) (x3 : Vec F S64x64 .f32) (x4 : Vec F S64 .f32) (xo6 xo7 : Vec F S1x64 .f32) :
    out1_B_6 c i arg1 harg1 arg2 harg2 arg3 harg3 arg4 harg4 arg5 harg5 arg6 harg6 arg7 harg7 arg8 harg8 hc0 x0 x1 x2 x3 x4 xo6 xo7 = k1_pay5 x0 x1 x3 x2 x4 xo6 := by
  unfold out1_B_6
  rw [View.read_writes_eq_canon _ _ _ (cover1_B_6 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow, harg7.read_unread, View.ld_unit_zero (S := S1x64) hzMat]

/-- At a later point the block's column sums of squares are added to the row the point before left. -/
theorem piece_B_7 (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond1_0 i) (x0 : Vec F S10000x64 .f32) (x1 : Vec F S64x64 .f32) (x2 : Vec F S64 .f32) (x3 : Vec F S64x64 .f32) (x4 : Vec F S64 .f32) (xo6 xo7 : Vec F S1x64 .f32) :
    out1_B_7 c i arg1 harg1 arg2 harg2 arg3 harg3 arg4 harg4 arg5 harg5 arg6 harg6 arg7 harg7 arg8 harg8 hc0 x0 x1 x2 x3 x4 xo6 xo7 = k1_pay1 (k1_pay4 x0 x1 x3 x2 x4) xo7 := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow, harg8.read_unread, View.ld_unit_zero (S := S1x64) hzMat]

end Pieces

/-- The sum over the rows of a block, column by column. -/
theorem laneSum_apply (y : FVec Ideal S10000x64 .f32) (hφ : FKind.Formats .f32)
    (hacc : (0x00000000#32 : BitVec 32) = FKind.add.neutral .f32 hφ) (q : Fin 64) :
    multiReduction (F := Ideal) .add [0] S64 y 0x00000000#32 Facts₀.reduces_S10000x64_S64 hφ hacc (ix1 q)
      = ∑ r : Fin 10000, y (ix2 r q) := by
  refine (Ideal.multiReduction_add_single y 0x00000000#32 Facts₀.reduces_S10000x64_S64 hφ hacc (ix1 q)).trans ?_
  exact Finset.sum_congr rfl fun r _ => congrArg y (funext fun a => Fin.ext (by
    match a with
    | ⟨0, _⟩ => rfl
    | ⟨1, _⟩ => rfl))

/-- The sum row after a point: what it held before plus the column sums of the point's block. -/
theorem pay5_apply (x : Vec Ideal S10000x64 .f32) (w1 w2 : Vec Ideal S64x64 .f32) (b1 b2 : Vec Ideal S64 .f32)
    (acc : Vec Ideal S1x64 .f32) (u : Fin 1) (q : Fin 64) :
    k1_pay5 (F := Ideal) x w1 w2 b1 b2 acc (ix2 u q)
      = acc (ix2 u q) + ∑ r : Fin 10000, k1_pay4 (F := Ideal) x w1 w2 b1 b2 (ix2 r q) := by
  unfold k1_pay5
  show shapeCast S1x64 acc _ (ix2 u q) + shapeCast S1x64 _ _ (ix2 u q) = _
  refine congrArg₂ (· + ·) (congrFun (shapeCast_self acc _) (ix2 u q)) ?_
  refine (shapeCast_a_1a_apply _ _ u q).trans ?_
  exact laneSum_apply _ _ _ q

/-- The row of sums of squares after a point: what it held before plus the column sums of the block's squares. -/
theorem pay1_apply (y : FVec Ideal S10000x64 .f32) (acc : Vec Ideal S1x64 .f32) (u : Fin 1) (q : Fin 64) :
    k1_pay1 (F := Ideal) y acc (ix2 u q) = acc (ix2 u q) + ∑ r : Fin 10000, y (ix2 r q) * y (ix2 r q) := by
  unfold k1_pay1
  show shapeCast S1x64 acc _ (ix2 u q) + shapeCast S1x64 _ _ (ix2 u q) = _
  refine congrArg₂ (· + ·) (congrFun (shapeCast_self acc _) (ix2 u q)) ?_
  refine (shapeCast_a_1a_apply _ _ u q).trans ?_
  exact laneSum_apply (mulf y y) _ _ q

/-- The row the first point stores before adding: zero. -/
theorem pay2_apply (j : S1x64.Idx) : k1_pay2 (F := Ideal) j = 0 := Ideal.ofBits_zero_f32

theorem pay3_apply (j : S1x64.Idx) : k1_pay3 (F := Ideal) j = 0 := Ideal.ofBits_zero_f32

/-! ## The input blocks, as rows of the input arrays -/

variable (V : (c : Dev nD) → (b : Ref sig .tc) → Buf (Elt Ideal) ((c : Thread nD τ).loc b))

/-- The block indices the windows' index maps give, decided once over the five points: the two row-blocked windows
    sit at block (t, 0), every other window at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The five input blocks at a point: the rows, the first layer's weights and bias, the second layer's weights and bias. -/
abbrev xblk (c : Dev nD) (t : Fin cfg1.N) : Vec Ideal S10000x64 .f32 := iblk1 V c 0 t
abbrev wFstBlk (c : Dev nD) (t : Fin cfg1.N) : Vec Ideal S64x64 .f32 := iblk1 V c 1 t
abbrev bFstBlk (c : Dev nD) (t : Fin cfg1.N) : Vec Ideal S64 .f32 := iblk1 V c 2 t
abbrev wSndBlk (c : Dev nD) (t : Fin cfg1.N) : Vec Ideal S64x64 .f32 := iblk1 V c 3 t
abbrev bSndBlk (c : Dev nD) (t : Fin cfg1.N) : Vec Ideal S64 .f32 := iblk1 V c 4 t

/-- The five input arrays, in the same order. -/
abbrev xarr (c : Dev nD) : Mat 50000 64 := V c main_v14
abbrev wFstArr (c : Dev nD) : Mat 64 64 := V c main_v16
abbrev bFstArr (c : Dev nD) : Row 64 := V c main_v18
abbrev wSndArr (c : Dev nD) : Mat 64 64 := V c main_v20
abbrev bSndArr (c : Dev nD) : Row 64 := V c main_v22

/-- Row r of block t is row 10000 t + r of the table. -/
def rowAt (s : Fin 5) (r : Fin 10000) : Fin 50000 := ⟨10000 * s.val + r.val, by omega⟩

theorem hN : cfg1.N = 5 := N_1

/-- The point as a block number. -/
def blkOf (t : Fin cfg1.N) : Fin 5 := ⟨t.val, lt_of_lt_of_eq t.isLt hN⟩

theorem xblk_apply (c : Dev nD) (t : Fin cfg1.N) (r : Fin 10000) (q : Fin 64) :
    xblk V c t (ix2 r q) = xarr V c (ix2 (rowAt (blkOf t) r) q) := by
  obtain ⟨e0, e1, -⟩ := idx_facts t
  show ((cfg1.win 0).blk t).view.read (Elt Ideal) (V c (Pipeline.arrRef spec1 0)) (ix2 r q) = _
  rw [View.read_apply]
  show V c main_v14 _ = V c main_v14 _
  refine congrArg (V c main_v14) (funext fun a => Fin.ext ?_)
  match a with
  | ⟨0, _⟩ => show win1_0.index t (0 : Fin 2) * 10000 + 1 * r.val = 10000 * t.val + r.val; rw [e0]; omega
  | ⟨1, _⟩ => show win1_0.index t (1 : Fin 2) * 64 + 1 * q.val = q.val; rw [e1]; omega

theorem wFstBlk_eq (c : Dev nD) (t : Fin cfg1.N) : wFstBlk V c t = wFstArr V c := by
  obtain ⟨-, -, e0, e1, -⟩ := idx_facts t
  funext j
  show ((cfg1.win 1).blk t).view.read (Elt Ideal) (V c (Pipeline.arrRef spec1 1)) j = _
  rw [View.read_apply]
  show V c main_v16 _ = V c main_v16 j
  refine congrArg (V c main_v16) (funext fun a => Fin.ext ?_)
  match a with
  | ⟨0, _⟩ => show win1_1.index t (0 : Fin 2) * 64 + 1 * (j 0).val = (j 0).val; rw [e0]; omega
  | ⟨1, _⟩ => show win1_1.index t (1 : Fin 2) * 64 + 1 * (j 1).val = (j 1).val; rw [e1]; omega

theorem bFstBlk_eq (c : Dev nD) (t : Fin cfg1.N) : bFstBlk V c t = bFstArr V c := by
  obtain ⟨-, -, -, -, e0, -⟩ := idx_facts t
  funext j
  show ((cfg1.win 2).blk t).view.read (Elt Ideal) (V c (Pipeline.arrRef spec1 2)) j = _
  rw [View.read_apply]
  show V c main_v18 _ = V c main_v18 j
  refine congrArg (V c main_v18) (funext fun a => Fin.ext ?_)
  match a with
  | ⟨0, _⟩ => show win1_2.index t (0 : Fin 1) * 64 + 1 * (j 0).val = (j 0).val; rw [e0]; omega

theorem wSndBlk_eq (c : Dev nD) (t : Fin cfg1.N) : wSndBlk V c t = wSndArr V c := by
  obtain ⟨-, -, -, -, -, e0, e1, -⟩ := idx_facts t
  funext j
  show ((cfg1.win 3).blk t).view.read (Elt Ideal) (V c (Pipeline.arrRef spec1 3)) j = _
  rw [View.read_apply]
  show V c main_v20 _ = V c main_v20 j
  refine congrArg (V c main_v20) (funext fun a => Fin.ext ?_)
  match a with
  | ⟨0, _⟩ => show win1_3.index t (0 : Fin 2) * 64 + 1 * (j 0).val = (j 0).val; rw [e0]; omega
  | ⟨1, _⟩ => show win1_3.index t (1 : Fin 2) * 64 + 1 * (j 1).val = (j 1).val; rw [e1]; omega

theorem bSndBlk_eq (c : Dev nD) (t : Fin cfg1.N) : bSndBlk V c t = bSndArr V c := by
  obtain ⟨-, -, -, -, -, -, -, e0, -⟩ := idx_facts t
  funext j
  show ((cfg1.win 4).blk t).view.read (Elt Ideal) (V c (Pipeline.arrRef spec1 4)) j = _
  rw [View.read_apply]
  show V c main_v22 _ = V c main_v22 j
  refine congrArg (V c main_v22) (funext fun a => Fin.ext ?_)
  match a with
  | ⟨0, _⟩ => show win1_4.index t (0 : Fin 1) * 64 + 1 * (j 0).val = (j 0).val; rw [e0]; omega

/-! ## The first output: the perceptron of the input, block by block -/

/-- The perceptron of the whole input table, as the region's inputs give it. -/
abbrev zOf (c : Dev nD) : Mat 50000 64 :=
  mlp (V c main_v14 : Mat 50000 64) (V c main_v16 : Mat 64 64) (V c main_v18 : Row 64) (V c main_v20 : Mat 64 64) (V c main_v22 : Row 64)

/-- A row of the perceptron's result reads only that row of its first argument. -/
theorem mlp_row {M M' : Nat} (x : Mat M 64) (x' : Mat M' 64) (w1 : Mat 64 64) (b1 : Row 64) (w2 : Mat 64 64) (b2 : Row 64)
    (r : Fin M) (r' : Fin M') (q : Fin 64) (h : ∀ k : Fin 64, x (ix2 r k) = x' (ix2 r' k)) :
    mlp x w1 b1 w2 b2 (ix2 r q) = mlp x' w1 b1 w2 b2 (ix2 r' q) := by
  show affineAt (relu (affine x w1 b1)) w2 b2 r q = affineAt (relu (affine x' w1 b1)) w2 b2 r' q
  unfold affineAt
  refine congrArg (· + b2 (ix1 q)) (Finset.sum_congr rfl fun k _ => congrArg (· * w2 (ix2 k q)) ?_)
  show max (affineAt x w1 b1 r k) 0 = max (affineAt x' w1 b1 r' k) 0
  unfold affineAt
  exact congrArg (max · 0) (congrArg (· + b1 (ix1 k)) (Finset.sum_congr rfl fun k' _ => congrArg (· * w1 (ix2 k' k)) (h k')))

/-- The payload of the input blocks at point t, at entry (r, q): the perceptron of the whole input at row 10000 t + r. -/
theorem zblk_apply (c : Dev nD) (t : Fin cfg1.N) (r : Fin 10000) (q : Fin 64) :
    k1_pay4 (F := Ideal) (xblk V c t) (wFstBlk V c t) (wSndBlk V c t) (bFstBlk V c t) (bSndBlk V c t) (ix2 r q) = zOf V c (ix2 (rowAt (blkOf t) r) q) := by
  refine (pay4_apply _ _ _ _ _ r q).trans ?_
  rw [wFstBlk_eq, bFstBlk_eq, wSndBlk_eq, bSndBlk_eq]
  exact mlp_row _ _ _ _ _ _ r _ q fun k => xblk_apply V c t r k

/-- The same at any index of the block and the index of the table it sits at. -/
theorem zblk_read (c : Dev nD) (t : Fin cfg1.N) (j : S10000x64.Idx) (i : S50000x64.Idx)
    (h0 : (i 0).val = 10000 * t.val + (j 0).val) (h1 : (i 1).val = (j 1).val) :
    k1_pay4 (F := Ideal) (xblk V c t) (wFstBlk V c t) (wSndBlk V c t) (bFstBlk V c t) (bSndBlk V c t) j = zOf V c i := by
  obtain ⟨r, q, rfl⟩ : ∃ (r : Fin 10000) (q : Fin 64), j = ix2 r q := ⟨j 0, j 1, eq_ix2 j⟩
  obtain ⟨p, q', rfl⟩ : ∃ (p : Fin 50000) (q' : Fin 64), i = ix2 p q' := ⟨i 0, i 1, eq_ix2 i⟩
  have hp : p = rowAt (blkOf t) r := Fin.ext (by show p.val = 10000 * t.val + r.val; exact h0)
  have hq : q' = q := Fin.ext h1
  rw [hp, hq]
  exact zblk_apply V c t r q

/-- What the body leaves in the first output's buffer at a point: the payload of the point's input blocks, at the
    first point and at the later ones alike. -/
theorem outs5_eq (c : Dev nD) (t : Fin cfg1.N) :
    (outsAt1 V c t.val t.isLt).1 = k1_pay4 (F := Ideal) (xblk V c t) (wFstBlk V c t) (wSndBlk V c t) (bFstBlk V c t) (bSndBlk V c t) := by
  by_cases h0 : t.val % 5 = 0
  · rw [outsAt1_A V c t h0]
    dsimp only
    exact piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)
  · rw [outsAt1_B V c t h0]
    dsimp only
    exact piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) _ _

/-- What point t writes back to the first output is block t of the perceptron of the whole input. -/
theorem flushed5_eq (c : Dev nD) (t : Fin cfg1.N) :
    (dat1 (F := Ideal) V c).flushed 5 t = ((cfg1.win 5).blk t).view.read (Elt Ideal) (zOf V c) := by
  obtain ⟨-, -, -, -, -, -, -, -, e0, e1, -⟩ := idx_facts t
  show (cfg1.win 5).cut (grid1.coords t) ((dat1 V c).after 5 t) = _
  rw [after1_5, outs5_eq]
  funext j
  rw [View.read_apply]
  show k1_pay4 (F := Ideal) (xblk V c t) (wFstBlk V c t) (wSndBlk V c t) (bFstBlk V c t) (bSndBlk V c t) _ = zOf V c _
  refine zblk_read V c t _ _ ?_ ?_
  · show win1_5.index t (0 : Fin 2) * 10000 + 1 * (j 0).val = 10000 * t.val + (j 0).val
    rw [e0]; omega
  · show win1_5.index t (1 : Fin 2) * 64 + 1 * (j 1).val = (j 1).val
    rw [e1]; omega

/-- An index of the table is in point t's block iff each coordinate is in the block's range. -/
theorem mem_blk5 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v23_0).slice (win1_5.rect t)).set ↔ _
  rw [View.set_slice_whole, Rect.mem_set_unit]
  exact Iff.rfl

/-- After the region the first output array holds the perceptron of the input, row by row. -/
theorem z_value (c : Dev nD) : (dat1 (F := Ideal) V c).arrAt 5 cfg1.N = zOf V c :=
  (dat1 (F := Ideal) V c).arrAt_eq_of_cover 5 (zOf V c) (fun t _ => flushed5_eq V c t) fun i => by
    have hi0 : (i 0).val < 50000 := (i 0).isLt
    have hi1 : (i 1).val < 64 := (i 1).isLt
    have ht : (i 0).val / 10000 < cfg1.N := by rw [hN]; omega
    obtain ⟨-, -, -, -, -, -, -, -, e0, e1, -⟩ := idx_facts ⟨(i 0).val / 10000, ht⟩
    refine ⟨⟨(i 0).val / 10000, ht⟩, flush1_5 _, ?_⟩
    rw [mem_blk5]
    intro a
    match a with
    | ⟨0, _⟩ =>
      show win1_5.index ⟨(i 0).val / 10000, ht⟩ (0 : Fin 2) * 10000 ≤ (i 0).val ∧ (i 0).val < win1_5.index ⟨(i 0).val / 10000, ht⟩ (0 : Fin 2) * 10000 + 10000
      rw [e0]; dsimp only; omega
    | ⟨1, _⟩ =>
      show win1_5.index ⟨(i 0).val / 10000, ht⟩ (1 : Fin 2) * 64 ≤ (i 1).val ∧ (i 1).val < win1_5.index ⟨(i 0).val / 10000, ht⟩ (1 : Fin 2) * 64 + 64
      rw [e1]; omega

/-! ## The two accumulated rows -/

/-- A sum over all the rows is the sum, over the five blocks, of the sums over each block's rows. -/
theorem sum_rows (g : Fin 50000 → EReal) : ∑ p : Fin 50000, g p = ∑ s : Fin 5, ∑ r : Fin 10000, g (rowAt s r) :=
  (Equiv.sum_comp (finProdFinEquiv (m := 5) (n := 10000)) g).symm.trans
    ((Fintype.sum_prod_type _).trans (Finset.sum_congr rfl fun s _ => Finset.sum_congr rfl fun r _ =>
      congrArg g (Fin.ext (by show r.val + 10000 * s.val = 10000 * s.val + r.val; omega))))

/-- The sum of `g` over the rows of blocks 0 to n. -/
def upTo (g : Fin 50000 → EReal) (n : ℕ) (hn : n < 5) : EReal :=
  ∑ s : Fin (n + 1), ∑ r : Fin 10000, g (rowAt ⟨s.val, by have := s.isLt; omega⟩ r)

theorem upTo_zero (g : Fin 50000 → EReal) (hn : 0 < 5) : upTo g 0 hn = ∑ r : Fin 10000, g (rowAt ⟨0, hn⟩ r) := by
  unfold upTo
  exact Fin.sum_univ_one _

theorem upTo_succ (g : Fin 50000 → EReal) (n : ℕ) (hn : n + 1 < 5) :
    upTo g (n + 1) hn = upTo g n (Nat.lt_of_succ_lt hn) + ∑ r : Fin 10000, g (rowAt ⟨n + 1, hn⟩ r) := by
  unfold upTo
  exact Fin.sum_univ_castSucc _

theorem upTo_last (g : Fin 50000 → EReal) (hn : 4 < 5) : upTo g 4 hn = ∑ p : Fin 50000, g p := by
  rw [sum_rows]
  exact Finset.sum_congr rfl fun s _ => rfl

theorem lastPt : (4 : ℕ) < cfg1.N := by rw [hN]; decide

/-- After point n the sum row holds, in column q, the perceptron's column q summed over the rows of blocks 0 to n. -/
theorem outs6_eq (c : Dev nD) : ∀ (n : ℕ) (h : n < cfg1.N) (u : Fin 1) (q : Fin 64),
    (outsAt1 V c n h).2.1 (ix2 u q) = upTo (fun p => zOf V c (ix2 p q)) n (lt_of_lt_of_eq h hN)
  | 0, h, u, q => by
    rw [outsAt1_A V c ⟨0, h⟩ rfl]
    dsimp only
    refine (congrFun (piece_A_6 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩)) (ix2 u q)).trans ?_
    refine (pay5_apply (xblk V c ⟨0, h⟩) (wFstBlk V c ⟨0, h⟩) (wSndBlk V c ⟨0, h⟩) (bFstBlk V c ⟨0, h⟩) (bSndBlk V c ⟨0, h⟩) (k1_pay2 (F := Ideal)) u q).trans ?_
    rw [pay2_apply, zero_add, upTo_zero]
    exact Finset.sum_congr rfl fun r _ => zblk_apply V c ⟨0, h⟩ r q
  | n + 1, h, u, q => by
    have hB : ¬(⟨n + 1, h⟩ : Fin cfg1.N).val % 5 = 0 := by have := lt_of_lt_of_eq h hN; dsimp only; omega
    rw [outsAt1_B V c ⟨n + 1, h⟩ hB]
    dsimp only
    refine (congrFun (piece_B_6 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hc => hB ((hcond1_0 ⟨n + 1, h⟩).mp hc)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2) (ix2 u q)).trans ?_
    refine (pay5_apply (xblk V c ⟨n + 1, h⟩) (wFstBlk V c ⟨n + 1, h⟩) (wSndBlk V c ⟨n + 1, h⟩) (bFstBlk V c ⟨n + 1, h⟩) (bSndBlk V c ⟨n + 1, h⟩) (outsAt1 V c n (Nat.lt_of_succ_lt h)).2.1 u q).trans ?_
    rw [upTo_succ]
    exact congrArg₂ (· + ·) (outs6_eq c n (Nat.lt_of_succ_lt h) u q) (Finset.sum_congr rfl fun r _ => zblk_apply V c ⟨n + 1, h⟩ r q)

/-- After point n the second row holds, in column q, the squares of the perceptron's column q summed over the rows of
    blocks 0 to n. -/
theorem outs7_eq (c : Dev nD) : ∀ (n : ℕ) (h : n < cfg1.N) (u : Fin 1) (q : Fin 64),
    (outsAt1 V c n h).2.2 (ix2 u q) = upTo (fun p => zOf V c (ix2 p q) * zOf V c (ix2 p q)) n (lt_of_lt_of_eq h hN)
  | 0, h, u, q => by
    rw [outsAt1_A V c ⟨0, h⟩ rfl]
    dsimp only
    refine (congrFun (piece_A_7 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩)) (ix2 u q)).trans ?_
    refine (pay1_apply (k1_pay4 (F := Ideal) (xblk V c ⟨0, h⟩) (wFstBlk V c ⟨0, h⟩) (wSndBlk V c ⟨0, h⟩) (bFstBlk V c ⟨0, h⟩) (bSndBlk V c ⟨0, h⟩)) (k1_pay3 (F := Ideal)) u q).trans ?_
    rw [pay3_apply, zero_add, upTo_zero]
    exact Finset.sum_congr rfl fun r _ => congrArg₂ (· * ·) (zblk_apply V c ⟨0, h⟩ r q) (zblk_apply V c ⟨0, h⟩ r q)
  | n + 1, h, u, q => by
    have hB : ¬(⟨n + 1, h⟩ : Fin cfg1.N).val % 5 = 0 := by have := lt_of_lt_of_eq h hN; dsimp only; omega
    rw [outsAt1_B V c ⟨n + 1, h⟩ hB]
    dsimp only
    refine (congrFun (piece_B_7 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hc => hB ((hcond1_0 ⟨n + 1, h⟩).mp hc)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2) (ix2 u q)).trans ?_
    refine (pay1_apply (k1_pay4 (F := Ideal) (xblk V c ⟨n + 1, h⟩) (wFstBlk V c ⟨n + 1, h⟩) (wSndBlk V c ⟨n + 1, h⟩) (bFstBlk V c ⟨n + 1, h⟩) (bSndBlk V c ⟨n + 1, h⟩)) (outsAt1 V c n (Nat.lt_of_succ_lt h)).2.2 u q).trans ?_
    rw [upTo_succ]
    exact congrArg₂ (· + ·) (outs7_eq c n (Nat.lt_of_succ_lt h) u q) (Finset.sum_congr rfl fun r _ => congrArg₂ (· * ·) (zblk_apply V c ⟨n + 1, h⟩ r q) (zblk_apply V c ⟨n + 1, h⟩ r q))

/-- After the last point the row is the sum over all the rows, column by column. -/
theorem outs6_last (c : Dev nD) (t : Fin cfg1.N) (h4 : t.val = 4) :
    (outsAt1 V c t.val t.isLt).2.1 = asRow (colSum (zOf V c)) := by
  obtain ⟨n, hn⟩ := t
  dsimp only at h4
  subst h4
  funext j
  obtain ⟨u, q, rfl⟩ : ∃ (u : Fin 1) (q : Fin 64), j = ix2 u q := ⟨j 0, j 1, eq_ix2 j⟩
  refine (outs6_eq V c 4 hn u q).trans ?_
  exact upTo_last _ _

/-- The one block of this row's window is the whole one-row array: a row read through the block is the row. -/
theorem whole6 (t : Fin cfg1.N) (G : Vec Ideal S1x64 .f32) :
    (cfg1.win 6).cut (grid1.coords t) G = ((cfg1.win 6).blk t).view.read (Elt Ideal) G := by
  obtain ⟨-, -, -, -, -, -, -, -, -, -, e0, e1, -⟩ := idx_facts t
  funext j
  rw [View.read_apply]
  show G _ = G _
  refine congrArg G (funext fun a => Fin.ext ?_)
  match a with
  | ⟨0, _⟩ => show (j 0).val = win1_6.index t (0 : Fin 2) * 1 + 1 * (j 0).val; rw [e0]; omega
  | ⟨1, _⟩ => show (j 1).val = win1_6.index t (1 : Fin 2) * 64 + 1 * (j 1).val; rw [e1]; omega

/-- The one write-back of this row, after the last point, writes that row. -/
theorem flushed6_eq (c : Dev nD) (t : Fin cfg1.N) (hf : (cfg1.win 6).flush t = true) :
    (dat1 (F := Ideal) V c).flushed 6 t = ((cfg1.win 6).blk t).view.read (Elt Ideal) (asRow (colSum (zOf V c))) := by
  have h4 : t.val = 4 := by have := (flush1_6 t).mp hf; have := lt_of_lt_of_eq t.isLt hN; omega
  show (cfg1.win 6).cut (grid1.coords t) ((dat1 V c).after 6 t) = _
  rw [after1_6, outs6_last V c t h4]
  exact whole6 t _

theorem mem_blk6 (t : Fin cfg1.N) (i : S1x64.Idx) :
    i ∈ ((cfg1.win 6).blk t).view.set ↔ ∀ a : Fin 2, win1_6.index t a * S1x64.size a ≤ (i a).val ∧ (i a).val < win1_6.index t a * S1x64.size a + S1x64.size a := by
  show i ∈ ((View.whole main_v23_1).slice (win1_6.rect t)).set ↔ _
  rw [View.set_slice_whole, Rect.mem_set_unit]
  exact Iff.rfl

/-- After the last point the row is the sum of the squares over all the rows, column by column. -/
theorem outs7_last (c : Dev nD) (t : Fin cfg1.N) (h4 : t.val = 4) :
    (outsAt1 V c t.val t.isLt).2.2 = asRow (colSumSq (zOf V c)) := by
  obtain ⟨n, hn⟩ := t
  dsimp only at h4
  subst h4
  funext j
  obtain ⟨u, q, rfl⟩ : ∃ (u : Fin 1) (q : Fin 64), j = ix2 u q := ⟨j 0, j 1, eq_ix2 j⟩
  refine (outs7_eq V c 4 hn u q).trans ?_
  exact upTo_last _ _

/-- The one block of this row's window is the whole one-row array: a row read through the block is the row. -/
theorem whole7 (t : Fin cfg1.N) (G : Vec Ideal S1x64 .f32) :
    (cfg1.win 7).cut (grid1.coords t) G = ((cfg1.win 7).blk t).view.read (Elt Ideal) G := by
  obtain ⟨-, -, -, -, -, -, -, -, -, -, -, -, e0, e1⟩ := idx_facts t
  funext j
  rw [View.read_apply]
  show G _ = G _
  refine congrArg G (funext fun a => Fin.ext ?_)
  match a with
  | ⟨0, _⟩ => show (j 0).val = win1_7.index t (0 : Fin 2) * 1 + 1 * (j 0).val; rw [e0]; omega
  | ⟨1, _⟩ => show (j 1).val = win1_7.index t (1 : Fin 2) * 64 + 1 * (j 1).val; rw [e1]; omega

/-- The one write-back of this row, after the last point, writes that row. -/
theorem flushed7_eq (c : Dev nD) (t : Fin cfg1.N) (hf : (cfg1.win 7).flush t = true) :
    (dat1 (F := Ideal) V c).flushed 7 t = ((cfg1.win 7).blk t).view.read (Elt Ideal) (asRow (colSumSq (zOf V c))) := by
  have h4 : t.val = 4 := by have := (flush1_7 t).mp hf; have := lt_of_lt_of_eq t.isLt hN; omega
  show (cfg1.win 7).cut (grid1.coords t) ((dat1 V c).after 7 t) = _
  rw [after1_7, outs7_last V c t h4]
  exact whole7 t _

theorem mem_blk7 (t : Fin cfg1.N) (i : S1x64.Idx) :
    i ∈ ((cfg1.win 7).blk t).view.set ↔ ∀ a : Fin 2, win1_7.index t a * S1x64.size a ≤ (i a).val ∧ (i a).val < win1_7.index t a * S1x64.size a + S1x64.size a := by
  show i ∈ ((View.whole main_v23_2).slice (win1_7.rect t)).set ↔ _
  rw [View.set_slice_whole, Rect.mem_set_unit]
  exact Iff.rfl

/-- The second output, one row: each column of the perceptron's table summed over all the rows. -/
theorem sum_value (c : Dev nD) : (dat1 (F := Ideal) V c).arrAt 6 cfg1.N = asRow (colSum (zOf V c)) :=
  (dat1 (F := Ideal) V c).arrAt_eq_of_cover 6 (asRow (colSum (zOf V c))) (fun t hf => flushed6_eq V c t hf) fun i => by
    have hi0 : (i 0).val < 1 := (i 0).isLt
    have hi1 : (i 1).val < 64 := (i 1).isLt
    obtain ⟨-, -, -, -, -, -, -, -, -, -, e0, e1, -⟩ := idx_facts ⟨4, lastPt⟩
    refine ⟨⟨4, lastPt⟩, (flush1_6 _).mpr rfl, ?_⟩
    rw [mem_blk6]
    intro a
    match a with
    | ⟨0, _⟩ =>
      show win1_6.index ⟨4, lastPt⟩ (0 : Fin 2) * 1 ≤ (i 0).val ∧ (i 0).val < win1_6.index ⟨4, lastPt⟩ (0 : Fin 2) * 1 + 1
      rw [e0]; omega
    | ⟨1, _⟩ =>
      show win1_6.index ⟨4, lastPt⟩ (1 : Fin 2) * 64 ≤ (i 1).val ∧ (i 1).val < win1_6.index ⟨4, lastPt⟩ (1 : Fin 2) * 64 + 64
      rw [e1]; omega

/-- The third output, one row: each column's squares summed over all the rows. -/
theorem sumsq_value (c : Dev nD) : (dat1 (F := Ideal) V c).arrAt 7 cfg1.N = asRow (colSumSq (zOf V c)) :=
  (dat1 (F := Ideal) V c).arrAt_eq_of_cover 7 (asRow (colSumSq (zOf V c))) (fun t hf => flushed7_eq V c t hf) fun i => by
    have hi0 : (i 0).val < 1 := (i 0).isLt
    have hi1 : (i 1).val < 64 := (i 1).isLt
    obtain ⟨-, -, -, -, -, -, -, -, -, -, -, -, e0, e1⟩ := idx_facts ⟨4, lastPt⟩
    refine ⟨⟨4, lastPt⟩, (flush1_7 _).mpr rfl, ?_⟩
    rw [mem_blk7]
    intro a
    match a with
    | ⟨0, _⟩ =>
      show win1_7.index ⟨4, lastPt⟩ (0 : Fin 2) * 1 ≤ (i 0).val ∧ (i 0).val < win1_7.index ⟨4, lastPt⟩ (0 : Fin 2) * 1 + 1
      rw [e0]; omega
    | ⟨1, _⟩ =>
      show win1_7.index ⟨4, lastPt⟩ (1 : Fin 2) * 64 ≤ (i 1).val ∧ (i 1).val < win1_7.index ⟨4, lastPt⟩ (1 : Fin 2) * 64 + 64
      rw [e1]; omega

end Cert.KernelIdeal.Region1

end
-- ==== Proof.Region2Value.lean ====
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The normalisation region, read as one function of its input arrays

The region walks a table of 50000 rows and 64 columns in five blocks of 10000 rows. At every block it also
holds four one-row tables in full: a mean, a variance, a scale and a shift, one entry per column. Entry
`(p, q)` of the block is sent to

  `max ((((z p q - mean q) * rsqrt (variance q + e)) * scale q) + shift q) 0`

over the extended reals, with `e` one fixed constant added to the variance before the reciprocal square root.
Row `p` of block `t` is row `t * 10000 + p` of the table, the one-row tables do not move, and the five blocks
tile the 50000 rows (row `r` lies in block `r / 10000`). So after the region the output table is that formula
applied entry by entry to the whole input table.
-/

set_option maxRecDepth 16384

noncomputable section

namespace Cert.KernelIdeal.Region2

open Idealize.ShloMosaic Idealize.ShloMosaic.TcCoe Idealize.ShloMosaic.ValueIdx Idealize.SL.Sem Cert.KernelIdeal Cert.KernelIdeal.Gen Cert.Spec

/-- The offsets `(0, 0)` are the zero offsets. -/
theorem zero_offsets : (![0, 0] : Fin 2 → Nat) = fun _ => 0 := funext fun a => by fin_cases a <;> rfl

/-- The body's arithmetic at entry `(p, q)` of a block: the entry is centred by the mean of its column, scaled by
    the reciprocal square root of the column's variance plus the constant, then by the column's scale, shifted
    by the column's shift, and cut at zero. Each one-row table is read at its only row. -/
theorem payload_apply (xz : Vec Ideal S10000x64 .f32) (xm xv xg xs : Vec Ideal S1x64 .f32) (p : Fin 10000) (q : Fin 64) :
    k2_pay1 (F := Ideal) xz xm xv xg xs (ix2 p q)
      = max ((((xz (ix2 p q) - xm (ix2 (0 : Fin 1) q)) * Ideal.rsqrt (xv (ix2 (0 : Fin 1) q) + Ideal.ofBits .f32 0x3727C5AC#32))
          * xg (ix2 (0 : Fin 1) q)) + xs (ix2 (0 : Fin 1) q)) 0 := by
  unfold k2_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply, broadcast_apply]
  show max (_ * Ideal.rsqrt (xv (ix2 (0 : Fin 1) q) + Ideal.ofBits .f32 0x3727C5AC#32) * _ + _) (Ideal.ofBits .f32 0x00000000#32) = _
  rw [Ideal.ofBits_zero_f32]

/-- One block of the result. If a block of 10000 rows holds rows `b * 10000 …` of the table `z` and the four
    one-row blocks are the tables `mu`, `v`, `g`, `s` themselves, then the body's value at an entry of the block
    is the normalised table at the matching entry of the whole table. -/
theorem block_value (z : Mat 50000 64) (mu v g s : Mat 1 64)
    (xz : Vec Ideal S10000x64 .f32) (xm xv xg xs : Vec Ideal S1x64 .f32) (b : Nat)
    (hz : ∀ (y : S10000x64.Idx) (i : S50000x64.Idx), (i 0).val = b * 10000 + (y 0).val → (i 1).val = (y 1).val → xz y = z i)
    (hm : xm = mu) (hv : xv = v) (hg : xg = g) (hs : xs = s)
    (y : S10000x64.Idx) (i : S50000x64.Idx) (hi0 : (i 0).val = b * 10000 + (y 0).val) (hi1 : (i 1).val = (y 1).val) :
    k2_pay1 (F := Ideal) xz xm xv xg xs y
      = normRelu z (rowOf mu) (rowOf v) (rowOf g) (rowOf s) (Ideal.ofBits .f32 0x3727C5AC#32) i := by
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [payload_apply, hz (ix2 p q') (ix2 r q') hi0 rfl, hm, hv, hg, hs, normRelu_ix2]
  rfl

/-- Where each window's block sits at grid point `t`: the table's and the result's block is block `t` along the
    rows and the only block along the columns; every one-row table's block is its only block. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The table's block at point `t`, entry `(p, q)`, is the table's entry `(t * 10000 + p, q)`. -/
theorem table_block (c : Dev nD) (t : Fin cfg2.N) (y : S10000x64.Idx) (i : S50000x64.Idx)
    (hi0 : (i 0).val = t.val * 10000 + (y 0).val) (hi1 : (i 1).val = (y 1).val) :
    (iblk2 V c 0 t : Vec Ideal S10000x64 .f32) y = (V c main_v23_0 : Mat 50000 64) i := by
  obtain ⟨e0, e1, -⟩ := index_facts t
  unfold iblk2
  rw [View.read_apply]
  show V c main_v23_0 _ = V c main_v23_0 _
  refine congrArg _ (funext fun a => Fin.ext ?_)
  match a with
  | ⟨0, _⟩ => show win2_0.index t (0 : Fin 2) * 10000 + 1 * (y 0).val = (i 0).val; rw [e0, hi0]; omega
  | ⟨1, _⟩ => show win2_0.index t (1 : Fin 2) * 64 + 1 * (y 1).val = (i 1).val; rw [e1, hi1]; omega

/-- The mean's block at every point is the whole one-row table of means. -/
theorem mean_block (c : Dev nD) (t : Fin cfg2.N) :
    (iblk2 V c 1 t : Vec Ideal S1x64 .f32) = (V c main_v36 : Mat 1 64) := by
  obtain ⟨-, -, e0, e1, -⟩ := index_facts t
  funext y
  unfold iblk2
  rw [View.read_apply]
  show V c main_v36 _ = V c main_v36 _
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- The variance's block at every point is the whole one-row table of variances. -/
theorem variance_block (c : Dev nD) (t : Fin cfg2.N) :
    (iblk2 V c 2 t : Vec Ideal S1x64 .f32) = (V c main_v37 : Mat 1 64) := by
  obtain ⟨-, -, -, -, e0, e1, -⟩ := index_facts t
  funext y
  unfold iblk2
  rw [View.read_apply]
  show V c main_v37 _ = V c main_v37 _
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The scale's block at every point is the whole one-row table of scales. -/
theorem scale_block (c : Dev nD) (t : Fin cfg2.N) :
    (iblk2 V c 3 t : Vec Ideal S1x64 .f32) = (V c main_v38 : Mat 1 64) := by
  obtain ⟨-, -, -, -, -, -, e0, e1, -⟩ := index_facts t
  funext y
  unfold iblk2
  rw [View.read_apply]
  show V c main_v38 _ = V c main_v38 _
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The shift's block at every point is the whole one-row table of shifts. -/
theorem shift_block (c : Dev nD) (t : Fin cfg2.N) :
    (iblk2 V c 4 t : Vec Ideal S1x64 .f32) = (V c main_v39 : Mat 1 64) := by
  obtain ⟨-, -, -, -, -, -, -, -, e0, e1, -⟩ := index_facts t
  funext y
  unfold iblk2
  rw [View.read_apply]
  show V c main_v39 _ = V c main_v39 _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- What point `t` writes back is block `t` of the normalised table: the body stores its arithmetic over the whole
    block, the block's rows are rows `t * 10000 …` of the table, and the four one-row tables are read whole. -/
theorem flushed_eq (c : Dev nD) (t : Fin cfg2.N) :
    (dat2 (F := Ideal) V c).flushed 5 t
      = ((cfg2.win 5).blk t).view.read (Elt Ideal)
          (normRelu (V c main_v23_0 : Mat 50000 64) (rowOf (V c main_v36 : Mat 1 64)) (rowOf (V c main_v37 : Mat 1 64))
            (rowOf (V c main_v38 : Mat 1 64)) (rowOf (V c main_v39 : Mat 1 64)) (Ideal.ofBits .f32 0x3727C5AC#32)) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S1x64) zero_offsets]
  obtain ⟨-, -, -, -, -, -, -, -, -, -, e0, e1⟩ := index_facts t
  funext j
  refine block_value (V c main_v23_0) (V c main_v36) (V c main_v37) (V c main_v38) (V c main_v39)
    (iblk2 V c 0 t) (iblk2 V c 1 t) (iblk2 V c 2 t) (iblk2 V c 3 t) (iblk2 V c 4 t) t.val
    (fun y i hy0 hy1 => table_block V c t y i hy0 hy1) (mean_block V c t) (variance_block V c t) (scale_block V c t)
    (shift_block V c t) _ (((cfg2.win 5).blk t).view.emb j) ?_ ?_
  · show win2_5.index t (0 : Fin 2) * 10000 + 1 * (j 0).val = t.val * 10000 + (j 0).val
    rw [e0]; omega
  · show win2_5.index t (1 : Fin 2) * 64 + 1 * (j 1).val = (j 1).val
    rw [e1]; omega

/-- An entry of the result table lies in point `t`'s block exactly when each coordinate lies in the block's range
    on its axis. -/
theorem mem_block (t : Fin cfg2.N) (i : S50000x64.Idx) :
    i ∈ ((cfg2.win 5).blk t).view.set ↔
      ∀ a : Fin 2, win2_5.index t a * S10000x64.size a ≤ (i a).val
        ∧ (i a).val < win2_5.index t a * S10000x64.size a + S10000x64.size a := by
  show i ∈ ((View.whole main_v40).slice (win2_5.rect t)).set ↔ _
  rw [View.set_slice_whole, Rect.mem_set_unit]
  exact Iff.rfl

/-- The five blocks tile the table: row `r` lies in the block of point `r / 10000`, which writes back. -/
theorem covered (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 5 := N_2
  have ht : (i 0).val / 10000 < grid2.N := by rw [hN]; omega
  refine ⟨⟨(i 0).val / 10000, ht⟩, flush2_5 _, ?_⟩
  rw [mem_block]
  obtain ⟨-, -, -, -, -, -, -, -, -, -, e0, e1⟩ := index_facts ⟨(i 0).val / 10000, ht⟩
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_5.index ⟨(i 0).val / 10000, ht⟩ (1 : Fin 2) * 64 ≤ (i 1).val
      ∧ (i 1).val < win2_5.index ⟨(i 0).val / 10000, ht⟩ (1 : Fin 2) * 64 + 64
    rw [e1]; omega

/-- After the normalisation's region the output array holds the centred, scaled, shifted table, cut at zero. -/
theorem normalized (c : Dev nD) :
    (dat2 (F := Ideal) V c).arrAt 5 cfg2.N
      = normRelu (V c main_v23_0 : Mat 50000 64) (rowOf (V c main_v36 : Mat 1 64)) (rowOf (V c main_v37 : Mat 1 64))
          (rowOf (V c main_v38 : Mat 1 64)) (rowOf (V c main_v39 : Mat 1 64)) (Ideal.ofBits .f32 0x3727C5AC#32) :=
  (dat2 (F := Ideal) V c).arrAt_eq_of_cover 5 _ (fun t _ => flushed_eq V c t) covered

end Cert.KernelIdeal.Region2

end
-- ==== Proof.KerLayer0.lean ====
import proofs.«427472_j26645977105018_1_alg».proof.Proof.Gen.KernelIdeal.Frame
import proofs.«427472_j26645977105018_1_alg».proof.Proof.Keep
import proofs.«427472_j26645977105018_1_alg».proof.Proof.Stages
import proofs.«427472_j26645977105018_1_alg».proof.Proof.KerHost
import proofs.«427472_j26645977105018_1_alg».proof.Proof.TakeStretch0
import proofs.«427472_j26645977105018_1_alg».proof.Proof.Region1Value
import proofs.«427472_j26645977105018_1_alg».proof.Proof.Region2Value
import Idealize.ShloMosaic.Lib.StableHlo.Run

/-!
# Layer 0 of the idealized kernel, from the features it starts from to the features it leaves

Between the boundary where the layer's input features stand and the boundary after its normalisation region the
kernel's program runs: the stretch that takes the neighbour rows; the stretch that adds them up by target node,
adds (1 + the layer's scalar) times the node's own features and cuts the layer's matrices and vectors out of the
stacked parameters; the perceptron region, which also leaves the column sums and the column sums of squares; the
stretch that turns those into the column means and variances and cuts out the layer's scale and shift; and the
normalisation region. Read one after the other they are the stage function `layerK` of the input features, the
two rows of the edge list and the layer's parameters, all of which still hold what the launch memory held.
-/

set_option maxRecDepth 65536

noncomputable section

namespace Cert.KernelIdeal.KerLayer0

open Idealize.ShloMosaic Idealize.ShloMosaic.TcCoe Idealize.ShloMosaic.ValueIdx Idealize.SL.Sem Idealize.ShloMosaic.StableHlo
open Cert.KernelIdeal Cert.KernelIdeal.Gen Cert.KernelIdeal.Keep Cert.Spec Cert.Layer Cert.Stages

variable (m : (ℓ : Loc nD τ sig) → Buf (Elt Ideal) ℓ) (ρ : Dev nD → PrngReg)

/-- What the launch memory holds in an argument's buffer on core c. -/
abbrev arg (b : Ref sig .tc) (c : Dev nD) := m ((c : Thread nD τ).loc b)

/-! ## The host stretches, from any contents -/

set_option maxHeartbeats 1000000 in
theorem combine_of (X : Valuation τ sig (Elt Ideal)) :
    StableHlo.after (hostOps1_1 (F := Ideal)) X (Proc.devRef .tc main_v14)
      = combine (scalarAt0 (X (Proc.devRef .tc main_arg5))) (X (Proc.devRef .tc main_v4)) (X (Proc.devRef .tc main_v5)) (X (Proc.devRef .tc main_v3)) := by
  simp only [hostOps1_1]
  after_results_simp
  rfl
set_option maxHeartbeats 1000000 in
theorem w1_of (X : Valuation τ sig (Elt Ideal)) :
    StableHlo.after (hostOps1_1 (F := Ideal)) X (Proc.devRef .tc main_v16) = matAt0 (X (Proc.devRef .tc main_arg6)) := by
  simp only [hostOps1_1]
  after_results_simp
  rfl
set_option maxHeartbeats 1000000 in
theorem b1_of (X : Valuation τ sig (Elt Ideal)) :
    StableHlo.after (hostOps1_1 (F := Ideal)) X (Proc.devRef .tc main_v18) = vecAt0 (X (Proc.devRef .tc main_arg7)) := by
  simp only [hostOps1_1]
  after_results_simp
  rfl
set_option maxHeartbeats 1000000 in
theorem w2_of (X : Valuation τ sig (Elt Ideal)) :
    StableHlo.after (hostOps1_1 (F := Ideal)) X (Proc.devRef .tc main_v20) = matAt0 (X (Proc.devRef .tc main_arg8)) := by
  simp only [hostOps1_1]
  after_results_simp
  rfl
set_option maxHeartbeats 1000000 in
theorem b2_of (X : Valuation τ sig (Elt Ideal)) :
    StableHlo.after (hostOps1_1 (F := Ideal)) X (Proc.devRef .tc main_v22) = vecAt0 (X (Proc.devRef .tc main_arg9)) := by
  simp only [hostOps1_1]
  after_results_simp
  rfl

set_option maxHeartbeats 1000000 in
theorem mean_of (X : Valuation τ sig (Elt Ideal)) :
    StableHlo.after (hostOps2 (F := Ideal)) X (Proc.devRef .tc main_v36)
      = shapeCast S1x64 (Host.divf (shapeCast S64 (X (Proc.devRef .tc main_v23_1)) shapeCasts_S1x64_S64)
          (broadcastInDim S64 ![] bcast_S_S64 (constant (F := Ideal) S_ .f32 0x47435000#32))) shapeCasts_S64_S1x64 := by
  simp only [hostOps2]
  after_results_simp
  rfl
set_option maxHeartbeats 1000000 in
theorem var_of (X : Valuation τ sig (Elt Ideal)) :
    StableHlo.after (hostOps2 (F := Ideal)) X (Proc.devRef .tc main_v37)
      = shapeCast S1x64 (subf (Host.divf (shapeCast S64 (X (Proc.devRef .tc main_v23_2)) shapeCasts_S1x64_S64)
            (broadcastInDim S64 ![] bcast_S_S64 (constant (F := Ideal) S_ .f32 0x47435000#32)))
          (mulf (Host.divf (shapeCast S64 (X (Proc.devRef .tc main_v23_1)) shapeCasts_S1x64_S64)
              (broadcastInDim S64 ![] bcast_S_S64 (constant (F := Ideal) S_ .f32 0x47435000#32)))
            (Host.divf (shapeCast S64 (X (Proc.devRef .tc main_v23_1)) shapeCasts_S1x64_S64)
              (broadcastInDim S64 ![] bcast_S_S64 (constant (F := Ideal) S_ .f32 0x47435000#32))))) shapeCasts_S64_S1x64 := by
  simp only [hostOps2]
  after_results_simp
  rfl
set_option maxHeartbeats 1000000 in
theorem scale_of (X : Valuation τ sig (Elt Ideal)) :
    StableHlo.after (hostOps2 (F := Ideal)) X (Proc.devRef .tc main_v38)
      = shapeCast S1x64 (vecAt0 (X (Proc.devRef .tc main_arg10))) shapeCasts_S64_S1x64 := by
  simp only [hostOps2]
  after_results_simp
  rfl
set_option maxHeartbeats 1000000 in
theorem shift_of (X : Valuation τ sig (Elt Ideal)) :
    StableHlo.after (hostOps2 (F := Ideal)) X (Proc.devRef .tc main_v39)
      = shapeCast S1x64 (vecAt0 (X (Proc.devRef .tc main_arg11))) shapeCasts_S64_S1x64 := by
  simp only [hostOps2]
  after_results_simp
  rfl

/-! ## The layer -/

/-- From the layer's input features `H` at its entry boundary to `layerK H …` at its exit boundary. -/
theorem layer_out (c : Dev nD) (H : Mat 50000 64)
    (hH : W2 m ρ c (Proc.devRef .tc main_v4) = H)
    (hsrc1 : W1 m ρ c (Proc.devRef .tc main_v1) = srcOf (arg m main_arg1 c))
    (hdst1 : W1 m ρ c (Proc.devRef .tc main_v3) = dstOf (arg m main_arg1 c)) :
    W7 m ρ c (Proc.devRef .tc main_v40)
      = layerK H (srcOf (arg m main_arg1 c)) (dstOf (arg m main_arg1 c)) (scalarAt0 (arg m main_arg5 c))
          (matAt0 (arg m main_arg6 c)) (vecAt0 (arg m main_arg7 c)) (matAt0 (arg m main_arg8 c)) (vecAt0 (arg m main_arg9 c))
          (vecAt0 (arg m main_arg10 c)) (vecAt0 (arg m main_arg11 c)) := by
  -- the two rows of the edge list, where they are read
  have hsrc : W2 m ρ c (Proc.devRef .tc main_v1) = srcOf (arg m main_arg1 c) := (at2_main_v1 m ρ c).trans hsrc1
  have hdst : W3 m ρ c (Proc.devRef .tc main_v3) = dstOf (arg m main_arg1 c) := (at3_main_v3 m ρ c).trans hdst1
  -- the neighbour rows
  have htk : W3 m ρ c (Proc.devRef .tc main_v5) = takeK H (srcOf (arg m main_arg1 c)) := by
    show StableHlo.after hostOps1 (W2 m ρ c) (Proc.devRef .tc main_v5) = _
    rw [Cert.KernelIdeal.Take0.take_of, hH, hsrc]
  have hH1 : W3 m ρ c (Proc.devRef .tc main_v4) = H := (step3_main_v4 m ρ c).trans hH
  -- the perceptron's inputs
  have hz0 : W4 m ρ c (Proc.devRef .tc main_v14)
      = combine (scalarAt0 (arg m main_arg5 c)) H (takeK H (srcOf (arg m main_arg1 c))) (dstOf (arg m main_arg1 c)) := by
    show StableHlo.after hostOps1_1 (W3 m ρ c) (Proc.devRef .tc main_v14) = _
    rw [combine_of, hH1, htk, hdst, at3_main_arg5]
  have hw1 : W4 m ρ c (Proc.devRef .tc main_v16) = matAt0 (arg m main_arg6 c) := by
    show StableHlo.after hostOps1_1 (W3 m ρ c) (Proc.devRef .tc main_v16) = _
    rw [w1_of, at3_main_arg6]
  have hb1 : W4 m ρ c (Proc.devRef .tc main_v18) = vecAt0 (arg m main_arg7 c) := by
    show StableHlo.after hostOps1_1 (W3 m ρ c) (Proc.devRef .tc main_v18) = _
    rw [b1_of, at3_main_arg7]
  have hw2 : W4 m ρ c (Proc.devRef .tc main_v20) = matAt0 (arg m main_arg8 c) := by
    show StableHlo.after hostOps1_1 (W3 m ρ c) (Proc.devRef .tc main_v20) = _
    rw [w2_of, at3_main_arg8]
  have hb2 : W4 m ρ c (Proc.devRef .tc main_v22) = vecAt0 (arg m main_arg9 c) := by
    show StableHlo.after hostOps1_1 (W3 m ρ c) (Proc.devRef .tc main_v22) = _
    rw [b2_of, at3_main_arg9]
  -- the perceptron region's three outputs
  have hz : W5 m ρ c (Proc.devRef .tc main_v23_0)
      = zWith takeK H (srcOf (arg m main_arg1 c)) (dstOf (arg m main_arg1 c)) (scalarAt0 (arg m main_arg5 c))
          (matAt0 (arg m main_arg6 c)) (vecAt0 (arg m main_arg7 c)) (matAt0 (arg m main_arg8 c)) (vecAt0 (arg m main_arg9 c)) := by
    refine (W5_arr m ρ c 5).trans ((Cert.KernelIdeal.Region1.z_value (V4 m ρ) c).trans ?_)
    show mlp (W4 m ρ c (Proc.devRef .tc main_v14)) (W4 m ρ c (Proc.devRef .tc main_v16)) (W4 m ρ c (Proc.devRef .tc main_v18))
      (W4 m ρ c (Proc.devRef .tc main_v20)) (W4 m ρ c (Proc.devRef .tc main_v22)) = _
    rw [hz0, hw1, hb1, hw2, hb2]; rfl
  have hzV : Cert.KernelIdeal.Region1.zOf (V4 m ρ) c
      = zWith takeK H (srcOf (arg m main_arg1 c)) (dstOf (arg m main_arg1 c)) (scalarAt0 (arg m main_arg5 c))
          (matAt0 (arg m main_arg6 c)) (vecAt0 (arg m main_arg7 c)) (matAt0 (arg m main_arg8 c)) (vecAt0 (arg m main_arg9 c)) := by
    show mlp (W4 m ρ c (Proc.devRef .tc main_v14)) (W4 m ρ c (Proc.devRef .tc main_v16)) (W4 m ρ c (Proc.devRef .tc main_v18))
      (W4 m ρ c (Proc.devRef .tc main_v20)) (W4 m ρ c (Proc.devRef .tc main_v22)) = _
    rw [hz0, hw1, hb1, hw2, hb2]; rfl
  have hsum : W5 m ρ c (Proc.devRef .tc main_v23_1) = asRow (colSum (Cert.KernelIdeal.Region1.zOf (V4 m ρ) c)) :=
    (W5_arr m ρ c 6).trans (Cert.KernelIdeal.Region1.sum_value (V4 m ρ) c)
  have hsq : W5 m ρ c (Proc.devRef .tc main_v23_2) = asRow (colSumSq (Cert.KernelIdeal.Region1.zOf (V4 m ρ) c)) :=
    (W5_arr m ρ c 7).trans (Cert.KernelIdeal.Region1.sumsq_value (V4 m ρ) c)
  rw [hzV] at hsum hsq
  -- the statistics rows and the layer's scale and shift
  have hmean : rowOf (W6 m ρ c (Proc.devRef .tc main_v36) : Mat 1 64) = meanOf (zWith takeK H (srcOf (arg m main_arg1 c)) (dstOf (arg m main_arg1 c)) (scalarAt0 (arg m main_arg5 c))
          (matAt0 (arg m main_arg6 c)) (vecAt0 (arg m main_arg7 c)) (matAt0 (arg m main_arg8 c)) (vecAt0 (arg m main_arg9 c))) rowsC := by
    show rowOf (StableHlo.after hostOps2 (W5 m ρ c) (Proc.devRef .tc main_v36)) = _
    rw [mean_of, hsum]
    exact Cert.KerHost.mean_of_sums _ _
  have hvar : rowOf (W6 m ρ c (Proc.devRef .tc main_v37) : Mat 1 64) = varBySquares (zWith takeK H (srcOf (arg m main_arg1 c)) (dstOf (arg m main_arg1 c)) (scalarAt0 (arg m main_arg5 c))
          (matAt0 (arg m main_arg6 c)) (vecAt0 (arg m main_arg7 c)) (matAt0 (arg m main_arg8 c)) (vecAt0 (arg m main_arg9 c))) rowsC := by
    show rowOf (StableHlo.after hostOps2 (W5 m ρ c) (Proc.devRef .tc main_v37)) = _
    rw [var_of, hsum, hsq]
    exact Cert.KerHost.var_of_sums _ _
  have hgam : rowOf (W6 m ρ c (Proc.devRef .tc main_v38) : Mat 1 64) = vecAt0 (arg m main_arg10 c) := by
    show rowOf (StableHlo.after hostOps2 (W5 m ρ c) (Proc.devRef .tc main_v38)) = _
    rw [scale_of, at5_main_arg10]
    exact Cert.KerHost.row_of_vec _
  have hbet : rowOf (W6 m ρ c (Proc.devRef .tc main_v39) : Mat 1 64) = vecAt0 (arg m main_arg11 c) := by
    show rowOf (StableHlo.after hostOps2 (W5 m ρ c) (Proc.devRef .tc main_v39)) = _
    rw [shift_of, at5_main_arg11]
    exact Cert.KerHost.row_of_vec _
  have hz4 : W6 m ρ c (Proc.devRef .tc main_v23_0)
      = zWith takeK H (srcOf (arg m main_arg1 c)) (dstOf (arg m main_arg1 c)) (scalarAt0 (arg m main_arg5 c))
          (matAt0 (arg m main_arg6 c)) (vecAt0 (arg m main_arg7 c)) (matAt0 (arg m main_arg8 c)) (vecAt0 (arg m main_arg9 c)) :=
    (step6_main_v23_0 m ρ c).trans hz
  -- the normalisation region
  refine (W7_arr m ρ c 5).trans ((Cert.KernelIdeal.Region2.normalized (V6 m ρ) c).trans ?_)
  show normRelu (W6 m ρ c (Proc.devRef .tc main_v23_0)) (rowOf (W6 m ρ c (Proc.devRef .tc main_v36))) (rowOf (W6 m ρ c (Proc.devRef .tc main_v37)))
    (rowOf (W6 m ρ c (Proc.devRef .tc main_v38))) (rowOf (W6 m ρ c (Proc.devRef .tc main_v39))) (Ideal.ofBits .f32 0x3727C5AC#32) = _
  rw [hz4, hmean, hvar, hgam, hbet]
  rfl

end Cert.KernelIdeal.KerLayer0

end
-- ==== Proof.TakeStretch1.lean ====
/- Layer 1's host stretch that takes every edge's source row of the node features: its printed operations, cut in
   three. The first eight make the column of wrapped ids (a negative id counts from the end), the next ten the
   bit per edge that says whether the wrapped id lies in [0, 49999], the last five gather the rows and replace the
   rows whose bit is clear by the fill word. Read one after the other they are the stage function takeK. -/
import proofs.«427472_j26645977105018_1_alg».proof.Proof.Gen.KernelIdeal.Frame
import proofs.«427472_j26645977105018_1_alg».proof.Proof.Stages
import Idealize.ShloMosaic.Lib.StableHlo.Run

set_option maxRecDepth 65536

noncomputable section

namespace Cert.KernelIdeal.Take1

open Idealize.ShloMosaic Idealize.ShloMosaic.TcCoe Idealize.SL.Sem Idealize.ShloMosaic.StableHlo
open Cert.KernelIdeal Cert.KernelIdeal.Gen Cert.Stages Idealize.ShloMosaic.Tactic

/-- The operations that make the column of wrapped ids. -/
abbrev idxOps : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]
/-- The operations that make the in-range bit of every edge. -/
abbrev maskOps : List (HloOp τ sig (Elt Ideal)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
/-- The gather and the fill. -/
abbrev fillOps : List (HloOp τ sig (Elt Ideal)) :=
  [ StableHlo.TRef.binary (.of main_v40 : StableHlo.TRef sig ⟨S50000x64, .f32⟩) (.of main_call1_v5 : StableHlo.TRef sig ⟨S800000x1, .i32⟩) (.of main_call1_v13 : StableHlo.TRef sig ⟨S800000x64, .f32⟩) (fun x i => Host.gather gather_S50000x64_S800000x1_S800000x64_1_0_n_n_0_1_164 x i),
    StableHlo.TRef.unary (.of main_call1_v12 : StableHlo.TRef sig ⟨S800000, .i1⟩) (.of main_call1_v14 : StableHlo.TRef sig ⟨S800000x64, .i1⟩) (broadcastInDim S800000x64 ![0] bcast_S800000_S800000x64_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S800000x64, .f32⟩) (broadcastInDim S800000x64 ![] bcast_S_S800000x64),
    StableHlo.TRef.ternary (.of main_call1_v14 : StableHlo.TRef sig ⟨S800000x64, .i1⟩) (.of main_call1_v13 : StableHlo.TRef sig ⟨S800000x64, .f32⟩) (.of main_call1_v15 : StableHlo.TRef sig ⟨S800000x64, .f32⟩) (.of main_v41 : StableHlo.TRef sig ⟨S800000x64, .f32⟩) select ]

theorem split : (hostOps3 (F := Ideal)) = idxOps ++ (maskOps ++ fillOps) := by sl_kernel_rfl

macro "keep_piece " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes,
    StableHlo.reshape_writes, Finset.mem_singleton]
  repeat' apply And.intro
  all_goals exact StableHlo.devRef_ne_of_ne (by decide))))

set_option maxHeartbeats 1000000 in
/-- The column of wrapped ids, from the vector of source ids. -/
theorem idx_of (X : Valuation τ sig (Elt Ideal)) :
    StableHlo.after idxOps X (Proc.devRef .tc main_call1_v5) = wrapped (X (Proc.devRef .tc main_v1)) := by
  simp only [idxOps]
  after_results_simp
  sl_kernel_rfl

set_option maxHeartbeats 1000000 in
/-- The in-range bit of every edge, from the column of wrapped ids. -/
theorem mask_of (Y : Valuation τ sig (Elt Ideal)) :
    StableHlo.after maskOps Y (Proc.devRef .tc main_call1_v12)
      = Host.reduce IntOp.andi
          (andi (cmpi .sge (Y (Proc.devRef .tc main_call1_v5)) (broadcastInDim S800000x1 ![] bcast_S_S800000x1 (constantI S_ 32 0#32)))
            (cmpi .sle (Y (Proc.devRef .tc main_call1_v5)) (broadcastInDim S800000x1 ![0, 1] bcast_S1x1_S800000x1_0_1
              (broadcastInDim S1x1 ![1] bcast_S1_S1x1_1 (constantI S1 32 49999#32)))))
          (constantI S_ 1 1#1) reducesTo_S800000x1_S800000_d1 h_S_ := by
  simp only [maskOps]
  after_results_simp
  sl_kernel_rfl

set_option maxHeartbeats 1000000 in
/-- The gathered rows, a row whose bit is clear replaced by the fill word. -/
theorem fill_of (Z : Valuation τ sig (Elt Ideal)) :
    StableHlo.after fillOps Z (Proc.devRef .tc main_v41)
      = select (broadcastInDim S800000x64 ![0] bcast_S800000_S800000x64_0 (Z (Proc.devRef .tc main_call1_v12)))
          (Host.gather gather_S50000x64_S800000x1_S800000x64_1_0_n_n_0_1_164 (Z (Proc.devRef .tc main_v40)) (Z (Proc.devRef .tc main_call1_v5)))
          (broadcastInDim S800000x64 ![] bcast_S_S800000x64 (constant (F := Ideal) S_ .f32 0x7FC00000#32)) := by
  simp only [fillOps]
  after_results_simp
  sl_kernel_rfl

theorem mask_keeps_idx (Y : Valuation τ sig (Elt Ideal)) :
    StableHlo.after maskOps Y (Proc.devRef .tc main_call1_v5) = Y (Proc.devRef .tc main_call1_v5) := by keep_piece maskOps
theorem mask_keeps_feat (Y : Valuation τ sig (Elt Ideal)) :
    StableHlo.after maskOps Y (Proc.devRef .tc main_v40) = Y (Proc.devRef .tc main_v40) := by keep_piece maskOps
theorem idx_keeps_feat (X : Valuation τ sig (Elt Ideal)) :
    StableHlo.after idxOps X (Proc.devRef .tc main_v40) = X (Proc.devRef .tc main_v40) := by keep_piece idxOps

/-- The whole stretch: the neighbour rows of the features it finds, by the source ids it finds. -/
theorem take_of (X : Valuation τ sig (Elt Ideal)) :
    StableHlo.after (hostOps3 (F := Ideal)) X (Proc.devRef .tc main_v41)
      = takeK (X (Proc.devRef .tc main_v40)) (X (Proc.devRef .tc main_v1)) := by
  rw [split, StableHlo.after_append, StableHlo.after_append, fill_of, mask_of, mask_keeps_idx, mask_keeps_feat, idx_of, idx_keeps_feat]
  rfl

end Cert.KernelIdeal.Take1

end
-- ==== Proof.Region3Value.lean ====
/-
  Region 1: the two-layer perceptron of a table of 50000 rows, computed in five blocks of 10000 rows, with the running
  column sums and column sums of squares of the result.

  Each block of the first output is the perceptron of the same rows of the input (a row of the result reads only that
  row of the input), so the five blocks written back tile the table with the perceptron of the whole input. The two
  one-row outputs start at zero at the first block and receive each block's column sums; after the fifth block they
  hold the sums over all 50000 rows, since a sum over the rows is the sum over the blocks of the sums over each block's rows.
-/
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem Cert.KernelIdeal Cert.KernelIdeal.Gen Cert.Spec

theorem hzMat : (![0, 0] : Fin 2 → Nat) = fun _ => 0 := funext fun a => by fin_cases a <;> rfl

/-- A bias row laid along every row of the block: entry (p, q) is entry q of the row. -/
theorem bias_apply (b : Vec Ideal S64 .f32) (p : Fin 10000) (q : Fin 64) :
    broadcastTo S10000x64 (shapeCast S1x64 (shapeCast S64 b Facts₀.shapeCasts_S64_S64) Facts₀.shapeCasts_S64_S1x64) Facts₀.broadcasts_S1x64_S10000x64 (ix2 p q)
      = b (ix1 q) := by
  refine (broadcastTo_1b_ab_apply _ _ p q).trans ?_
  refine (shapeCast_a_1a_apply _ _ (0 : Fin 1) q).trans ?_
  exact congrFun (shapeCast_self b _) (ix1 q)

/-- One dense layer of the block: the product into the zero accumulator plus the bias row, at entry (p, q). -/
theorem layer_apply {φ₁ φ₂ : FTy} (l : FVec Ideal S10000x64 φ₁) (r : FVec Ideal S64x64 φ₂) (b : Vec Ideal S64 .f32)
    (p : Fin 10000) (q : Fin 64) :
    addf (matmul dot_S10000x64_S64x64_S10000x64_1_0_0_1_n_n none l r (constant (F := Ideal) S10000x64 .f32 0x00000000#32))
        (broadcastTo S10000x64 (shapeCast S1x64 (shapeCast S64 b Facts₀.shapeCasts_S64_S64) Facts₀.shapeCasts_S64_S1x64) Facts₀.broadcasts_S1x64_S10000x64) (ix2 p q)
      = (∑ k : Fin 64, l (ix2 p k) * r (ix2 k q)) + b (ix1 q) := by
  show FloatOps.matmul dot_S10000x64_S64x64_S10000x64_1_0_0_1_n_n none l r (constant (F := Ideal) S10000x64 .f32 0x00000000#32) (ix2 p q) + _ = _
  rw [bias_apply b p q]
  exact congrArg (· + b (ix1 q))
    (Cert.LibPlainDot.matmul_zero_apply dot_S10000x64_S64x64_S10000x64_1_0_0_1_n_n rfl rfl rfl rfl rfl rfl none l r p q)

/-- The block's payload at entry (p, q): the two-layer perceptron of the block's rows. -/
theorem pay4_apply (x : Vec Ideal S10000x64 .f32) (w1 w2 : Vec Ideal S64x64 .f32) (b1 b2 : Vec Ideal S64 .f32)
    (p : Fin 10000) (q : Fin 64) :
    k3_pay4 (F := Ideal) x w1 w2 b1 b2 (ix2 p q)
      = mlp (x : Mat 10000 64) (w1 : Mat 64 64) (b1 : Row 64) (w2 : Mat 64 64) (b2 : Row 64) (ix2 p q) := by
  unfold k3_pay4
  refine (layer_apply _ _ b2 p q).trans ?_
  show _ = affineAt _ _ _ p q
  unfold affineAt
  refine congrArg (· + b2 (ix1 q)) (Finset.sum_congr rfl fun k _ => ?_)
  refine congrArg₂ (· * ·) ?_ (congrFun (shapeCast_self w2 _) (ix2 k q))
  show max (addf _ _ (ix2 p k)) (Ideal.ofBits .f32 0x00000000#32) = max (affineAt _ _ _ p k) 0
  rw [Ideal.ofBits_zero_f32]
  refine congrArg (max · 0) ?_
  refine (layer_apply _ _ b1 p k).trans ?_
  unfold affineAt
  refine congrArg (· + b1 (ix1 k)) (Finset.sum_congr rfl fun k' _ => ?_)
  exact congrArg₂ (· * ·) (congrFun (shapeCast_self x _) (ix2 p k')) (congrFun (shapeCast_self w1 _) (ix2 k' k))

section Pieces
variable {F : FTy → Type} [FloatOps F]

theorem hzRow : (![0] : Fin 1 → Nat) = fun _ => 0 := funext fun a => by fin_cases a; rfl

/-- At the first point the body leaves, in the block of the first output, the payload of the five input blocks. -/
theorem piece_A_5 (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond3_0 i) (x0 : Vec F S10000x64 .f32) (x1 : Vec F S64x64 .f32) (x2 : Vec F S64 .f32) (x3 : Vec F S64x64 .f32) (x4 : Vec F S64 .f32) :
    out3_A_5 c i arg1 harg1 arg2 harg2 arg3 harg3 arg4 harg4 arg5 harg5 arg6 harg6 arg7 harg7 arg8 harg8 hc0 x0 x1 x2 x3 x4 = k3_pay4 x0 x1 x3 x2 x4 := by
  unfold out3_A_5
  rw [View.read_writes_eq_canon _ _ _ (cover3_A_5 c i arg1 harg1 arg2 harg2 arg3 harg3 arg4 harg4 arg5 harg5 arg6 harg6 arg7 harg7 arg8 harg8 hc0 x0 x1 x2 x3 x4)]
  unfold kernelRun3_A
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At the first point the sum row is set to zero and then the block's column sums are added to it. -/
theorem piece_A_6 (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond3_0 i) (x0 : Vec F S10000x64 .f32) (x1 : Vec F S64x64 .f32) (x2 : Vec F S64 .f32) (x3 : Vec F S64x64 .f32) (x4 : Vec F S64 .f32) :
    out3_A_6 c i arg1 harg1 arg2 harg2 arg3 harg3 arg4 harg4 arg5 harg5 arg6 harg6 arg7 harg7 arg8 harg8 hc0 x0 x1 x2 x3 x4 = k3_pay5 x0 x1 x3 x2 x4 (k3_pay2 (F := F)) := by
  unfold out3_A_6
  rw [View.read_writes_eq_canon _ _ _ (cover3_A_6 c i arg1 harg1 arg2 harg2 arg3 harg3 arg4 harg4 arg5 harg5 arg6 harg6 arg7 harg7 arg8 harg8 hc0 x0 x1 x2 x3 x4)]
  unfold kernelRun3_A
  dsimp only
  sl_unfold_words
  rw [View.canon_cons_unit_zero (S := S1x64) hzMat, View.readCov_unit_zero (S := S1x64) _ hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At the first point the row of sums of squares is set to zero and then the block's are added to it. -/
theorem piece_A_7 (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond3_0 i) (x0 : Vec F S10000x64 .f32) (x1 : Vec F S64x64 .f32) (x2 : Vec F S64 .f32) (x3 : Vec F S64x64 .f32) (x4 : Vec F S64 .f32) :
    out3_A_7 c i arg1 harg1 arg2 harg2 arg3 harg3 arg4 harg4 arg5 harg5 arg6 harg6 arg7 harg7 arg8 harg8 hc0 x0 x1 x2 x3 x4 = k3_pay1 (k3_pay4 x0 x1 x3 x2 x4) (k3_pay3 (F := F)) := by
  unfold out3_A_7
  rw [View.read_writes_eq_canon _ _ _ (cover3_A_7 c i arg1 harg1 arg2 harg2 arg3 harg3 arg4 harg4 arg5 harg5 arg6 harg6 arg7 harg7 arg8 harg8 hc0 x0 x1 x2 x3 x4)]
  unfold kernelRun3_A
  dsimp only
  sl_unfold_words
  rw [View.canon_cons_unit_zero (S := S1x64) hzMat, View.readCov_unit_zero (S := S1x64) _ hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At a later point the first output's block is again the payload of the five input blocks. -/
theorem piece_B_5 (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond3_0 i) (x0 : Vec F S10000x64 .f32) (x1 : Vec F S64x64 .f32) (x2 : Vec F S64 .f32) (x3 : Vec F S64x64 .f32) (x4 : Vec F S64 .f32) (xo6 xo7 : Vec F S1x64 .f32) :
    out3_B_5 c i arg1 harg1 arg2 harg2 arg3 harg3 arg4 harg4 arg5 harg5 arg6 harg6 arg7 harg7 arg8 harg8 hc0 x0 x1 x2 x3 x4 xo6 xo7 = k3_pay4 x0 x1 x3 x2 x4 := by
  unfold out3_B_5
  rw [View.read_writes_eq_canon _ _ _ (cover3_B_5 c i arg1 harg1 arg2 harg2 arg3 harg3 arg4 harg4 arg5 harg5 arg6 harg6 arg7 harg7 arg8 harg8 hc0 x0 x1 x2 x3 x4 xo6 xo7)]
  unfold kernelRun3_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At a later point the block's column sums are added to the sum row the point before left. -/
theorem piece_B_6 (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond3_0 i) (x0 : Vec F S10000x64 .f32) (x1 : Vec F S64x64 .f32) (x2 : Vec F S64 .f32) (x3 : Vec F S64x64 .f32) (x4 : Vec F S64 .f32) (xo6 xo7 : Vec F S1x64 .f32) :
    out3_B_6 c i arg1 harg1 arg2 harg2 arg3 harg3 arg4 harg4 arg5 harg5 arg6 harg6 arg7 harg7 arg8 harg8 hc0 x0 x1 x2 x3 x4 xo6 xo7 = k3_pay5 x0 x1 x3 x2 x4 xo6 := by
  unfold out3_B_6
  rw [View.read_writes_eq_canon _ _ _ (cover3_B_6 c i arg1 harg1 arg2 harg2 arg3 harg3 arg4 harg4 arg5 harg5 arg6 harg6 arg7 harg7 arg8 harg8 hc0 x0 x1 x2 x3 x4 xo6 xo7)]
  unfold kernelRun3_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow, harg7.read_unread, View.ld_unit_zero (S := S1x64) hzMat]

/-- At a later point the block's column sums of squares are added to the row the point before left. -/
theorem piece_B_7 (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond3_0 i) (x0 : Vec F S10000x64 .f32) (x1 : Vec F S64x64 .f32) (x2 : Vec F S64 .f32) (x3 : Vec F S64x64 .f32) (x4 : Vec F S64 .f32) (xo6 xo7 : Vec F S1x64 .f32) :
    out3_B_7 c i arg1 harg1 arg2 harg2 arg3 harg3 arg4 harg4 arg5 harg5 arg6 harg6 arg7 harg7 arg8 harg8 hc0 x0 x1 x2 x3 x4 xo6 xo7 = k3_pay1 (k3_pay4 x0 x1 x3 x2 x4) xo7 := by
  unfold out3_B_7
  rw [View.read_writes_eq_canon _ _ _ (cover3_B_7 c i arg1 harg1 arg2 harg2 arg3 harg3 arg4 harg4 arg5 harg5 arg6 harg6 arg7 harg7 arg8 harg8 hc0 x0 x1 x2 x3 x4 xo6 xo7)]
  unfold kernelRun3_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow, harg8.read_unread, View.ld_unit_zero (S := S1x64) hzMat]

end Pieces

/-- The sum over the rows of a block, column by column. -/
theorem laneSum_apply (y : FVec Ideal S10000x64 .f32) (hφ : FKind.Formats .f32)
    (hacc : (0x00000000#32 : BitVec 32) = FKind.add.neutral .f32 hφ) (q : Fin 64) :
    multiReduction (F := Ideal) .add [0] S64 y 0x00000000#32 Facts₀.reduces_S10000x64_S64 hφ hacc (ix1 q)
      = ∑ r : Fin 10000, y (ix2 r q) := by
  refine (Ideal.multiReduction_add_single y 0x00000000#32 Facts₀.reduces_S10000x64_S64 hφ hacc (ix1 q)).trans ?_
  exact Finset.sum_congr rfl fun r _ => congrArg y (funext fun a => Fin.ext (by
    match a with
    | ⟨0, _⟩ => rfl
    | ⟨1, _⟩ => rfl))

/-- The sum row after a point: what it held before plus the column sums of the point's block. -/
theorem pay5_apply (x : Vec Ideal S10000x64 .f32) (w1 w2 : Vec Ideal S64x64 .f32) (b1 b2 : Vec Ideal S64 .f32)
    (acc : Vec Ideal S1x64 .f32) (u : Fin 1) (q : Fin 64) :
    k3_pay5 (F := Ideal) x w1 w2 b1 b2 acc (ix2 u q)
      = acc (ix2 u q) + ∑ r : Fin 10000, k3_pay4 (F := Ideal) x w1 w2 b1 b2 (ix2 r q) := by
  unfold k3_pay5
  show shapeCast S1x64 acc _ (ix2 u q) + shapeCast S1x64 _ _ (ix2 u q) = _
  refine congrArg₂ (· + ·) (congrFun (shapeCast_self acc _) (ix2 u q)) ?_
  refine (shapeCast_a_1a_apply _ _ u q).trans ?_
  exact laneSum_apply _ _ _ q

/-- The row of sums of squares after a point: what it held before plus the column sums of the block's squares. -/
theorem pay1_apply (y : FVec Ideal S10000x64 .f32) (acc : Vec Ideal S1x64 .f32) (u : Fin 1) (q : Fin 64) :
    k3_pay1 (F := Ideal) y acc (ix2 u q) = acc (ix2 u q) + ∑ r : Fin 10000, y (ix2 r q) * y (ix2 r q) := by
  unfold k3_pay1
  show shapeCast S1x64 acc _ (ix2 u q) + shapeCast S1x64 _ _ (ix2 u q) = _
  refine congrArg₂ (· + ·) (congrFun (shapeCast_self acc _) (ix2 u q)) ?_
  refine (shapeCast_a_1a_apply _ _ u q).trans ?_
  exact laneSum_apply (mulf y y) _ _ q

/-- The row the first point stores before adding: zero. -/
theorem pay2_apply (j : S1x64.Idx) : k3_pay2 (F := Ideal) j = 0 := Ideal.ofBits_zero_f32

theorem pay3_apply (j : S1x64.Idx) : k3_pay3 (F := Ideal) j = 0 := Ideal.ofBits_zero_f32

/-! ## The input blocks, as rows of the input arrays -/

variable (V : (c : Dev nD) → (b : Ref sig .tc) → Buf (Elt Ideal) ((c : Thread nD τ).loc b))

/-- The block indices the windows' index maps give, decided once over the five points: the two row-blocked windows
    sit at block (t, 0), every other window at its one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- The five input blocks at a point: the rows, the first layer's weights and bias, the second layer's weights and bias. -/
abbrev xblk (c : Dev nD) (t : Fin cfg3.N) : Vec Ideal S10000x64 .f32 := iblk3 V c 0 t
abbrev wFstBlk (c : Dev nD) (t : Fin cfg3.N) : Vec Ideal S64x64 .f32 := iblk3 V c 1 t
abbrev bFstBlk (c : Dev nD) (t : Fin cfg3.N) : Vec Ideal S64 .f32 := iblk3 V c 2 t
abbrev wSndBlk (c : Dev nD) (t : Fin cfg3.N) : Vec Ideal S64x64 .f32 := iblk3 V c 3 t
abbrev bSndBlk (c : Dev nD) (t : Fin cfg3.N) : Vec Ideal S64 .f32 := iblk3 V c 4 t

/-- The five input arrays, in the same order. -/
abbrev xarr (c : Dev nD) : Mat 50000 64 := V c main_v50
abbrev wFstArr (c : Dev nD) : Mat 64 64 := V c main_v52
abbrev bFstArr (c : Dev nD) : Row 64 := V c main_v54
abbrev wSndArr (c : Dev nD) : Mat 64 64 := V c main_v56
abbrev bSndArr (c : Dev nD) : Row 64 := V c main_v58

/-- Row r of block t is row 10000 t + r of the table. -/
def rowAt (s : Fin 5) (r : Fin 10000) : Fin 50000 := ⟨10000 * s.val + r.val, by omega⟩

theorem hN : cfg3.N = 5 := N_3

/-- The point as a block number. -/
def blkOf (t : Fin cfg3.N) : Fin 5 := ⟨t.val, lt_of_lt_of_eq t.isLt hN⟩

theorem xblk_apply (c : Dev nD) (t : Fin cfg3.N) (r : Fin 10000) (q : Fin 64) :
    xblk V c t (ix2 r q) = xarr V c (ix2 (rowAt (blkOf t) r) q) := by
  obtain ⟨e0, e1, -⟩ := idx_facts t
  show ((cfg3.win 0).blk t).view.read (Elt Ideal) (V c (Pipeline.arrRef spec3 0)) (ix2 r q) = _
  rw [View.read_apply]
  show V c main_v50 _ = V c main_v50 _
  refine congrArg (V c main_v50) (funext fun a => Fin.ext ?_)
  match a with
  | ⟨0, _⟩ => show win3_0.index t (0 : Fin 2) * 10000 + 1 * r.val = 10000 * t.val + r.val; rw [e0]; omega
  | ⟨1, _⟩ => show win3_0.index t (1 : Fin 2) * 64 + 1 * q.val = q.val; rw [e1]; omega

theorem wFstBlk_eq (c : Dev nD) (t : Fin cfg3.N) : wFstBlk V c t = wFstArr V c := by
  obtain ⟨-, -, e0, e1, -⟩ := idx_facts t
  funext j
  show ((cfg3.win 1).blk t).view.read (Elt Ideal) (V c (Pipeline.arrRef spec3 1)) j = _
  rw [View.read_apply]
  show V c main_v52 _ = V c main_v52 j
  refine congrArg (V c main_v52) (funext fun a => Fin.ext ?_)
  match a with
  | ⟨0, _⟩ => show win3_1.index t (0 : Fin 2) * 64 + 1 * (j 0).val = (j 0).val; rw [e0]; omega
  | ⟨1, _⟩ => show win3_1.index t (1 : Fin 2) * 64 + 1 * (j 1).val = (j 1).val; rw [e1]; omega

theorem bFstBlk_eq (c : Dev nD) (t : Fin cfg3.N) : bFstBlk V c t = bFstArr V c := by
  obtain ⟨-, -, -, -, e0, -⟩ := idx_facts t
  funext j
  show ((cfg3.win 2).blk t).view.read (Elt Ideal) (V c (Pipeline.arrRef spec3 2)) j = _
  rw [View.read_apply]
  show V c main_v54 _ = V c main_v54 j
  refine congrArg (V c main_v54) (funext fun a => Fin.ext ?_)
  match a with
  | ⟨0, _⟩ => show win3_2.index t (0 : Fin 1) * 64 + 1 * (j 0).val = (j 0).val; rw [e0]; omega

theorem wSndBlk_eq (c : Dev nD) (t : Fin cfg3.N) : wSndBlk V c t = wSndArr V c := by
  obtain ⟨-, -, -, -, -, e0, e1, -⟩ := idx_facts t
  funext j
  show ((cfg3.win 3).blk t).view.read (Elt Ideal) (V c (Pipeline.arrRef spec3 3)) j = _
  rw [View.read_apply]
  show V c main_v56 _ = V c main_v56 j
  refine congrArg (V c main_v56) (funext fun a => Fin.ext ?_)
  match a with
  | ⟨0, _⟩ => show win3_3.index t (0 : Fin 2) * 64 + 1 * (j 0).val = (j 0).val; rw [e0]; omega
  | ⟨1, _⟩ => show win3_3.index t (1 : Fin 2) * 64 + 1 * (j 1).val = (j 1).val; rw [e1]; omega

theorem bSndBlk_eq (c : Dev nD) (t : Fin cfg3.N) : bSndBlk V c t = bSndArr V c := by
  obtain ⟨-, -, -, -, -, -, -, e0, -⟩ := idx_facts t
  funext j
  show ((cfg3.win 4).blk t).view.read (Elt Ideal) (V c (Pipeline.arrRef spec3 4)) j = _
  rw [View.read_apply]
  show V c main_v58 _ = V c main_v58 j
  refine congrArg (V c main_v58) (funext fun a => Fin.ext ?_)
  match a with
  | ⟨0, _⟩ => show win3_4.index t (0 : Fin 1) * 64 + 1 * (j 0).val = (j 0).val; rw [e0]; omega

/-! ## The first output: the perceptron of the input, block by block -/

/-- The perceptron of the whole input table, as the region's inputs give it. -/
abbrev zOf (c : Dev nD) : Mat 50000 64 :=
  mlp (V c main_v50 : Mat 50000 64) (V c main_v52 : Mat 64 64) (V c main_v54 : Row 64) (V c main_v56 : Mat 64 64) (V c main_v58 : Row 64)

/-- A row of the perceptron's result reads only that row of its first argument. -/
theorem mlp_row {M M' : Nat} (x : Mat M 64) (x' : Mat M' 64) (w1 : Mat 64 64) (b1 : Row 64) (w2 : Mat 64 64) (b2 : Row 64)
    (r : Fin M) (r' : Fin M') (q : Fin 64) (h : ∀ k : Fin 64, x (ix2 r k) = x' (ix2 r' k)) :
    mlp x w1 b1 w2 b2 (ix2 r q) = mlp x' w1 b1 w2 b2 (ix2 r' q) := by
  show affineAt (relu (affine x w1 b1)) w2 b2 r q = affineAt (relu (affine x' w1 b1)) w2 b2 r' q
  unfold affineAt
  refine congrArg (· + b2 (ix1 q)) (Finset.sum_congr rfl fun k _ => congrArg (· * w2 (ix2 k q)) ?_)
  show max (affineAt x w1 b1 r k) 0 = max (affineAt x' w1 b1 r' k) 0
  unfold affineAt
  exact congrArg (max · 0) (congrArg (· + b1 (ix1 k)) (Finset.sum_congr rfl fun k' _ => congrArg (· * w1 (ix2 k' k)) (h k')))

/-- The payload of the input blocks at point t, at entry (r, q): the perceptron of the whole input at row 10000 t + r. -/
theorem zblk_apply (c : Dev nD) (t : Fin cfg3.N) (r : Fin 10000) (q : Fin 64) :
    k3_pay4 (F := Ideal) (xblk V c t) (wFstBlk V c t) (wSndBlk V c t) (bFstBlk V c t) (bSndBlk V c t) (ix2 r q) = zOf V c (ix2 (rowAt (blkOf t) r) q) := by
  refine (pay4_apply _ _ _ _ _ r q).trans ?_
  rw [wFstBlk_eq, bFstBlk_eq, wSndBlk_eq, bSndBlk_eq]
  exact mlp_row _ _ _ _ _ _ r _ q fun k => xblk_apply V c t r k

/-- The same at any index of the block and the index of the table it sits at. -/
theorem zblk_read (c : Dev nD) (t : Fin cfg3.N) (j : S10000x64.Idx) (i : S50000x64.Idx)
    (h0 : (i 0).val = 10000 * t.val + (j 0).val) (h1 : (i 1).val = (j 1).val) :
    k3_pay4 (F := Ideal) (xblk V c t) (wFstBlk V c t) (wSndBlk V c t) (bFstBlk V c t) (bSndBlk V c t) j = zOf V c i := by
  obtain ⟨r, q, rfl⟩ : ∃ (r : Fin 10000) (q : Fin 64), j = ix2 r q := ⟨j 0, j 1, eq_ix2 j⟩
  obtain ⟨p, q', rfl⟩ : ∃ (p : Fin 50000) (q' : Fin 64), i = ix2 p q' := ⟨i 0, i 1, eq_ix2 i⟩
  have hp : p = rowAt (blkOf t) r := Fin.ext (by show p.val = 10000 * t.val + r.val; exact h0)
  have hq : q' = q := Fin.ext h1
  rw [hp, hq]
  exact zblk_apply V c t r q

/-- What the body leaves in the first output's buffer at a point: the payload of the point's input blocks, at the
    first point and at the later ones alike. -/
theorem outs5_eq (c : Dev nD) (t : Fin cfg3.N) :
    (outsAt3 V c t.val t.isLt).1 = k3_pay4 (F := Ideal) (xblk V c t) (wFstBlk V c t) (wSndBlk V c t) (bFstBlk V c t) (bSndBlk V c t) := by
  by_cases h0 : t.val % 5 = 0
  · rw [outsAt3_A V c t h0]
    dsimp only
    exact piece_A_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t)
  · rw [outsAt3_B V c t h0]
    dsimp only
    exact piece_B_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) _ _

/-- What point t writes back to the first output is block t of the perceptron of the whole input. -/
theorem flushed5_eq (c : Dev nD) (t : Fin cfg3.N) :
    (dat3 (F := Ideal) V c).flushed 5 t = ((cfg3.win 5).blk t).view.read (Elt Ideal) (zOf V c) := by
  obtain ⟨-, -, -, -, -, -, -, -, e0, e1, -⟩ := idx_facts t
  show (cfg3.win 5).cut (grid3.coords t) ((dat3 V c).after 5 t) = _
  rw [after3_5, outs5_eq]
  funext j
  rw [View.read_apply]
  show k3_pay4 (F := Ideal) (xblk V c t) (wFstBlk V c t) (wSndBlk V c t) (bFstBlk V c t) (bSndBlk V c t) _ = zOf V c _
  refine zblk_read V c t _ _ ?_ ?_
  · show win3_5.index t (0 : Fin 2) * 10000 + 1 * (j 0).val = 10000 * t.val + (j 0).val
    rw [e0]; omega
  · show win3_5.index t (1 : Fin 2) * 64 + 1 * (j 1).val = (j 1).val
    rw [e1]; omega

/-- An index of the table is in point t's block iff each coordinate is in the block's range. -/
theorem mem_blk5 (t : Fin cfg3.N) (i : S50000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v59_0).slice (win3_5.rect t)).set ↔ _
  rw [View.set_slice_whole, Rect.mem_set_unit]
  exact Iff.rfl

/-- After the region the first output array holds the perceptron of the input, row by row. -/
theorem z_value (c : Dev nD) : (dat3 (F := Ideal) V c).arrAt 5 cfg3.N = zOf V c :=
  (dat3 (F := Ideal) V c).arrAt_eq_of_cover 5 (zOf V c) (fun t _ => flushed5_eq V c t) fun i => by
    have hi0 : (i 0).val < 50000 := (i 0).isLt
    have hi1 : (i 1).val < 64 := (i 1).isLt
    have ht : (i 0).val / 10000 < cfg3.N := by rw [hN]; omega
    obtain ⟨-, -, -, -, -, -, -, -, e0, e1, -⟩ := idx_facts ⟨(i 0).val / 10000, ht⟩
    refine ⟨⟨(i 0).val / 10000, ht⟩, flush3_5 _, ?_⟩
    rw [mem_blk5]
    intro a
    match a with
    | ⟨0, _⟩ =>
      show win3_5.index ⟨(i 0).val / 10000, ht⟩ (0 : Fin 2) * 10000 ≤ (i 0).val ∧ (i 0).val < win3_5.index ⟨(i 0).val / 10000, ht⟩ (0 : Fin 2) * 10000 + 10000
      rw [e0]; dsimp only; omega
    | ⟨1, _⟩ =>
      show win3_5.index ⟨(i 0).val / 10000, ht⟩ (1 : Fin 2) * 64 ≤ (i 1).val ∧ (i 1).val < win3_5.index ⟨(i 0).val / 10000, ht⟩ (1 : Fin 2) * 64 + 64
      rw [e1]; omega

/-! ## The two accumulated rows -/

/-- A sum over all the rows is the sum, over the five blocks, of the sums over each block's rows. -/
theorem sum_rows (g : Fin 50000 → EReal) : ∑ p : Fin 50000, g p = ∑ s : Fin 5, ∑ r : Fin 10000, g (rowAt s r) :=
  (Equiv.sum_comp (finProdFinEquiv (m := 5) (n := 10000)) g).symm.trans
    ((Fintype.sum_prod_type _).trans (Finset.sum_congr rfl fun s _ => Finset.sum_congr rfl fun r _ =>
      congrArg g (Fin.ext (by show r.val + 10000 * s.val = 10000 * s.val + r.val; omega))))

/-- The sum of `g` over the rows of blocks 0 to n. -/
def upTo (g : Fin 50000 → EReal) (n : ℕ) (hn : n < 5) : EReal :=
  ∑ s : Fin (n + 1), ∑ r : Fin 10000, g (rowAt ⟨s.val, by have := s.isLt; omega⟩ r)

theorem upTo_zero (g : Fin 50000 → EReal) (hn : 0 < 5) : upTo g 0 hn = ∑ r : Fin 10000, g (rowAt ⟨0, hn⟩ r) := by
  unfold upTo
  exact Fin.sum_univ_one _

theorem upTo_succ (g : Fin 50000 → EReal) (n : ℕ) (hn : n + 1 < 5) :
    upTo g (n + 1) hn = upTo g n (Nat.lt_of_succ_lt hn) + ∑ r : Fin 10000, g (rowAt ⟨n + 1, hn⟩ r) := by
  unfold upTo
  exact Fin.sum_univ_castSucc _

theorem upTo_last (g : Fin 50000 → EReal) (hn : 4 < 5) : upTo g 4 hn = ∑ p : Fin 50000, g p := by
  rw [sum_rows]
  exact Finset.sum_congr rfl fun s _ => rfl

theorem lastPt : (4 : ℕ) < cfg3.N := by rw [hN]; decide

/-- After point n the sum row holds, in column q, the perceptron's column q summed over the rows of blocks 0 to n. -/
theorem outs6_eq (c : Dev nD) : ∀ (n : ℕ) (h : n < cfg3.N) (u : Fin 1) (q : Fin 64),
    (outsAt3 V c n h).2.1 (ix2 u q) = upTo (fun p => zOf V c (ix2 p q)) n (lt_of_lt_of_eq h hN)
  | 0, h, u, q => by
    rw [outsAt3_A V c ⟨0, h⟩ rfl]
    dsimp only
    refine (congrFun (piece_A_6 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) ((hcond3_0 ⟨0, h⟩).mpr rfl) (iblk3 V c 0 ⟨0, h⟩) (iblk3 V c 1 ⟨0, h⟩) (iblk3 V c 2 ⟨0, h⟩) (iblk3 V c 3 ⟨0, h⟩) (iblk3 V c 4 ⟨0, h⟩)) (ix2 u q)).trans ?_
    refine (pay5_apply (xblk V c ⟨0, h⟩) (wFstBlk V c ⟨0, h⟩) (wSndBlk V c ⟨0, h⟩) (bFstBlk V c ⟨0, h⟩) (bSndBlk V c ⟨0, h⟩) (k3_pay2 (F := Ideal)) u q).trans ?_
    rw [pay2_apply, zero_add, upTo_zero]
    exact Finset.sum_congr rfl fun r _ => zblk_apply V c ⟨0, h⟩ r q
  | n + 1, h, u, q => by
    have hB : ¬(⟨n + 1, h⟩ : Fin cfg3.N).val % 5 = 0 := by have := lt_of_lt_of_eq h hN; dsimp only; omega
    rw [outsAt3_B V c ⟨n + 1, h⟩ hB]
    dsimp only
    refine (congrFun (piece_B_6 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) (fun hc => hB ((hcond3_0 ⟨n + 1, h⟩).mp hc)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (outsAt3 V c n (Nat.lt_of_succ_lt h)).2.1 (outsAt3 V c n (Nat.lt_of_succ_lt h)).2.2) (ix2 u q)).trans ?_
    refine (pay5_apply (xblk V c ⟨n + 1, h⟩) (wFstBlk V c ⟨n + 1, h⟩) (wSndBlk V c ⟨n + 1, h⟩) (bFstBlk V c ⟨n + 1, h⟩) (bSndBlk V c ⟨n + 1, h⟩) (outsAt3 V c n (Nat.lt_of_succ_lt h)).2.1 u q).trans ?_
    rw [upTo_succ]
    exact congrArg₂ (· + ·) (outs6_eq c n (Nat.lt_of_succ_lt h) u q) (Finset.sum_congr rfl fun r _ => zblk_apply V c ⟨n + 1, h⟩ r q)

/-- After point n the second row holds, in column q, the squares of the perceptron's column q summed over the rows of
    blocks 0 to n. -/
theorem outs7_eq (c : Dev nD) : ∀ (n : ℕ) (h : n < cfg3.N) (u : Fin 1) (q : Fin 64),
    (outsAt3 V c n h).2.2 (ix2 u q) = upTo (fun p => zOf V c (ix2 p q) * zOf V c (ix2 p q)) n (lt_of_lt_of_eq h hN)
  | 0, h, u, q => by
    rw [outsAt3_A V c ⟨0, h⟩ rfl]
    dsimp only
    refine (congrFun (piece_A_7 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) ((hcond3_0 ⟨0, h⟩).mpr rfl) (iblk3 V c 0 ⟨0, h⟩) (iblk3 V c 1 ⟨0, h⟩) (iblk3 V c 2 ⟨0, h⟩) (iblk3 V c 3 ⟨0, h⟩) (iblk3 V c 4 ⟨0, h⟩)) (ix2 u q)).trans ?_
    refine (pay1_apply (k3_pay4 (F := Ideal) (xblk V c ⟨0, h⟩) (wFstBlk V c ⟨0, h⟩) (wSndBlk V c ⟨0, h⟩) (bFstBlk V c ⟨0, h⟩) (bSndBlk V c ⟨0, h⟩)) (k3_pay3 (F := Ideal)) u q).trans ?_
    rw [pay3_apply, zero_add, upTo_zero]
    exact Finset.sum_congr rfl fun r _ => congrArg₂ (· * ·) (zblk_apply V c ⟨0, h⟩ r q) (zblk_apply V c ⟨0, h⟩ r q)
  | n + 1, h, u, q => by
    have hB : ¬(⟨n + 1, h⟩ : Fin cfg3.N).val % 5 = 0 := by have := lt_of_lt_of_eq h hN; dsimp only; omega
    rw [outsAt3_B V c ⟨n + 1, h⟩ hB]
    dsimp only
    refine (congrFun (piece_B_7 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) (fun hc => hB ((hcond3_0 ⟨n + 1, h⟩).mp hc)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (outsAt3 V c n (Nat.lt_of_succ_lt h)).2.1 (outsAt3 V c n (Nat.lt_of_succ_lt h)).2.2) (ix2 u q)).trans ?_
    refine (pay1_apply (k3_pay4 (F := Ideal) (xblk V c ⟨n + 1, h⟩) (wFstBlk V c ⟨n + 1, h⟩) (wSndBlk V c ⟨n + 1, h⟩) (bFstBlk V c ⟨n + 1, h⟩) (bSndBlk V c ⟨n + 1, h⟩)) (outsAt3 V c n (Nat.lt_of_succ_lt h)).2.2 u q).trans ?_
    rw [upTo_succ]
    exact congrArg₂ (· + ·) (outs7_eq c n (Nat.lt_of_succ_lt h) u q) (Finset.sum_congr rfl fun r _ => congrArg₂ (· * ·) (zblk_apply V c ⟨n + 1, h⟩ r q) (zblk_apply V c ⟨n + 1, h⟩ r q))

/-- After the last point the row is the sum over all the rows, column by column. -/
theorem outs6_last (c : Dev nD) (t : Fin cfg3.N) (h4 : t.val = 4) :
    (outsAt3 V c t.val t.isLt).2.1 = asRow (colSum (zOf V c)) := by
  obtain ⟨n, hn⟩ := t
  dsimp only at h4
  subst h4
  funext j
  obtain ⟨u, q, rfl⟩ : ∃ (u : Fin 1) (q : Fin 64), j = ix2 u q := ⟨j 0, j 1, eq_ix2 j⟩
  refine (outs6_eq V c 4 hn u q).trans ?_
  exact upTo_last _ _

/-- The one block of this row's window is the whole one-row array: a row read through the block is the row. -/
theorem whole6 (t : Fin cfg3.N) (G : Vec Ideal S1x64 .f32) :
    (cfg3.win 6).cut (grid3.coords t) G = ((cfg3.win 6).blk t).view.read (Elt Ideal) G := by
  obtain ⟨-, -, -, -, -, -, -, -, -, -, e0, e1, -⟩ := idx_facts t
  funext j
  rw [View.read_apply]
  show G _ = G _
  refine congrArg G (funext fun a => Fin.ext ?_)
  match a with
  | ⟨0, _⟩ => show (j 0).val = win3_6.index t (0 : Fin 2) * 1 + 1 * (j 0).val; rw [e0]; omega
  | ⟨1, _⟩ => show (j 1).val = win3_6.index t (1 : Fin 2) * 64 + 1 * (j 1).val; rw [e1]; omega

/-- The one write-back of this row, after the last point, writes that row. -/
theorem flushed6_eq (c : Dev nD) (t : Fin cfg3.N) (hf : (cfg3.win 6).flush t = true) :
    (dat3 (F := Ideal) V c).flushed 6 t = ((cfg3.win 6).blk t).view.read (Elt Ideal) (asRow (colSum (zOf V c))) := by
  have h4 : t.val = 4 := by have := (flush3_6 t).mp hf; have := lt_of_lt_of_eq t.isLt hN; omega
  show (cfg3.win 6).cut (grid3.coords t) ((dat3 V c).after 6 t) = _
  rw [after3_6, outs6_last V c t h4]
  exact whole6 t _

theorem mem_blk6 (t : Fin cfg3.N) (i : S1x64.Idx) :
    i ∈ ((cfg3.win 6).blk t).view.set ↔ ∀ a : Fin 2, win3_6.index t a * S1x64.size a ≤ (i a).val ∧ (i a).val < win3_6.index t a * S1x64.size a + S1x64.size a := by
  show i ∈ ((View.whole main_v59_1).slice (win3_6.rect t)).set ↔ _
  rw [View.set_slice_whole, Rect.mem_set_unit]
  exact Iff.rfl

/-- After the last point the row is the sum of the squares over all the rows, column by column. -/
theorem outs7_last (c : Dev nD) (t : Fin cfg3.N) (h4 : t.val = 4) :
    (outsAt3 V c t.val t.isLt).2.2 = asRow (colSumSq (zOf V c)) := by
  obtain ⟨n, hn⟩ := t
  dsimp only at h4
  subst h4
  funext j
  obtain ⟨u, q, rfl⟩ : ∃ (u : Fin 1) (q : Fin 64), j = ix2 u q := ⟨j 0, j 1, eq_ix2 j⟩
  refine (outs7_eq V c 4 hn u q).trans ?_
  exact upTo_last _ _

/-- The one block of this row's window is the whole one-row array: a row read through the block is the row. -/
theorem whole7 (t : Fin cfg3.N) (G : Vec Ideal S1x64 .f32) :
    (cfg3.win 7).cut (grid3.coords t) G = ((cfg3.win 7).blk t).view.read (Elt Ideal) G := by
  obtain ⟨-, -, -, -, -, -, -, -, -, -, -, -, e0, e1⟩ := idx_facts t
  funext j
  rw [View.read_apply]
  show G _ = G _
  refine congrArg G (funext fun a => Fin.ext ?_)
  match a with
  | ⟨0, _⟩ => show (j 0).val = win3_7.index t (0 : Fin 2) * 1 + 1 * (j 0).val; rw [e0]; omega
  | ⟨1, _⟩ => show (j 1).val = win3_7.index t (1 : Fin 2) * 64 + 1 * (j 1).val; rw [e1]; omega

/-- The one write-back of this row, after the last point, writes that row. -/
theorem flushed7_eq (c : Dev nD) (t : Fin cfg3.N) (hf : (cfg3.win 7).flush t = true) :
    (dat3 (F := Ideal) V c).flushed 7 t = ((cfg3.win 7).blk t).view.read (Elt Ideal) (asRow (colSumSq (zOf V c))) := by
  have h4 : t.val = 4 := by have := (flush3_7 t).mp hf; have := lt_of_lt_of_eq t.isLt hN; omega
  show (cfg3.win 7).cut (grid3.coords t) ((dat3 V c).after 7 t) = _
  rw [after3_7, outs7_last V c t h4]
  exact whole7 t _

theorem mem_blk7 (t : Fin cfg3.N) (i : S1x64.Idx) :
    i ∈ ((cfg3.win 7).blk t).view.set ↔ ∀ a : Fin 2, win3_7.index t a * S1x64.size a ≤ (i a).val ∧ (i a).val < win3_7.index t a * S1x64.size a + S1x64.size a := by
  show i ∈ ((View.whole main_v59_2).slice (win3_7.rect t)).set ↔ _
  rw [View.set_slice_whole, Rect.mem_set_unit]
  exact Iff.rfl

/-- The second output, one row: each column of the perceptron's table summed over all the rows. -/
theorem sum_value (c : Dev nD) : (dat3 (F := Ideal) V c).arrAt 6 cfg3.N = asRow (colSum (zOf V c)) :=
  (dat3 (F := Ideal) V c).arrAt_eq_of_cover 6 (asRow (colSum (zOf V c))) (fun t hf => flushed6_eq V c t hf) fun i => by
    have hi0 : (i 0).val < 1 := (i 0).isLt
    have hi1 : (i 1).val < 64 := (i 1).isLt
    obtain ⟨-, -, -, -, -, -, -, -, -, -, e0, e1, -⟩ := idx_facts ⟨4, lastPt⟩
    refine ⟨⟨4, lastPt⟩, (flush3_6 _).mpr rfl, ?_⟩
    rw [mem_blk6]
    intro a
    match a with
    | ⟨0, _⟩ =>
      show win3_6.index ⟨4, lastPt⟩ (0 : Fin 2) * 1 ≤ (i 0).val ∧ (i 0).val < win3_6.index ⟨4, lastPt⟩ (0 : Fin 2) * 1 + 1
      rw [e0]; omega
    | ⟨1, _⟩ =>
      show win3_6.index ⟨4, lastPt⟩ (1 : Fin 2) * 64 ≤ (i 1).val ∧ (i 1).val < win3_6.index ⟨4, lastPt⟩ (1 : Fin 2) * 64 + 64
      rw [e1]; omega

/-- The third output, one row: each column's squares summed over all the rows. -/
theorem sumsq_value (c : Dev nD) : (dat3 (F := Ideal) V c).arrAt 7 cfg3.N = asRow (colSumSq (zOf V c)) :=
  (dat3 (F := Ideal) V c).arrAt_eq_of_cover 7 (asRow (colSumSq (zOf V c))) (fun t hf => flushed7_eq V c t hf) fun i => by
    have hi0 : (i 0).val < 1 := (i 0).isLt
    have hi1 : (i 1).val < 64 := (i 1).isLt
    obtain ⟨-, -, -, -, -, -, -, -, -, -, -, -, e0, e1⟩ := idx_facts ⟨4, lastPt⟩
    refine ⟨⟨4, lastPt⟩, (flush3_7 _).mpr rfl, ?_⟩
    rw [mem_blk7]
    intro a
    match a with
    | ⟨0, _⟩ =>
      show win3_7.index ⟨4, lastPt⟩ (0 : Fin 2) * 1 ≤ (i 0).val ∧ (i 0).val < win3_7.index ⟨4, lastPt⟩ (0 : Fin 2) * 1 + 1
      rw [e0]; omega
    | ⟨1, _⟩ =>
      show win3_7.index ⟨4, lastPt⟩ (1 : Fin 2) * 64 ≤ (i 1).val ∧ (i 1).val < win3_7.index ⟨4, lastPt⟩ (1 : Fin 2) * 64 + 64
      rw [e1]; omega

end Cert.KernelIdeal.Region3

end
-- ==== Proof.Region4Value.lean ====
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The normalisation region, read as one function of its input arrays

The region walks a table of 50000 rows and 64 columns in five blocks of 10000 rows. At every block it also
holds four one-row tables in full: a mean, a variance, a scale and a shift, one entry per column. Entry
`(p, q)` of the block is sent to

  `max ((((z p q - mean q) * rsqrt (variance q + e)) * scale q) + shift q) 0`

over the extended reals, with `e` one fixed constant added to the variance before the reciprocal square root.
Row `p` of block `t` is row `t * 10000 + p` of the table, the one-row tables do not move, and the five blocks
tile the 50000 rows (row `r` lies in block `r / 10000`). So after the region the output table is that formula
applied entry by entry to the whole input table.
-/

set_option maxRecDepth 16384

noncomputable section

namespace Cert.KernelIdeal.Region4

open Idealize.ShloMosaic Idealize.ShloMosaic.TcCoe Idealize.ShloMosaic.ValueIdx Idealize.SL.Sem Cert.KernelIdeal Cert.KernelIdeal.Gen Cert.Spec

/-- The offsets `(0, 0)` are the zero offsets. -/
theorem zero_offsets : (![0, 0] : Fin 2 → Nat) = fun _ => 0 := funext fun a => by fin_cases a <;> rfl

/-- The body's arithmetic at entry `(p, q)` of a block: the entry is centred by the mean of its column, scaled by
    the reciprocal square root of the column's variance plus the constant, then by the column's scale, shifted
    by the column's shift, and cut at zero. Each one-row table is read at its only row. -/
theorem payload_apply (xz : Vec Ideal S10000x64 .f32) (xm xv xg xs : Vec Ideal S1x64 .f32) (p : Fin 10000) (q : Fin 64) :
    k4_pay1 (F := Ideal) xz xm xv xg xs (ix2 p q)
      = max ((((xz (ix2 p q) - xm (ix2 (0 : Fin 1) q)) * Ideal.rsqrt (xv (ix2 (0 : Fin 1) q) + Ideal.ofBits .f32 0x3727C5AC#32))
          * xg (ix2 (0 : Fin 1) q)) + xs (ix2 (0 : Fin 1) q)) 0 := by
  unfold k4_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply, broadcast_apply]
  show max (_ * Ideal.rsqrt (xv (ix2 (0 : Fin 1) q) + Ideal.ofBits .f32 0x3727C5AC#32) * _ + _) (Ideal.ofBits .f32 0x00000000#32) = _
  rw [Ideal.ofBits_zero_f32]

/-- One block of the result. If a block of 10000 rows holds rows `b * 10000 …` of the table `z` and the four
    one-row blocks are the tables `mu`, `v`, `g`, `s` themselves, then the body's value at an entry of the block
    is the normalised table at the matching entry of the whole table. -/
theorem block_value (z : Mat 50000 64) (mu v g s : Mat 1 64)
    (xz : Vec Ideal S10000x64 .f32) (xm xv xg xs : Vec Ideal S1x64 .f32) (b : Nat)
    (hz : ∀ (y : S10000x64.Idx) (i : S50000x64.Idx), (i 0).val = b * 10000 + (y 0).val → (i 1).val = (y 1).val → xz y = z i)
    (hm : xm = mu) (hv : xv = v) (hg : xg = g) (hs : xs = s)
    (y : S10000x64.Idx) (i : S50000x64.Idx) (hi0 : (i 0).val = b * 10000 + (y 0).val) (hi1 : (i 1).val = (y 1).val) :
    k4_pay1 (F := Ideal) xz xm xv xg xs y
      = normRelu z (rowOf mu) (rowOf v) (rowOf g) (rowOf s) (Ideal.ofBits .f32 0x3727C5AC#32) i := by
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [payload_apply, hz (ix2 p q') (ix2 r q') hi0 rfl, hm, hv, hg, hs, normRelu_ix2]
  rfl

/-- Where each window's block sits at grid point `t`: the table's and the result's block is block `t` along the
    rows and the only block along the columns; every one-row table's block is its only block. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- The table's block at point `t`, entry `(p, q)`, is the table's entry `(t * 10000 + p, q)`. -/
theorem table_block (c : Dev nD) (t : Fin cfg4.N) (y : S10000x64.Idx) (i : S50000x64.Idx)
    (hi0 : (i 0).val = t.val * 10000 + (y 0).val) (hi1 : (i 1).val = (y 1).val) :
    (iblk4 V c 0 t : Vec Ideal S10000x64 .f32) y = (V c main_v59_0 : Mat 50000 64) i := by
  obtain ⟨e0, e1, -⟩ := index_facts t
  unfold iblk4
  rw [View.read_apply]
  show V c main_v59_0 _ = V c main_v59_0 _
  refine congrArg _ (funext fun a => Fin.ext ?_)
  match a with
  | ⟨0, _⟩ => show win4_0.index t (0 : Fin 2) * 10000 + 1 * (y 0).val = (i 0).val; rw [e0, hi0]; omega
  | ⟨1, _⟩ => show win4_0.index t (1 : Fin 2) * 64 + 1 * (y 1).val = (i 1).val; rw [e1, hi1]; omega

/-- The mean's block at every point is the whole one-row table of means. -/
theorem mean_block (c : Dev nD) (t : Fin cfg4.N) :
    (iblk4 V c 1 t : Vec Ideal S1x64 .f32) = (V c main_v72 : Mat 1 64) := by
  obtain ⟨-, -, e0, e1, -⟩ := index_facts t
  funext y
  unfold iblk4
  rw [View.read_apply]
  show V c main_v72 _ = V c main_v72 _
  refine congrArg _ (funext fun a => Fin.ext ?_)
  match a with
  | ⟨0, _⟩ => show win4_1.index t (0 : Fin 2) * 1 + 1 * (y 0).val = (y 0).val; rw [e0]; omega
  | ⟨1, _⟩ => show win4_1.index t (1 : Fin 2) * 64 + 1 * (y 1).val = (y 1).val; rw [e1]; omega

/-- The variance's block at every point is the whole one-row table of variances. -/
theorem variance_block (c : Dev nD) (t : Fin cfg4.N) :
    (iblk4 V c 2 t : Vec Ideal S1x64 .f32) = (V c main_v73 : Mat 1 64) := by
  obtain ⟨-, -, -, -, e0, e1, -⟩ := index_facts t
  funext y
  unfold iblk4
  rw [View.read_apply]
  show V c main_v73 _ = V c main_v73 _
  refine congrArg _ (funext fun a => Fin.ext ?_)
  match a with
  | ⟨0, _⟩ => show win4_2.index t (0 : Fin 2) * 1 + 1 * (y 0).val = (y 0).val; rw [e0]; omega
  | ⟨1, _⟩ => show win4_2.index t (1 : Fin 2) * 64 + 1 * (y 1).val = (y 1).val; rw [e1]; omega

/-- The scale's block at every point is the whole one-row table of scales. -/
theorem scale_block (c : Dev nD) (t : Fin cfg4.N) :
    (iblk4 V c 3 t : Vec Ideal S1x64 .f32) = (V c main_v74 : Mat 1 64) := by
  obtain ⟨-, -, -, -, -, -, e0, e1, -⟩ := index_facts t
  funext y
  unfold iblk4
  rw [View.read_apply]
  show V c main_v74 _ = V c main_v74 _
  refine congrArg _ (funext fun a => Fin.ext ?_)
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

/-- The shift's block at every point is the whole one-row table of shifts. -/
theorem shift_block (c : Dev nD) (t : Fin cfg4.N) :
    (iblk4 V c 4 t : Vec Ideal S1x64 .f32) = (V c main_v75 : Mat 1 64) := by
  obtain ⟨-, -, -, -, -, -, -, -, e0, e1, -⟩ := index_facts t
  funext y
  unfold iblk4
  rw [View.read_apply]
  show V c main_v75 _ = V c main_v75 _
  refine congrArg _ (funext fun a => Fin.ext ?_)
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- What point `t` writes back is block `t` of the normalised table: the body stores its arithmetic over the whole
    block, the block's rows are rows `t * 10000 …` of the table, and the four one-row tables are read whole. -/
theorem flushed_eq (c : Dev nD) (t : Fin cfg4.N) :
    (dat4 (F := Ideal) V c).flushed 5 t
      = ((cfg4.win 5).blk t).view.read (Elt Ideal)
          (normRelu (V c main_v59_0 : Mat 50000 64) (rowOf (V c main_v72 : Mat 1 64)) (rowOf (V c main_v73 : Mat 1 64))
            (rowOf (V c main_v74 : Mat 1 64)) (rowOf (V c main_v75 : Mat 1 64)) (Ideal.ofBits .f32 0x3727C5AC#32)) := by
  show (cfg4.win 5).cut (grid4.coords t) ((dat4 V c).after 5 t) = _
  rw [after4_5]
  unfold out4_5
  rw [View.canon_unit_zero zero_offsets]
  simp only [View.ld_unit_zero (S := S10000x64) zero_offsets, View.ld_unit_zero (S := S1x64) zero_offsets]
  obtain ⟨-, -, -, -, -, -, -, -, -, -, e0, e1⟩ := index_facts t
  funext j
  refine block_value (V c main_v59_0) (V c main_v72) (V c main_v73) (V c main_v74) (V c main_v75)
    (iblk4 V c 0 t) (iblk4 V c 1 t) (iblk4 V c 2 t) (iblk4 V c 3 t) (iblk4 V c 4 t) t.val
    (fun y i hy0 hy1 => table_block V c t y i hy0 hy1) (mean_block V c t) (variance_block V c t) (scale_block V c t)
    (shift_block V c t) _ (((cfg4.win 5).blk t).view.emb j) ?_ ?_
  · show win4_5.index t (0 : Fin 2) * 10000 + 1 * (j 0).val = t.val * 10000 + (j 0).val
    rw [e0]; omega
  · show win4_5.index t (1 : Fin 2) * 64 + 1 * (j 1).val = (j 1).val
    rw [e1]; omega

/-- An entry of the result table lies in point `t`'s block exactly when each coordinate lies in the block's range
    on its axis. -/
theorem mem_block (t : Fin cfg4.N) (i : S50000x64.Idx) :
    i ∈ ((cfg4.win 5).blk t).view.set ↔
      ∀ a : Fin 2, win4_5.index t a * S10000x64.size a ≤ (i a).val
        ∧ (i a).val < win4_5.index t a * S10000x64.size a + S10000x64.size a := by
  show i ∈ ((View.whole main_v76).slice (win4_5.rect t)).set ↔ _
  rw [View.set_slice_whole, Rect.mem_set_unit]
  exact Iff.rfl

/-- The five blocks tile the table: row `r` lies in the block of point `r / 10000`, which writes back. -/
theorem covered (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  have hN : grid4.N = 5 := N_4
  have ht : (i 0).val / 10000 < grid4.N := by rw [hN]; omega
  refine ⟨⟨(i 0).val / 10000, ht⟩, flush4_5 _, ?_⟩
  rw [mem_block]
  obtain ⟨-, -, -, -, -, -, -, -, -, -, e0, e1⟩ := index_facts ⟨(i 0).val / 10000, ht⟩
  intro a
  match a with
  | ⟨0, _⟩ =>
    show win4_5.index ⟨(i 0).val / 10000, ht⟩ (0 : Fin 2) * 10000 ≤ (i 0).val
      ∧ (i 0).val < win4_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win4_5.index ⟨(i 0).val / 10000, ht⟩ (1 : Fin 2) * 64 ≤ (i 1).val
      ∧ (i 1).val < win4_5.index ⟨(i 0).val / 10000, ht⟩ (1 : Fin 2) * 64 + 64
    rw [e1]; omega

/-- After the normalisation's region the output array holds the centred, scaled, shifted table, cut at zero. -/
theorem normalized (c : Dev nD) :
    (dat4 (F := Ideal) V c).arrAt 5 cfg4.N
      = normRelu (V c main_v59_0 : Mat 50000 64) (rowOf (V c main_v72 : Mat 1 64)) (rowOf (V c main_v73 : Mat 1 64))
          (rowOf (V c main_v74 : Mat 1 64)) (rowOf (V c main_v75 : Mat 1 64)) (Ideal.ofBits .f32 0x3727C5AC#32) :=
  (dat4 (F := Ideal) V c).arrAt_eq_of_cover 5 _ (fun t _ => flushed_eq V c t) covered

end Cert.KernelIdeal.Region4

end
-- ==== Proof.KerLayer1.lean ====
import proofs.«427472_j26645977105018_1_alg».proof.Proof.Gen.KernelIdeal.Frame
import proofs.«427472_j26645977105018_1_alg».proof.Proof.Keep
import proofs.«427472_j26645977105018_1_alg».proof.Proof.Stages
import proofs.«427472_j26645977105018_1_alg».proof.Proof.KerHost
import proofs.«427472_j26645977105018_1_alg».proof.Proof.TakeStretch1
import proofs.«427472_j26645977105018_1_alg».proof.Proof.Region3Value
import proofs.«427472_j26645977105018_1_alg».proof.Proof.Region4Value
import Idealize.ShloMosaic.Lib.StableHlo.Run

/-!
# Layer 1 of the idealized kernel, from the features it starts from to the features it leaves

Between the boundary where the layer's input features stand and the boundary after its normalisation region the
kernel's program runs: the stretch that takes the neighbour rows; the stretch that adds them up by target node,
adds (1 + the layer's scalar) times the node's own features and cuts the layer's matrices and vectors out of the
stacked parameters; the perceptron region, which also leaves the column sums and the column sums of squares; the
stretch that turns those into the column means and variances and cuts out the layer's scale and shift; and the
normalisation region. Read one after the other they are the stage function `layerK` of the input features, the
two rows of the edge list and the layer's parameters, all of which still hold what the launch memory held.
-/

set_option maxRecDepth 65536

noncomputable section

namespace Cert.KernelIdeal.KerLayer1

open Idealize.ShloMosaic Idealize.ShloMosaic.TcCoe Idealize.ShloMosaic.ValueIdx Idealize.SL.Sem Idealize.ShloMosaic.StableHlo
open Cert.KernelIdeal Cert.KernelIdeal.Gen Cert.KernelIdeal.Keep Cert.Spec Cert.Layer Cert.Stages

variable (m : (ℓ : Loc nD τ sig) → Buf (Elt Ideal) ℓ) (ρ : Dev nD → PrngReg)

/-- What the launch memory holds in an argument's buffer on core c. -/
abbrev arg (b : Ref sig .tc) (c : Dev nD) := m ((c : Thread nD τ).loc b)

/-! ## The host stretches, from any contents -/

set_option maxHeartbeats 1000000 in
theorem combine_of (X : Valuation τ sig (Elt Ideal)) :
    StableHlo.after (hostOps3_1 (F := Ideal)) X (Proc.devRef .tc main_v50)
      = combine (scalarAt1 (X (Proc.devRef .tc main_arg5))) (X (Proc.devRef .tc main_v40)) (X (Proc.devRef .tc main_v41)) (X (Proc.devRef .tc main_v3)) := by
  simp only [hostOps3_1]
  after_results_simp
  rfl
set_option maxHeartbeats 1000000 in
theorem w1_of (X : Valuation τ sig (Elt Ideal)) :
    StableHlo.after (hostOps3_1 (F := Ideal)) X (Proc.devRef .tc main_v52) = matAt1 (X (Proc.devRef .tc main_arg6)) := by
  simp only [hostOps3_1]
  after_results_simp
  rfl
set_option maxHeartbeats 1000000 in
theorem b1_of (X : Valuation τ sig (Elt Ideal)) :
    StableHlo.after (hostOps3_1 (F := Ideal)) X (Proc.devRef .tc main_v54) = vecAt1 (X (Proc.devRef .tc main_arg7)) := by
  simp only [hostOps3_1]
  after_results_simp
  rfl
set_option maxHeartbeats 1000000 in
theorem w2_of (X : Valuation τ sig (Elt Ideal)) :
    StableHlo.after (hostOps3_1 (F := Ideal)) X (Proc.devRef .tc main_v56) = matAt1 (X (Proc.devRef .tc main_arg8)) := by
  simp only [hostOps3_1]
  after_results_simp
  rfl
set_option maxHeartbeats 1000000 in
theorem b2_of (X : Valuation τ sig (Elt Ideal)) :
    StableHlo.after (hostOps3_1 (F := Ideal)) X (Proc.devRef .tc main_v58) = vecAt1 (X (Proc.devRef .tc main_arg9)) := by
  simp only [hostOps3_1]
  after_results_simp
  rfl

set_option maxHeartbeats 1000000 in
theorem mean_of (X : Valuation τ sig (Elt Ideal)) :
    StableHlo.after (hostOps4 (F := Ideal)) X (Proc.devRef .tc main_v72)
      = shapeCast S1x64 (Host.divf (shapeCast S64 (X (Proc.devRef .tc main_v59_1)) shapeCasts_S1x64_S64)
          (broadcastInDim S64 ![] bcast_S_S64 (constant (F := Ideal) S_ .f32 0x47435000#32))) shapeCasts_S64_S1x64 := by
  simp only [hostOps4]
  after_results_simp
  rfl
set_option maxHeartbeats 1000000 in
theorem var_of (X : Valuation τ sig (Elt Ideal)) :
    StableHlo.after (hostOps4 (F := Ideal)) X (Proc.devRef .tc main_v73)
      = shapeCast S1x64 (subf (Host.divf (shapeCast S64 (X (Proc.devRef .tc main_v59_2)) shapeCasts_S1x64_S64)
            (broadcastInDim S64 ![] bcast_S_S64 (constant (F := Ideal) S_ .f32 0x47435000#32)))
          (mulf (Host.divf (shapeCast S64 (X (Proc.devRef .tc main_v59_1)) shapeCasts_S1x64_S64)
              (broadcastInDim S64 ![] bcast_S_S64 (constant (F := Ideal) S_ .f32 0x47435000#32)))
            (Host.divf (shapeCast S64 (X (Proc.devRef .tc main_v59_1)) shapeCasts_S1x64_S64)
              (broadcastInDim S64 ![] bcast_S_S64 (constant (F := Ideal) S_ .f32 0x47435000#32))))) shapeCasts_S64_S1x64 := by
  simp only [hostOps4]
  after_results_simp
  rfl
set_option maxHeartbeats 1000000 in
theorem scale_of (X : Valuation τ sig (Elt Ideal)) :
    StableHlo.after (hostOps4 (F := Ideal)) X (Proc.devRef .tc main_v74)
      = shapeCast S1x64 (vecAt1 (X (Proc.devRef .tc main_arg10))) shapeCasts_S64_S1x64 := by
  simp only [hostOps4]
  after_results_simp
  rfl
set_option maxHeartbeats 1000000 in
theorem shift_of (X : Valuation τ sig (Elt Ideal)) :
    StableHlo.after (hostOps4 (F := Ideal)) X (Proc.devRef .tc main_v75)
      = shapeCast S1x64 (vecAt1 (X (Proc.devRef .tc main_arg11))) shapeCasts_S64_S1x64 := by
  simp only [hostOps4]
  after_results_simp
  rfl

/-! ## The layer -/

/-- From the layer's input features `H` at its entry boundary to `layerK H …` at its exit boundary. -/
theorem layer_out (c : Dev nD) (H : Mat 50000 64)
    (hH : W7 m ρ c (Proc.devRef .tc main_v40) = H)
    (hsrc1 : W1 m ρ c (Proc.devRef .tc main_v1) = srcOf (arg m main_arg1 c))
    (hdst1 : W1 m ρ c (Proc.devRef .tc main_v3) = dstOf (arg m main_arg1 c)) :
    W12 m ρ c (Proc.devRef .tc main_v76)
      = layerK H (srcOf (arg m main_arg1 c)) (dstOf (arg m main_arg1 c)) (scalarAt1 (arg m main_arg5 c))
          (matAt1 (arg m main_arg6 c)) (vecAt1 (arg m main_arg7 c)) (matAt1 (arg m main_arg8 c)) (vecAt1 (arg m main_arg9 c))
          (vecAt1 (arg m main_arg10 c)) (vecAt1 (arg m main_arg11 c)) := by
  -- the two rows of the edge list, where they are read
  have hsrc : W7 m ρ c (Proc.devRef .tc main_v1) = srcOf (arg m main_arg1 c) := (at7_main_v1 m ρ c).trans hsrc1
  have hdst : W8 m ρ c (Proc.devRef .tc main_v3) = dstOf (arg m main_arg1 c) := (at8_main_v3 m ρ c).trans hdst1
  -- the neighbour rows
  have htk : W8 m ρ c (Proc.devRef .tc main_v41) = takeK H (srcOf (arg m main_arg1 c)) := by
    show StableHlo.after hostOps3 (W7 m ρ c) (Proc.devRef .tc main_v41) = _
    rw [Cert.KernelIdeal.Take1.take_of, hH, hsrc]
  have hH1 : W8 m ρ c (Proc.devRef .tc main_v40) = H := (step8_main_v40 m ρ c).trans hH
  -- the perceptron's inputs
  have hz0 : W9 m ρ c (Proc.devRef .tc main_v50)
      = combine (scalarAt1 (arg m main_arg5 c)) H (takeK H (srcOf (arg m main_arg1 c))) (dstOf (arg m main_arg1 c)) := by
    show StableHlo.after hostOps3_1 (W8 m ρ c) (Proc.devRef .tc main_v50) = _
    rw [combine_of, hH1, htk, hdst, at8_main_arg5]
  have hw1 : W9 m ρ c (Proc.devRef .tc main_v52) = matAt1 (arg m main_arg6 c) := by
    show StableHlo.after hostOps3_1 (W8 m ρ c) (Proc.devRef .tc main_v52) = _
    rw [w1_of, at8_main_arg6]
  have hb1 : W9 m ρ c (Proc.devRef .tc main_v54) = vecAt1 (arg m main_arg7 c) := by
    show StableHlo.after hostOps3_1 (W8 m ρ c) (Proc.devRef .tc main_v54) = _
    rw [b1_of, at8_main_arg7]
  have hw2 : W9 m ρ c (Proc.devRef .tc main_v56) = matAt1 (arg m main_arg8 c) := by
    show StableHlo.after hostOps3_1 (W8 m ρ c) (Proc.devRef .tc main_v56) = _
    rw [w2_of, at8_main_arg8]
  have hb2 : W9 m ρ c (Proc.devRef .tc main_v58) = vecAt1 (arg m main_arg9 c) := by
    show StableHlo.after hostOps3_1 (W8 m ρ c) (Proc.devRef .tc main_v58) = _
    rw [b2_of, at8_main_arg9]
  -- the perceptron region's three outputs
  have hz : W10 m ρ c (Proc.devRef .tc main_v59_0)
      = zWith takeK H (srcOf (arg m main_arg1 c)) (dstOf (arg m main_arg1 c)) (scalarAt1 (arg m main_arg5 c))
          (matAt1 (arg m main_arg6 c)) (vecAt1 (arg m main_arg7 c)) (matAt1 (arg m main_arg8 c)) (vecAt1 (arg m main_arg9 c)) := by
    refine (W10_arr m ρ c 5).trans ((Cert.KernelIdeal.Region3.z_value (V9 m ρ) c).trans ?_)
    show mlp (W9 m ρ c (Proc.devRef .tc main_v50)) (W9 m ρ c (Proc.devRef .tc main_v52)) (W9 m ρ c (Proc.devRef .tc main_v54))
      (W9 m ρ c (Proc.devRef .tc main_v56)) (W9 m ρ c (Proc.devRef .tc main_v58)) = _
    rw [hz0, hw1, hb1, hw2, hb2]; rfl
  have hzV : Cert.KernelIdeal.Region3.zOf (V9 m ρ) c
      = zWith takeK H (srcOf (arg m main_arg1 c)) (dstOf (arg m main_arg1 c)) (scalarAt1 (arg m main_arg5 c))
          (matAt1 (arg m main_arg6 c)) (vecAt1 (arg m main_arg7 c)) (matAt1 (arg m main_arg8 c)) (vecAt1 (arg m main_arg9 c)) := by
    show mlp (W9 m ρ c (Proc.devRef .tc main_v50)) (W9 m ρ c (Proc.devRef .tc main_v52)) (W9 m ρ c (Proc.devRef .tc main_v54))
      (W9 m ρ c (Proc.devRef .tc main_v56)) (W9 m ρ c (Proc.devRef .tc main_v58)) = _
    rw [hz0, hw1, hb1, hw2, hb2]; rfl
  have hsum : W10 m ρ c (Proc.devRef .tc main_v59_1) = asRow (colSum (Cert.KernelIdeal.Region3.zOf (V9 m ρ) c)) :=
    (W10_arr m ρ c 6).trans (Cert.KernelIdeal.Region3.sum_value (V9 m ρ) c)
  have hsq : W10 m ρ c (Proc.devRef .tc main_v59_2) = asRow (colSumSq (Cert.KernelIdeal.Region3.zOf (V9 m ρ) c)) :=
    (W10_arr m ρ c 7).trans (Cert.KernelIdeal.Region3.sumsq_value (V9 m ρ) c)
  rw [hzV] at hsum hsq
  -- the statistics rows and the layer's scale and shift
  have hmean : rowOf (W11 m ρ c (Proc.devRef .tc main_v72) : Mat 1 64) = meanOf (zWith takeK H (srcOf (arg m main_arg1 c)) (dstOf (arg m main_arg1 c)) (scalarAt1 (arg m main_arg5 c))
          (matAt1 (arg m main_arg6 c)) (vecAt1 (arg m main_arg7 c)) (matAt1 (arg m main_arg8 c)) (vecAt1 (arg m main_arg9 c))) rowsC := by
    show rowOf (StableHlo.after hostOps4 (W10 m ρ c) (Proc.devRef .tc main_v72)) = _
    rw [mean_of, hsum]
    exact Cert.KerHost.mean_of_sums _ _
  have hvar : rowOf (W11 m ρ c (Proc.devRef .tc main_v73) : Mat 1 64) = varBySquares (zWith takeK H (srcOf (arg m main_arg1 c)) (dstOf (arg m main_arg1 c)) (scalarAt1 (arg m main_arg5 c))
          (matAt1 (arg m main_arg6 c)) (vecAt1 (arg m main_arg7 c)) (matAt1 (arg m main_arg8 c)) (vecAt1 (arg m main_arg9 c))) rowsC := by
    show rowOf (StableHlo.after hostOps4 (W10 m ρ c) (Proc.devRef .tc main_v73)) = _
    rw [var_of, hsum, hsq]
    exact Cert.KerHost.var_of_sums _ _
  have hgam : rowOf (W11 m ρ c (Proc.devRef .tc main_v74) : Mat 1 64) = vecAt1 (arg m main_arg10 c) := by
    show rowOf (StableHlo.after hostOps4 (W10 m ρ c) (Proc.devRef .tc main_v74)) = _
    rw [scale_of, at10_main_arg10]
    exact Cert.KerHost.row_of_vec _
  have hbet : rowOf (W11 m ρ c (Proc.devRef .tc main_v75) : Mat 1 64) = vecAt1 (arg m main_arg11 c) := by
    show rowOf (StableHlo.after hostOps4 (W10 m ρ c) (Proc.devRef .tc main_v75)) = _
    rw [shift_of, at10_main_arg11]
    exact Cert.KerHost.row_of_vec _
  have hz4 : W11 m ρ c (Proc.devRef .tc main_v59_0)
      = zWith takeK H (srcOf (arg m main_arg1 c)) (dstOf (arg m main_arg1 c)) (scalarAt1 (arg m main_arg5 c))
          (matAt1 (arg m main_arg6 c)) (vecAt1 (arg m main_arg7 c)) (matAt1 (arg m main_arg8 c)) (vecAt1 (arg m main_arg9 c)) :=
    (step11_main_v59_0 m ρ c).trans hz
  -- the normalisation region
  refine (W12_arr m ρ c 5).trans ((Cert.KernelIdeal.Region4.normalized (V11 m ρ) c).trans ?_)
  show normRelu (W11 m ρ c (Proc.devRef .tc main_v59_0)) (rowOf (W11 m ρ c (Proc.devRef .tc main_v72))) (rowOf (W11 m ρ c (Proc.devRef .tc main_v73)))
    (rowOf (W11 m ρ c (Proc.devRef .tc main_v74))) (rowOf (W11 m ρ c (Proc.devRef .tc main_v75))) (Ideal.ofBits .f32 0x3727C5AC#32) = _
  rw [hz4, hmean, hvar, hgam, hbet]
  rfl

end Cert.KernelIdeal.KerLayer1

end
-- ==== Proof.TakeStretch2.lean ====
/- Layer 2's host stretch that takes every edge's source row of the node features: its printed operations, cut in
   three. The first eight make the column of wrapped ids (a negative id counts from the end), the next ten the
   bit per edge that says whether the wrapped id lies in [0, 49999], the last five gather the rows and replace the
   rows whose bit is clear by the fill word. Read one after the other they are the stage function takeK. -/
import proofs.«427472_j26645977105018_1_alg».proof.Proof.Gen.KernelIdeal.Frame
import proofs.«427472_j26645977105018_1_alg».proof.Proof.Stages
import Idealize.ShloMosaic.Lib.StableHlo.Run

set_option maxRecDepth 65536

noncomputable section

namespace Cert.KernelIdeal.Take2

open Idealize.ShloMosaic Idealize.ShloMosaic.TcCoe Idealize.SL.Sem Idealize.ShloMosaic.StableHlo
open Cert.KernelIdeal Cert.KernelIdeal.Gen Cert.Stages Idealize.ShloMosaic.Tactic

/-- The operations that make the column of wrapped ids. -/
abbrev idxOps : List (HloOp τ sig (Elt Ideal)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S800000, .i32⟩) (broadcastInDim S800000 ![] bcast_S_S800000),
    StableHlo.TRef.binary (.of main_v1 : StableHlo.TRef sig ⟨S800000, .i32⟩) (.of main_call2_v0 : StableHlo.TRef sig ⟨S800000, .i32⟩) (.of main_call2_v1 : StableHlo.TRef sig ⟨S800000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S800000, .i32⟩) (broadcastInDim S800000 ![] bcast_S_S800000),
    StableHlo.TRef.binary (.of main_v1 : StableHlo.TRef sig ⟨S800000, .i32⟩) (.of main_call2_v2 : StableHlo.TRef sig ⟨S800000, .i32⟩) (.of main_call2_v3 : StableHlo.TRef sig ⟨S800000, .i32⟩) addi,
    StableHlo.TRef.ternary (.of main_call2_v1 : StableHlo.TRef sig ⟨S800000, .i1⟩) (.of main_call2_v3 : StableHlo.TRef sig ⟨S800000, .i32⟩) (.of main_v1 : StableHlo.TRef sig ⟨S800000, .i32⟩) (.of main_call2_v4 : StableHlo.TRef sig ⟨S800000, .i32⟩) select,
    StableHlo.TRef.unary main_call2_call0.v0 (.of main_call2_v5 : StableHlo.TRef sig ⟨S800000x1, .i32⟩) (broadcastInDim S800000x1 ![0] bcast_S800000_S800000x1_0) ]
/-- The operations that make the in-range bit of every edge. -/
abbrev maskOps : List (HloOp τ sig (Elt Ideal)) :=
  [ StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S800000x1, .i32⟩) (broadcastInDim S800000x1 ![] bcast_S_S800000x1),
    StableHlo.TRef.binary (.of main_call2_v5 : StableHlo.TRef sig ⟨S800000x1, .i32⟩) (.of main_call2_v6 : StableHlo.TRef sig ⟨S800000x1, .i32⟩) (.of main_call2_v7 : StableHlo.TRef sig ⟨S800000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S800000x1, .i32⟩) (broadcastInDim S800000x1 ![0, 1] bcast_S1x1_S800000x1_0_1),
    StableHlo.TRef.binary (.of main_call2_v5 : StableHlo.TRef sig ⟨S800000x1, .i32⟩) (.of main_call2_v9 : StableHlo.TRef sig ⟨S800000x1, .i32⟩) (.of main_call2_v10 : StableHlo.TRef sig ⟨S800000x1, .i1⟩) (cmpi .sle),
    StableHlo.TRef.binary (.of main_call2_v7 : StableHlo.TRef sig ⟨S800000x1, .i1⟩) (.of main_call2_v10 : StableHlo.TRef sig ⟨S800000x1, .i1⟩) (.of main_call2_v11 : StableHlo.TRef sig ⟨S800000x1, .i1⟩) andi,
    StableHlo.TRef.nullary (.of main_call2_c_3 : StableHlo.TRef sig ⟨S_, .i1⟩) (constantI S_ 1 1#1),
    StableHlo.TRef.binary (.of main_call2_v11 : StableHlo.TRef sig ⟨S800000x1, .i1⟩) (.of main_call2_c_3 : StableHlo.TRef sig ⟨S_, .i1⟩) (.of main_call2_v12 : StableHlo.TRef sig ⟨S800000, .i1⟩) (fun x v => Host.reduce IntOp.andi x v reducesTo_S800000x1_S800000_d1 h_S_) ]
/-- The gather and the fill. -/
abbrev fillOps : List (HloOp τ sig (Elt Ideal)) :=
  [ StableHlo.TRef.binary (.of main_v76 : StableHlo.TRef sig ⟨S50000x64, .f32⟩) (.of main_call2_v5 : StableHlo.TRef sig ⟨S800000x1, .i32⟩) (.of main_call2_v13 : StableHlo.TRef sig ⟨S800000x64, .f32⟩) (fun x i => Host.gather gather_S50000x64_S800000x1_S800000x64_1_0_n_n_0_1_164 x i),
    StableHlo.TRef.unary (.of main_call2_v12 : StableHlo.TRef sig ⟨S800000, .i1⟩) (.of main_call2_v14 : StableHlo.TRef sig ⟨S800000x64, .i1⟩) (broadcastInDim S800000x64 ![0] bcast_S800000_S800000x64_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S800000x64, .f32⟩) (broadcastInDim S800000x64 ![] bcast_S_S800000x64),
    StableHlo.TRef.ternary (.of main_call2_v14 : StableHlo.TRef sig ⟨S800000x64, .i1⟩) (.of main_call2_v13 : StableHlo.TRef sig ⟨S800000x64, .f32⟩) (.of main_call2_v15 : StableHlo.TRef sig ⟨S800000x64, .f32⟩) (.of main_v77 : StableHlo.TRef sig ⟨S800000x64, .f32⟩) select ]

theorem split : (hostOps5 (F := Ideal)) = idxOps ++ (maskOps ++ fillOps) := by sl_kernel_rfl

macro "keep_piece " ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes,
    StableHlo.reshape_writes, Finset.mem_singleton]
  repeat' apply And.intro
  all_goals exact StableHlo.devRef_ne_of_ne (by decide))))

set_option maxHeartbeats 1000000 in
/-- The column of wrapped ids, from the vector of source ids. -/
theorem idx_of (X : Valuation τ sig (Elt Ideal)) :
    StableHlo.after idxOps X (Proc.devRef .tc main_call2_v5) = wrapped (X (Proc.devRef .tc main_v1)) := by
  simp only [idxOps]
  after_results_simp
  sl_kernel_rfl

set_option maxHeartbeats 1000000 in
/-- The in-range bit of every edge, from the column of wrapped ids. -/
theorem mask_of (Y : Valuation τ sig (Elt Ideal)) :
    StableHlo.after maskOps Y (Proc.devRef .tc main_call2_v12)
      = Host.reduce IntOp.andi
          (andi (cmpi .sge (Y (Proc.devRef .tc main_call2_v5)) (broadcastInDim S800000x1 ![] bcast_S_S800000x1 (constantI S_ 32 0#32)))
            (cmpi .sle (Y (Proc.devRef .tc main_call2_v5)) (broadcastInDim S800000x1 ![0, 1] bcast_S1x1_S800000x1_0_1
              (broadcastInDim S1x1 ![1] bcast_S1_S1x1_1 (constantI S1 32 49999#32)))))
          (constantI S_ 1 1#1) reducesTo_S800000x1_S800000_d1 h_S_ := by
  simp only [maskOps]
  after_results_simp
  sl_kernel_rfl

set_option maxHeartbeats 1000000 in
/-- The gathered rows, a row whose bit is clear replaced by the fill word. -/
theorem fill_of (Z : Valuation τ sig (Elt Ideal)) :
    StableHlo.after fillOps Z (Proc.devRef .tc main_v77)
      = select (broadcastInDim S800000x64 ![0] bcast_S800000_S800000x64_0 (Z (Proc.devRef .tc main_call2_v12)))
          (Host.gather gather_S50000x64_S800000x1_S800000x64_1_0_n_n_0_1_164 (Z (Proc.devRef .tc main_v76)) (Z (Proc.devRef .tc main_call2_v5)))
          (broadcastInDim S800000x64 ![] bcast_S_S800000x64 (constant (F := Ideal) S_ .f32 0x7FC00000#32)) := by
  simp only [fillOps]
  after_results_simp
  sl_kernel_rfl

theorem mask_keeps_idx (Y : Valuation τ sig (Elt Ideal)) :
    StableHlo.after maskOps Y (Proc.devRef .tc main_call2_v5) = Y (Proc.devRef .tc main_call2_v5) := by keep_piece maskOps
theorem mask_keeps_feat (Y : Valuation τ sig (Elt Ideal)) :
    StableHlo.after maskOps Y (Proc.devRef .tc main_v76) = Y (Proc.devRef .tc main_v76) := by keep_piece maskOps
theorem idx_keeps_feat (X : Valuation τ sig (Elt Ideal)) :
    StableHlo.after idxOps X (Proc.devRef .tc main_v76) = X (Proc.devRef .tc main_v76) := by keep_piece idxOps

/-- The whole stretch: the neighbour rows of the features it finds, by the source ids it finds. -/
theorem take_of (X : Valuation τ sig (Elt Ideal)) :
    StableHlo.after (hostOps5 (F := Ideal)) X (Proc.devRef .tc main_v77)
      = takeK (X (Proc.devRef .tc main_v76)) (X (Proc.devRef .tc main_v1)) := by
  rw [split, StableHlo.after_append, StableHlo.after_append, fill_of, mask_of, mask_keeps_idx, mask_keeps_feat, idx_of, idx_keeps_feat]
  rfl

end Cert.KernelIdeal.Take2

end
-- ==== Proof.Region5Value.lean ====
/-
  Region 1: the two-layer perceptron of a table of 50000 rows, computed in five blocks of 10000 rows, with the running
  column sums and column sums of squares of the result.

  Each block of the first output is the perceptron of the same rows of the input (a row of the result reads only that
  row of the input), so the five blocks written back tile the table with the perceptron of the whole input. The two
  one-row outputs start at zero at the first block and receive each block's column sums; after the fifth block they
  hold the sums over all 50000 rows, since a sum over the rows is the sum over the blocks of the sums over each block's rows.
-/
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Idealize.ShloMosaic Idealize.ShloMosaic.TcCoe Idealize.ShloMosaic.ValueIdx Idealize.SL.Sem Cert.KernelIdeal Cert.KernelIdeal.Gen Cert.Spec

theorem hzMat : (![0, 0] : Fin 2 → Nat) = fun _ => 0 := funext fun a => by fin_cases a <;> rfl

/-- A bias row laid along every row of the block: entry (p, q) is entry q of the row. -/
theorem bias_apply (b : Vec Ideal S64 .f32) (p : Fin 10000) (q : Fin 64) :
    broadcastTo S10000x64 (shapeCast S1x64 (shapeCast S64 b Facts₀.shapeCasts_S64_S64) Facts₀.shapeCasts_S64_S1x64) Facts₀.broadcasts_S1x64_S10000x64 (ix2 p q)
      = b (ix1 q) := by
  refine (broadcastTo_1b_ab_apply _ _ p q).trans ?_
  refine (shapeCast_a_1a_apply _ _ (0 : Fin 1) q).trans ?_
  exact congrFun (shapeCast_self b _) (ix1 q)

/-- One dense layer of the block: the product into the zero accumulator plus the bias row, at entry (p, q). -/
theorem layer_apply {φ₁ φ₂ : FTy} (l : FVec Ideal S10000x64 φ₁) (r : FVec Ideal S64x64 φ₂) (b : Vec Ideal S64 .f32)
    (p : Fin 10000) (q : Fin 64) :
    addf (matmul dot_S10000x64_S64x64_S10000x64_1_0_0_1_n_n none l r (constant (F := Ideal) S10000x64 .f32 0x00000000#32))
        (broadcastTo S10000x64 (shapeCast S1x64 (shapeCast S64 b Facts₀.shapeCasts_S64_S64) Facts₀.shapeCasts_S64_S1x64) Facts₀.broadcasts_S1x64_S10000x64) (ix2 p q)
      = (∑ k : Fin 64, l (ix2 p k) * r (ix2 k q)) + b (ix1 q) := by
  show FloatOps.matmul dot_S10000x64_S64x64_S10000x64_1_0_0_1_n_n none l r (constant (F := Ideal) S10000x64 .f32 0x00000000#32) (ix2 p q) + _ = _
  rw [bias_apply b p q]
  exact congrArg (· + b (ix1 q))
    (Cert.LibPlainDot.matmul_zero_apply dot_S10000x64_S64x64_S10000x64_1_0_0_1_n_n rfl rfl rfl rfl rfl rfl none l r p q)

/-- The block's payload at entry (p, q): the two-layer perceptron of the block's rows. -/
theorem pay4_apply (x : Vec Ideal S10000x64 .f32) (w1 w2 : Vec Ideal S64x64 .f32) (b1 b2 : Vec Ideal S64 .f32)
    (p : Fin 10000) (q : Fin 64) :
    k5_pay4 (F := Ideal) x w1 w2 b1 b2 (ix2 p q)
      = mlp (x : Mat 10000 64) (w1 : Mat 64 64) (b1 : Row 64) (w2 : Mat 64 64) (b2 : Row 64) (ix2 p q) := by
  unfold k5_pay4
  refine (layer_apply _ _ b2 p q).trans ?_
  show _ = affineAt _ _ _ p q
  unfold affineAt
  refine congrArg (· + b2 (ix1 q)) (Finset.sum_congr rfl fun k _ => ?_)
  refine congrArg₂ (· * ·) ?_ (congrFun (shapeCast_self w2 _) (ix2 k q))
  show max (addf _ _ (ix2 p k)) (Ideal.ofBits .f32 0x00000000#32) = max (affineAt _ _ _ p k) 0
  rw [Ideal.ofBits_zero_f32]
  refine congrArg (max · 0) ?_
  refine (layer_apply _ _ b1 p k).trans ?_
  unfold affineAt
  refine congrArg (· + b1 (ix1 k)) (Finset.sum_congr rfl fun k' _ => ?_)
  exact congrArg₂ (· * ·) (congrFun (shapeCast_self x _) (ix2 p k')) (congrFun (shapeCast_self w1 _) (ix2 k' k))

section Pieces
variable {F : FTy → Type} [FloatOps F]

theorem hzRow : (![0] : Fin 1 → Nat) = fun _ => 0 := funext fun a => by fin_cases a; rfl

/-- At the first point the body leaves, in the block of the first output, the payload of the five input blocks. -/
theorem piece_A_5 (c : Dev nD) (i : grid5.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond5_0 i) (x0 : Vec F S10000x64 .f32) (x1 : Vec F S64x64 .f32) (x2 : Vec F S64 .f32) (x3 : Vec F S64x64 .f32) (x4 : Vec F S64 .f32) :
    out5_A_5 c i arg1 harg1 arg2 harg2 arg3 harg3 arg4 harg4 arg5 harg5 arg6 harg6 arg7 harg7 arg8 harg8 hc0 x0 x1 x2 x3 x4 = k5_pay4 x0 x1 x3 x2 x4 := by
  unfold out5_A_5
  rw [View.read_writes_eq_canon _ _ _ (cover5_A_5 c i arg1 harg1 arg2 harg2 arg3 harg3 arg4 harg4 arg5 harg5 arg6 harg6 arg7 harg7 arg8 harg8 hc0 x0 x1 x2 x3 x4)]
  unfold kernelRun5_A
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At the first point the sum row is set to zero and then the block's column sums are added to it. -/
theorem piece_A_6 (c : Dev nD) (i : grid5.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond5_0 i) (x0 : Vec F S10000x64 .f32) (x1 : Vec F S64x64 .f32) (x2 : Vec F S64 .f32) (x3 : Vec F S64x64 .f32) (x4 : Vec F S64 .f32) :
    out5_A_6 c i arg1 harg1 arg2 harg2 arg3 harg3 arg4 harg4 arg5 harg5 arg6 harg6 arg7 harg7 arg8 harg8 hc0 x0 x1 x2 x3 x4 = k5_pay5 x0 x1 x3 x2 x4 (k5_pay2 (F := F)) := by
  unfold out5_A_6
  rw [View.read_writes_eq_canon _ _ _ (cover5_A_6 c i arg1 harg1 arg2 harg2 arg3 harg3 arg4 harg4 arg5 harg5 arg6 harg6 arg7 harg7 arg8 harg8 hc0 x0 x1 x2 x3 x4)]
  unfold kernelRun5_A
  dsimp only
  sl_unfold_words
  rw [View.canon_cons_unit_zero (S := S1x64) hzMat, View.readCov_unit_zero (S := S1x64) _ hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At the first point the row of sums of squares is set to zero and then the block's are added to it. -/
theorem piece_A_7 (c : Dev nD) (i : grid5.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond5_0 i) (x0 : Vec F S10000x64 .f32) (x1 : Vec F S64x64 .f32) (x2 : Vec F S64 .f32) (x3 : Vec F S64x64 .f32) (x4 : Vec F S64 .f32) :
    out5_A_7 c i arg1 harg1 arg2 harg2 arg3 harg3 arg4 harg4 arg5 harg5 arg6 harg6 arg7 harg7 arg8 harg8 hc0 x0 x1 x2 x3 x4 = k5_pay1 (k5_pay4 x0 x1 x3 x2 x4) (k5_pay3 (F := F)) := by
  unfold out5_A_7
  rw [View.read_writes_eq_canon _ _ _ (cover5_A_7 c i arg1 harg1 arg2 harg2 arg3 harg3 arg4 harg4 arg5 harg5 arg6 harg6 arg7 harg7 arg8 harg8 hc0 x0 x1 x2 x3 x4)]
  unfold kernelRun5_A
  dsimp only
  sl_unfold_words
  rw [View.canon_cons_unit_zero (S := S1x64) hzMat, View.readCov_unit_zero (S := S1x64) _ hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At a later point the first output's block is again the payload of the five input blocks. -/
theorem piece_B_5 (c : Dev nD) (i : grid5.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond5_0 i) (x0 : Vec F S10000x64 .f32) (x1 : Vec F S64x64 .f32) (x2 : Vec F S64 .f32) (x3 : Vec F S64x64 .f32) (x4 : Vec F S64 .f32) (xo6 xo7 : Vec F S1x64 .f32) :
    out5_B_5 c i arg1 harg1 arg2 harg2 arg3 harg3 arg4 harg4 arg5 harg5 arg6 harg6 arg7 harg7 arg8 harg8 hc0 x0 x1 x2 x3 x4 xo6 xo7 = k5_pay4 x0 x1 x3 x2 x4 := by
  unfold out5_B_5
  rw [View.read_writes_eq_canon _ _ _ (cover5_B_5 c i arg1 harg1 arg2 harg2 arg3 harg3 arg4 harg4 arg5 harg5 arg6 harg6 arg7 harg7 arg8 harg8 hc0 x0 x1 x2 x3 x4 xo6 xo7)]
  unfold kernelRun5_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow]

/-- At a later point the block's column sums are added to the sum row the point before left. -/
theorem piece_B_6 (c : Dev nD) (i : grid5.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond5_0 i) (x0 : Vec F S10000x64 .f32) (x1 : Vec F S64x64 .f32) (x2 : Vec F S64 .f32) (x3 : Vec F S64x64 .f32) (x4 : Vec F S64 .f32) (xo6 xo7 : Vec F S1x64 .f32) :
    out5_B_6 c i arg1 harg1 arg2 harg2 arg3 harg3 arg4 harg4 arg5 harg5 arg6 harg6 arg7 harg7 arg8 harg8 hc0 x0 x1 x2 x3 x4 xo6 xo7 = k5_pay5 x0 x1 x3 x2 x4 xo6 := by
  unfold out5_B_6
  rw [View.read_writes_eq_canon _ _ _ (cover5_B_6 c i arg1 harg1 arg2 harg2 arg3 harg3 arg4 harg4 arg5 harg5 arg6 harg6 arg7 harg7 arg8 harg8 hc0 x0 x1 x2 x3 x4 xo6 xo7)]
  unfold kernelRun5_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow, harg7.read_unread, View.ld_unit_zero (S := S1x64) hzMat]

/-- At a later point the block's column sums of squares are added to the row the point before left. -/
theorem piece_B_7 (c : Dev nD) (i : grid5.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond5_0 i) (x0 : Vec F S10000x64 .f32) (x1 : Vec F S64x64 .f32) (x2 : Vec F S64 .f32) (x3 : Vec F S64x64 .f32) (x4 : Vec F S64 .f32) (xo6 xo7 : Vec F S1x64 .f32) :
    out5_B_7 c i arg1 harg1 arg2 harg2 arg3 harg3 arg4 harg4 arg5 harg5 arg6 harg6 arg7 harg7 arg8 harg8 hc0 x0 x1 x2 x3 x4 xo6 xo7 = k5_pay1 (k5_pay4 x0 x1 x3 x2 x4) xo7 := by
  unfold out5_B_7
  rw [View.read_writes_eq_canon _ _ _ (cover5_B_7 c i arg1 harg1 arg2 harg2 arg3 harg3 arg4 harg4 arg5 harg5 arg6 harg6 arg7 harg7 arg8 harg8 hc0 x0 x1 x2 x3 x4 xo6 xo7)]
  unfold kernelRun5_B
  dsimp only
  sl_unfold_words
  rw [View.canon_unit_zero hzMat]
  simp only [View.readAt_eq_ld, harg1.read_unread, harg2.read_unread, harg3.read_unread, harg4.read_unread, harg5.read_unread, View.ld_unit_zero (S := S10000x64) hzMat, View.ld_unit_zero (S := S64x64) hzMat, View.ld_unit_zero (S := S64) hzRow, harg8.read_unread, View.ld_unit_zero (S := S1x64) hzMat]

end Pieces

/-- The sum over the rows of a block, column by column. -/
theorem laneSum_apply (y : FVec Ideal S10000x64 .f32) (hφ : FKind.Formats .f32)
    (hacc : (0x00000000#32 : BitVec 32) = FKind.add.neutral .f32 hφ) (q : Fin 64) :
    multiReduction (F := Ideal) .add [0] S64 y 0x00000000#32 Facts₀.reduces_S10000x64_S64 hφ hacc (ix1 q)
      = ∑ r : Fin 10000, y (ix2 r q) := by
  refine (Ideal.multiReduction_add_single y 0x00000000#32 Facts₀.reduces_S10000x64_S64 hφ hacc (ix1 q)).trans ?_
  exact Finset.sum_congr rfl fun r _ => congrArg y (funext fun a => Fin.ext (by
    match a with
    | ⟨0, _⟩ => rfl
    | ⟨1, _⟩ => rfl))

/-- The sum row after a point: what it held before plus the column sums of the point's block. -/
theorem pay5_apply (x : Vec Ideal S10000x64 .f32) (w1 w2 : Vec Ideal S64x64 .f32) (b1 b2 : Vec Ideal S64 .f32)
    (acc : Vec Ideal S1x64 .f32) (u : Fin 1) (q : Fin 64) :
    k5_pay5 (F := Ideal) x w1 w2 b1 b2 acc (ix2 u q)
      = acc (ix2 u q) + ∑ r : Fin 10000, k5_pay4 (F := Ideal) x w1 w2 b1 b2 (ix2 r q) := by
  unfold k5_pay5
  show shapeCast S1x64 acc _ (ix2 u q) + shapeCast S1x64 _ _ (ix2 u q) = _
  refine congrArg₂ (· + ·) (congrFun (shapeCast_self acc _) (ix2 u q)) ?_
  refine (shapeCast_a_1a_apply _ _ u q).trans ?_
  exact laneSum_apply _ _ _ q

/-- The row of sums of squares after a point: what it held before plus the column sums of the block's squares. -/
theorem pay1_apply (y : FVec Ideal S10000x64 .f32) (acc : Vec Ideal S1x64 .f32) (u : Fin 1) (q : Fin 64) :
    k5_pay1 (F := Ideal) y acc (ix2 u q) = acc (ix2 u q) + ∑ r : Fin 10000, y (ix2 r q) * y (ix2 r q) := by
  unfold k5_pay1
  show shapeCast S1x64 acc _ (ix2 u q) + shapeCast S1x64 _ _ (ix2 u q) = _
  refine congrArg₂ (· + ·) (congrFun (shapeCast_self acc _) (ix2 u q)) ?_
  refine (shapeCast_a_1a_apply _ _ u q).trans ?_
  exact laneSum_apply (mulf y y) _ _ q

/-- The row the first point stores before adding: zero. -/
theorem pay2_apply (j : S1x64.Idx) : k5_pay2 (F := Ideal) j = 0 := Ideal.ofBits_zero_f32

theorem pay3_apply (j : S1x64.Idx) : k5_pay3 (F := Ideal) j = 0 := Ideal.ofBits_zero_f32

/-! ## The input blocks, as rows of the input arrays -/

variable (V : (c : Dev nD) → (b : Ref sig .tc) → Buf (Elt Ideal) ((c : Thread nD τ).loc b))

/-- The block indices the windows' index maps give, decided once over the five points: the two row-blocked windows
    sit at block (t, 0), every other window at its one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- The five input blocks at a point: the rows, the first layer's weights and bias, the second layer's weights and bias. -/
abbrev xblk (c : Dev nD) (t : Fin cfg5.N) : Vec Ideal S10000x64 .f32 := iblk5 V c 0 t
abbrev wFstBlk (c : Dev nD) (t : Fin cfg5.N) : Vec Ideal S64x64 .f32 := iblk5 V c 1 t
abbrev bFstBlk (c : Dev nD) (t : Fin cfg5.N) : Vec Ideal S64 .f32 := iblk5 V c 2 t
abbrev wSndBlk (c : Dev nD) (t : Fin cfg5.N) : Vec Ideal S64x64 .f32 := iblk5 V c 3 t
abbrev bSndBlk (c : Dev nD) (t : Fin cfg5.N) : Vec Ideal S64 .f32 := iblk5 V c 4 t

/-- The five input arrays, in the same order. -/
abbrev xarr (c : Dev nD) : Mat 50000 64 := V c main_v86
abbrev wFstArr (c : Dev nD) : Mat 64 64 := V c main_v88
abbrev bFstArr (c : Dev nD) : Row 64 := V c main_v90
abbrev wSndArr (c : Dev nD) : Mat 64 64 := V c main_v92
abbrev bSndArr (c : Dev nD) : Row 64 := V c main_v94

/-- Row r of block t is row 10000 t + r of the table. -/
def rowAt (s : Fin 5) (r : Fin 10000) : Fin 50000 := ⟨10000 * s.val + r.val, by omega⟩

theorem hN : cfg5.N = 5 := N_5

/-- The point as a block number. -/
def blkOf (t : Fin cfg5.N) : Fin 5 := ⟨t.val, lt_of_lt_of_eq t.isLt hN⟩

theorem xblk_apply (c : Dev nD) (t : Fin cfg5.N) (r : Fin 10000) (q : Fin 64) :
    xblk V c t (ix2 r q) = xarr V c (ix2 (rowAt (blkOf t) r) q) := by
  obtain ⟨e0, e1, -⟩ := idx_facts t
  show ((cfg5.win 0).blk t).view.read (Elt Ideal) (V c (Pipeline.arrRef spec5 0)) (ix2 r q) = _
  rw [View.read_apply]
  show V c main_v86 _ = V c main_v86 _
  refine congrArg (V c main_v86) (funext fun a => Fin.ext ?_)
  match a with
  | ⟨0, _⟩ => show win5_0.index t (0 : Fin 2) * 10000 + 1 * r.val = 10000 * t.val + r.val; rw [e0]; omega
  | ⟨1, _⟩ => show win5_0.index t (1 : Fin 2) * 64 + 1 * q.val = q.val; rw [e1]; omega

theorem wFstBlk_eq (c : Dev nD) (t : Fin cfg5.N) : wFstBlk V c t = wFstArr V c := by
  obtain ⟨-, -, e0, e1, -⟩ := idx_facts t
  funext j
  show ((cfg5.win 1).blk t).view.read (Elt Ideal) (V c (Pipeline.arrRef spec5 1)) j = _
  rw [View.read_apply]
  show V c main_v88 _ = V c main_v88 j
  refine congrArg (V c main_v88) (funext fun a => Fin.ext ?_)
  match a with
  | ⟨0, _⟩ => show win5_1.index t (0 : Fin 2) * 64 + 1 * (j 0).val = (j 0).val; rw [e0]; omega
  | ⟨1, _⟩ => show win5_1.index t (1 : Fin 2) * 64 + 1 * (j 1).val = (j 1).val; rw [e1]; omega

theorem bFstBlk_eq (c : Dev nD) (t : Fin cfg5.N) : bFstBlk V c t = bFstArr V c := by
  obtain ⟨-, -, -, -, e0, -⟩ := idx_facts t
  funext j
  show ((cfg5.win 2).blk t).view.read (Elt Ideal) (V c (Pipeline.arrRef spec5 2)) j = _
  rw [View.read_apply]
  show V c main_v90 _ = V c main_v90 j
  refine congrArg (V c main_v90) (funext fun a => Fin.ext ?_)
  match a with
  | ⟨0, _⟩ => show win5_2.index t (0 : Fin 1) * 64 + 1 * (j 0).val = (j 0).val; rw [e0]; omega

theorem wSndBlk_eq (c : Dev nD) (t : Fin cfg5.N) : wSndBlk V c t = wSndArr V c := by
  obtain ⟨-, -, -, -, -, e0, e1, -⟩ := idx_facts t
  funext j
  show ((cfg5.win 3).blk t).view.read (Elt Ideal) (V c (Pipeline.arrRef spec5 3)) j = _
  rw [View.read_apply]
  show V c main_v92 _ = V c main_v92 j
  refine congrArg (V c main_v92) (funext fun a => Fin.ext ?_)
  match a with
  | ⟨0, _⟩ => show win5_3.index t (0 : Fin 2) * 64 + 1 * (j 0).val = (j 0).val; rw [e0]; omega
  | ⟨1, _⟩ => show win5_3.index t (1 : Fin 2) * 64 + 1 * (j 1).val = (j 1).val; rw [e1]; omega

theorem bSndBlk_eq (c : Dev nD) (t : Fin cfg5.N) : bSndBlk V c t = bSndArr V c := by
  obtain ⟨-, -, -, -, -, -, -, e0, -⟩ := idx_facts t
  funext j
  show ((cfg5.win 4).blk t).view.read (Elt Ideal) (V c (Pipeline.arrRef spec5 4)) j = _
  rw [View.read_apply]
  show V c main_v94 _ = V c main_v94 j
  refine congrArg (V c main_v94) (funext fun a => Fin.ext ?_)
  match a with
  | ⟨0, _⟩ => show win5_4.index t (0 : Fin 1) * 64 + 1 * (j 0).val = (j 0).val; rw [e0]; omega

/-! ## The first output: the perceptron of the input, block by block -/

/-- The perceptron of the whole input table, as the region's inputs give it. -/
abbrev zOf (c : Dev nD) : Mat 50000 64 :=
  mlp (V c main_v86 : Mat 50000 64) (V c main_v88 : Mat 64 64) (V c main_v90 : Row 64) (V c main_v92 : Mat 64 64) (V c main_v94 : Row 64)

/-- A row of the perceptron's result reads only that row of its first argument. -/
theorem mlp_row {M M' : Nat} (x : Mat M 64) (x' : Mat M' 64) (w1 : Mat 64 64) (b1 : Row 64) (w2 : Mat 64 64) (b2 : Row 64)
    (r : Fin M) (r' : Fin M') (q : Fin 64) (h : ∀ k : Fin 64, x (ix2 r k) = x' (ix2 r' k)) :
    mlp x w1 b1 w2 b2 (ix2 r q) = mlp x' w1 b1 w2 b2 (ix2 r' q) := by
  show affineAt (relu (affine x w1 b1)) w2 b2 r q = affineAt (relu (affine x' w1 b1)) w2 b2 r' q
  unfold affineAt
  refine congrArg (· + b2 (ix1 q)) (Finset.sum_congr rfl fun k _ => congrArg (· * w2 (ix2 k q)) ?_)
  show max (affineAt x w1 b1 r k) 0 = max (affineAt x' w1 b1 r' k) 0
  unfold affineAt
  exact congrArg (max · 0) (congrArg (· + b1 (ix1 k)) (Finset.sum_congr rfl fun k' _ => congrArg (· * w1 (ix2 k' k)) (h k')))

/-- The payload of the input blocks at point t, at entry (r, q): the perceptron of the whole input at row 10000 t + r. -/
theorem zblk_apply (c : Dev nD) (t : Fin cfg5.N) (r : Fin 10000) (q : Fin 64) :
    k5_pay4 (F := Ideal) (xblk V c t) (wFstBlk V c t) (wSndBlk V c t) (bFstBlk V c t) (bSndBlk V c t) (ix2 r q) = zOf V c (ix2 (rowAt (blkOf t) r) q) := by
  refine (pay4_apply _ _ _ _ _ r q).trans ?_
  rw [wFstBlk_eq, bFstBlk_eq, wSndBlk_eq, bSndBlk_eq]
  exact mlp_row _ _ _ _ _ _ r _ q fun k => xblk_apply V c t r k

/-- The same at any index of the block and the index of the table it sits at. -/
theorem zblk_read (c : Dev nD) (t : Fin cfg5.N) (j : S10000x64.Idx) (i : S50000x64.Idx)
    (h0 : (i 0).val = 10000 * t.val + (j 0).val) (h1 : (i 1).val = (j 1).val) :
    k5_pay4 (F := Ideal) (xblk V c t) (wFstBlk V c t) (wSndBlk V c t) (bFstBlk V c t) (bSndBlk V c t) j = zOf V c i := by
  obtain ⟨r, q, rfl⟩ : ∃ (r : Fin 10000) (q : Fin 64), j = ix2 r q := ⟨j 0, j 1, eq_ix2 j⟩
  obtain ⟨p, q', rfl⟩ : ∃ (p : Fin 50000) (q' : Fin 64), i = ix2 p q' := ⟨i 0, i 1, eq_ix2 i⟩
  have hp : p = rowAt (blkOf t) r := Fin.ext (by show p.val = 10000 * t.val + r.val; exact h0)
  have hq : q' = q := Fin.ext h1
  rw [hp, hq]
  exact zblk_apply V c t r q

/-- What the body leaves in the first output's buffer at a point: the payload of the point's input blocks, at the
    first point and at the later ones alike. -/
theorem outs5_eq (c : Dev nD) (t : Fin cfg5.N) :
    (outsAt5 V c t.val t.isLt).1 = k5_pay4 (F := Ideal) (xblk V c t) (wFstBlk V c t) (wSndBlk V c t) (bFstBlk V c t) (bSndBlk V c t) := by
  by_cases h0 : t.val % 5 = 0
  · rw [outsAt5_A V c t h0]
    dsimp only
    exact piece_A_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t)
  · rw [outsAt5_B V c t h0]
    dsimp only
    exact piece_B_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) _ _

/-- What point t writes back to the first output is block t of the perceptron of the whole input. -/
theorem flushed5_eq (c : Dev nD) (t : Fin cfg5.N) :
    (dat5 (F := Ideal) V c).flushed 5 t = ((cfg5.win 5).blk t).view.read (Elt Ideal) (zOf V c) := by
  obtain ⟨-, -, -, -, -, -, -, -, e0, e1, -⟩ := idx_facts t
  show (cfg5.win 5).cut (grid5.coords t) ((dat5 V c).after 5 t) = _
  rw [after5_5, outs5_eq]
  funext j
  rw [View.read_apply]
  show k5_pay4 (F := Ideal) (xblk V c t) (wFstBlk V c t) (wSndBlk V c t) (bFstBlk V c t) (bSndBlk V c t) _ = zOf V c _
  refine zblk_read V c t _ _ ?_ ?_
  · show win5_5.index t (0 : Fin 2) * 10000 + 1 * (j 0).val = 10000 * t.val + (j 0).val
    rw [e0]; omega
  · show win5_5.index t (1 : Fin 2) * 64 + 1 * (j 1).val = (j 1).val
    rw [e1]; omega

/-- An index of the table is in point t's block iff each coordinate is in the block's range. -/
theorem mem_blk5 (t : Fin cfg5.N) (i : S50000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v95_0).slice (win5_5.rect t)).set ↔ _
  rw [View.set_slice_whole, Rect.mem_set_unit]
  exact Iff.rfl

/-- After the region the first output array holds the perceptron of the input, row by row. -/
theorem z_value (c : Dev nD) : (dat5 (F := Ideal) V c).arrAt 5 cfg5.N = zOf V c :=
  (dat5 (F := Ideal) V c).arrAt_eq_of_cover 5 (zOf V c) (fun t _ => flushed5_eq V c t) fun i => by
    have hi0 : (i 0).val < 50000 := (i 0).isLt
    have hi1 : (i 1).val < 64 := (i 1).isLt
    have ht : (i 0).val / 10000 < cfg5.N := by rw [hN]; omega
    obtain ⟨-, -, -, -, -, -, -, -, e0, e1, -⟩ := idx_facts ⟨(i 0).val / 10000, ht⟩
    refine ⟨⟨(i 0).val / 10000, ht⟩, flush5_5 _, ?_⟩
    rw [mem_blk5]
    intro a
    match a with
    | ⟨0, _⟩ =>
      show win5_5.index ⟨(i 0).val / 10000, ht⟩ (0 : Fin 2) * 10000 ≤ (i 0).val ∧ (i 0).val < win5_5.index ⟨(i 0).val / 10000, ht⟩ (0 : Fin 2) * 10000 + 10000
      rw [e0]; dsimp only; omega
    | ⟨1, _⟩ =>
      show win5_5.index ⟨(i 0).val / 10000, ht⟩ (1 : Fin 2) * 64 ≤ (i 1).val ∧ (i 1).val < win5_5.index ⟨(i 0).val / 10000, ht⟩ (1 : Fin 2) * 64 + 64
      rw [e1]; omega

/-! ## The two accumulated rows -/

/-- A sum over all the rows is the sum, over the five blocks, of the sums over each block's rows. -/
theorem sum_rows (g : Fin 50000 → EReal) : ∑ p : Fin 50000, g p = ∑ s : Fin 5, ∑ r : Fin 10000, g (rowAt s r) :=
  (Equiv.sum_comp (finProdFinEquiv (m := 5) (n := 10000)) g).symm.trans
    ((Fintype.sum_prod_type _).trans (Finset.sum_congr rfl fun s _ => Finset.sum_congr rfl fun r _ =>
      congrArg g (Fin.ext (by show r.val + 10000 * s.val = 10000 * s.val + r.val; omega))))

/-- The sum of `g` over the rows of blocks 0 to n. -/
def upTo (g : Fin 50000 → EReal) (n : ℕ) (hn : n < 5) : EReal :=
  ∑ s : Fin (n + 1), ∑ r : Fin 10000, g (rowAt ⟨s.val, by have := s.isLt; omega⟩ r)

theorem upTo_zero (g : Fin 50000 → EReal) (hn : 0 < 5) : upTo g 0 hn = ∑ r : Fin 10000, g (rowAt ⟨0, hn⟩ r) := by
  unfold upTo
  exact Fin.sum_univ_one _

theorem upTo_succ (g : Fin 50000 → EReal) (n : ℕ) (hn : n + 1 < 5) :
    upTo g (n + 1) hn = upTo g n (Nat.lt_of_succ_lt hn) + ∑ r : Fin 10000, g (rowAt ⟨n + 1, hn⟩ r) := by
  unfold upTo
  exact Fin.sum_univ_castSucc _

theorem upTo_last (g : Fin 50000 → EReal) (hn : 4 < 5) : upTo g 4 hn = ∑ p : Fin 50000, g p := by
  rw [sum_rows]
  exact Finset.sum_congr rfl fun s _ => rfl

theorem lastPt : (4 : ℕ) < cfg5.N := by rw [hN]; decide

/-- After point n the sum row holds, in column q, the perceptron's column q summed over the rows of blocks 0 to n. -/
theorem outs6_eq (c : Dev nD) : ∀ (n : ℕ) (h : n < cfg5.N) (u : Fin 1) (q : Fin 64),
    (outsAt5 V c n h).2.1 (ix2 u q) = upTo (fun p => zOf V c (ix2 p q)) n (lt_of_lt_of_eq h hN)
  | 0, h, u, q => by
    rw [outsAt5_A V c ⟨0, h⟩ rfl]
    dsimp only
    refine (congrFun (piece_A_6 (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) (ms5_5 ⟨0, h⟩) (hs5_5 ⟨0, h⟩) (ms5_6 ⟨0, h⟩) (hs5_6 ⟨0, h⟩) (ms5_7 ⟨0, h⟩) (hs5_7 ⟨0, h⟩) ((hcond5_0 ⟨0, h⟩).mpr rfl) (iblk5 V c 0 ⟨0, h⟩) (iblk5 V c 1 ⟨0, h⟩) (iblk5 V c 2 ⟨0, h⟩) (iblk5 V c 3 ⟨0, h⟩) (iblk5 V c 4 ⟨0, h⟩)) (ix2 u q)).trans ?_
    refine (pay5_apply (xblk V c ⟨0, h⟩) (wFstBlk V c ⟨0, h⟩) (wSndBlk V c ⟨0, h⟩) (bFstBlk V c ⟨0, h⟩) (bSndBlk V c ⟨0, h⟩) (k5_pay2 (F := Ideal)) u q).trans ?_
    rw [pay2_apply, zero_add, upTo_zero]
    exact Finset.sum_congr rfl fun r _ => zblk_apply V c ⟨0, h⟩ r q
  | n + 1, h, u, q => by
    have hB : ¬(⟨n + 1, h⟩ : Fin cfg5.N).val % 5 = 0 := by have := lt_of_lt_of_eq h hN; dsimp only; omega
    rw [outsAt5_B V c ⟨n + 1, h⟩ hB]
    dsimp only
    refine (congrFun (piece_B_6 (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (ms5_5 ⟨n + 1, h⟩) (hs5_5 ⟨n + 1, h⟩) (ms5_6 ⟨n + 1, h⟩) (hs5_6 ⟨n + 1, h⟩) (ms5_7 ⟨n + 1, h⟩) (hs5_7 ⟨n + 1, h⟩) (fun hc => hB ((hcond5_0 ⟨n + 1, h⟩).mp hc)) (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (outsAt5 V c n (Nat.lt_of_succ_lt h)).2.1 (outsAt5 V c n (Nat.lt_of_succ_lt h)).2.2) (ix2 u q)).trans ?_
    refine (pay5_apply (xblk V c ⟨n + 1, h⟩) (wFstBlk V c ⟨n + 1, h⟩) (wSndBlk V c ⟨n + 1, h⟩) (bFstBlk V c ⟨n + 1, h⟩) (bSndBlk V c ⟨n + 1, h⟩) (outsAt5 V c n (Nat.lt_of_succ_lt h)).2.1 u q).trans ?_
    rw [upTo_succ]
    exact congrArg₂ (· + ·) (outs6_eq c n (Nat.lt_of_succ_lt h) u q) (Finset.sum_congr rfl fun r _ => zblk_apply V c ⟨n + 1, h⟩ r q)

/-- After point n the second row holds, in column q, the squares of the perceptron's column q summed over the rows of
    blocks 0 to n. -/
theorem outs7_eq (c : Dev nD) : ∀ (n : ℕ) (h : n < cfg5.N) (u : Fin 1) (q : Fin 64),
    (outsAt5 V c n h).2.2 (ix2 u q) = upTo (fun p => zOf V c (ix2 p q) * zOf V c (ix2 p q)) n (lt_of_lt_of_eq h hN)
  | 0, h, u, q => by
    rw [outsAt5_A V c ⟨0, h⟩ rfl]
    dsimp only
    refine (congrFun (piece_A_7 (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) (ms5_5 ⟨0, h⟩) (hs5_5 ⟨0, h⟩) (ms5_6 ⟨0, h⟩) (hs5_6 ⟨0, h⟩) (ms5_7 ⟨0, h⟩) (hs5_7 ⟨0, h⟩) ((hcond5_0 ⟨0, h⟩).mpr rfl) (iblk5 V c 0 ⟨0, h⟩) (iblk5 V c 1 ⟨0, h⟩) (iblk5 V c 2 ⟨0, h⟩) (iblk5 V c 3 ⟨0, h⟩) (iblk5 V c 4 ⟨0, h⟩)) (ix2 u q)).trans ?_
    refine (pay1_apply (k5_pay4 (F := Ideal) (xblk V c ⟨0, h⟩) (wFstBlk V c ⟨0, h⟩) (wSndBlk V c ⟨0, h⟩) (bFstBlk V c ⟨0, h⟩) (bSndBlk V c ⟨0, h⟩)) (k5_pay3 (F := Ideal)) u q).trans ?_
    rw [pay3_apply, zero_add, upTo_zero]
    exact Finset.sum_congr rfl fun r _ => congrArg₂ (· * ·) (zblk_apply V c ⟨0, h⟩ r q) (zblk_apply V c ⟨0, h⟩ r q)
  | n + 1, h, u, q => by
    have hB : ¬(⟨n + 1, h⟩ : Fin cfg5.N).val % 5 = 0 := by have := lt_of_lt_of_eq h hN; dsimp only; omega
    rw [outsAt5_B V c ⟨n + 1, h⟩ hB]
    dsimp only
    refine (congrFun (piece_B_7 (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (ms5_5 ⟨n + 1, h⟩) (hs5_5 ⟨n + 1, h⟩) (ms5_6 ⟨n + 1, h⟩) (hs5_6 ⟨n + 1, h⟩) (ms5_7 ⟨n + 1, h⟩) (hs5_7 ⟨n + 1, h⟩) (fun hc => hB ((hcond5_0 ⟨n + 1, h⟩).mp hc)) (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (outsAt5 V c n (Nat.lt_of_succ_lt h)).2.1 (outsAt5 V c n (Nat.lt_of_succ_lt h)).2.2) (ix2 u q)).trans ?_
    refine (pay1_apply (k5_pay4 (F := Ideal) (xblk V c ⟨n + 1, h⟩) (wFstBlk V c ⟨n + 1, h⟩) (wSndBlk V c ⟨n + 1, h⟩) (bFstBlk V c ⟨n + 1, h⟩) (bSndBlk V c ⟨n + 1, h⟩)) (outsAt5 V c n (Nat.lt_of_succ_lt h)).2.2 u q).trans ?_
    rw [upTo_succ]
    exact congrArg₂ (· + ·) (outs7_eq c n (Nat.lt_of_succ_lt h) u q) (Finset.sum_congr rfl fun r _ => congrArg₂ (· * ·) (zblk_apply V c ⟨n + 1, h⟩ r q) (zblk_apply V c ⟨n + 1, h⟩ r q))

/-- After the last point the row is the sum over all the rows, column by column. -/
theorem outs6_last (c : Dev nD) (t : Fin cfg5.N) (h4 : t.val = 4) :
    (outsAt5 V c t.val t.isLt).2.1 = asRow (colSum (zOf V c)) := by
  obtain ⟨n, hn⟩ := t
  dsimp only at h4
  subst h4
  funext j
  obtain ⟨u, q, rfl⟩ : ∃ (u : Fin 1) (q : Fin 64), j = ix2 u q := ⟨j 0, j 1, eq_ix2 j⟩
  refine (outs6_eq V c 4 hn u q).trans ?_
  exact upTo_last _ _

/-- The one block of this row's window is the whole one-row array: a row read through the block is the row. -/
theorem whole6 (t : Fin cfg5.N) (G : Vec Ideal S1x64 .f32) :
    (cfg5.win 6).cut (grid5.coords t) G = ((cfg5.win 6).blk t).view.read (Elt Ideal) G := by
  obtain ⟨-, -, -, -, -, -, -, -, -, -, e0, e1, -⟩ := idx_facts t
  funext j
  rw [View.read_apply]
  show G _ = G _
  refine congrArg G (funext fun a => Fin.ext ?_)
  match a with
  | ⟨0, _⟩ => show (j 0).val = win5_6.index t (0 : Fin 2) * 1 + 1 * (j 0).val; rw [e0]; omega
  | ⟨1, _⟩ => show (j 1).val = win5_6.index t (1 : Fin 2) * 64 + 1 * (j 1).val; rw [e1]; omega

/-- The one write-back of this row, after the last point, writes that row. -/
theorem flushed6_eq (c : Dev nD) (t : Fin cfg5.N) (hf : (cfg5.win 6).flush t = true) :
    (dat5 (F := Ideal) V c).flushed 6 t = ((cfg5.win 6).blk t).view.read (Elt Ideal) (asRow (colSum (zOf V c))) := by
  have h4 : t.val = 4 := by have := (flush5_6 t).mp hf; have := lt_of_lt_of_eq t.isLt hN; omega
  show (cfg5.win 6).cut (grid5.coords t) ((dat5 V c).after 6 t) = _
  rw [after5_6, outs6_last V c t h4]
  exact whole6 t _

theorem mem_blk6 (t : Fin cfg5.N) (i : S1x64.Idx) :
    i ∈ ((cfg5.win 6).blk t).view.set ↔ ∀ a : Fin 2, win5_6.index t a * S1x64.size a ≤ (i a).val ∧ (i a).val < win5_6.index t a * S1x64.size a + S1x64.size a := by
  show i ∈ ((View.whole main_v95_1).slice (win5_6.rect t)).set ↔ _
  rw [View.set_slice_whole, Rect.mem_set_unit]
  exact Iff.rfl

/-- After the last point the row is the sum of the squares over all the rows, column by column. -/
theorem outs7_last (c : Dev nD) (t : Fin cfg5.N) (h4 : t.val = 4) :
    (outsAt5 V c t.val t.isLt).2.2 = asRow (colSumSq (zOf V c)) := by
  obtain ⟨n, hn⟩ := t
  dsimp only at h4
  subst h4
  funext j
  obtain ⟨u, q, rfl⟩ : ∃ (u : Fin 1) (q : Fin 64), j = ix2 u q := ⟨j 0, j 1, eq_ix2 j⟩
  refine (outs7_eq V c 4 hn u q).trans ?_
  exact upTo_last _ _

/-- The one block of this row's window is the whole one-row array: a row read through the block is the row. -/
theorem whole7 (t : Fin cfg5.N) (G : Vec Ideal S1x64 .f32) :
    (cfg5.win 7).cut (grid5.coords t) G = ((cfg5.win 7).blk t).view.read (Elt Ideal) G := by
  obtain ⟨-, -, -, -, -, -, -, -, -, -, -, -, e0, e1⟩ := idx_facts t
  funext j
  rw [View.read_apply]
  show G _ = G _
  refine congrArg G (funext fun a => Fin.ext ?_)
  match a with
  | ⟨0, _⟩ => show (j 0).val = win5_7.index t (0 : Fin 2) * 1 + 1 * (j 0).val; rw [e0]; omega
  | ⟨1, _⟩ => show (j 1).val = win5_7.index t (1 : Fin 2) * 64 + 1 * (j 1).val; rw [e1]; omega

/-- The one write-back of this row, after the last point, writes that row. -/
theorem flushed7_eq (c : Dev nD) (t : Fin cfg5.N) (hf : (cfg5.win 7).flush t = true) :
    (dat5 (F := Ideal) V c).flushed 7 t = ((cfg5.win 7).blk t).view.read (Elt Ideal) (asRow (colSumSq (zOf V c))) := by
  have h4 : t.val = 4 := by have := (flush5_7 t).mp hf; have := lt_of_lt_of_eq t.isLt hN; omega
  show (cfg5.win 7).cut (grid5.coords t) ((dat5 V c).after 7 t) = _
  rw [after5_7, outs7_last V c t h4]
  exact whole7 t _

theorem mem_blk7 (t : Fin cfg5.N) (i : S1x64.Idx) :
    i ∈ ((cfg5.win 7).blk t).view.set ↔ ∀ a : Fin 2, win5_7.index t a * S1x64.size a ≤ (i a).val ∧ (i a).val < win5_7.index t a * S1x64.size a + S1x64.size a := by
  show i ∈ ((View.whole main_v95_2).slice (win5_7.rect t)).set ↔ _
  rw [View.set_slice_whole, Rect.mem_set_unit]
  exact Iff.rfl

/-- The second output, one row: each column of the perceptron's table summed over all the rows. -/
theorem sum_value (c : Dev nD) : (dat5 (F := Ideal) V c).arrAt 6 cfg5.N = asRow (colSum (zOf V c)) :=
  (dat5 (F := Ideal) V c).arrAt_eq_of_cover 6 (asRow (colSum (zOf V c))) (fun t hf => flushed6_eq V c t hf) fun i => by
    have hi0 : (i 0).val < 1 := (i 0).isLt
    have hi1 : (i 1).val < 64 := (i 1).isLt
    obtain ⟨-, -, -, -, -, -, -, -, -, -, e0, e1, -⟩ := idx_facts ⟨4, lastPt⟩
    refine ⟨⟨4, lastPt⟩, (flush5_6 _).mpr rfl, ?_⟩
    rw [mem_blk6]
    intro a
    match a with
    | ⟨0, _⟩ =>
      show win5_6.index ⟨4, lastPt⟩ (0 : Fin 2) * 1 ≤ (i 0).val ∧ (i 0).val < win5_6.index ⟨4, lastPt⟩ (0 : Fin 2) * 1 + 1
      rw [e0]; omega
    | ⟨1, _⟩ =>
      show win5_6.index ⟨4, lastPt⟩ (1 : Fin 2) * 64 ≤ (i 1).val ∧ (i 1).val < win5_6.index ⟨4, lastPt⟩ (1 : Fin 2) * 64 + 64
      rw [e1]; omega

/-- The third output, one row: each column's squares summed over all the rows. -/
theorem sumsq_value (c : Dev nD) : (dat5 (F := Ideal) V c).arrAt 7 cfg5.N = asRow (colSumSq (zOf V c)) :=
  (dat5 (F := Ideal) V c).arrAt_eq_of_cover 7 (asRow (colSumSq (zOf V c))) (fun t hf => flushed7_eq V c t hf) fun i => by
    have hi0 : (i 0).val < 1 := (i 0).isLt
    have hi1 : (i 1).val < 64 := (i 1).isLt
    obtain ⟨-, -, -, -, -, -, -, -, -, -, -, -, e0, e1⟩ := idx_facts ⟨4, lastPt⟩
    refine ⟨⟨4, lastPt⟩, (flush5_7 _).mpr rfl, ?_⟩
    rw [mem_blk7]
    intro a
    match a with
    | ⟨0, _⟩ =>
      show win5_7.index ⟨4, lastPt⟩ (0 : Fin 2) * 1 ≤ (i 0).val ∧ (i 0).val < win5_7.index ⟨4, lastPt⟩ (0 : Fin 2) * 1 + 1
      rw [e0]; omega
    | ⟨1, _⟩ =>
      show win5_7.index ⟨4, lastPt⟩ (1 : Fin 2) * 64 ≤ (i 1).val ∧ (i 1).val < win5_7.index ⟨4, lastPt⟩ (1 : Fin 2) * 64 + 64
      rw [e1]; omega

end Cert.KernelIdeal.Region5

end
-- ==== Proof.Region6Value.lean ====
import proofs.«427472_j26645977105018_1_alg».proof.Proof.Gen.KernelIdeal.Frame
import proofs.«427472_j26645977105018_1_alg».proof.Proof.Spec
import proofs.«427472_j26645977105018_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The normalisation region, read as one function of its input arrays

The region walks a table of 50000 rows and 64 columns in five blocks of 10000 rows. At every block it also
holds four one-row tables in full: a mean, a variance, a scale and a shift, one entry per column. Entry
`(p, q)` of the block is sent to

  `max ((((z p q - mean q) * rsqrt (variance q + e)) * scale q) + shift q) 0`

over the extended reals, with `e` one fixed constant added to the variance before the reciprocal square root.
Row `p` of block `t` is row `t * 10000 + p` of the table, the one-row tables do not move, and the five blocks
tile the 50000 rows (row `r` lies in block `r / 10000`). So after the region the output table is that formula
applied entry by entry to the whole input table.
-/

set_option maxRecDepth 16384

noncomputable section

namespace Cert.KernelIdeal.Region6

open Idealize.ShloMosaic Idealize.ShloMosaic.TcCoe Idealize.ShloMosaic.ValueIdx Idealize.SL.Sem Cert.KernelIdeal Cert.KernelIdeal.Gen Cert.Spec

/-- The offsets `(0, 0)` are the zero offsets. -/
theorem zero_offsets : (![0, 0] : Fin 2 → Nat) = fun _ => 0 := funext fun a => by fin_cases a <;> rfl

/-- The body's arithmetic at entry `(p, q)` of a block: the entry is centred by the mean of its column, scaled by
    the reciprocal square root of the column's variance plus the constant, then by the column's scale, shifted
    by the column's shift, and cut at zero. Each one-row table is read at its only row. -/
theorem payload_apply (xz : Vec Ideal S10000x64 .f32) (xm xv xg xs : Vec Ideal S1x64 .f32) (p : Fin 10000) (q : Fin 64) :
    k6_pay1 (F := Ideal) xz xm xv xg xs (ix2 p q)
      = max ((((xz (ix2 p q) - xm (ix2 (0 : Fin 1) q)) * Ideal.rsqrt (xv (ix2 (0 : Fin 1) q) + Ideal.ofBits .f32 0x3727C5AC#32))
          * xg (ix2 (0 : Fin 1) q)) + xs (ix2 (0 : Fin 1) q)) 0 := by
  unfold k6_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply, broadcast_apply]
  show max (_ * Ideal.rsqrt (xv (ix2 (0 : Fin 1) q) + Ideal.ofBits .f32 0x3727C5AC#32) * _ + _) (Ideal.ofBits .f32 0x00000000#32) = _
  rw [Ideal.ofBits_zero_f32]

/-- One block of the result. If a block of 10000 rows holds rows `b * 10000 …` of the table `z` and the four
    one-row blocks are the tables `mu`, `v`, `g`, `s` themselves, then the body's value at an entry of the block
    is the normalised table at the matching entry of the whole table. -/
theorem block_value (z : Mat 50000 64) (mu v g s : Mat 1 64)
    (xz : Vec Ideal S10000x64 .f32) (xm xv xg xs : Vec Ideal S1x64 .f32) (b : Nat)
    (hz : ∀ (y : S10000x64.Idx) (i : S50000x64.Idx), (i 0).val = b * 10000 + (y 0).val → (i 1).val = (y 1).val → xz y = z i)
    (hm : xm = mu) (hv : xv = v) (hg : xg = g) (hs : xs = s)
    (y : S10000x64.Idx) (i : S50000x64.Idx) (hi0 : (i 0).val = b * 10000 + (y 0).val) (hi1 : (i 1).val = (y 1).val) :
    k6_pay1 (F := Ideal) xz xm xv xg xs y
      = normRelu z (rowOf mu) (rowOf v) (rowOf g) (rowOf s) (Ideal.ofBits .f32 0x3727C5AC#32) i := by
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [payload_apply, hz (ix2 p q') (ix2 r q') hi0 rfl, hm, hv, hg, hs, normRelu_ix2]
  rfl

/-- Where each window's block sits at grid point `t`: the table's and the result's block is block `t` along the
    rows and the only block along the columns; every one-row table's block is its only block. -/
theorem index_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

variable (V : (c : Dev nD) → (b : Ref sig .tc) → Buf (Elt Ideal) ((c : Thread nD τ).loc b))

/-- The table's block at point `t`, entry `(p, q)`, is the table's entry `(t * 10000 + p, q)`. -/
theorem table_block (c : Dev nD) (t : Fin cfg6.N) (y : S10000x64.Idx) (i : S50000x64.Idx)
    (hi0 : (i 0).val = t.val * 10000 + (y 0).val) (hi1 : (i 1).val = (y 1).val) :
    (iblk6 V c 0 t : Vec Ideal S10000x64 .f32) y = (V c main_v95_0 : Mat 50000 64) i := by
  obtain ⟨e0, e1, -⟩ := index_facts t
  unfold iblk6
  rw [View.read_apply]
  show V c main_v95_0 _ = V c main_v95_0 _
  refine congrArg _ (funext fun a => Fin.ext ?_)
  match a with
  | ⟨0, _⟩ => show win6_0.index t (0 : Fin 2) * 10000 + 1 * (y 0).val = (i 0).val; rw [e0, hi0]; omega
  | ⟨1, _⟩ => show win6_0.index t (1 : Fin 2) * 64 + 1 * (y 1).val = (i 1).val; rw [e1, hi1]; omega

/-- The mean's block at every point is the whole one-row table of means. -/
theorem mean_block (c : Dev nD) (t : Fin cfg6.N) :
    (iblk6 V c 1 t : Vec Ideal S1x64 .f32) = (V c main_v108 : Mat 1 64) := by
  obtain ⟨-, -, e0, e1, -⟩ := index_facts t
  funext y
  unfold iblk6
  rw [View.read_apply]
  show V c main_v108 _ = V c main_v108 _
  refine congrArg _ (funext fun a => Fin.ext ?_)
  match a with
  | ⟨0, _⟩ => show win6_1.index t (0 : Fin 2) * 1 + 1 * (y 0).val = (y 0).val; rw [e0]; omega
  | ⟨1, _⟩ => show win6_1.index t (1 : Fin 2) * 64 + 1 * (y 1).val = (y 1).val; rw [e1]; omega

/-- The variance's block at every point is the whole one-row table of variances. -/
theorem variance_block (c : Dev nD) (t : Fin cfg6.N) :
    (iblk6 V c 2 t : Vec Ideal S1x64 .f32) = (V c main_v109 : Mat 1 64) := by
  obtain ⟨-, -, -, -, e0, e1, -⟩ := index_facts t
  funext y
  unfold iblk6
  rw [View.read_apply]
  show V c main_v109 _ = V c main_v109 _
  refine congrArg _ (funext fun a => Fin.ext ?_)
  match a with
  | ⟨0, _⟩ => show win6_2.index t (0 : Fin 2) * 1 + 1 * (y 0).val = (y 0).val; rw [e0]; omega
  | ⟨1, _⟩ => show win6_2.index t (1 : Fin 2) * 64 + 1 * (y 1).val = (y 1).val; rw [e1]; omega

/-- The scale's block at every point is the whole one-row table of scales. -/
theorem scale_block (c : Dev nD) (t : Fin cfg6.N) :
    (iblk6 V c 3 t : Vec Ideal S1x64 .f32) = (V c main_v110 : Mat 1 64) := by
  obtain ⟨-, -, -, -, -, -, e0, e1, -⟩ := index_facts t
  funext y
  unfold iblk6
  rw [View.read_apply]
  show V c main_v110 _ = V c main_v110 _
  refine congrArg _ (funext fun a => Fin.ext ?_)
  match a with
  | ⟨0, _⟩ => show win6_3.index t (0 : Fin 2) * 1 + 1 * (y 0).val = (y 0).val; rw [e0]; omega
  | ⟨1, _⟩ => show win6_3.index t (1 : Fin 2) * 64 + 1 * (y 1).val = (y 1).val; rw [e1]; omega

/-- The shift's block at every point is the whole one-row table of shifts. -/
theorem shift_block (c : Dev nD) (t : Fin cfg6.N) :
    (iblk6 V c 4 t : Vec Ideal S1x64 .f32) = (V c main_v111 : Mat 1 64) := by
  obtain ⟨-, -, -, -, -, -, -, -, e0, e1, -⟩ := index_facts t
  funext y
  unfold iblk6
  rw [View.read_apply]
  show V c main_v111 _ = V c main_v111 _
  refine congrArg _ (funext fun a => Fin.ext ?_)
  match a with
  | ⟨0, _⟩ => show win6_4.index t (0 : Fin 2) * 1 + 1 * (y 0).val = (y 0).val; rw [e0]; omega
  | ⟨1, _⟩ => show win6_4.index t (1 : Fin 2) * 64 + 1 * (y 1).val = (y 1).val; rw [e1]; omega

/-- What point `t` writes back is block `t` of the normalised table: the body stores its arithmetic over the whole
    block, the block's rows are rows `t * 10000 …` of the table, and the four one-row tables are read whole. -/
theorem flushed_eq (c : Dev nD) (t : Fin cfg6.N) :
    (dat6 (F := Ideal) V c).flushed 5 t
      = ((cfg6.win 5).blk t).view.read (Elt Ideal)
          (normRelu (V c main_v95_0 : Mat 50000 64) (rowOf (V c main_v108 : Mat 1 64)) (rowOf (V c main_v109 : Mat 1 64))
            (rowOf (V c main_v110 : Mat 1 64)) (rowOf (V c main_v111 : Mat 1 64)) (Ideal.ofBits .f32 0x3727C5AC#32)) := by
  show (cfg6.win 5).cut (grid6.coords t) ((dat6 V c).after 5 t) = _
  rw [after6_5]
  unfold out6_5
  rw [View.canon_unit_zero zero_offsets]
  simp only [View.ld_unit_zero (S := S10000x64) zero_offsets, View.ld_unit_zero (S := S1x64) zero_offsets]
  obtain ⟨-, -, -, -, -, -, -, -, -, -, e0, e1⟩ := index_facts t
  funext j
  refine block_value (V c main_v95_0) (V c main_v108) (V c main_v109) (V c main_v110) (V c main_v111)
    (iblk6 V c 0 t) (iblk6 V c 1 t) (iblk6 V c 2 t) (iblk6 V c 3 t) (iblk6 V c 4 t) t.val
    (fun y i hy0 hy1 => table_block V c t y i hy0 hy1) (mean_block V c t) (variance_block V c t) (scale_block V c t)
    (shift_block V c t) _ (((cfg6.win 5).blk t).view.emb j) ?_ ?_
  · show win6_5.index t (0 : Fin 2) * 10000 + 1 * (j 0).val = t.val * 10000 + (j 0).val
    rw [e0]; omega
  · show win6_5.index t (1 : Fin 2) * 64 + 1 * (j 1).val = (j 1).val
    rw [e1]; omega

/-- An entry of the result table lies in point `t`'s block exactly when each coordinate lies in the block's range
    on its axis. -/
theorem mem_block (t : Fin cfg6.N) (i : S50000x64.Idx) :
    i ∈ ((cfg6.win 5).blk t).view.set ↔
      ∀ a : Fin 2, win6_5.index t a * S10000x64.size a ≤ (i a).val
        ∧ (i a).val < win6_5.index t a * S10000x64.size a + S10000x64.size a := by
  show i ∈ ((View.whole main_v112).slice (win6_5.rect t)).set ↔ _
  rw [View.set_slice_whole, Rect.mem_set_unit]
  exact Iff.rfl

/-- The five blocks tile the table: row `r` lies in the block of point `r / 10000`, which writes back. -/
theorem covered (i : S50000x64.Idx) :
    ∃ t : Fin cfg6.N, (cfg6.win 5).flush t = true ∧ i ∈ ((cfg6.win 5).blk t).view.set := by
  have hi0 : (i 0).val < 50000 := (i 0).isLt
  have hi1 : (i 1).val < 64 := (i 1).isLt
  have hN : grid6.N = 5 := N_6
  have ht : (i 0).val / 10000 < grid6.N := by rw [hN]; omega
  refine ⟨⟨(i 0).val / 10000, ht⟩, flush6_5 _, ?_⟩
  rw [mem_block]
  obtain ⟨-, -, -, -, -, -, -, -, -, -, e0, e1⟩ := index_facts ⟨(i 0).val / 10000, ht⟩
  intro a
  match a with
  | ⟨0, _⟩ =>
    show win6_5.index ⟨(i 0).val / 10000, ht⟩ (0 : Fin 2) * 10000 ≤ (i 0).val
      ∧ (i 0).val < win6_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win6_5.index ⟨(i 0).val / 10000, ht⟩ (1 : Fin 2) * 64 ≤ (i 1).val
      ∧ (i 1).val < win6_5.index ⟨(i 0).val / 10000, ht⟩ (1 : Fin 2) * 64 + 64
    rw [e1]; omega

/-- After the normalisation's region the output array holds the centred, scaled, shifted table, cut at zero. -/
theorem normalized (c : Dev nD) :
    (dat6 (F := Ideal) V c).arrAt 5 cfg6.N
      = normRelu (V c main_v95_0 : Mat 50000 64) (rowOf (V c main_v108 : Mat 1 64)) (rowOf (V c main_v109 : Mat 1 64))
          (rowOf (V c main_v110 : Mat 1 64)) (rowOf (V c main_v111 : Mat 1 64)) (Ideal.ofBits .f32 0x3727C5AC#32) :=
  (dat6 (F := Ideal) V c).arrAt_eq_of_cover 5 _ (fun t _ => flushed_eq V c t) covered

end Cert.KernelIdeal.Region6

end
-- ==== Proof.KerLayer2.lean ====
import proofs.«427472_j26645977105018_1_alg».proof.Proof.Gen.KernelIdeal.Frame
import proofs.«427472_j26645977105018_1_alg».proof.Proof.Keep
import proofs.«427472_j26645977105018_1_alg».proof.Proof.Stages
import proofs.«427472_j26645977105018_1_alg».proof.Proof.KerHost
import proofs.«427472_j26645977105018_1_alg».proof.Proof.TakeStretch2
import proofs.«427472_j26645977105018_1_alg».proof.Proof.Region5Value
import proofs.«427472_j26645977105018_1_alg».proof.Proof.Region6Value
import Idealize.ShloMosaic.Lib.StableHlo.Run

/-!
# Layer 2 of the idealized kernel, from the features it starts from to the features it leaves

Between the boundary where the layer's input features stand and the boundary after its normalisation region the
kernel's program runs: the stretch that takes the neighbour rows; the stretch that adds them up by target node,
adds (1 + the layer's scalar) times the node's own features and cuts the layer's matrices and vectors out of the
stacked parameters; the perceptron region, which also leaves the column sums and the column sums of squares; the
stretch that turns those into the column means and variances and cuts out the layer's scale and shift; and the
normalisation region. Read one after the other they are the stage function `layerK` of the input features, the
two rows of the edge list and the layer's parameters, all of which still hold what the launch memory held.
-/

set_option maxRecDepth 65536

noncomputable section

namespace Cert.KernelIdeal.KerLayer2

open Idealize.ShloMosaic Idealize.ShloMosaic.TcCoe Idealize.ShloMosaic.ValueIdx Idealize.SL.Sem Idealize.ShloMosaic.StableHlo
open Cert.KernelIdeal Cert.KernelIdeal.Gen Cert.KernelIdeal.Keep Cert.Spec Cert.Layer Cert.Stages

variable (m : (ℓ : Loc nD τ sig) → Buf (Elt Ideal) ℓ) (ρ : Dev nD → PrngReg)

/-- What the launch memory holds in an argument's buffer on core c. -/
abbrev arg (b : Ref sig .tc) (c : Dev nD) := m ((c : Thread nD τ).loc b)

/-! ## The host stretches, from any contents -/

set_option maxHeartbeats 1000000 in
theorem combine_of (X : Valuation τ sig (Elt Ideal)) :
    StableHlo.after (hostOps5_1 (F := Ideal)) X (Proc.devRef .tc main_v86)
      = combine (scalarAt2 (X (Proc.devRef .tc main_arg5))) (X (Proc.devRef .tc main_v76)) (X (Proc.devRef .tc main_v77)) (X (Proc.devRef .tc main_v3)) := by
  simp only [hostOps5_1]
  after_results_simp
  rfl
set_option maxHeartbeats 1000000 in
theorem w1_of (X : Valuation τ sig (Elt Ideal)) :
    StableHlo.after (hostOps5_1 (F := Ideal)) X (Proc.devRef .tc main_v88) = matAt2 (X (Proc.devRef .tc main_arg6)) := by
  simp only [hostOps5_1]
  after_results_simp
  rfl
set_option maxHeartbeats 1000000 in
theorem b1_of (X : Valuation τ sig (Elt Ideal)) :
    StableHlo.after (hostOps5_1 (F := Ideal)) X (Proc.devRef .tc main_v90) = vecAt2 (X (Proc.devRef .tc main_arg7)) := by
  simp only [hostOps5_1]
  after_results_simp
  rfl
set_option maxHeartbeats 1000000 in
theorem w2_of (X : Valuation τ sig (Elt Ideal)) :
    StableHlo.after (hostOps5_1 (F := Ideal)) X (Proc.devRef .tc main_v92) = matAt2 (X (Proc.devRef .tc main_arg8)) := by
  simp only [hostOps5_1]
  after_results_simp
  rfl
set_option maxHeartbeats 1000000 in
theorem b2_of (X : Valuation τ sig (Elt Ideal)) :
    StableHlo.after (hostOps5_1 (F := Ideal)) X (Proc.devRef .tc main_v94) = vecAt2 (X (Proc.devRef .tc main_arg9)) := by
  simp only [hostOps5_1]
  after_results_simp
  rfl

set_option maxHeartbeats 1000000 in
theorem mean_of (X : Valuation τ sig (Elt Ideal)) :
    StableHlo.after (hostOps6 (F := Ideal)) X (Proc.devRef .tc main_v108)
      = shapeCast S1x64 (Host.divf (shapeCast S64 (X (Proc.devRef .tc main_v95_1)) shapeCasts_S1x64_S64)
          (broadcastInDim S64 ![] bcast_S_S64 (constant (F := Ideal) S_ .f32 0x47435000#32))) shapeCasts_S64_S1x64 := by
  simp only [hostOps6]
  after_results_simp
  rfl
set_option maxHeartbeats 1000000 in
theorem var_of (X : Valuation τ sig (Elt Ideal)) :
    StableHlo.after (hostOps6 (F := Ideal)) X (Proc.devRef .tc main_v109)
      = shapeCast S1x64 (subf (Host.divf (shapeCast S64 (X (Proc.devRef .tc main_v95_2)) shapeCasts_S1x64_S64)
            (broadcastInDim S64 ![] bcast_S_S64 (constant (F := Ideal) S_ .f32 0x47435000#32)))
          (mulf (Host.divf (shapeCast S64 (X (Proc.devRef .tc main_v95_1)) shapeCasts_S1x64_S64)
              (broadcastInDim S64 ![] bcast_S_S64 (constant (F := Ideal) S_ .f32 0x47435000#32)))
            (Host.divf (shapeCast S64 (X (Proc.devRef .tc main_v95_1)) shapeCasts_S1x64_S64)
              (broadcastInDim S64 ![] bcast_S_S64 (constant (F := Ideal) S_ .f32 0x47435000#32))))) shapeCasts_S64_S1x64 := by
  simp only [hostOps6]
  after_results_simp
  rfl
set_option maxHeartbeats 1000000 in
theorem scale_of (X : Valuation τ sig (Elt Ideal)) :
    StableHlo.after (hostOps6 (F := Ideal)) X (Proc.devRef .tc main_v110)
      = shapeCast S1x64 (vecAt2 (X (Proc.devRef .tc main_arg10))) shapeCasts_S64_S1x64 := by
  simp only [hostOps6]
  after_results_simp
  rfl
set_option maxHeartbeats 1000000 in
theorem shift_of (X : Valuation τ sig (Elt Ideal)) :
    StableHlo.after (hostOps6 (F := Ideal)) X (Proc.devRef .tc main_v111)
      = shapeCast S1x64 (vecAt2 (X (Proc.devRef .tc main_arg11))) shapeCasts_S64_S1x64 := by
  simp only [hostOps6]
  after_results_simp
  rfl

/-! ## The layer -/

/-- From the layer's input features `H` at its entry boundary to `layerK H …` at its exit boundary. -/
theorem layer_out (c : Dev nD) (H : Mat 50000 64)
    (hH : W12 m ρ c (Proc.devRef .tc main_v76) = H)
    (hsrc1 : W1 m ρ c (Proc.devRef .tc main_v1) = srcOf (arg m main_arg1 c))
    (hdst1 : W1 m ρ c (Proc.devRef .tc main_v3) = dstOf (arg m main_arg1 c)) :
    W17 m ρ c (Proc.devRef .tc main_v112)
      = layerK H (srcOf (arg m main_arg1 c)) (dstOf (arg m main_arg1 c)) (scalarAt2 (arg m main_arg5 c))
          (matAt2 (arg m main_arg6 c)) (vecAt2 (arg m main_arg7 c)) (matAt2 (arg m main_arg8 c)) (vecAt2 (arg m main_arg9 c))
          (vecAt2 (arg m main_arg10 c)) (vecAt2 (arg m main_arg11 c)) := by
  -- the two rows of the edge list, where they are read
  have hsrc : W12 m ρ c (Proc.devRef .tc main_v1) = srcOf (arg m main_arg1 c) := (at12_main_v1 m ρ c).trans hsrc1
  have hdst : W13 m ρ c (Proc.devRef .tc main_v3) = dstOf (arg m main_arg1 c) := (at13_main_v3 m ρ c).trans hdst1
  -- the neighbour rows
  have htk : W13 m ρ c (Proc.devRef .tc main_v77) = takeK H (srcOf (arg m main_arg1 c)) := by
    show StableHlo.after hostOps5 (W12 m ρ c) (Proc.devRef .tc main_v77) = _
    rw [Cert.KernelIdeal.Take2.take_of, hH, hsrc]
  have hH1 : W13 m ρ c (Proc.devRef .tc main_v76) = H := (step13_main_v76 m ρ c).trans hH
  -- the perceptron's inputs
  have hz0 : W14 m ρ c (Proc.devRef .tc main_v86)
      = combine (scalarAt2 (arg m main_arg5 c)) H (takeK H (srcOf (arg m main_arg1 c))) (dstOf (arg m main_arg1 c)) := by
    show StableHlo.after hostOps5_1 (W13 m ρ c) (Proc.devRef .tc main_v86) = _
    rw [combine_of, hH1, htk, hdst, at13_main_arg5]
  have hw1 : W14 m ρ c (Proc.devRef .tc main_v88) = matAt2 (arg m main_arg6 c) := by
    show StableHlo.after hostOps5_1 (W13 m ρ c) (Proc.devRef .tc main_v88) = _
    rw [w1_of, at13_main_arg6]
  have hb1 : W14 m ρ c (Proc.devRef .tc main_v90) = vecAt2 (arg m main_arg7 c) := by
    show StableHlo.after hostOps5_1 (W13 m ρ c) (Proc.devRef .tc main_v90) = _
    rw [b1_of, at13_main_arg7]
  have hw2 : W14 m ρ c (Proc.devRef .tc main_v92) = matAt2 (arg m main_arg8 c) := by
    show StableHlo.after hostOps5_1 (W13 m ρ c) (Proc.devRef .tc main_v92) = _
    rw [w2_of, at13_main_arg8]
  have hb2 : W14 m ρ c (Proc.devRef .tc main_v94) = vecAt2 (arg m main_arg9 c) := by
    show StableHlo.after hostOps5_1 (W13 m ρ c) (Proc.devRef .tc main_v94) = _
    rw [b2_of, at13_main_arg9]
  -- the perceptron region's three outputs
  have hz : W15 m ρ c (Proc.devRef .tc main_v95_0)
      = zWith takeK H (srcOf (arg m main_arg1 c)) (dstOf (arg m main_arg1 c)) (scalarAt2 (arg m main_arg5 c))
          (matAt2 (arg m main_arg6 c)) (vecAt2 (arg m main_arg7 c)) (matAt2 (arg m main_arg8 c)) (vecAt2 (arg m main_arg9 c)) := by
    refine (W15_arr m ρ c 5).trans ((Cert.KernelIdeal.Region5.z_value (V14 m ρ) c).trans ?_)
    show mlp (W14 m ρ c (Proc.devRef .tc main_v86)) (W14 m ρ c (Proc.devRef .tc main_v88)) (W14 m ρ c (Proc.devRef .tc main_v90))
      (W14 m ρ c (Proc.devRef .tc main_v92)) (W14 m ρ c (Proc.devRef .tc main_v94)) = _
    rw [hz0, hw1, hb1, hw2, hb2]; rfl
  have hzV : Cert.KernelIdeal.Region5.zOf (V14 m ρ) c
      = zWith takeK H (srcOf (arg m main_arg1 c)) (dstOf (arg m main_arg1 c)) (scalarAt2 (arg m main_arg5 c))
          (matAt2 (arg m main_arg6 c)) (vecAt2 (arg m main_arg7 c)) (matAt2 (arg m main_arg8 c)) (vecAt2 (arg m main_arg9 c)) := by
    show mlp (W14 m ρ c (Proc.devRef .tc main_v86)) (W14 m ρ c (Proc.devRef .tc main_v88)) (W14 m ρ c (Proc.devRef .tc main_v90))
      (W14 m ρ c (Proc.devRef .tc main_v92)) (W14 m ρ c (Proc.devRef .tc main_v94)) = _
    rw [hz0, hw1, hb1, hw2, hb2]; rfl
  have hsum : W15 m ρ c (Proc.devRef .tc main_v95_1) = asRow (colSum (Cert.KernelIdeal.Region5.zOf (V14 m ρ) c)) :=
    (W15_arr m ρ c 6).trans (Cert.KernelIdeal.Region5.sum_value (V14 m ρ) c)
  have hsq : W15 m ρ c (Proc.devRef .tc main_v95_2) = asRow (colSumSq (Cert.KernelIdeal.Region5.zOf (V14 m ρ) c)) :=
    (W15_arr m ρ c 7).trans (Cert.KernelIdeal.Region5.sumsq_value (V14 m ρ) c)
  rw [hzV] at hsum hsq
  -- the statistics rows and the layer's scale and shift
  have hmean : rowOf (W16 m ρ c (Proc.devRef .tc main_v108) : Mat 1 64) = meanOf (zWith takeK H (srcOf (arg m main_arg1 c)) (dstOf (arg m main_arg1 c)) (scalarAt2 (arg m main_arg5 c))
          (matAt2 (arg m main_arg6 c)) (vecAt2 (arg m main_arg7 c)) (matAt2 (arg m main_arg8 c)) (vecAt2 (arg m main_arg9 c))) rowsC := by
    show rowOf (StableHlo.after hostOps6 (W15 m ρ c) (Proc.devRef .tc main_v108)) = _
    rw [mean_of, hsum]
    exact Cert.KerHost.mean_of_sums _ _
  have hvar : rowOf (W16 m ρ c (Proc.devRef .tc main_v109) : Mat 1 64) = varBySquares (zWith takeK H (srcOf (arg m main_arg1 c)) (dstOf (arg m main_arg1 c)) (scalarAt2 (arg m main_arg5 c))
          (matAt2 (arg m main_arg6 c)) (vecAt2 (arg m main_arg7 c)) (matAt2 (arg m main_arg8 c)) (vecAt2 (arg m main_arg9 c))) rowsC := by
    show rowOf (StableHlo.after hostOps6 (W15 m ρ c) (Proc.devRef .tc main_v109)) = _
    rw [var_of, hsum, hsq]
    exact Cert.KerHost.var_of_sums _ _
  have hgam : rowOf (W16 m ρ c (Proc.devRef .tc main_v110) : Mat 1 64) = vecAt2 (arg m main_arg10 c) := by
    show rowOf (StableHlo.after hostOps6 (W15 m ρ c) (Proc.devRef .tc main_v110)) = _
    rw [scale_of, at15_main_arg10]
    exact Cert.KerHost.row_of_vec _
  have hbet : rowOf (W16 m ρ c (Proc.devRef .tc main_v111) : Mat 1 64) = vecAt2 (arg m main_arg11 c) := by
    show rowOf (StableHlo.after hostOps6 (W15 m ρ c) (Proc.devRef .tc main_v111)) = _
    rw [shift_of, at15_main_arg11]
    exact Cert.KerHost.row_of_vec _
  have hz4 : W16 m ρ c (Proc.devRef .tc main_v95_0)
      = zWith takeK H (srcOf (arg m main_arg1 c)) (dstOf (arg m main_arg1 c)) (scalarAt2 (arg m main_arg5 c))
          (matAt2 (arg m main_arg6 c)) (vecAt2 (arg m main_arg7 c)) (matAt2 (arg m main_arg8 c)) (vecAt2 (arg m main_arg9 c)) :=
    (step16_main_v95_0 m ρ c).trans hz
  -- the normalisation region
  refine (W17_arr m ρ c 5).trans ((Cert.KernelIdeal.Region6.normalized (V16 m ρ) c).trans ?_)
  show normRelu (W16 m ρ c (Proc.devRef .tc main_v95_0)) (rowOf (W16 m ρ c (Proc.devRef .tc main_v108))) (rowOf (W16 m ρ c (Proc.devRef .tc main_v109)))
    (rowOf (W16 m ρ c (Proc.devRef .tc main_v110))) (rowOf (W16 m ρ c (Proc.devRef .tc main_v111))) (Ideal.ofBits .f32 0x3727C5AC#32) = _
  rw [hz4, hmean, hvar, hgam, hbet]
  rfl

end Cert.KernelIdeal.KerLayer2

end
-- ==== Proof.KerNet.lean ====
import proofs.«427472_j26645977105018_1_alg».proof.Proof.Gen.KernelIdeal.Frame
import proofs.«427472_j26645977105018_1_alg».proof.Proof.Keep
import proofs.«427472_j26645977105018_1_alg».proof.Proof.Stages
import proofs.«427472_j26645977105018_1_alg».proof.Proof.RunNamed
import proofs.«427472_j26645977105018_1_alg».proof.Proof.Region0Value
import proofs.«427472_j26645977105018_1_alg».proof.Proof.Region7Value
import proofs.«427472_j26645977105018_1_alg».proof.Proof.KerLayer0
import proofs.«427472_j26645977105018_1_alg».proof.Proof.KerLayer1
import proofs.«427472_j26645977105018_1_alg».proof.Proof.KerLayer2
import Idealize.ShloMosaic.Lib.StableHlo.Run

/-!
# The idealized kernel's result as one function of its arguments

The first host stretch cuts the edge list into its two rows. The encoder's region leaves the dense layer of the
node inputs. Each of the three layers takes the features the one before left and leaves `layerK` of them, the edge
rows and its own parameters. The last host stretch adds the final features up by graph and divides by the graph
sizes, and the head's region leaves the dense layer of that. Every argument array still holds, where it is read,
what the launch memory held. So the result buffer ends at `netK` of the fourteen launch arrays; with the run of the
program's segments this names the value every execution ends with.
-/

set_option maxRecDepth 65536

noncomputable section

namespace Cert.KernelIdeal.KerNet

open Idealize.ShloMosaic Idealize.ShloMosaic.TcCoe Idealize.ShloMosaic.ValueIdx Idealize.SL.Sem Idealize.ShloMosaic.StableHlo
open Cert.KernelIdeal Cert.KernelIdeal.Gen Cert.KernelIdeal.Keep Cert.Spec Cert.Layer Cert.Stages

variable (m : (ℓ : Loc nD τ sig) → Buf (Elt Ideal) ℓ) (ρ : Dev nD → PrngReg)

/-- What the launch memory holds in an argument's buffer on core c. -/
abbrev arg (b : Ref sig .tc) (c : Dev nD) := m ((c : Thread nD τ).loc b)

/-- After the first host stretch the two rows of the edge list are in place. -/
theorem src1 (c : Dev nD) : W1 m ρ c (Proc.devRef .tc main_v1) = srcOf (arg m main_arg1 c) := by
  show StableHlo.after hostOps0 (W0 m ρ c) (Proc.devRef .tc main_v1) = _
  simp only [hostOps0]
  after_results_simp
  rfl
theorem dst1 (c : Dev nD) : W1 m ρ c (Proc.devRef .tc main_v3) = dstOf (arg m main_arg1 c) := by
  show StableHlo.after hostOps0 (W0 m ρ c) (Proc.devRef .tc main_v3) = _
  simp only [hostOps0]
  after_results_simp
  rfl

/-- After the encoder's region the node features are the dense layer of the arguments. -/
theorem feat_at2 (c : Dev nD) :
    W2 m ρ c (Proc.devRef .tc main_v4) = feat0 (arg m main_arg0 c) (arg m main_arg3 c) (arg m main_arg4 c) := by
  refine (W2_arr m ρ c 3).trans ((Cert.KernelIdeal.Region0.encoded (V1 m ρ) c).trans ?_)
  show affine (W1 m ρ c (Proc.devRef .tc main_arg0)) (W1 m ρ c (Proc.devRef .tc main_arg3)) (W1 m ρ c (Proc.devRef .tc main_arg4)) = _
  rw [at1_main_arg0, at1_main_arg3, at1_main_arg4]
  rfl

/-- The features after layers 0, 1 and 2. -/
theorem feat_at7 (c : Dev nD) :
    W7 m ρ c (Proc.devRef .tc main_v40) = feat1 takeK varBySquares (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) :=
  Cert.KernelIdeal.KerLayer0.layer_out m ρ c _ (feat_at2 m ρ c) (src1 m ρ c) (dst1 m ρ c)
theorem feat_at12 (c : Dev nD) :
    W12 m ρ c (Proc.devRef .tc main_v76) = feat2 takeK varBySquares (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) :=
  Cert.KernelIdeal.KerLayer1.layer_out m ρ c _ (feat_at7 m ρ c) (src1 m ρ c) (dst1 m ρ c)
theorem feat_at17 (c : Dev nD) :
    W17 m ρ c (Proc.devRef .tc main_v112) = feat3 takeK varBySquares (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) :=
  Cert.KernelIdeal.KerLayer2.layer_out m ρ c _ (feat_at12 m ρ c) (src1 m ρ c) (dst1 m ρ c)

set_option maxHeartbeats 1000000 in
/-- The last host stretch: the features added up by graph, each sum divided by the larger of the graph's size and one. -/
theorem pool_of (X : Valuation τ sig (Elt Ideal)) :
    StableHlo.after (hostOps7 (F := Ideal)) X (Proc.devRef .tc main_v124)
      = pool (X (Proc.devRef .tc main_v112)) (X (Proc.devRef .tc main_arg2)) := by
  simp only [hostOps7]
  after_results_simp
  rfl

/-- The result buffer after the last region. -/
theorem result_at19 (c : Dev nD) :
    W19 m ρ c (Proc.devRef .tc main_v125) = netK (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) := by
  have hp : W18 m ρ c (Proc.devRef .tc main_v124)
      = pool (feat3 takeK varBySquares (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c)) (arg m main_arg2 c) := by
    show StableHlo.after hostOps7 (W17 m ρ c) (Proc.devRef .tc main_v124) = _
    rw [pool_of, feat_at17, at17_main_arg2]
    try rfl
  refine (W19_arr m ρ c 3).trans ((Cert.KernelIdeal.Region7.headed (V18 m ρ) c).trans ?_)
  show affine (W18 m ρ c (Proc.devRef .tc main_v124)) (W18 m ρ c (Proc.devRef .tc main_arg12)) (W18 m ρ c (Proc.devRef .tc main_arg13)) = _
  rw [hp, at18_main_arg12, at18_main_arg13]
  rfl

/-- Every weakly fair execution of the idealized kernel ends, without a fault, with its result at the network's value
    of the launch arguments, and the arguments as launched. -/
theorem run_net : θ_run defs (onTc (τ := τ) (main (F := Ideal))) ⟨m, fun _ => 0, ρ⟩ (fun r => ∀ c : Dev nD,
      r.2.mem ((c.tc : Thread nD τ).loc main_v125) = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (result_at19 m ρ c), (h c).2⟩) (Cert.KernelIdeal.RunNamed.run_named m ρ)

end Cert.KernelIdeal.KerNet

end
-- ==== Proof.RefRead.lean ====
/-
  The reference's host operations read as the specification's functions, over the extended reals.

  A dense layer is the plain matrix product plus a vector laid out as a row and repeated down the rows: entry (p, q)
  is the sum over k of x (p, k) * w (k, q), plus b q. The perceptron is a dense layer, the entrywise maximum with a
  table of zeros, and a second dense layer. A column mean is the sum over the row axis, started from zero, divided
  entrywise by the count of rows repeated over the columns. The reference's variance is the column mean of the squared
  deviations from the column means. The normalisation centres by the means, scales by the reciprocal square root of
  the variance plus a small constant, scales by g, shifts by s and takes the maximum with zero.

  Each reading is proved once for any extents M, K, N, index by index, and then stated at the reference program's own
  shapes, shape facts and dimension records over variables of the program's array types.
-/
import proofs.«427472_j26645977105018_1_alg».proof.ReferenceIdeal
import proofs.«427472_j26645977105018_1_alg».proof.Proof.Spec
import proofs.«427472_j26645977105018_1_alg».proof.Proof.LibPlainDot
import proofs.«427472_j26645977105018_1_alg».proof.Proof.Layer
import Idealize.ShloMosaic.Lib.IdealHost
import Idealize.ShloMosaic.Lib.Pipeline.Value

noncomputable section

namespace Cert.RefRead

open Idealize.ShloMosaic Idealize.ShloMosaic.ValueIdx Cert.Spec

section generic

variable {M K N : Nat}

/-- A vector laid out as one row, the row then repeated down M rows: the entry at (p, q) is the vector's entry q. -/
theorem bcast2_ix2 (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : Row N) (p : Fin M) (q : Fin N) :
    broadcastInDim ⟨2, ![M, N]⟩ ![0, 1] h2 (broadcastInDim ⟨2, ![1, N]⟩ ![1] h1 b) (ix2 p q) = b (ix1 q) := by
  refine (broadcastInDim_apply _ h2 _ (ix2 p q) (ix2 (0 : Fin 1) q) ?_).trans ?_
  · intro a
    match a with
    | ⟨0, _⟩ => exact (if_pos rfl).symm
    | ⟨1, _⟩ =>
      show q.val = if N = 1 then 0 else q.val
      split
      · have := q.isLt; omega
      · rfl
  · refine broadcastInDim_apply _ h1 _ (ix2 (0 : Fin 1) q) (ix1 q) ?_
    intro a
    match a with
    | ⟨0, _⟩ =>
      show q.val = if N = 1 then 0 else q.val
      split
      · have := q.isLt; omega
      · rfl

/-- The dense layer: the plain product of x with w, plus the vector b laid out as a row and repeated down the rows,
    is the table whose entry (p, q) is the sum over k of x (p, k) * w (k, q), plus b q. -/
theorem dense_read (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) :
    addf (Host.dotGeneral d none x w)
        (broadcastInDim ⟨2, ![M, N]⟩ ![0, 1] h2 (broadcastInDim ⟨2, ![1, N]⟩ ![1] h1 b))
      = affine x w b := by
  funext j
  obtain ⟨p, q, rfl⟩ : ∃ (p : Fin M) (q : Fin N), j = ix2 p q := ⟨j 0, j 1, eq_ix2 j⟩
  rw [addf_apply, affine_ix2]
  exact congrArg₂ (· + ·) (Cert.LibPlainDot.dotGeneral_apply d hlc hrc hln hrn hlb hrb none .single x w p q)
    (bcast2_ix2 h1 h2 b p q)

/-- The scalar zero repeated over a table is zero at every entry. -/
theorem zeros_apply {T : Shape} (h0 : (⟨0, ![]⟩ : Shape).BroadcastsInDim T ![]) (i : T.Idx) :
    broadcastInDim T ![] h0 (constant (F := Ideal) ⟨0, ![]⟩ .f32 0x00000000#32) i = (0 : EReal) := by
  rw [broadcastInDim_scalar_apply, constant_apply, Ideal.ofBits_zero_f32]

/-- The scalar of word w repeated over a shape is the word's value at every entry. -/
theorem splat_apply {T : Shape} (h0 : (⟨0, ![]⟩ : Shape).BroadcastsInDim T ![]) (w : BitVec 32) (i : T.Idx) :
    broadcastInDim T ![] h0 (constant (F := Ideal) ⟨0, ![]⟩ .f32 w) i = Ideal.ofBits .f32 w := by
  rw [broadcastInDim_scalar_apply, constant_apply]

/-- The entrywise maximum with the table of zeros is the maximum with zero. -/
theorem relu_read (h0 : (⟨0, ![]⟩ : Shape).BroadcastsInDim ⟨2, ![M, N]⟩ ![]) (y : FVec Ideal ⟨2, ![M, N]⟩ .f32) :
    maximumf y (broadcastInDim ⟨2, ![M, N]⟩ ![] h0 (constant (F := Ideal) ⟨0, ![]⟩ .f32 0x00000000#32)) = relu y := by
  funext i
  rw [maximumf_apply, zeros_apply h0 i]
  rfl

/-- The perceptron: a dense layer, the maximum with zero, a dense layer. -/
theorem mlp_read {A B C : Nat}
    (d1 : DotDims ⟨2, ![M, A]⟩ ⟨2, ![A, B]⟩ ⟨2, ![M, B]⟩)
    (hlc1 : d1.lhsContracting = [1]) (hrc1 : d1.rhsContracting = [0])
    (hln1 : d1.lhsNonContracting = [0]) (hrn1 : d1.rhsNonContracting = [1])
    (hlb1 : d1.lhsBatch = []) (hrb1 : d1.rhsBatch = [])
    (d2 : DotDims ⟨2, ![M, B]⟩ ⟨2, ![B, C]⟩ ⟨2, ![M, C]⟩)
    (hlc2 : d2.lhsContracting = [1]) (hrc2 : d2.rhsContracting = [0])
    (hln2 : d2.lhsNonContracting = [0]) (hrn2 : d2.rhsNonContracting = [1])
    (hlb2 : d2.lhsBatch = []) (hrb2 : d2.rhsBatch = [])
    (h1B : (⟨1, ![B]⟩ : Shape).BroadcastsInDim ⟨2, ![1, B]⟩ (![1] : Fin 1 → Fin 2))
    (h2B : (⟨2, ![1, B]⟩ : Shape).BroadcastsInDim ⟨2, ![M, B]⟩ (![0, 1] : Fin 2 → Fin 2))
    (h1C : (⟨1, ![C]⟩ : Shape).BroadcastsInDim ⟨2, ![1, C]⟩ (![1] : Fin 1 → Fin 2))
    (h2C : (⟨2, ![1, C]⟩ : Shape).BroadcastsInDim ⟨2, ![M, C]⟩ (![0, 1] : Fin 2 → Fin 2))
    (h0 : (⟨0, ![]⟩ : Shape).BroadcastsInDim ⟨2, ![M, B]⟩ ![])
    (z : FVec Ideal ⟨2, ![M, A]⟩ .f32) (w1 : FVec Ideal ⟨2, ![A, B]⟩ .f32) (b1 : FVec Ideal ⟨1, ![B]⟩ .f32)
    (w2 : FVec Ideal ⟨2, ![B, C]⟩ .f32) (b2 : FVec Ideal ⟨1, ![C]⟩ .f32) :
    addf (Host.dotGeneral d2 none
          (maximumf (addf (Host.dotGeneral d1 none z w1)
              (broadcastInDim ⟨2, ![M, B]⟩ ![0, 1] h2B (broadcastInDim ⟨2, ![1, B]⟩ ![1] h1B b1)))
            (broadcastInDim ⟨2, ![M, B]⟩ ![] h0 (constant ⟨0, ![]⟩ .f32 0x00000000#32))) w2)
        (broadcastInDim ⟨2, ![M, C]⟩ ![0, 1] h2C (broadcastInDim ⟨2, ![1, C]⟩ ![1] h1C b2))
      = mlp z w1 b1 w2 b2 := by
  rw [dense_read d1 hlc1 hrc1 hln1 hrn1 hlb1 hrb1 h1B h2B z w1 b1, relu_read h0]
  exact dense_read d2 hlc2 hrc2 hln2 hrn2 hlb2 hrb2 h1C h2C _ w2 b2

/-- Removing the first axis of an M by N table leaves the N columns. -/
theorem reduces_rows : (⟨2, ![M, N]⟩ : Shape).Reduces [0] ⟨1, ![N]⟩ :=
  ⟨rfl, Nat.one_pos, fun b => by match b with | ⟨0, _⟩ => rfl⟩

/-- The sum over the first axis from the initial value zero is the sum of each column over the rows. -/
theorem colSum_read (hr : (⟨2, ![M, N]⟩ : Shape).ReducesTo [0] ⟨1, ![N]⟩) (hu : 0 < (⟨0, ![]⟩ : Shape).numel)
    (y : FVec Ideal ⟨2, ![M, N]⟩ .f32) (j : (⟨1, ![N]⟩ : Shape).Idx) :
    Host.reduceAdd y (constant (F := Ideal) ⟨0, ![]⟩ .f32 0x00000000#32) hr hu j = colSum y j := by
  rw [hostReduceAdd_apply, Ideal.hostReduceAdd_single hr reduces_rows, constant_apply, Ideal.ofBits_zero_f32, zero_add]
  show (∑ k : Fin M, y ((reduces_rows (M := M) (N := N)).lift j k)) = ∑ p : Fin M, y (ix2 p (j 0))
  refine Finset.sum_congr rfl fun k _ => congrArg y (funext fun c => Fin.ext ?_)
  match c with
  | ⟨0, _⟩ => rfl
  | ⟨1, _⟩ => rfl

/-- The column sums divided by the scalar of word w, repeated over the columns, are the column means. -/
theorem mean_read (hr : (⟨2, ![M, N]⟩ : Shape).ReducesTo [0] ⟨1, ![N]⟩) (hu : 0 < (⟨0, ![]⟩ : Shape).numel)
    (h0 : (⟨0, ![]⟩ : Shape).BroadcastsInDim ⟨1, ![N]⟩ ![]) (w : BitVec 32)
    (y : FVec Ideal ⟨2, ![M, N]⟩ .f32) :
    Host.divf (Host.reduceAdd y (constant (F := Ideal) ⟨0, ![]⟩ .f32 0x00000000#32) hr hu)
        (broadcastInDim ⟨1, ![N]⟩ ![] h0 (constant (F := Ideal) ⟨0, ![]⟩ .f32 w))
      = Cert.Layer.meanOf y (Ideal.ofBits .f32 w) := by
  funext j
  rw [hostDivf_apply, colSum_read hr hu y j, splat_apply h0 w j]
  rfl

/-- The host's reciprocal square root at an entry is the ideal one of the entry. -/
theorem hostRsqrt_apply {T : Shape} (x : FVec Ideal T .f32) (i : T.Idx) : Host.rsqrt x i = Ideal.rsqrt (x i) :=
  Ideal.hostUnary_rsqrt_def (x i)

/-- The reference's variance: the mean over the rows of the squared deviations from the column means. -/
theorem var_read (hr : (⟨2, ![M, N]⟩ : Shape).ReducesTo [0] ⟨1, ![N]⟩) (hu : 0 < (⟨0, ![]⟩ : Shape).numel)
    (h0 : (⟨0, ![]⟩ : Shape).BroadcastsInDim ⟨1, ![N]⟩ ![])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (w : BitVec 32) (z : FVec Ideal ⟨2, ![M, N]⟩ .f32) (mu : FVec Ideal ⟨1, ![N]⟩ .f32)
    (dd : FVec Ideal ⟨2, ![M, N]⟩ .f32)
    (hmu : mu = Host.divf (Host.reduceAdd z (constant (F := Ideal) ⟨0, ![]⟩ .f32 0x00000000#32) hr hu)
        (broadcastInDim ⟨1, ![N]⟩ ![] h0 (constant (F := Ideal) ⟨0, ![]⟩ .f32 w)))
    (hdd : dd = subf z (broadcastInDim ⟨2, ![M, N]⟩ ![0, 1] h2 (broadcastInDim ⟨2, ![1, N]⟩ ![1] h1 mu))) :
    Host.divf (Host.reduceAdd (mulf dd dd) (constant (F := Ideal) ⟨0, ![]⟩ .f32 0x00000000#32) hr hu)
        (broadcastInDim ⟨1, ![N]⟩ ![] h0 (constant (F := Ideal) ⟨0, ![]⟩ .f32 w))
      = Cert.Layer.varByDeviation z (Ideal.ofBits .f32 w) := by
  rw [mean_read hr hu h0 w z] at hmu
  subst hdd hmu
  rw [mean_read hr hu h0 w]
  funext j
  obtain ⟨q, rfl⟩ : ∃ q : Fin N, j = ix1 q := ⟨j 0, eq_ix1 j⟩
  show Ideal.div (∑ p : Fin M, mulf (F := Ideal) (φ := .f32) (s := ⟨2, ![M, N]⟩) _ _ (ix2 p q)) _
    = Ideal.div (∑ p : Fin M, (z (ix2 p q) - Cert.Layer.meanOf z (Ideal.ofBits .f32 w) (ix1 q))
        * (z (ix2 p q) - Cert.Layer.meanOf z (Ideal.ofBits .f32 w) (ix1 q))) _
  refine congrArg (fun t => Ideal.div t (Ideal.ofBits .f32 w)) (Finset.sum_congr rfl fun p _ => ?_)
  rw [mulf_apply, subf_apply, bcast2_ix2 h1 h2]

/-- A layer's normalisation as the reference writes it: centre by the column means, scale by the reciprocal square
    root of the variance plus the small constant, then by g, shift by s, maximum with zero. -/
theorem norm_read (hr : (⟨2, ![M, N]⟩ : Shape).ReducesTo [0] ⟨1, ![N]⟩) (hu : 0 < (⟨0, ![]⟩ : Shape).numel)
    (h0 : (⟨0, ![]⟩ : Shape).BroadcastsInDim ⟨1, ![N]⟩ ![])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz0 : (⟨0, ![]⟩ : Shape).BroadcastsInDim ⟨2, ![M, N]⟩ ![])
    (w e : BitVec 32) (z : FVec Ideal ⟨2, ![M, N]⟩ .f32) (mu : FVec Ideal ⟨1, ![N]⟩ .f32)
    (dd : FVec Ideal ⟨2, ![M, N]⟩ .f32) (g s : FVec Ideal ⟨1, ![N]⟩ .f32)
    (hmu : mu = Host.divf (Host.reduceAdd z (constant (F := Ideal) ⟨0, ![]⟩ .f32 0x00000000#32) hr hu)
        (broadcastInDim ⟨1, ![N]⟩ ![] h0 (constant (F := Ideal) ⟨0, ![]⟩ .f32 w)))
    (hdd : dd = subf z (broadcastInDim ⟨2, ![M, N]⟩ ![0, 1] h2 (broadcastInDim ⟨2, ![1, N]⟩ ![1] h1 mu))) :
    maximumf (addf (mulf (mulf (subf z (broadcastInDim ⟨2, ![M, N]⟩ ![0, 1] h2 (broadcastInDim ⟨2, ![1, N]⟩ ![1] h1 mu)))
        (broadcastInDim ⟨2, ![M, N]⟩ ![0, 1] h2 (broadcastInDim ⟨2, ![1, N]⟩ ![1] h1
          (Host.rsqrt (addf (Host.divf (Host.reduceAdd (mulf dd dd) (constant (F := Ideal) ⟨0, ![]⟩ .f32 0x00000000#32) hr hu)
              (broadcastInDim ⟨1, ![N]⟩ ![] h0 (constant (F := Ideal) ⟨0, ![]⟩ .f32 w)))
            (broadcastInDim ⟨1, ![N]⟩ ![] h0 (constant (F := Ideal) ⟨0, ![]⟩ .f32 e)))))))
        (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 s)))
      (broadcastInDim ⟨2, ![M, N]⟩ ![] hz0 (constant (F := Ideal) ⟨0, ![]⟩ .f32 0x00000000#32))
      = Cert.Layer.outWith Cert.Layer.varByDeviation z g s (Ideal.ofBits .f32 e) (Ideal.ofBits .f32 w) := by
  rw [var_read hr hu h0 h1 h2 w z mu dd hmu hdd]
  rw [mean_read hr hu h0 w z] at hmu
  subst hmu
  funext i
  obtain ⟨p, q, rfl⟩ : ∃ (p : Fin M) (q : Fin N), i = ix2 p q := ⟨i 0, i 1, eq_ix2 i⟩
  rw [maximumf_apply, zeros_apply hz0, addf_apply, mulf_apply, mulf_apply, subf_apply, bcast2_ix2 h1 h2,
    bcast2_ix2 h1 h2, bcast2_ix2 h1 h2, bcast2_ix2 h1 h2, hostRsqrt_apply, addf_apply, splat_apply h0]
  rfl

end generic

/-! ## The reference's printed operations

The same readings at the reference program's own shapes, shape facts and dimension records, stated over variables of
the program's array types. -/

section printed

open Cert.ReferenceIdeal Cert.ReferenceIdeal.Facts₀ Cert.ReferenceIdeal.Facts

variable [Cert.ReferenceIdeal.Facts]

/-- The input layer, 50000 rows, 128 to 64 columns. -/
theorem dense_128_64 (x : FVec Ideal S50000x128 .f32) (w : FVec Ideal S128x64 .f32) (b : FVec Ideal S64 .f32) :
    addf (Host.dotGeneral dot_S50000x128_S128x64_S50000x64_1_0_0_1_n_n none x w) (broadcastInDim S50000x64 ![0, 1] bcast_S1x64_S50000x64_0_1 (broadcastInDim S1x64 ![1] bcast_S64_S1x64_1 b))
      = affine x w b :=
  dense_read _ rfl rfl rfl rfl rfl rfl _ _ x w b

/-- A hidden layer, 50000 rows, 64 to 64 columns. -/
theorem dense_64_64 (x : FVec Ideal S50000x64 .f32) (w : FVec Ideal S64x64 .f32) (b : FVec Ideal S64 .f32) :
    addf (Host.dotGeneral dot_S50000x64_S64x64_S50000x64_1_0_0_1_n_n none x w) (broadcastInDim S50000x64 ![0, 1] bcast_S1x64_S50000x64_0_1 (broadcastInDim S1x64 ![1] bcast_S64_S1x64_1 b))
      = affine x w b :=
  dense_read _ rfl rfl rfl rfl rfl rfl _ _ x w b

/-- The output layer, 512 rows, 64 to 10 columns. -/
theorem dense_64_10 (x : FVec Ideal S512x64 .f32) (w : FVec Ideal S64x10 .f32) (b : FVec Ideal S10 .f32) :
    addf (Host.dotGeneral dot_S512x64_S64x10_S512x10_1_0_0_1_n_n none x w) (broadcastInDim S512x10 ![0, 1] bcast_S1x10_S512x10_0_1 (broadcastInDim S1x10 ![1] bcast_S10_S1x10_1 b))
      = affine x w b :=
  dense_read _ rfl rfl rfl rfl rfl rfl _ _ x w b

/-- A layer's perceptron on 50000 rows of 64 columns. -/
theorem mlp_64 (z : FVec Ideal S50000x64 .f32) (w1 : FVec Ideal S64x64 .f32) (b1 : FVec Ideal S64 .f32)
    (w2 : FVec Ideal S64x64 .f32) (b2 : FVec Ideal S64 .f32) :
    addf (Host.dotGeneral dot_S50000x64_S64x64_S50000x64_1_0_0_1_n_n none (maximumf (addf (Host.dotGeneral dot_S50000x64_S64x64_S50000x64_1_0_0_1_n_n none z w1) (broadcastInDim S50000x64 ![0, 1] bcast_S1x64_S50000x64_0_1 (broadcastInDim S1x64 ![1] bcast_S64_S1x64_1 b1))) (broadcastInDim S50000x64 ![] bcast_S_S50000x64 (constant S_ .f32 0x00000000#32))) w2) (broadcastInDim S50000x64 ![0, 1] bcast_S1x64_S50000x64_0_1 (broadcastInDim S1x64 ![1] bcast_S64_S1x64_1 b2))
      = mlp z w1 b1 w2 b2 :=
  mlp_read _ rfl rfl rfl rfl rfl rfl _ rfl rfl rfl rfl rfl rfl _ _ _ _ _ z w1 b1 w2 b2

/-- The column means of a 50000 by 64 table; w is the word of the divisor. -/
theorem mean_64 (w : BitVec 32) (z : FVec Ideal S50000x64 .f32) :
    Host.divf (Host.reduceAdd z (constant S_ .f32 0x00000000#32) reducesTo_S50000x64_S64_d0 h_S_) (broadcastInDim S64 ![] bcast_S_S64 (constant S_ .f32 w))
      = Cert.Layer.meanOf z (Ideal.ofBits .f32 w) :=
  mean_read _ _ _ w z

/-- The reference's variance of a 50000 by 64 table: the mean of the squared deviations from the column means. -/
theorem var_64 (w : BitVec 32) (z : FVec Ideal S50000x64 .f32) (mu : FVec Ideal S64 .f32) (dd : FVec Ideal S50000x64 .f32)
    (hmu : mu = Host.divf (Host.reduceAdd z (constant S_ .f32 0x00000000#32) reducesTo_S50000x64_S64_d0 h_S_) (broadcastInDim S64 ![] bcast_S_S64 (constant S_ .f32 w)))
    (hdd : dd = subf z (broadcastInDim S50000x64 ![0, 1] bcast_S1x64_S50000x64_0_1 (broadcastInDim S1x64 ![1] bcast_S64_S1x64_1 mu))) :
    Host.divf (Host.reduceAdd (mulf dd dd) (constant S_ .f32 0x00000000#32) reducesTo_S50000x64_S64_d0 h_S_) (broadcastInDim S64 ![] bcast_S_S64 (constant S_ .f32 w))
      = Cert.Layer.varByDeviation z (Ideal.ofBits .f32 w) :=
  var_read _ _ _ _ _ w z mu dd hmu hdd

/-- A layer's normalisation of a 50000 by 64 table, in the reference's own spelling: z the table, mu its column means,
    dd the table less its means, g and s the scale and the shift, w the word of the count of rows and e the word of the
    small constant under the square root. -/
theorem norm_64 (w e : BitVec 32) (z : FVec Ideal S50000x64 .f32) (mu : FVec Ideal S64 .f32) (dd : FVec Ideal S50000x64 .f32)
    (g s : FVec Ideal S64 .f32)
    (hmu : mu = Host.divf (Host.reduceAdd z (constant S_ .f32 0x00000000#32) reducesTo_S50000x64_S64_d0 h_S_) (broadcastInDim S64 ![] bcast_S_S64 (constant S_ .f32 w)))
    (hdd : dd = subf z (broadcastInDim S50000x64 ![0, 1] bcast_S1x64_S50000x64_0_1 (broadcastInDim S1x64 ![1] bcast_S64_S1x64_1 mu))) :
    maximumf (addf (mulf (mulf (subf z (broadcastInDim S50000x64 ![0, 1] bcast_S1x64_S50000x64_0_1 (broadcastInDim S1x64 ![1] bcast_S64_S1x64_1 mu))) (broadcastInDim S50000x64 ![0, 1] bcast_S1x64_S50000x64_0_1 (broadcastInDim S1x64 ![1] bcast_S64_S1x64_1 (Host.rsqrt (addf (Host.divf (Host.reduceAdd (mulf dd dd) (constant S_ .f32 0x00000000#32) reducesTo_S50000x64_S64_d0 h_S_) (broadcastInDim S64 ![] bcast_S_S64 (constant S_ .f32 w))) (broadcastInDim S64 ![] bcast_S_S64 (constant S_ .f32 e))))))) (broadcastInDim S50000x64 ![0, 1] bcast_S1x64_S50000x64_0_1 (broadcastInDim S1x64 ![1] bcast_S64_S1x64_1 g))) (broadcastInDim S50000x64 ![0, 1] bcast_S1x64_S50000x64_0_1 (broadcastInDim S1x64 ![1] bcast_S64_S1x64_1 s))) (broadcastInDim S50000x64 ![] bcast_S_S50000x64 (constant S_ .f32 0x00000000#32))
      = Cert.Layer.outWith Cert.Layer.varByDeviation z g s (Ideal.ofBits .f32 e) (Ideal.ofBits .f32 w) :=
  norm_read _ _ _ _ _ _ w e z mu dd g s hmu hdd

end printed

end Cert.RefRead

end
-- ==== Proof.RefChain.lean ====
/-
  The reference program's run, with its result as one function of the arguments.

  Stage by stage, each named intermediate array of the reference program is the network's stage of the arrays before
  it: the two rows of the edge list are the source and the target ids; the encoder's output is the dense layer of the
  inputs; a layer's perceptron table is the perceptron of (1 + e) * h plus the neighbour rows added up by target id,
  with the neighbour rows read the reference's way; a layer's output is the normalisation of that table with the
  variance taken as the mean of the squared deviations. The result is the linear head of the features after the third
  layer, pooled by graph: the whole network of the arguments. Every weakly fair execution of the reference program
  ends with the result buffer at that value and the arguments unchanged.

  Each stage is closed by the reading of its operations as the specification's functions and by the stage before it;
  a stage's operands that the two programs spell alike (slices of the stacked parameters, the id columns, the sums by
  id) agree with the stage functions by unfolding the definitions.
-/
import proofs.«427472_j26645977105018_1_alg».proof.Proof.Gen.ReferenceIdeal.Run
import proofs.«427472_j26645977105018_1_alg».proof.Proof.RefRead
import proofs.«427472_j26645977105018_1_alg».proof.Proof.Stages
import proofs.«427472_j26645977105018_1_alg».proof.Proof.Layer
import proofs.«427472_j26645977105018_1_alg».proof.Proof.Spec

noncomputable section

namespace Cert.RefChain

open Idealize.ShloMosaic Idealize.ShloMosaic.TcCoe Idealize.SL.Sem Idealize.ShloMosaic.StableHlo
open Cert.ReferenceIdeal Cert.ReferenceIdeal.Gen Cert.ReferenceIdeal.Value Cert.Spec Cert.Layer

variable [Cert.KernelIdeal.Facts]

section stages

variable (V0 : Valuation τ sig (Elt Ideal))

/-- The source ids of the edges. -/
theorem v1_eq : res_main_v1 V0 = Cert.Stages.srcOf (V0 (Proc.devRef .tc main_arg1)) := rfl

/-- The target ids of the edges. -/
theorem v3_eq : res_main_v3 V0 = Cert.Stages.dstOf (V0 (Proc.devRef .tc main_arg1)) := rfl

/-- The encoder's output. -/
theorem v7_eq : res_main_v7 V0
    = Cert.Stages.feat0 (V0 (Proc.devRef .tc main_arg0)) (V0 (Proc.devRef .tc main_arg3)) (V0 (Proc.devRef .tc main_arg4)) :=
  Cert.RefRead.dense_128_64 _ _ _

/-- Layer 0's perceptron table, from the encoder's output. -/
theorem v41_eq : res_main_v41 V0
    = Cert.Stages.zWith Cert.Stages.takeR (res_main_v7 V0) (Cert.Stages.srcOf (V0 (Proc.devRef .tc main_arg1)))
        (Cert.Stages.dstOf (V0 (Proc.devRef .tc main_arg1))) (Cert.Stages.scalarAt0 (V0 (Proc.devRef .tc main_arg5)))
        (Cert.Stages.matAt0 (V0 (Proc.devRef .tc main_arg6))) (Cert.Stages.vecAt0 (V0 (Proc.devRef .tc main_arg7)))
        (Cert.Stages.matAt0 (V0 (Proc.devRef .tc main_arg8))) (Cert.Stages.vecAt0 (V0 (Proc.devRef .tc main_arg9))) :=
  (Cert.RefRead.mlp_64 _ _ _ _ _).trans rfl

/-- The node features after layer 0. -/
theorem v72_eq : res_main_v72 V0 = Cert.Stages.feat1 Cert.Stages.takeR varByDeviation (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (Cert.RefRead.norm_64 _ _ (res_main_v41 V0) (res_main_v44 V0) (res_main_v47 V0) _ _ rfl rfl).trans
    ((congrArg (fun z => outWith varByDeviation z _ _ _ _)
      ((v41_eq V0).trans (congrArg (fun h => Cert.Stages.zWith Cert.Stages.takeR h _ _ _ _ _ _ _) (v7_eq V0)))).trans rfl)

/-- Layer 1's perceptron table, from the features after layer 0. -/
theorem v106_eq : res_main_v106 V0
    = Cert.Stages.zWith Cert.Stages.takeR (res_main_v72 V0) (Cert.Stages.srcOf (V0 (Proc.devRef .tc main_arg1)))
        (Cert.Stages.dstOf (V0 (Proc.devRef .tc main_arg1))) (Cert.Stages.scalarAt1 (V0 (Proc.devRef .tc main_arg5)))
        (Cert.Stages.matAt1 (V0 (Proc.devRef .tc main_arg6))) (Cert.Stages.vecAt1 (V0 (Proc.devRef .tc main_arg7)))
        (Cert.Stages.matAt1 (V0 (Proc.devRef .tc main_arg8))) (Cert.Stages.vecAt1 (V0 (Proc.devRef .tc main_arg9))) :=
  (Cert.RefRead.mlp_64 _ _ _ _ _).trans rfl

/-- The node features after layer 1. -/
theorem v137_eq : res_main_v137 V0 = Cert.Stages.feat2 Cert.Stages.takeR varByDeviation (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (Cert.RefRead.norm_64 _ _ (res_main_v106 V0) (res_main_v109 V0) (res_main_v112 V0) _ _ rfl rfl).trans
    ((congrArg (fun z => outWith varByDeviation z _ _ _ _)
      ((v106_eq V0).trans (congrArg (fun h => Cert.Stages.zWith Cert.Stages.takeR h _ _ _ _ _ _ _) (v72_eq V0)))).trans rfl)

/-- Layer 2's perceptron table, from the features after layer 1. -/
theorem v171_eq : res_main_v171 V0
    = Cert.Stages.zWith Cert.Stages.takeR (res_main_v137 V0) (Cert.Stages.srcOf (V0 (Proc.devRef .tc main_arg1)))
        (Cert.Stages.dstOf (V0 (Proc.devRef .tc main_arg1))) (Cert.Stages.scalarAt2 (V0 (Proc.devRef .tc main_arg5)))
        (Cert.Stages.matAt2 (V0 (Proc.devRef .tc main_arg6))) (Cert.Stages.vecAt2 (V0 (Proc.devRef .tc main_arg7)))
        (Cert.Stages.matAt2 (V0 (Proc.devRef .tc main_arg8))) (Cert.Stages.vecAt2 (V0 (Proc.devRef .tc main_arg9))) :=
  (Cert.RefRead.mlp_64 _ _ _ _ _).trans rfl

/-- The program's result: the linear head of the pooled features after layer 2, that is the whole network of the
    arguments. -/
theorem result_term_eq : addf (Host.dotGeneral (φ₂ := .f32) dot_S512x64_S64x10_S512x10_1_0_0_1_n_n none (Host.divf (Host.scatterAdd scatter_S512x64_S50000x1_S50000x64_1_0_0_1 (broadcastInDim S512x64 ![] bcast_S_S512x64 (constant S_ .f32 0x00000000#32)) (broadcastInDim S50000x1 ![0] bcast_S50000_S50000x1_0 (V0 (Proc.devRef .tc main_arg2))) (maximumf (addf (mulf (mulf (subf (res_main_v171 V0) (broadcastInDim S50000x64 ![0, 1] bcast_S1x64_S50000x64_0_1 (broadcastInDim S1x64 ![1] bcast_S64_S1x64_1 (res_main_v174 V0)))) (broadcastInDim S50000x64 ![0, 1] bcast_S1x64_S50000x64_0_1 (broadcastInDim S1x64 ![1] bcast_S64_S1x64_1 (Host.rsqrt (addf (Host.divf (Host.reduceAdd (mulf (res_main_v177 V0) (res_main_v177 V0)) (constant S_ .f32 0x00000000#32) reducesTo_S50000x64_S64_d0 h_S_) (broadcastInDim S64 ![] bcast_S_S64 (constant S_ .f32 0x47435000#32))) (broadcastInDim S64 ![] bcast_S_S64 (constant S_ .f32 0x3727C5AC#32))))))) (broadcastInDim S50000x64 ![0, 1] bcast_S1x64_S50000x64_0_1 (broadcastInDim S1x64 ![1] bcast_S64_S1x64_1 (shapeCast _ (extractStridedSlice S1x64 ![2, 0] (V0 (Proc.devRef .tc main_arg10)) slices_S3x64_S1x64_2_0) shapeCasts_S1x64_S64)))) (broadcastInDim S50000x64 ![0, 1] bcast_S1x64_S50000x64_0_1 (broadcastInDim S1x64 ![1] bcast_S64_S1x64_1 (shapeCast _ (extractStridedSlice S1x64 ![2, 0] (V0 (Proc.devRef .tc main_arg11)) slices_S3x64_S1x64_2_0) shapeCasts_S1x64_S64)))) (broadcastInDim S50000x64 ![] bcast_S_S50000x64 (constant S_ .f32 0x00000000#32)))) (broadcastInDim S512x64 ![0, 1] bcast_S512x1_S512x64_0_1 (broadcastInDim S512x1 ![0] bcast_S512_S512x1_0 (maximumf (Host.scatterAdd scatter_S512_S50000x1_S50000_n_0_0_1 (broadcastInDim S512 ![] bcast_S_S512 (constant S_ .f32 0x00000000#32)) (broadcastInDim S50000x1 ![0] bcast_S50000_S50000x1_0 (V0 (Proc.devRef .tc main_arg2))) (broadcastInDim S50000 ![] bcast_S_S50000 (constant S_ .f32 0x3F800000#32))) (broadcastInDim S512 ![] bcast_S_S512 (constant S_ .f32 0x3F800000#32)))))) (V0 (Proc.devRef .tc main_arg12))) (broadcastInDim S512x10 ![0, 1] bcast_S1x10_S512x10_0_1 (broadcastInDim S1x10 ![1] bcast_S10_S1x10_1 (V0 (Proc.devRef .tc main_arg13))))
    = Cert.Stages.netR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (Cert.RefRead.dense_64_10 _ _ _).trans
    ((congrArg (fun h => affine (Cert.Stages.pool h (V0 (Proc.devRef .tc main_arg2))) (V0 (Proc.devRef .tc main_arg12)) (V0 (Proc.devRef .tc main_arg13)))
      ((Cert.RefRead.norm_64 _ _ (res_main_v171 V0) (res_main_v174 V0) (res_main_v177 V0) _ _ rfl rfl).trans
        ((congrArg (fun z => outWith varByDeviation z _ _ _ _)
          ((v171_eq V0).trans (congrArg (fun h => Cert.Stages.zWith Cert.Stages.takeR h _ _ _ _ _ _ _) (v137_eq V0)))).trans rfl))).trans rfl)

/-- The same, for the result buffer's value after the program's operations. -/
theorem result_eq : val5 V0 (no_index (Proc.devRef .tc main_v218)) = Cert.Stages.netR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val5_main_v218 V0).trans (result_term_eq V0)

end stages

/-- On every device, from any memory with zero counters, every weakly fair execution of the reference program ends
    with the result buffer holding the whole network of the arguments as launched, and the arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v218) = Cert.Stages.netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (result_term_eq (launchContents m c)), (h c).2⟩)
    (Cert.ReferenceIdeal.Value.run (F := Ideal) m ρ)

end Cert.RefChain

end
-- ==== Proof.GatherFacts.lean ====
/-
  Facts about the index operations around the neighbour gather.

  1. The range mask of a row lookup by index. An index word x with -50000 ≤ x < 50000 (read signed) is first wrapped:
     x + 50000 when x < 0, else x. The wrapped word w then satisfies 0 ≤ w ≤ 49999, so the conjunction
     "w ≥ 0 and w ≤ 49999", reduced by "and" along an axis of length one and laid along the rows of the
     gathered table, is true everywhere, and the selection between the gathered rows and the filler returns the
     gathered rows unchanged.

  2. Finiteness. Every operation here that only re-reads a table (gather, slice, reshape, broadcast) returns,
     at each position, one of the table's entries, hence a real number when all entries are real. An
     accumulating scatter returns, at each position, the entry there plus a finite sum of update entries, hence
     a real number when all entries and all updates are real. A constant table is real when its word denotes a
     real number.
-/
import proofs.«427472_j26645977105018_1_alg».proof.KernelIdeal
import proofs.«427472_j26645977105018_1_alg».proof.Proof.Spec
import proofs.«427472_j26645977105018_1_alg».proof.Proof.Arith
import Idealize.ShloMosaic.Lib.Affine
import Idealize.ShloMosaic.PureOps

noncomputable section

namespace Cert.GatherFacts

open Idealize.ShloMosaic Cert.KernelIdeal Cert.Arith
open Cert.KernelIdeal.Facts₀ Cert.KernelIdeal.Facts

/-! ## Words -/

theorem toInt_neg50000 : (4294917296#32 : BitVec 32).toInt = -50000 := by decide
theorem toInt_50000 : (50000#32 : BitVec 32).toInt = 50000 := by decide
theorem toInt_49999 : (49999#32 : BitVec 32).toInt = 49999 := by decide
theorem toInt_zero32 : (0#32 : BitVec 32).toInt = 0 := by decide

/-- The two comparisons of the hypothesis, read as bounds on the signed value. -/
theorem range_of_cmpi (x : BitVec 32)
    (h : IntOp.cmpi .sge x 4294917296#32 = 1#1 ∧ IntOp.cmpi .slt x 50000#32 = 1#1) :
    (-50000 : Int) ≤ x.toInt ∧ x.toInt < 50000 := by
  obtain ⟨h1, h2⟩ := h
  have a := IntOp.cmpi_sge.mp h1
  have b := IntOp.cmpi_slt.mp h2
  rw [toInt_neg50000] at a
  rw [toInt_50000] at b
  exact ⟨a, b⟩

/-- Adding 50000 to a word in [-50000, 0) does not wrap around. -/
theorem toInt_add_50000 (x : BitVec 32) (h1 : (-50000 : Int) ≤ x.toInt) (h2 : x.toInt < 0) :
    (IntOp.addi x 50000#32).toInt = x.toInt + 50000 := by
  rw [IntOp.addi, BitVec.toInt_add, toInt_50000]
  exact Int.bmod_eq_of_le (by omega) (by omega)

/-- The wrapped word lies in [0, 49999]. -/
theorem wrap_in_range (x : BitVec 32) (h : (-50000 : Int) ≤ x.toInt ∧ x.toInt < 50000) :
    IntOp.cmpi .sge (Scalar.select (IntOp.cmpi .slt x 0#32) (IntOp.addi x 50000#32) x) 0#32 = 1#1 ∧
      IntOp.cmpi .sle (Scalar.select (IntOp.cmpi .slt x 0#32) (IntOp.addi x 50000#32) x) 49999#32 = 1#1 := by
  obtain ⟨h1, h2⟩ := h
  rw [IntOp.cmpi_sge, IntOp.cmpi_sle, toInt_zero32, toInt_49999]
  unfold Scalar.select
  by_cases hneg : IntOp.cmpi .slt x 0#32 = 1
  · rw [if_pos hneg]
    have hlt : x.toInt < 0 := by
      have := IntOp.cmpi_slt.mp hneg
      rwa [toInt_zero32] at this
    rw [toInt_add_50000 x h1 hlt]
    omega
  · rw [if_neg hneg]
    have hge : ¬ x.toInt < 0 := fun hlt => hneg (IntOp.cmpi_slt.mpr (by rw [toInt_zero32]; exact hlt))
    omega

/-! ## Tables of truth values -/

section Generic
variable {s t u : Shape} {α : Type}

/-- A selection whose condition is true everywhere returns its first branch. -/
theorem select_of_all_one (c : IVec s 1) (a b : s.Idx → α) (h : ∀ i, c i = 1#1) : select c a b = a := by
  funext i
  show Scalar.select (c i) (a i) (b i) = a i
  unfold Scalar.select
  exact if_pos (h i)

/-- A broadcast reads its operand: what holds of every entry of the operand holds of every entry of the result. -/
theorem broadcastInDim_all (P : α → Prop) (dims : Fin s.rank → Fin t.rank) (h : s.BroadcastsInDim t dims)
    (x : s.Idx → α) (hx : ∀ i, P (x i)) : ∀ j, P (broadcastInDim t dims h x j) :=
  fun _ => hx _

/-- A left fold by "and" from 1 over 1s is 1. -/
theorem foldl_andi_all_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_all_one f hf l _ (IntOp.andi_eq_one.mpr ⟨h, hf a⟩)

/-- A reduction by "and" from 1 of a table that is 1 everywhere is 1 everywhere. -/
theorem reduce_andi_all_one {axes : List (Fin s.rank)} (x : s.Idx → BitVec 1) (init : u.Idx → BitVec 1)
    (h : s.ReducesTo axes t) (hu : 0 < u.numel) (hx : ∀ i, x i = 1#1) (hinit : ∀ k, init k = 1#1) :
    ∀ j, Host.reduce IntOp.andi x init h hu j = 1#1 := by
  intro j
  rw [Host.reduce_eq_foldl]
  exact foldl_andi_all_one x hx _ _ (hinit _)

end Generic

/-! ## The mask of the row lookup -/

section Mask
variable [Facts]

/-- The wrapped indices, entry by entry, lie in [0, 49999]. -/
theorem wrapped_in_range (s : IVec S800000 32) (hs : ∀ e, (-50000 : Int) ≤ (s e).toInt ∧ (s e).toInt < 50000) :
    ∀ e, IntOp.cmpi .sge
        (select (cmpi .slt s (broadcastInDim S800000 ![] bcast_S_S800000 (constantI S_ 32 0#32)))
          (addi s (broadcastInDim S800000 ![] bcast_S_S800000 (constantI S_ 32 50000#32))) s e) 0#32 = 1#1 ∧
      IntOp.cmpi .sle
        (select (cmpi .slt s (broadcastInDim S800000 ![] bcast_S_S800000 (constantI S_ 32 0#32)))
          (addi s (broadcastInDim S800000 ![] bcast_S_S800000 (constantI S_ 32 50000#32))) s e) 49999#32 = 1#1 :=
  fun e => wrap_in_range (s e) (hs e)

/-- When every index is in [0, 49999] the mask is true everywhere and the selection returns the gathered rows. -/
theorem mask_true_of_range (wr : IVec S800000 32)
    (hw : ∀ e, IntOp.cmpi .sge (wr e) 0#32 = 1#1 ∧ IntOp.cmpi .sle (wr e) 49999#32 = 1#1)
    (g fill : FVec Ideal S800000x64 .f32) :
    select (broadcastInDim S800000x64 ![0] bcast_S800000_S800000x64_0
      (Host.reduce IntOp.andi
        (andi
          (cmpi .sge (broadcastInDim S800000x1 ![0] bcast_S800000_S800000x1_0 wr)
            (broadcastInDim S800000x1 ![] bcast_S_S800000x1 (constantI S_ 32 0#32)))
          (cmpi .sle (broadcastInDim S800000x1 ![0] bcast_S800000_S800000x1_0 wr)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_)) g fill = g := by
  apply select_of_all_one
  apply broadcastInDim_all (fun b : BitVec 1 => b = 1#1)
  apply reduce_andi_all_one
  · intro i
    have hi := broadcastInDim_all
      (fun w : BitVec 32 => IntOp.cmpi .sge w 0#32 = 1#1 ∧ IntOp.cmpi .sle w 49999#32 = 1#1)
      ![0] bcast_S800000_S800000x1_0 wr hw i
    exact IntOp.andi_eq_one.mpr hi
  · intro _
    rfl

/-- The lookup's range mask is true everywhere when every index, read signed, lies in [-50000, 50000). -/
theorem take_mask_true_of_toInt (s : IVec S800000 32)
    (hs : ∀ e, (-50000 : Int) ≤ (s e).toInt ∧ (s e).toInt < 50000)
    (g fill : FVec Ideal S800000x64 .f32) :
    select (broadcastInDim S800000x64 ![0] bcast_S800000_S800000x64_0
      (Host.reduce IntOp.andi
        (andi
          (cmpi .sge
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![] bcast_S_S800000x1 (constantI S_ 32 0#32)))
          (cmpi .sle
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_)) g fill = g :=
  mask_true_of_range _ (wrapped_in_range s hs) g fill

/-- The same, the hypothesis given as the two word comparisons with -50000 and 50000. -/
theorem take_mask_true (s : IVec S800000 32)
    (hs : ∀ e, IntOp.cmpi .sge (s e) 4294917296#32 = 1#1 ∧ IntOp.cmpi .slt (s e) 50000#32 = 1#1)
    (g fill : FVec Ideal S800000x64 .f32) :
    select (broadcastInDim S800000x64 ![0] bcast_S800000_S800000x64_0
      (Host.reduce IntOp.andi
        (andi
          (cmpi .sge
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![] bcast_S_S800000x1 (constantI S_ 32 0#32)))
          (cmpi .sle
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_)) g fill = g :=
  take_mask_true_of_toInt s (fun e => range_of_cmpi (s e) (hs e)) g fill

end Mask

/-! ## Finiteness through the index and layout operations -/

section Finite
variable {s si t u : Shape} {w : Nat}

/-- A gather reads the operand: its entries are entries of the operand. -/
theorem gather_isReal (d : GatherDims s si t) (x : s.Idx → EReal) (idx : IVec si w) (hx : ∀ i, IsReal (x i)) :
    ∀ j, IsReal (Host.gather d x idx j) :=
  fun _ => hx _

/-- An accumulating scatter: each entry is the operand's entry plus a finite sum of update entries. -/
theorem scatterAdd_isReal {φ : FTy} (d : ScatterDims s si u) (x : FVec Ideal s φ) (idx : IVec si w)
    (upd : FVec Ideal u φ) (hx : ∀ i, IsReal (x i)) (hu : ∀ j, IsReal (upd j)) :
    ∀ i, IsReal (Host.scatterAdd (F := Ideal) d x idx upd i) := by
  intro i
  show IsReal (Ideal.hostScatterAdd d x idx upd i)
  unfold Ideal.hostScatterAdd
  exact isReal_add (hx i) (isReal_sum _ _ fun j _ => hu j)

theorem extractStridedSlice_isReal (off : Fin s.rank → Nat) (x : s.Idx → EReal) (h : s.Slices off t)
    (hx : ∀ i, IsReal (x i)) : ∀ j, IsReal (extractStridedSlice t off x h j) :=
  fun _ => hx _

theorem shapeCast_isReal (x : s.Idx → EReal) (h : s.ShapeCasts t) (hx : ∀ i, IsReal (x i)) :
    ∀ j, IsReal (shapeCast t x h j) :=
  fun _ => hx _

theorem broadcastInDim_isReal (dims : Fin s.rank → Fin t.rank) (h : s.BroadcastsInDim t dims) (x : s.Idx → EReal)
    (hx : ∀ i, IsReal (x i)) : ∀ j, IsReal (broadcastInDim t dims h x j) :=
  fun _ => hx _

theorem broadcastTo_isReal (x : s.Idx → EReal) (h : s.Broadcasts t) (hx : ∀ i, IsReal (x i)) :
    ∀ j, IsReal (broadcastTo t x h j) :=
  fun _ => hx _

/-- A constant table is real when its word denotes a real number. -/
theorem constant_isReal (S : Shape) (φ : FTy) (b : BitVec φ.bits) (h : IsReal (Ideal.ofBits φ b)) :
    ∀ j, IsReal (constant (F := Ideal) S φ b j) :=
  fun _ => h

end Finite

end Cert.GatherFacts

end
-- ==== Proof.Bridge.lean ====
/-
  The kernel's network and the reference's network are one function on finite inputs whose source ids are in range.

  The two differ in two places of every layer.
    * The neighbour rows: the kernel replaces a row whose id lies outside the table by a filler; when every id,
      read signed, lies in [-50000, 50000), no id lies outside after wrapping, so nothing is replaced.
    * The variance: the kernel takes the mean of the squares less the squared mean, the reference the mean of the
      squared deviations; over finite entries they are one number.
  Finiteness is carried along: the encoder's table is finite, a layer's combination (1 + e) * h + (sums of
  neighbour rows) of finite tables is finite, the perceptron keeps it finite, and so does the normalisation,
  because the variance is a real that is not negative and the constant added to it is positive. Hence the three
  layers agree one after the other, and the pooling and the head, being the same functions on both sides, agree.
-/
import proofs.«427472_j26645977105018_1_alg».proof.Proof.Stages
import proofs.«427472_j26645977105018_1_alg».proof.Proof.Arith
import proofs.«427472_j26645977105018_1_alg».proof.Proof.Layer
import proofs.«427472_j26645977105018_1_alg».proof.Proof.GatherFacts
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx Cert.KernelIdeal Cert.Spec Cert.Arith Cert.Layer Cert.Stages
open Cert.GatherFacts

variable [Cert.KernelIdeal.Facts]
open Cert.KernelIdeal.Facts₀ Cert.KernelIdeal.Facts

/-! ## The neighbour rows -/

/-- With every source id in range no row is replaced by the filler. -/
theorem take_eq (h : FVec Ideal S50000x64 .f32) (s : IVec S800000 32)
    (hs : ∀ e, IntOp.cmpi .sge (s e) 4294917296#32 = 1#1 ∧ IntOp.cmpi .slt (s e) 50000#32 = 1#1) :
    takeK h s = takeR h s := by
  unfold takeK wrapped
  exact take_mask_true s hs _ _

/-! ## Finiteness of the parts of a layer -/

/-- One plus a finite scalar, times a finite table, plus sums of finite rows, is finite. -/
theorem combine_isReal (e : FVec Ideal S_ .f32) (h : FVec Ideal S50000x64 .f32) (t : FVec Ideal S800000x64 .f32)
    (d : IVec S800000 32) (he : ∀ i, IsReal (e i)) (hh : ∀ i, IsReal (h i)) (ht : ∀ i, IsReal (t i)) :
    ∀ i, IsReal (combine e h t d i) := by
  intro i
  unfold combine
  rw [addf_apply, mulf_apply]
  refine isReal_add (isReal_mul ?_ (hh i)) ?_
  · refine broadcastInDim_isReal _ _ _ (fun j => ?_) i
    rw [addf_apply]
    refine isReal_add (constant_isReal _ _ _ ?_ j) (he j)
    rw [Ideal.ofBits_one_f32]
    exact isReal_one
  · refine scatterAdd_isReal _ _ _ _ (broadcastInDim_isReal _ _ _ (constant_isReal _ _ _ ?_)) ht i
    rw [Ideal.ofBits_zero_f32]
    exact isReal_zero

theorem scalarAt0_isReal (a : FVec Ideal S3 .f32) (h : ∀ i, IsReal (a i)) : ∀ i, IsReal (scalarAt0 a i) := by
  unfold scalarAt0
  exact shapeCast_isReal _ _ (extractStridedSlice_isReal _ _ _ h)
theorem matAt0_isReal (a : FVec Ideal S3x64x64 .f32) (h : ∀ i, IsReal (a i)) : ∀ i, IsReal (matAt0 a i) := by
  unfold matAt0
  exact shapeCast_isReal _ _ (extractStridedSlice_isReal _ _ _ h)
theorem vecAt0_isReal (a : FVec Ideal S3x64 .f32) (h : ∀ i, IsReal (a i)) : ∀ i, IsReal (vecAt0 a i) := by
  unfold vecAt0
  exact shapeCast_isReal _ _ (extractStridedSlice_isReal _ _ _ h)

theorem scalarAt1_isReal (a : FVec Ideal S3 .f32) (h : ∀ i, IsReal (a i)) : ∀ i, IsReal (scalarAt1 a i) := by
  unfold scalarAt1
  exact shapeCast_isReal _ _ (extractStridedSlice_isReal _ _ _ h)
theorem matAt1_isReal (a : FVec Ideal S3x64x64 .f32) (h : ∀ i, IsReal (a i)) : ∀ i, IsReal (matAt1 a i) := by
  unfold matAt1
  exact shapeCast_isReal _ _ (extractStridedSlice_isReal _ _ _ h)
theorem vecAt1_isReal (a : FVec Ideal S3x64 .f32) (h : ∀ i, IsReal (a i)) : ∀ i, IsReal (vecAt1 a i) := by
  unfold vecAt1
  exact shapeCast_isReal _ _ (extractStridedSlice_isReal _ _ _ h)

theorem scalarAt2_isReal (a : FVec Ideal S3 .f32) (h : ∀ i, IsReal (a i)) : ∀ i, IsReal (scalarAt2 a i) := by
  unfold scalarAt2
  exact shapeCast_isReal _ _ (extractStridedSlice_isReal _ _ _ h)
theorem matAt2_isReal (a : FVec Ideal S3x64x64 .f32) (h : ∀ i, IsReal (a i)) : ∀ i, IsReal (matAt2 a i) := by
  unfold matAt2
  exact shapeCast_isReal _ _ (extractStridedSlice_isReal _ _ _ h)
theorem vecAt2_isReal (a : FVec Ideal S3x64 .f32) (h : ∀ i, IsReal (a i)) : ∀ i, IsReal (vecAt2 a i) := by
  unfold vecAt2
  exact shapeCast_isReal _ _ (extractStridedSlice_isReal _ _ _ h)

/-! ## One layer -/

/-- On a finite table with finite parameters and source ids in range the two layers agree, and the result is finite. -/
theorem layer_step (h : FVec Ideal S50000x64 .f32) (s d : IVec S800000 32) (e : FVec Ideal S_ .f32)
    (w1 : FVec Ideal S64x64 .f32) (b1 : FVec Ideal S64 .f32) (w2 : FVec Ideal S64x64 .f32) (b2 : FVec Ideal S64 .f32)
    (g b : FVec Ideal S64 .f32)
    (hh : ∀ i, IsReal (h i)) (he : ∀ i, IsReal (e i)) (hw1 : ∀ i, IsReal (w1 i)) (hb1 : ∀ i, IsReal (b1 i))
    (hw2 : ∀ i, IsReal (w2 i)) (hb2 : ∀ i, IsReal (b2 i)) (hg : ∀ i, IsReal (g i)) (hb : ∀ i, IsReal (b i))
    (hs : ∀ e, IntOp.cmpi .sge (s e) 4294917296#32 = 1#1 ∧ IntOp.cmpi .slt (s e) 50000#32 = 1#1) :
    layerK h s d e w1 b1 w2 b2 g b = layerR h s d e w1 b1 w2 b2 g b
      ∧ ∀ i, IsReal (layerR h s d e w1 b1 w2 b2 g b i) := by
  have hz : ∀ i, IsReal (zWith takeR h s d e w1 b1 w2 b2 i) := by
    unfold zWith
    exact mlp_isReal _ _ _ _ _ (combine_isReal e h (takeR h s) d he hh (gather_isReal _ _ _ hh)) hw1 hb1 hw2 hb2
  have hzeq : zWith takeK h s d e w1 b1 w2 b2 = zWith takeR h s d e w1 b1 w2 b2 := by
    unfold zWith
    rw [take_eq h s hs]
  obtain ⟨ε, hε, hεeq⟩ := ofBits_eps_pos
  have hE : epsC = (ε : EReal) := hεeq
  have hN : rowsC = ((50000 : ℝ) : EReal) := ofBits_50000
  have hcast : (50000 : ℝ) = ((50000 : ℕ) : ℝ) := by norm_num
  constructor
  · show layerWith takeK varBySquares h s d e w1 b1 w2 b2 g b = layerWith takeR varByDeviation h s d e w1 b1 w2 b2 g b
    unfold layerWith
    rw [hzeq, hN]
    exact out_two_ways _ hz _ _ _ 50000 hcast (by norm_num)
  · show ∀ i, IsReal (layerWith takeR varByDeviation h s d e w1 b1 w2 b2 g b i)
    unfold layerWith
    rw [hN, hE]
    exact out_isReal _ hz _ _ hg hb ε hε 50000 hcast (by norm_num)

/-! ## The network -/

/-- The kernel's network and the reference's network agree on finite inputs whose source ids are in range. -/
theorem net_eq (a0 : FVec Ideal S50000x128 .f32) (a1 : IVec S2x800000 32) (a2 : IVec S50000 32) (a3 : FVec Ideal S128x64 .f32)
    (a4 : FVec Ideal S64 .f32) (a5 : FVec Ideal S3 .f32) (a6 : FVec Ideal S3x64x64 .f32) (a7 : FVec Ideal S3x64 .f32)
    (a8 : FVec Ideal S3x64x64 .f32) (a9 : FVec Ideal S3x64 .f32) (a10 : FVec Ideal S3x64 .f32) (a11 : FVec Ideal S3x64 .f32)
    (a12 : FVec Ideal S64x10 .f32) (a13 : FVec Ideal S10 .f32)
    (h0 : ∀ i, IsReal (a0 i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i))
    (hs : ∀ e, IntOp.cmpi .sge (srcOf a1 e) 4294917296#32 = 1#1 ∧ IntOp.cmpi .slt (srcOf a1 e) 50000#32 = 1#1) :
    netK a0 a1 a2 a3 a4 a5 a6 a7 a8 a9 a10 a11 a12 a13 = netR a0 a1 a2 a3 a4 a5 a6 a7 a8 a9 a10 a11 a12 a13 := by
  have f0 : ∀ i, IsReal (feat0 a0 a3 a4 i) := by
    unfold feat0
    exact affine_isReal _ _ _ h0 h3 h4
  have L1 := layer_step (feat0 a0 a3 a4) (srcOf a1) (dstOf a1) (scalarAt0 a5) (matAt0 a6) (vecAt0 a7) (matAt0 a8)
    (vecAt0 a9) (vecAt0 a10) (vecAt0 a11) f0 (scalarAt0_isReal a5 h5) (matAt0_isReal a6 h6) (vecAt0_isReal a7 h7)
    (matAt0_isReal a8 h8) (vecAt0_isReal a9 h9) (vecAt0_isReal a10 h10) (vecAt0_isReal a11 h11) hs
  have F1 : feat1 takeK varBySquares a0 a1 a2 a3 a4 a5 a6 a7 a8 a9 a10 a11 a12 a13 = feat1 takeR varByDeviation a0 a1 a2 a3 a4 a5 a6 a7 a8 a9 a10 a11 a12 a13 := by
    unfold feat1
    exact L1.1
  have R1 : ∀ i, IsReal (feat1 takeR varByDeviation a0 a1 a2 a3 a4 a5 a6 a7 a8 a9 a10 a11 a12 a13 i) := by
    unfold feat1
    exact L1.2
  have L2 := layer_step (feat1 takeR varByDeviation a0 a1 a2 a3 a4 a5 a6 a7 a8 a9 a10 a11 a12 a13) (srcOf a1) (dstOf a1) (scalarAt1 a5) (matAt1 a6)
    (vecAt1 a7) (matAt1 a8) (vecAt1 a9) (vecAt1 a10) (vecAt1 a11) R1 (scalarAt1_isReal a5 h5) (matAt1_isReal a6 h6)
    (vecAt1_isReal a7 h7) (matAt1_isReal a8 h8) (vecAt1_isReal a9 h9) (vecAt1_isReal a10 h10) (vecAt1_isReal a11 h11) hs
  have F2 : feat2 takeK varBySquares a0 a1 a2 a3 a4 a5 a6 a7 a8 a9 a10 a11 a12 a13 = feat2 takeR varByDeviation a0 a1 a2 a3 a4 a5 a6 a7 a8 a9 a10 a11 a12 a13 := by
    unfold feat2
    rw [F1]
    exact L2.1
  have R2 : ∀ i, IsReal (feat2 takeR varByDeviation a0 a1 a2 a3 a4 a5 a6 a7 a8 a9 a10 a11 a12 a13 i) := by
    unfold feat2
    exact L2.2
  have L3 := layer_step (feat2 takeR varByDeviation a0 a1 a2 a3 a4 a5 a6 a7 a8 a9 a10 a11 a12 a13) (srcOf a1) (dstOf a1) (scalarAt2 a5) (matAt2 a6)
    (vecAt2 a7) (matAt2 a8) (vecAt2 a9) (vecAt2 a10) (vecAt2 a11) R2 (scalarAt2_isReal a5 h5) (matAt2_isReal a6 h6)
    (vecAt2_isReal a7 h7) (matAt2_isReal a8 h8) (vecAt2_isReal a9 h9) (vecAt2_isReal a10 h10) (vecAt2_isReal a11 h11) hs
  have F3 : feat3 takeK varBySquares a0 a1 a2 a3 a4 a5 a6 a7 a8 a9 a10 a11 a12 a13 = feat3 takeR varByDeviation a0 a1 a2 a3 a4 a5 a6 a7 a8 a9 a10 a11 a12 a13 := by
    unfold feat3
    rw [F2]
    exact L3.1
  show netWith takeK varBySquares a0 a1 a2 a3 a4 a5 a6 a7 a8 a9 a10 a11 a12 a13 = netWith takeR varByDeviation a0 a1 a2 a3 a4 a5 a6 a7 a8 a9 a10 a11 a12 a13
  unfold netWith
  rw [F3]

end Cert.Bridge

end
-- ==== Proof.PreFacts.lean ====
/-
  The precondition of the certificate, read back.

  The precondition is the conjunction of thirteen tests, each a "for all entries" over one argument: twelve say
  |x| < +∞ at every entry of a float argument, and one says -50000 ≤ w < 50000 (signed) at every entry w of row 0 of
  the edge table. Assumed true, it gives: every entry of the twelve float arguments is (the image of) a real number,
  and every entry of row 0 of the edge table is, read signed, in [-50000, 50000).

  An extended real x with max x (-x) < +∞ is neither +∞ (then max x (-x) = +∞) nor -∞ (then -x = +∞), so it is a real.
-/
import proofs.«427472_j26645977105018_1_alg».proof.Pre_finite_inputs
import proofs.«427472_j26645977105018_1_alg».proof.Proof.Arith
import Idealize.ShloMosaic.PureOps.Ideal
import Idealize.ShloMosaic.Lib.ReduceAll
import Idealize.ShloMosaic.Lib.StableHlo.Predicate
import Idealize.ShloMosaic.Lib.ValueIdx
import Idealize.ShloMosaic.Lib.Affine

noncomputable section

namespace Cert.PreFacts

open Idealize.ShloMosaic Cert.Pre_finite_inputs Cert.Arith

/-- The scalar shape has one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real. -/
theorem isReal_of_abs_lt (x : EReal) (h : Ideal.cmp .olt (max x (-x)) (Ideal.ofBits .f32 0x7F800000#32) = 1#1) :
    IsReal x := by
  rw [ofBits_inf] at h
  have h' : max x (-x) < ⊤ := by
    simpa [Ideal.cmp, StableHlo.Predicate.ofBool_eq_one_iff] using h
  induction x using EReal.rec with
  | bot => exact absurd h' (by simp)
  | coe r => exact ⟨r, rfl⟩
  | top => exact absurd h' (by simp)

/-- The test "|x| < +∞ at every entry", as the precondition prints it for an argument of any shape: if it is true
    then every entry of the argument is a real. -/
theorem all_real {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
        (cmpf .olt (Host.absf x) (broadcastInDim s ![] hb (constant (F := Ideal) S_ .f32 0x7F800000#32)))
        (constantI S_ 1 1#1) hr h0 ValueIdx.ix0 = 1#1) :
    ∀ i, IsReal (x i) := by
  intro i
  have e := Host.reduce_andi_all _ _ hr h0 ValueIdx.ix0 h i
  exact isReal_of_abs_lt (x i) e

/-- A conjunction of two one-bit tests, read at one index. -/
theorem andi_apply {s : Shape} (x y : IVec s 1) (i : s.Idx) :
    andi x y i = 1#1 ↔ x i = 1#1 ∧ y i = 1#1 := IntOp.andi_eq_one

/-- The word 4294917296 reads -50000 signed. -/
theorem toInt_lo : (4294917296#32 : BitVec 32).toInt = -50000 := by decide
/-- The word 50000 reads 50000 signed. -/
theorem toInt_hi : (50000#32 : BitVec 32).toInt = 50000 := by decide

variable [Cert.Pre_finite_inputs.Facts]
open Cert.Pre_finite_inputs.Facts

variable (a0 : FVec Ideal S50000x128 .f32) (a1 : IVec S2x800000 32) (a2 : IVec S50000 32)
  (a3 : FVec Ideal S128x64 .f32) (a4 : FVec Ideal S64 .f32) (a5 : FVec Ideal S3 .f32)
  (a6 : FVec Ideal S3x64x64 .f32) (a7 : FVec Ideal S3x64 .f32) (a8 : FVec Ideal S3x64x64 .f32)
  (a9 : FVec Ideal S3x64 .f32) (a10 : FVec Ideal S3x64 .f32) (a11 : FVec Ideal S3x64 .f32)
  (a12 : FVec Ideal S64x10 .f32) (a13 : FVec Ideal S10 .f32)

/-- Under the precondition every entry of each of the twelve float arguments is a real. -/
theorem finite_of_pre
    (h : Cert.Pre_finite_inputs.fn (F := Ideal) a0 a1 a2 a3 a4 a5 a6 a7 a8 a9 a10 a11 a12 a13 = fun _ => 1#1) :
    (∀ i, IsReal (a0 i)) ∧ (∀ i, IsReal (a3 i)) ∧ (∀ i, IsReal (a4 i)) ∧ (∀ i, IsReal (a5 i)) ∧
    (∀ i, IsReal (a6 i)) ∧ (∀ i, IsReal (a7 i)) ∧ (∀ i, IsReal (a8 i)) ∧ (∀ i, IsReal (a9 i)) ∧
    (∀ i, IsReal (a10 i)) ∧ (∀ i, IsReal (a11 i)) ∧ (∀ i, IsReal (a12 i)) ∧ (∀ i, IsReal (a13 i)) := by
  have e := congrFun h ValueIdx.ix0
  dsimp only [Cert.Pre_finite_inputs.fn, fn_part1, fn_part2, fn_part3, fn_part4] at e
  simp only [andi_apply] at e
  obtain ⟨⟨⟨⟨⟨⟨⟨⟨⟨⟨⟨⟨h0, h3⟩, h4⟩, h5⟩, h6⟩, h7⟩, h8⟩, h9⟩, h10⟩, h11⟩, h12⟩, h13⟩, -⟩ := e
  exact ⟨all_real a0 _ _ _ h0, all_real a3 _ _ _ h3, all_real a4 _ _ _ h4, all_real a5 _ _ _ h5,
    all_real a6 _ _ _ h6, all_real a7 _ _ _ h7, all_real a8 _ _ _ h8, all_real a9 _ _ _ h9,
    all_real a10 _ _ _ h10, all_real a11 _ _ _ h11, all_real a12 _ _ _ h12, all_real a13 _ _ _ h13⟩

/-- Under the precondition every entry of row 0 of the edge table (the row laid out as a vector, as the precondition
    reads it) passes both signed tests against the words of -50000 and 50000, that is, read signed it lies in
    [-50000, 50000). -/
theorem src_range_of_pre
    (h : Cert.Pre_finite_inputs.fn (F := Ideal) a0 a1 a2 a3 a4 a5 a6 a7 a8 a9 a10 a11 a12 a13 = fun _ => 1#1)
    (e : S800000.Idx) :
    (IntOp.cmpi .sge
        (shapeCast S800000 (extractStridedSlice S1x800000 ![0, 0] a1 slices_S2x800000_S1x800000_0_0)
          shapeCasts_S1x800000_S800000 e) 4294917296#32 = 1#1 ∧
      IntOp.cmpi .slt
        (shapeCast S800000 (extractStridedSlice S1x800000 ![0, 0] a1 slices_S2x800000_S1x800000_0_0)
          shapeCasts_S1x800000_S800000 e) 50000#32 = 1#1) ∧
    ((-50000 : Int) ≤
        (shapeCast S800000 (extractStridedSlice S1x800000 ![0, 0] a1 slices_S2x800000_S1x800000_0_0)
          shapeCasts_S1x800000_S800000 e).toInt ∧
      (shapeCast S800000 (extractStridedSlice S1x800000 ![0, 0] a1 slices_S2x800000_S1x800000_0_0)
          shapeCasts_S1x800000_S800000 e).toInt < 50000) := by
  have e' := congrFun h ValueIdx.ix0
  dsimp only [Cert.Pre_finite_inputs.fn, fn_part1, fn_part2, fn_part3, fn_part4] at e'
  simp only [andi_apply] at e'
  obtain ⟨-, hI⟩ := e'
  have hI' := (andi_apply _ _ e).1 (Host.reduce_andi_all _ _ _ _ ValueIdx.ix0 hI e)
  -- a comparison of vectors at an index is the comparison of the entries; the broadcast of a constant reads the constant
  have hge : IntOp.cmpi .sge
      (shapeCast S800000 (extractStridedSlice S1x800000 ![0, 0] a1 slices_S2x800000_S1x800000_0_0)
        shapeCasts_S1x800000_S800000 e) 4294917296#32 = 1#1 := hI'.1
  have hlt : IntOp.cmpi .slt
      (shapeCast S800000 (extractStridedSlice S1x800000 ![0, 0] a1 slices_S2x800000_S1x800000_0_0)
        shapeCasts_S1x800000_S800000 e) 50000#32 = 1#1 := hI'.2
  refine ⟨⟨hge, hlt⟩, ?_, ?_⟩
  · have := IntOp.cmpi_sge.1 hge
    rwa [toInt_lo] at this
  · have := IntOp.cmpi_slt.1 hlt
    rwa [toInt_hi] at this

end Cert.PreFacts

end
-- ==== Proof.lean ====
/-
  The certificate's claim: the three programs run without fault and leave their arguments alone, the idealized
  kernel is the kernel's own text read over the extended reals (nothing was rewritten), and the idealized kernel and
  the idealized reference end with equal results.

  The network is a graph network of three message-passing layers between an encoder and a pooled linear head. Both
  programs compute, per layer, a node's features plus the sum of its in-neighbours' features, a two-layer
  perceptron of that, and a normalisation of every feature column by its mean and variance over all the nodes. They
  differ in two places. The kernel takes a neighbour's row with a guard that replaces a row whose source id is out
  of range by a fill word, where the reference reads the nearest row; under the precondition's range on the source
  ids the guard never binds. And the kernel computes a column's variance as the mean of the squares less the squared
  mean, from sums it accumulates block by block, where the reference computes the mean of the squared deviations;
  over finite entries these are one number, and every table stays finite from finite inputs, the variance being a
  real that is not negative and the constant added to it positive.

  The kernel's side: the run of its segments ends with the result buffer at the fold of the segments' effects; each
  region's output arrays are read off its pipeline's proof data as a function of its input arrays, each host
  stretch off its operations, and the arguments and the edge rows are unchanged wherever they are read; composed,
  the result is the kernel's network function of the launch arrays (KerNet). The reference's side: its run's
  composed term is the reference's network function (RefChain). The two network functions agree on inputs that
  satisfy the precondition (Bridge, from PreFacts' reading of the precondition).
-/
import proofs.«427472_j26645977105018_1_alg».proof.Defs
import proofs.«427472_j26645977105018_1_alg».proof.Proof.Gen.Kernel
import proofs.«427472_j26645977105018_1_alg».proof.Proof.Gen.Kernel.Frame
import proofs.«427472_j26645977105018_1_alg».proof.Proof.Gen.KernelIdeal
import proofs.«427472_j26645977105018_1_alg».proof.Proof.Gen.KernelIdeal.Frame
import proofs.«427472_j26645977105018_1_alg».proof.Proof.Gen.ReferenceIdeal
import proofs.«427472_j26645977105018_1_alg».proof.Proof.Gen.ReferenceIdeal.Run
import proofs.«427472_j26645977105018_1_alg».proof.Proof.Gen.Pre_finite_inputs
import proofs.«427472_j26645977105018_1_alg».proof.Proof.KerNet
import proofs.«427472_j26645977105018_1_alg».proof.Proof.RefChain
import proofs.«427472_j26645977105018_1_alg».proof.Proof.Bridge
import proofs.«427472_j26645977105018_1_alg».proof.Proof.PreFacts
import Idealize.ShloMosaic.Adequacy
import Idealize.ShloMosaic.Init

set_option maxRecDepth 65536

noncomputable section

namespace Cert.Proof

open Idealize.ShloMosaic Idealize.ShloMosaic.TcCoe Idealize.SL.Sem

/-- The kernel as printed runs, and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments the two idealized programs end with equal results: the kernel's
    network function of the arguments, which on inputs satisfying the precondition is the reference's. -/
theorem algebraic : Cert.algebraic_KernelIdeal_ReferenceIdeal := by
  intro m ρ m' ρ' hpre hagree
  refine ⟨_, Cert.KernelIdeal.KerNet.run_net m ρ, ?_⟩
  refine (θ_run Cert.ReferenceIdeal.defs _ _).mono (fun _ h c => ⟨(h c).1.trans ?_, (h c).2⟩)
    (Cert.RefChain.run_net m' ρ')
  obtain ⟨e0, e1, e2, e3, e4, e5, e6, e7, e8, e9, e10, e11, e12, e13⟩ := hagree c
  rw [e0, e1, e2, e3, e4, e5, e6, e7, e8, e9, e10, e11, e12, e13]
  obtain ⟨h0, h3, h4, h5, h6, h7, h8, h9, h10, h11, -, -⟩ :=
    Cert.PreFacts.finite_of_pre _ _ _ _ _ _ _ _ _ _ _ _ _ _ (hpre c)
  exact (Cert.Bridge.net_eq _ _ _ _ _ _ _ _ _ _ _ _ _ _ h0 h3 h4 h5 h6 h7 h8 h9 h10 h11
    (fun e => (Cert.PreFacts.src_range_of_pre _ _ _ _ _ _ _ _ _ _ _ _ _ _ (hpre c) e).1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
